-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x8x512 : Shape := ⟨4, ![8, 512, 8, 512]⟩
abbrev S8x512x512 : Shape := ⟨3, ![8, 512, 512]⟩
abbrev S512x512 : Shape := ⟨2, ![512, 512]⟩
abbrev S512 : Shape := ⟨1, ![512]⟩
abbrev S1536 : Shape := ⟨1, ![1536]⟩
abbrev S_ : Shape := ⟨0, ![]⟩

class Facts : Prop where
  bcast_S_S8x512x8x512 : S_.BroadcastsInDim S8x512x8x512 (![] : Fin 0 → Fin S8x512x8x512.rank)
  reducesTo_S8x512x8x512_S_d0_1_2_3 : S8x512x8x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1536 : S_.BroadcastsInDim S1536 (![] : Fin 0 → Fin S1536.rank)
  reducesTo_S1536_S_d0 : S1536.ReducesTo [0] S_

variable [Facts]

def fn_part2 {F : FTy → Type} [FloatOps F] (main_arg9 : FVec F S512 .f32) (main_arg10 : FVec F S1536 .f32) (main_arg11 : FVec F S1536 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1536 .f32 := Host.absf main_arg10
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S1536 .f32 := Host.absf main_arg11
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  main_v48

def fn_part1 {F : FTy → Type} [FloatOps F] (main_arg6 : FVec F S512x512 .f32) (main_arg7 : FVec F S512 .f32) (main_arg8 : FVec F S512x512 .f32) (main_arg9 : FVec F S512 .f32) (main_arg10 : FVec F S1536 .f32) (main_arg11 : FVec F S1536 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg8
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg9 main_arg10 main_arg11 main_v33

def fn {F : FTy → Type} [FloatOps F] (main_arg0 : FVec F S8x512x8x512 .f32) (main_arg1 : FVec F S8x512x8x512 .f32) (main_arg2 : IVec S8x512x512 32) (main_arg3 : IVec S8x512x512 32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S1536 .f32) (main_arg11 : FVec F S1536 .f32) : IVec S_ 1 :=
  let main_v0 : FVec F S8x512x8x512 .f32 := Host.absf main_arg0
  let main_cst : FVec F S_ .f32 := constant S_ .f32 0x7F800000#32
  let main_v1 : FVec F S8x512x8x512 .f32 := broadcastInDim S8x512x8x512 ![] bcast_S_S8x512x8x512 main_cst
  let main_v2 : IVec S8x512x8x512 1 := cmpf .olt main_v0 main_v1
  let main_c : IVec S_ 1 := constantI S_ 1 1#1
  let main_v3 : IVec S_ 1 := (fun x v => Host.reduce IntOp.andi x v reducesTo_S8x512x8x512_S_d0_1_2_3 h_S_) main_v2 main_c
  let main_v4 : FVec F S8x512x8x512 .f32 := Host.absf main_arg1
  let main_cst_0 : FVec F S_ .f32 := constant S_ .f32 0x7F800000#32
  let main_v5 : FVec F S8x512x8x512 .f32 := broadcastInDim S8x512x8x512 ![] bcast_S_S8x512x8x512 main_cst_0
  let main_v6 : IVec S8x512x8x512 1 := cmpf .olt main_v4 main_v5
  let main_c_1 : IVec S_ 1 := constantI S_ 1 1#1
  let main_v7 : IVec S_ 1 := (fun x v => Host.reduce IntOp.andi x v reducesTo_S8x512x8x512_S_d0_1_2_3 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_v13 main_v16
-- ==== Kernel.lean ====
abbrev S8x512x8x512 : Shape := ⟨4, ![8, 512, 8, 512]⟩
abbrev S8x512x512 : Shape := ⟨3, ![8, 512, 512]⟩
abbrev S512x512 : Shape := ⟨2, ![512, 512]⟩
abbrev S512 : Shape := ⟨1, ![512]⟩
abbrev S1536 : Shape := ⟨1, ![1536]⟩
abbrev S8x512x4096 : Shape := ⟨3, ![8, 512, 4096]⟩
abbrev S1x512x4096 : Shape := ⟨3, ![1, 512, 4096]⟩
abbrev S1x128x512 : Shape := ⟨3, ![1, 128, 512]⟩
abbrev S1x128x4096 : Shape := ⟨3, ![1, 128, 4096]⟩
abbrev S128x512 : Shape := ⟨2, ![128, 512]⟩
abbrev S128 : Shape := ⟨1, ![128]⟩
abbrev S128x1 : Shape := ⟨2, ![128, 1]⟩
abbrev S512x4096 : Shape := ⟨2, ![512, 4096]⟩
abbrev S128x4096 : Shape := ⟨2, ![128, 4096]⟩
abbrev S512x1 : Shape := ⟨2, ![512, 1]⟩
abbrev S1x512x512 : Shape := ⟨3, ![1, 512, 512]⟩
abbrev S1x512 : Shape := ⟨2, ![1, 512]⟩
abbrev S32768x512 : Shape := ⟨2, ![32768, 512]⟩
abbrev S32768x1536 : Shape := ⟨2, ![32768, 1536]⟩
abbrev S512x1536 : Shape := ⟨2, ![512, 1536]⟩
abbrev S8x1536 : Shape := ⟨2, ![8, 1536]⟩
abbrev S1x1536 : Shape := ⟨2, ![1, 1536]⟩
abbrev S7x1536 : Shape := ⟨2, ![7, 1536]⟩
abbrev S64x8x1536 : Shape := ⟨3, ![64, 8, 1536]⟩
abbrev S64x1x1536 : Shape := ⟨3, ![64, 1, 1536]⟩
abbrev S64x1536 : Shape := ⟨2, ![64, 1536]⟩
abbrev S_ : Shape := ⟨0, ![]⟩
abbrev S8x512x8x1536 : Shape := ⟨4, ![8, 512, 8, 1536]⟩

abbrev nBuf : Space → Nat
  | .hbm => 86
  | .vmem => 62
  | .smem => 0
  | _ => 0

abbrev bufTy : (tb : Table) → Fin (tcTables nBuf tb) → BufTy
  | .hbm, ⟨0, _⟩ => ⟨S8x512x8x512, .f32⟩
  | .hbm, ⟨1, _⟩ => ⟨S8x512x8x512, .f32⟩
  | .hbm, ⟨2, _⟩ => ⟨S8x512x512, .i32⟩
  | .hbm, ⟨3, _⟩ => ⟨S8x512x512, .i32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S1536, .f32⟩
  | .hbm, ⟨11, _⟩ => ⟨S1536, .f32⟩
  | .hbm, ⟨12, _⟩ => ⟨S8x512x8x512, .bf16⟩
  | .hbm, ⟨13, _⟩ => ⟨S8x512x8x512, .bf16⟩
  | .hbm, ⟨14, _⟩ => ⟨S8x512x4096, .bf16⟩
  | .hbm, ⟨15, _⟩ => ⟨S8x512x4096, .bf16⟩
  | .hbm, ⟨16, _⟩ => ⟨S8x512x4096, .bf16⟩
  | .hbm, ⟨17, _⟩ => ⟨S8x512x4096, .bf16⟩
  | .hbm, ⟨18, _⟩ => ⟨S8x512x4096, .f32⟩
  | .hbm, ⟨19, _⟩ => ⟨S8x512x4096, .f32⟩
  | .hbm, ⟨20, _⟩ => ⟨S8x512x4096, .bf16⟩
  | .hbm, ⟨21, _⟩ => ⟨S8x512x4096, .bf16⟩
  | .hbm, ⟨22, _⟩ => ⟨S32768x512, .bf16⟩
  | .hbm, ⟨23, _⟩ => ⟨S32768x512, .bf16⟩
  | .hbm, ⟨24, _⟩ => ⟨S32768x512, .bf16⟩
  | .hbm, ⟨25, _⟩ => ⟨S32768x512, .bf16⟩
  | .hbm, ⟨26, _⟩ => ⟨S32768x512, .bf16⟩
  | .hbm, ⟨27, _⟩ => ⟨S32768x512, .bf16⟩
  | .hbm, ⟨28, _⟩ => ⟨S512x512, .f32⟩
  | .hbm, ⟨29, _⟩ => ⟨S512x512, .bf16⟩
  | .hbm, ⟨30, _⟩ => ⟨S512x512, .f32⟩
  | .hbm, ⟨31, _⟩ => ⟨S512x512, .bf16⟩
  | .hbm, ⟨32, _⟩ => ⟨S512x512, .f32⟩
  | .hbm, ⟨33, _⟩ => ⟨S512x512, .bf16⟩
  | .hbm, ⟨34, _⟩ => ⟨S32768x1536, .f32⟩
  | .hbm, ⟨35, _⟩ => ⟨S32768x1536, .f32⟩
  | .hbm, ⟨36, _⟩ => ⟨S512x1536, .f32⟩
  | .hbm, ⟨37, _⟩ => ⟨S512x1536, .f32⟩
  | .hbm, ⟨38, _⟩ => ⟨S512x1536, .f32⟩
  | .hbm, ⟨39, _⟩ => ⟨S512x1536, .f32⟩
  | .hbm, ⟨40, _⟩ => ⟨S64x8x1536, .f32⟩
  | .hbm, ⟨41, _⟩ => ⟨S64x1x1536, .f32⟩
  | .hbm, ⟨42, _⟩ => ⟨S64x1536, .f32⟩
  | .hbm, ⟨43, _⟩ => ⟨S_, .f32⟩
  | .hbm, ⟨44, _⟩ => ⟨S1536, .f32⟩
  | .hbm, ⟨45, _⟩ => ⟨S64x8x1536, .f32⟩
  | .hbm, ⟨46, _⟩ => ⟨S64x1x1536, .f32⟩
  | .hbm, ⟨47, _⟩ => ⟨S64x1536, .f32⟩
  | .hbm, ⟨48, _⟩ => ⟨S_, .f32⟩
  | .hbm, ⟨49, _⟩ => ⟨S1536, .f32⟩
  | .hbm, ⟨50, _⟩ => ⟨S_, .f32⟩
  | .hbm, ⟨51, _⟩ => ⟨S1536, .f32⟩
  | .hbm, ⟨52, _⟩ => ⟨S1536, .f32⟩
  | .hbm, ⟨53, _⟩ => ⟨S_, .f32⟩
  | .hbm, ⟨54, _⟩ => ⟨S1536, .f32⟩
  | .hbm, ⟨55, _⟩ => ⟨S1536, .f32⟩
  | .hbm, ⟨56, _⟩ => ⟨S1536, .f32⟩
  | .hbm, ⟨57, _⟩ => ⟨S1536, .f32⟩
  | .hbm, ⟨58, _⟩ => ⟨S_, .f32⟩
  | .hbm, ⟨59, _⟩ => ⟨S1536, .f32⟩
  | .hbm, ⟨60, _⟩ => ⟨S1536, .f32⟩
  | .hbm, ⟨61, _⟩ => ⟨S64x8x1536, .f32⟩
  | .hbm, ⟨62, _⟩ => ⟨S64x1x1536, .f32⟩
  | .hbm, ⟨63, _⟩ => ⟨S64x1536, .f32⟩
  | .hbm, ⟨64, _⟩ => ⟨S_, .f32⟩
  | .hbm, ⟨65, _⟩ => ⟨S1536, .f32⟩
  | .hbm, ⟨66, _⟩ => ⟨S64x8x1536, .f32⟩
  | .hbm, ⟨67, _⟩ => ⟨S64x1x1536, .f32⟩
  | .hbm, ⟨68, _⟩ => ⟨S64x1536, .f32⟩
  | .hbm, ⟨69, _⟩ => ⟨S_, .f32⟩
  | .hbm, ⟨70, _⟩ => ⟨S1536, .f32⟩
  | .hbm, ⟨71, _⟩ => ⟨S_, .f32⟩
  | .hbm, ⟨72, _⟩ => ⟨S1536, .f32⟩
  | .hbm, ⟨73, _⟩ => ⟨S1536, .f32⟩
  | .hbm, ⟨74, _⟩ => ⟨S_, .f32⟩
  | .hbm, ⟨75, _⟩ => ⟨S1536, .f32⟩
  | .hbm, ⟨76, _⟩ => ⟨S1536, .f32⟩
  | .hbm, ⟨77, _⟩ => ⟨S1536, .f32⟩
  | .hbm, ⟨78, _⟩ => ⟨S1536, .f32⟩
  | .hbm, ⟨79, _⟩ => ⟨S_, .f32⟩
  | .hbm, ⟨80, _⟩ => ⟨S1536, .f32⟩
  | .hbm, ⟨81, _⟩ => ⟨S1536, .f32⟩
  | .hbm, ⟨82, _⟩ => ⟨S32768x1536, .f32⟩
  | .hbm, ⟨83, _⟩ => ⟨S32768x1536, .f32⟩
  | .hbm, ⟨84, _⟩ => ⟨S8x512x8x1536, .f32⟩
  | .hbm, ⟨85, _⟩ => ⟨S8x512x8x1536, .f32⟩
  | .local _ .vmem, ⟨0, _⟩ => ⟨S1x512x4096, .bf16⟩
  | .local _ .vmem, ⟨1, _⟩ => ⟨S1x512x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x128x512, .i32⟩
  | .local _ .vmem, ⟨5, _⟩ => ⟨S1x128x512, .i32⟩
  | .local _ .vmem, ⟨6, _⟩ => ⟨S1x128x512, .i32⟩
  | .local _ .vmem, ⟨7, _⟩ => ⟨S1x128x512, .i32⟩
  | .local _ .vmem, ⟨8, _⟩ => ⟨S1x128x4096, .bf16⟩
  | .local _ .vmem, ⟨9, _⟩ => ⟨S1x128x4096, .bf16⟩
  | .local _ .vmem, ⟨10, _⟩ => ⟨S1x128x4096, .bf16⟩
  | .local _ .vmem, ⟨11, _⟩ => ⟨S1x128x4096, .bf16⟩
  | .local _ .vmem, ⟨12, _⟩ => ⟨S1x512x4096, .f32⟩
  | .local _ .vmem, ⟨13, _⟩ => ⟨S1x512x4096, .f32⟩
  | .local _ .vmem, ⟨14, _⟩ => ⟨S1x512x4096, .bf16⟩
  | .local _ .vmem, ⟨15, _⟩ => ⟨S1x512x4096, .bf16⟩
  | .local _ .vmem, ⟨16, _⟩ => ⟨S1x512x4096, .bf16⟩
  | .local _ .vmem, ⟨17, _⟩ => ⟨S1x512x4096, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512, .f32⟩
  | .local _ .vmem, ⟨34, _⟩ => ⟨S512, .f32⟩
  | .local _ .vmem, ⟨35, _⟩ => ⟨S512, .f32⟩
  | .local _ .vmem, ⟨36, _⟩ => ⟨S512x1536, .f32⟩
  | .local _ .vmem, ⟨37, _⟩ => ⟨S512x1536, .f32⟩
  | .local _ .vmem, ⟨38, _⟩ => ⟨S512x1536, .f32⟩
  | .local _ .vmem, ⟨39, _⟩ => ⟨S512x1536, .f32⟩
  | .local _ .vmem, ⟨40, _⟩ => ⟨S8x1536, .f32⟩
  | .local _ .vmem, ⟨41, _⟩ => ⟨S8x1536, .f32⟩
  | .local _ .vmem, ⟨42, _⟩ => ⟨S8x1536, .f32⟩
  | .local _ .vmem, ⟨43, _⟩ => ⟨S8x1536, .f32⟩
  | .local _ .vmem, ⟨44, _⟩ => ⟨S8x1536, .f32⟩
  | .local _ .vmem, ⟨45, _⟩ => ⟨S8x1536, .f32⟩
  | .local _ .vmem, ⟨46, _⟩ => ⟨S8x1536, .f32⟩
  | .local _ .vmem, ⟨47, _⟩ => ⟨S8x1536, .f32⟩
  | .local _ .vmem, ⟨48, _⟩ => ⟨S512x1536, .f32⟩
  | .local _ .vmem, ⟨49, _⟩ => ⟨S512x1536, .f32⟩
  | .local _ .vmem, ⟨50, _⟩ => ⟨S512x1536, .f32⟩
  | .local _ .vmem, ⟨51, _⟩ => ⟨S512x1536, .f32⟩
  | .local _ .vmem, ⟨52, _⟩ => ⟨S1536, .f32⟩
  | .local _ .vmem, ⟨53, _⟩ => ⟨S1536, .f32⟩
  | .local _ .vmem, ⟨54, _⟩ => ⟨S1536, .f32⟩
  | .local _ .vmem, ⟨55, _⟩ => ⟨S1536, .f32⟩
  | .local _ .vmem, ⟨56, _⟩ => ⟨S1536, .f32⟩
  | .local _ .vmem, ⟨57, _⟩ => ⟨S1536, .f32⟩
  | .local _ .vmem, ⟨58, _⟩ => ⟨S512x1536, .f32⟩
  | .local _ .vmem, ⟨59, _⟩ => ⟨S512x1536, .f32⟩
  | .local _ .vmem, ⟨60, _⟩ => ⟨S512x1536, .f32⟩
  | .local _ .vmem, ⟨61, _⟩ => ⟨S512x1536, .f32⟩
  | _, _ => ⟨S8x512x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev main_v20_4 : Ref sig .tc := ⟨.hbm, 38, rfl⟩
abbrev main_v20_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg12_1 : Ref sig .tc := ⟨.vmem, 37, rfl⟩
abbrev cc2_stg13_0 : Ref sig .tc := ⟨.vmem, 38, rfl⟩
abbrev cc2_stg13_1 : Ref sig .tc := ⟨.vmem, 39, rfl⟩
abbrev cc2_stg14_0 : Ref sig .tc := ⟨.vmem, 40, rfl⟩
abbrev cc2_stg14_1 : Ref sig .tc := ⟨.vmem, 41, rfl⟩
abbrev cc2_stg15_0 : Ref sig .tc := ⟨.vmem, 42, rfl⟩
abbrev cc2_stg15_1 : Ref sig .tc := ⟨.vmem, 43, rfl⟩
abbrev cc2_stg16_0 : Ref sig .tc := ⟨.vmem, 44, rfl⟩
abbrev cc2_stg16_1 : Ref sig .tc := ⟨.vmem, 45, rfl⟩
abbrev cc2_stg17_0 : Ref sig .tc := ⟨.vmem, 46, rfl⟩
abbrev cc2_stg17_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg3_0 : Ref sig .tc := ⟨.vmem, 53, rfl⟩
abbrev cc3_stg4_0 : Ref sig .tc := ⟨.vmem, 54, rfl⟩
abbrev cc3_stg5_0 : Ref sig .tc := ⟨.vmem, 55, rfl⟩
abbrev cc3_stg6_0 : Ref sig .tc := ⟨.vmem, 56, rfl⟩
abbrev cc3_stg7_0 : Ref sig .tc := ⟨.vmem, 57, rfl⟩
abbrev cc3_stg8_0 : Ref sig .tc := ⟨.vmem, 58, rfl⟩
abbrev cc3_stg8_1 : Ref sig .tc := ⟨.vmem, 59, rfl⟩
abbrev cc3_stg9_0 : Ref sig .tc := ⟨.vmem, 60, rfl⟩
abbrev cc3_stg9_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem12_1 : DmaSem sig := 37
abbrev cc2_sem13_0 : DmaSem sig := 38
abbrev cc2_sem13_1 : DmaSem sig := 39
abbrev cc2_sem14_0 : DmaSem sig := 40
abbrev cc2_sem14_1 : DmaSem sig := 41
abbrev cc2_sem15_0 : DmaSem sig := 42
abbrev cc2_sem15_1 : DmaSem sig := 43
abbrev cc2_sem16_0 : DmaSem sig := 44
abbrev cc2_sem16_1 : DmaSem sig := 45
abbrev cc2_sem17_0 : DmaSem sig := 46
abbrev cc2_sem17_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem3_0 : DmaSem sig := 53
abbrev cc3_sem4_0 : DmaSem sig := 54
abbrev cc3_sem5_0 : DmaSem sig := 55
abbrev cc3_sem6_0 : DmaSem sig := 56
abbrev cc3_sem7_0 : DmaSem sig := 57
abbrev cc3_sem8_0 : DmaSem sig := 58
abbrev cc3_sem8_1 : DmaSem sig := 59
abbrev cc3_sem9_0 : DmaSem sig := 60
abbrev cc3_sem9_1 : DmaSem sig := 61

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![8], ![false]⟩

@[reducible] def k1_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v40 : BitVec 32 := Scalar.muli arg5 c512_i32
  v40
def k1_off1 (k1_t1 : Fin k1_t1_loop.trips) : Fin 3 → Nat :=
  let c0 : Index := 0#32
  let c0_14 : Index := 0#32
  let c0_i32 : BitVec 32 := 0#32
  let c1_i32 : BitVec 32 := 1#32
  let arg5 : BitVec 32 := Scf.iv c0_i32 c1_i32 k1_t1
  let c512_i32 : BitVec 32 := 512#32
  let v40 : BitVec 32 := Scalar.muli arg5 c512_i32
  let v41 : BitVec 32 := v40
  let v42 : Index := Scalar.indexCast v41
  ![0, 0, v42.toNat]
@[reducible] def k1_t2_loop : Scf.Loop 32 :=
  let c0_i32_10 : BitVec 32 := 0#32
  let c8_i32_11 : BitVec 32 := 8#32
  let v39 : BitVec 32 := Scalar.addi c0_i32_10 c8_i32_11
  let c1_i32_12 : BitVec 32 := 1#32
  ⟨c0_i32_10, v39, c1_i32_12⟩
def k1_mult2 (k1_t2 : Fin k1_t2_loop.trips) : BitVec 32 :=
  let c0_i32_10 : BitVec 32 := 0#32
  let c1_i32_12 : BitVec 32 := 1#32
  let arg5 : BitVec 32 := Scf.iv c0_i32_10 c1_i32_12 k1_t2
  let c512_i32 : BitVec 32 := 512#32
  let v40 : BitVec 32 := Scalar.muli arg5 c512_i32
  v40
def k1_off2 (k1_t2 : Fin k1_t2_loop.trips) : Fin 3 → Nat :=
  let c0 : Index := 0#32
  let c0_14 : Index := 0#32
  let c0_i32_10 : BitVec 32 := 0#32
  let c1_i32_12 : BitVec 32 := 1#32
  let arg5 : BitVec 32 := Scf.iv c0_i32_10 c1_i32_12 k1_t2
  let c512_i32 : BitVec 32 := 512#32
  let v40 : BitVec 32 := Scalar.muli arg5 c512_i32
  let v41 : BitVec 32 := v40
  let v42 : Index := Scalar.indexCast v41
  ![0, 0, v42.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x512x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x512x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 2 → Memref sig .tc .vmem S1x512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S512x512 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x512 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S512x1536 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S512x1536 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S8x1536 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S8x1536 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S8x1536 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S8x1536 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1536 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1536 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1536 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1536 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1536 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1536 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1536 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1536 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1536 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x1536 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bitsLt_bf16_f32 : FTy.bits .bf16 < FTy.bits .f32
  shapeCasts_S8x512x8x512_S8x512x4096 : S8x512x8x512.ShapeCasts S8x512x4096
  iota_S128x512_d0_w32 : S128x512.Iotas .tc 32 [0]
  iota_S128x512_d1_w32 : S128x512.Iotas .tc 32 [1]
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  natLt_1_32 : 1 < 32
  reduces_S128x512_S128 : S128x512.Reduces [1] S128
  shapeCasts_S128_S128x1 : S128.ShapeCasts S128x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  broadcasts_S128x1_S128x4096 : S128x1.Broadcasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  packedbf16_S1x128x4096_S1x128x4096_0_0_0 : (Rect.unit (s := S1x128x4096) ![0, 0, 0] S1x128x4096.size inb_S1x128x4096_S1x128x4096_0_0_0).PackedRows (EltTy.packing .bf16)
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  transposes_S512x512_p1_0_S512x512 : S512x512.Transposes [1, 0] S512x512
  shapeCasts_S512x1_S1x512 : S512x1.ShapeCasts S1x512
  broadcasts_S512x1_S512x512 : S512x1.Broadcasts S512x512
  broadcasts_S1x512_S512x512 : S1x512.Broadcasts S512x512
  reduces_S512x512_S512_2 : S512x512.Reduces [0] S512
  shapeCasts_S512_S1x512 : S512.ShapeCasts S1x512
  shapeCasts_S512x512_S1x512x512 : S512x512.ShapeCasts S1x512x512
  shapeCasts_S8x512x8x512_S32768x512 : S8x512x8x512.ShapeCasts S32768x512
  shapeCasts_S8x512x4096_S32768x512 : S8x512x4096.ShapeCasts S32768x512
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  concatenates_S512x512_S512x512_S512x512_S512x1536_d1 : Shape.Concatenates [S512x512, S512x512, S512x512] S512x1536 1
  reduces_S512x1536_S512 : S512x1536.Reduces [1] S512
  broadcasts_S512x1_S512x1536 : S512x1.Broadcasts S512x1536
  inb_S512x1536_S512x1536_0_0 : ∀ a, (![0, 0] : Fin 2 → Nat) a + S512x1536.size a ≤ S512x1536.size a
  h_S512x1536 : 0 < S512x1536.numel
  reduces_S512x1536_S1536 : S512x1536.Reduces [0] S1536
  shapeCasts_S1536_S1x1536 : S1536.ShapeCasts S1x1536
  concatenates_S1x1536_S7x1536_S8x1536_d0 : Shape.Concatenates [S1x1536, S7x1536] S8x1536 0
  inb_S8x1536_S8x1536_0_0 : ∀ a, (![0, 0] : Fin 2 → Nat) a + S8x1536.size a ≤ S8x1536.size a
  h_S8x1536 : 0 < S8x1536.numel
  shapeCasts_S512x1536_S64x8x1536 : S512x1536.ShapeCasts S64x8x1536
  slices_S64x8x1536_S64x1x1536_0_0_0 : S64x8x1536.Slices ![0, 0, 0] S64x1x1536
  shapeCasts_S64x1x1536_S64x1536 : S64x1x1536.ShapeCasts S64x1536
  reducesTo_S64x1536_S1536_d0 : S64x1536.ReducesTo [0] S1536
  h_S_ : 0 < S_.numel
  bcast_S_S1536 : S_.BroadcastsInDim S1536 (![] : Fin 0 → Fin S1536.rank)
  inb_S1536_S1536_0 : ∀ a, (![0] : Fin 1 → Nat) a + S1536.size a ≤ S1536.size a
  h_S1536 : 0 < S1536.numel
  shapeCasts_S1536_S1536 : S1536.ShapeCasts S1536
  shapeCasts_S512x1536_S512x1536 : S512x1536.ShapeCasts S512x1536
  broadcasts_S1x1536_S512x1536 : S1x1536.Broadcasts S512x1536
  shapeCasts_S32768x1536_S8x512x8x1536 : S32768x1536.ShapeCasts S8x512x8x1536
  dot_S128x512_S512x4096_S128x4096_1_0_0_1_n_n_wf : DotDims.WF S128x512 S512x4096 S128x4096 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x4096.size a
  hwx0_0 : ∀ i : grid0.Coords, EltTy.bits .bf16 = 32 ∨ (Rect.block (s := S8x512x4096) S1x512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x512x4096.size a
  hwx0_1 : ∀ i : grid0.Coords, EltTy.bits .bf16 = 32 ∨ (Rect.block (s := S8x512x4096) S1x512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x512x512.size a
  hwx0_2 : ∀ i : grid0.Coords, EltTy.bits .i32 = 32 ∨ (Rect.block (s := S8x512x512) S1x128x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S8x512x512.size a
  hwx0_3 : ∀ i : grid0.Coords, EltTy.bits .i32 = 32 ∨ (Rect.block (s := S8x512x512) S1x128x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S8x512x4096.size a
  hwx0_4 : ∀ i : grid0.Coords, EltTy.bits .bf16 = 32 ∨ (Rect.block (s := S8x512x4096) S1x128x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x4096.size a ≤ S8x512x4096.size a
  hwx0_5 : ∀ i : grid0.Coords, EltTy.bits .bf16 = 32 ∨ (Rect.block (s := S8x512x4096) S1x128x4096.size (cc0_transform_5 i) (hinb0_5 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S1x512x512.size a ≤ S1x512x4096.size a
  k1_t2_ok : k1_t2_loop.OK
  k1_mult2_dvd : ∀ k1_t2 : Fin k1_t2_loop.trips, 512 ∣ (k1_mult2 k1_t2).toNat
  k1_off2_inb : ∀ k1_t2 : Fin k1_t2_loop.trips, ∀ a, (k1_off2 k1_t2) a + S1x512x512.size a ≤ S1x512x4096.size a
  k1_off2_packedbf16 : ∀ k1_t2 : Fin k1_t2_loop.trips, (Rect.unit (s := S1x512x4096) (k1_off2 k1_t2) S1x512x512.size (k1_off2_inb k1_t2)).PackedRows (EltTy.packing .bf16)
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x512x4096.size a
  hwx1_0 : ∀ i : grid1.Coords, EltTy.bits .f32 = 32 ∨ (Rect.block (s := S8x512x4096) S1x512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512x4096.size a ≤ S8x512x4096.size a
  hwx1_1 : ∀ i : grid1.Coords, EltTy.bits .f32 = 32 ∨ (Rect.block (s := S8x512x4096) S1x512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x4096.size a ≤ S8x512x4096.size a
  hwx1_2 : ∀ i : grid1.Coords, EltTy.bits .bf16 = 32 ∨ (Rect.block (s := S8x512x4096) S1x512x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x4096.size a ≤ S8x512x4096.size a
  hwx1_3 : ∀ i : grid1.Coords, EltTy.bits .bf16 = 32 ∨ (Rect.block (s := S8x512x4096) S1x512x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S32768x512.size a
  hwx2_0 : ∀ i : grid2.Coords, EltTy.bits .bf16 = 32 ∨ (Rect.block (s := S32768x512) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S32768x512.size a
  hwx2_1 : ∀ i : grid2.Coords, EltTy.bits .bf16 = 32 ∨ (Rect.block (s := S32768x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S32768x512.size a
  hwx2_2 : ∀ i : grid2.Coords, EltTy.bits .bf16 = 32 ∨ (Rect.block (s := S32768x512) S512x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S32768x512.size a
  hwx2_3 : ∀ i : grid2.Coords, EltTy.bits .bf16 = 32 ∨ (Rect.block (s := S32768x512) S512x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S32768x512.size a
  hwx2_4 : ∀ i : grid2.Coords, EltTy.bits .bf16 = 32 ∨ (Rect.block (s := S32768x512) S512x512.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S32768x512.size a
  hwx2_5 : ∀ i : grid2.Coords, EltTy.bits .bf16 = 32 ∨ (Rect.block (s := S32768x512) S512x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S512x512.size a
  hwx2_6 : ∀ i : grid2.Coords, EltTy.bits .bf16 = 32 ∨ (Rect.block (s := S512x512) S512x512.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S512x512.size a
  hwx2_7 : ∀ i : grid2.Coords, EltTy.bits .bf16 = 32 ∨ (Rect.block (s := S512x512) S512x512.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512x512.size a ≤ S512x512.size a
  hwx2_8 : ∀ i : grid2.Coords, EltTy.bits .bf16 = 32 ∨ (Rect.block (s := S512x512) S512x512.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512.size a ≤ S512.size a
  hwx2_9 : ∀ i : grid2.Coords, EltTy.bits .f32 = 32 ∨ (Rect.block (s := S512) S512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512.size a ≤ S512.size a
  hwx2_10 : ∀ i : grid2.Coords, EltTy.bits .f32 = 32 ∨ (Rect.block (s := S512) S512.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S512.size a ≤ S512.size a
  hwx2_11 : ∀ i : grid2.Coords, EltTy.bits .f32 = 32 ∨ (Rect.block (s := S512) S512.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S512x1536.size a ≤ S32768x1536.size a
  hwx2_12 : ∀ i : grid2.Coords, EltTy.bits .f32 = 32 ∨ (Rect.block (s := S32768x1536) S512x1536.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S512x1536.size a ≤ S32768x1536.size a
  hwx2_13 : ∀ i : grid2.Coords, EltTy.bits .f32 = 32 ∨ (Rect.block (s := S32768x1536) S512x1536.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S8x1536.size a ≤ S512x1536.size a
  hwx2_14 : ∀ i : grid2.Coords, EltTy.bits .f32 = 32 ∨ (Rect.block (s := S512x1536) S8x1536.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S8x1536.size a ≤ S512x1536.size a
  hwx2_15 : ∀ i : grid2.Coords, EltTy.bits .f32 = 32 ∨ (Rect.block (s := S512x1536) S8x1536.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S8x1536.size a ≤ S512x1536.size a
  hwx2_16 : ∀ i : grid2.Coords, EltTy.bits .f32 = 32 ∨ (Rect.block (s := S512x1536) S8x1536.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S8x1536.size a ≤ S512x1536.size a
  hwx2_17 : ∀ i : grid2.Coords, EltTy.bits .f32 = 32 ∨ (Rect.block (s := S512x1536) S8x1536.size (cc2_transform_17 i) (hinb2_17 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1536.size a ≤ S32768x1536.size a
  hwx3_0 : ∀ i : grid3.Coords, EltTy.bits .f32 = 32 ∨ (Rect.block (s := S32768x1536) S512x1536.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1536.size a ≤ S32768x1536.size a
  hwx3_1 : ∀ i : grid3.Coords, EltTy.bits .f32 = 32 ∨ (Rect.block (s := S32768x1536) S512x1536.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1536.size a ≤ S1536.size a
  hwx3_2 : ∀ i : grid3.Coords, EltTy.bits .f32 = 32 ∨ (Rect.block (s := S1536) S1536.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1536.size a ≤ S1536.size a
  hwx3_3 : ∀ i : grid3.Coords, EltTy.bits .f32 = 32 ∨ (Rect.block (s := S1536) S1536.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1536.size a ≤ S1536.size a
  hwx3_4 : ∀ i : grid3.Coords, EltTy.bits .f32 = 32 ∨ (Rect.block (s := S1536) S1536.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1536.size a ≤ S1536.size a
  hwx3_5 : ∀ i : grid3.Coords, EltTy.bits .f32 = 32 ∨ (Rect.block (s := S1536) S1536.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1536.size a ≤ S1536.size a
  hwx3_6 : ∀ i : grid3.Coords, EltTy.bits .f32 = 32 ∨ (Rect.block (s := S1536) S1536.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1536.size a ≤ S1536.size a
  hwx3_7 : ∀ i : grid3.Coords, EltTy.bits .f32 = 32 ∨ (Rect.block (s := S1536) S1536.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S512x1536.size a ≤ S32768x1536.size a
  hwx3_8 : ∀ i : grid3.Coords, EltTy.bits .f32 = 32 ∨ (Rect.block (s := S32768x1536) S512x1536.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x1536.size a ≤ S32768x1536.size a
  hwx3_9 : ∀ i : grid3.Coords, EltTy.bits .f32 = 32 ∨ (Rect.block (s := S32768x1536) S512x1536.size (cc3_transform_9 i) (hinb3_9 i)).WholeWords (EltTy.packing .f32)

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v2) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S1x512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S1x512x4096.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S1x512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S512x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v13) S512x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v15) S512x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v17) S512x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S512x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg5) S512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg7) S512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg9) S512.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v20_0) S512x1536.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v20_1) S512x1536.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v20_2) S8x1536.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v20_3) S8x1536.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v20_4) S8x1536.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v20_5) S8x1536.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

abbrev win3_0 : Pipeline.Window sig grid3 :=
  Pipeline.Window.ofSpec (Memref.whole main_v20_0) S512x1536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20_1) S512x1536.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1536.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1536.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1536.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S1536.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg10) S1536.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg11) S1536.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v53_0) S512x1536.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v53_1) S512x1536.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S8x512x8x512 : Shape := ⟨4, ![8, 512, 8, 512]⟩
abbrev S8x512x512 : Shape := ⟨3, ![8, 512, 512]⟩
abbrev S512x512 : Shape := ⟨2, ![512, 512]⟩
abbrev S512 : Shape := ⟨1, ![512]⟩
abbrev S1536 : Shape := ⟨1, ![1536]⟩
abbrev S_ : Shape := ⟨0, ![]⟩
abbrev S1x512x512 : Shape := ⟨3, ![1, 512, 512]⟩
abbrev S8x512 : Shape := ⟨2, ![8, 512]⟩
abbrev S8x512x4096 : Shape := ⟨3, ![8, 512, 4096]⟩
abbrev S8x512x1 : Shape := ⟨3, ![8, 512, 1]⟩
abbrev S8x1x512 : Shape := ⟨3, ![8, 1, 512]⟩
abbrev S1x1x1x512 : Shape := ⟨4, ![1, 1, 1, 512]⟩
abbrev S8x512x8x1536 : Shape := ⟨4, ![8, 512, 8, 1536]⟩
abbrev S8x512x8 : Shape := ⟨3, ![8, 512, 8]⟩
abbrev S8x512x8x1 : Shape := ⟨4, ![8, 512, 8, 1]⟩
abbrev S1x1x1x1536 : Shape := ⟨4, ![1, 1, 1, 1536]⟩

abbrev nBuf : Space → Nat
  | .hbm => 245
  | .vmem => 0
  | .smem => 0
  | _ => 0

abbrev hbmTy0_0 (i : Nat) : BufTy := match i % 128 with
  | 0 => ⟨S8x512x8x512, .f32⟩
  | 1 => ⟨S8x512x8x512, .f32⟩
  | 2 => ⟨S8x512x512, .i32⟩
  | 3 => ⟨S8x512x512, .i32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S1536, .f32⟩
  | 11 => ⟨S1536, .f32⟩
  | 12 => ⟨S512x512, .i32⟩
  | 13 => ⟨S512x512, .i32⟩
  | 14 => ⟨S_, .i32⟩
  | 15 => ⟨S512x512, .i32⟩
  | 16 => ⟨S512x512, .i32⟩
  | 17 => ⟨S512x512, .i1⟩
  | 18 => ⟨S_, .i32⟩
  | 19 => ⟨S8x512x512, .i32⟩
  | 20 => ⟨S8x512x512, .i1⟩
  | 21 => ⟨S512x512, .i1⟩
  | 22 => ⟨S1x512x512, .i1⟩
  | 23 => ⟨S8x512x512, .i1⟩
  | 24 => ⟨S8x512x512, .i1⟩
  | 25 => ⟨S8x512x512, .f32⟩
  | 26 => ⟨S_, .f32⟩
  | 27 => ⟨S8x512, .f32⟩
  | 28 => ⟨S8x512x4096, .f32⟩
  | 29 => ⟨S8x512x4096, .f32⟩
  | 30 => ⟨S8x512x1, .f32⟩
  | 31 => ⟨S8x512x4096, .f32⟩
  | 32 => ⟨S8x512x4096, .f32⟩
  | 33 => ⟨S8x512x8x512, .f32⟩
  | 34 => ⟨S_, .i32⟩
  | 35 => ⟨S8x512x512, .i32⟩
  | 36 => ⟨S8x512x512, .i1⟩
  | 37 => ⟨S512x512, .i1⟩
  | 38 => ⟨S1x512x512, .i1⟩
  | 39 => ⟨S8x512x512, .i1⟩
  | 40 => ⟨S8x512x512, .i1⟩
  | 41 => ⟨S8x512x512, .f32⟩
  | 42 => ⟨S_, .f32⟩
  | 43 => ⟨S8x512, .f32⟩
  | 44 => ⟨S8x512x4096, .f32⟩
  | 45 => ⟨S8x512x4096, .f32⟩
  | 46 => ⟨S8x512x1, .f32⟩
  | 47 => ⟨S8x512x4096, .f32⟩
  | 48 => ⟨S8x512x4096, .f32⟩
  | 49 => ⟨S8x512x8x512, .f32⟩
  | 50 => ⟨S8x512x4096, .f32⟩
  | 51 => ⟨S8x512x4096, .f32⟩
  | 52 => ⟨S8x512x4096, .f32⟩
  | 53 => ⟨S_, .f32⟩
  | 54 => ⟨S8x512, .f32⟩
  | 55 => ⟨S8x512, .f32⟩
  | 56 => ⟨S8x512x4096, .f32⟩
  | 57 => ⟨S_, .f32⟩
  | 58 => ⟨S8x512, .f32⟩
  | 59 => ⟨S8x512, .f32⟩
  | 60 => ⟨S8x512x512, .f32⟩
  | 61 => ⟨S8x512x1, .f32⟩
  | 62 => ⟨S8x1x512, .f32⟩
  | 63 => ⟨S8x512x512, .f32⟩
  | 64 => ⟨S8x512x512, .f32⟩
  | 65 => ⟨S8x512x512, .f32⟩
  | 66 => ⟨S_, .f32⟩
  | 67 => ⟨S8x512x512, .f32⟩
  | 68 => ⟨S8x512x512, .f32⟩
  | 69 => ⟨S8x512x512, .f32⟩
  | 70 => ⟨S_, .f32⟩
  | 71 => ⟨S8x512, .f32⟩
  | 72 => ⟨S_, .f32⟩
  | 73 => ⟨S8x512, .f32⟩
  | 74 => ⟨S8x512, .f32⟩
  | 75 => ⟨S8x512x1, .f32⟩
  | 76 => ⟨S8x512x512, .f32⟩
  | 77 => ⟨S8x512x512, .f32⟩
  | 78 => ⟨S8x512x512, .f32⟩
  | 79 => ⟨S_, .f32⟩
  | 80 => ⟨S8x512, .f32⟩
  | 81 => ⟨S8x512x1, .f32⟩
  | 82 => ⟨S8x512x512, .f32⟩
  | 83 => ⟨S8x512x512, .f32⟩
  | 84 => ⟨S8x512x512, .f32⟩
  | 85 => ⟨S_, .f32⟩
  | 86 => ⟨S8x512, .f32⟩
  | 87 => ⟨S_, .f32⟩
  | 88 => ⟨S8x512, .f32⟩
  | 89 => ⟨S8x512, .f32⟩
  | 90 => ⟨S8x512x1, .f32⟩
  | 91 => ⟨S8x512x512, .f32⟩
  | 92 => ⟨S8x512x512, .f32⟩
  | 93 => ⟨S8x512x512, .f32⟩
  | 94 => ⟨S_, .f32⟩
  | 95 => ⟨S8x512, .f32⟩
  | 96 => ⟨S8x512x1, .f32⟩
  | 97 => ⟨S8x512x512, .f32⟩
  | 98 => ⟨S8x512x512, .f32⟩
  | 99 => ⟨S8x512x4096, .f32⟩
  | 100 => ⟨S8x512x4096, .f32⟩
  | 101 => ⟨S8x512x8x512, .f32⟩
  | 102 => ⟨S8x512x4096, .f32⟩
  | 103 => ⟨S8x512x4096, .f32⟩
  | 104 => ⟨S8x512x8x512, .f32⟩
  | 105 => ⟨S8x512x8x512, .f32⟩
  | 106 => ⟨S1x1x1x512, .f32⟩
  | 107 => ⟨S8x512x8x512, .f32⟩
  | 108 => ⟨S8x512x8x512, .f32⟩
  | 109 => ⟨S8x512x8x512, .f32⟩
  | 110 => ⟨S1x1x1x512, .f32⟩
  | 111 => ⟨S8x512x8x512, .f32⟩
  | 112 => ⟨S8x512x8x512, .f32⟩
  | 113 => ⟨S8x512x8x512, .f32⟩
  | 114 => ⟨S1x1x1x512, .f32⟩
  | 115 => ⟨S8x512x8x512, .f32⟩
  | 116 => ⟨S8x512x8x512, .f32⟩
  | 117 => ⟨S8x512x8x1536, .f32⟩
  | 118 => ⟨S8x512x8x512, .f32⟩
  | 119 => ⟨S1x1x1x512, .f32⟩
  | 120 => ⟨S8x512x8x512, .f32⟩
  | 121 => ⟨S8x512x8x512, .f32⟩
  | 122 => ⟨S8x512x8x512, .f32⟩
  | 123 => ⟨S1x1x1x512, .f32⟩
  | 124 => ⟨S8x512x8x512, .f32⟩
  | 125 => ⟨S8x512x8x512, .f32⟩
  | 126 => ⟨S8x512x8x512, .f32⟩
  | 127 => ⟨S1x1x1x512, .f32⟩
  | _ => ⟨S8x512x8x512, .f32⟩

abbrev hbmTy0_1 (i : Nat) : BufTy := match i % 128 with
  | 0 => ⟨S8x512x8x512, .f32⟩
  | 1 => ⟨S8x512x8x512, .f32⟩
  | 2 => ⟨S8x512x8x1536, .f32⟩
  | 3 => ⟨S8x512x8x1536, .f32⟩
  | 4 => ⟨S_, .f32⟩
  | 5 => ⟨S8x512x8, .f32⟩
  | 6 => ⟨S8x512x8x1, .f32⟩
  | 7 => ⟨S8x512x8x1, .f32⟩
  | 8 => ⟨S_, .f32⟩
  | 9 => ⟨S8x512x8x1, .f32⟩
  | 10 => ⟨S8x512x8x1, .f32⟩
  | 11 => ⟨S8x512x8x1536, .f32⟩
  | 12 => ⟨S8x512x8x1536, .f32⟩
  | 13 => ⟨S_, .f32⟩
  | 14 => ⟨S8x512x8x1536, .f32⟩
  | 15 => ⟨S8x512x8x1536, .f32⟩
  | 16 => ⟨S_, .f32⟩
  | 17 => ⟨S1536, .f32⟩
  | 18 => ⟨S_, .f32⟩
  | 19 => ⟨S1536, .f32⟩
  | 20 => ⟨S1536, .f32⟩
  | 21 => ⟨S_, .i32⟩
  | 22 => ⟨S_, .f32⟩
  | 23 => ⟨S1536, .f32⟩
  | 24 => ⟨S1x1x1x1536, .f32⟩
  | 25 => ⟨S_, .f32⟩
  | 26 => ⟨S1x1x1x1536, .f32⟩
  | 27 => ⟨S1x1x1x1536, .f32⟩
  | 28 => ⟨S8x512x8x1536, .f32⟩
  | 29 => ⟨S8x512x8x1536, .f32⟩
  | 30 => ⟨S8x512x8x1536, .f32⟩
  | 31 => ⟨S_, .f32⟩
  | 32 => ⟨S_, .f32⟩
  | 33 => ⟨S_, .f32⟩
  | 34 => ⟨S_, .f32⟩
  | 35 => ⟨S1536, .f32⟩
  | 36 => ⟨S1536, .f32⟩
  | 37 => ⟨S1536, .f32⟩
  | 38 => ⟨S_, .f32⟩
  | 39 => ⟨S_, .i1⟩
  | 40 => ⟨S_, .f32⟩
  | 41 => ⟨S_, .f32⟩
  | 42 => ⟨S1536, .f32⟩
  | 43 => ⟨S1536, .f32⟩
  | 44 => ⟨S1x1x1x1536, .f32⟩
  | 45 => ⟨S8x512x8x1536, .f32⟩
  | 46 => ⟨S8x512x8x1536, .f32⟩
  | 47 => ⟨S_, .f32⟩
  | 48 => ⟨S1536, .f32⟩
  | 49 => ⟨S1536, .f32⟩
  | 50 => ⟨S1536, .f32⟩
  | 51 => ⟨S1x1x1x1536, .f32⟩
  | 52 => ⟨S8x512x8x1536, .f32⟩
  | 53 => ⟨S8x512x8x1536, .f32⟩
  | 54 => ⟨S1x1x1x1536, .f32⟩
  | 55 => ⟨S8x512x8x1536, .f32⟩
  | 56 => ⟨S8x512x8x1536, .f32⟩
  | 57 => ⟨S1x1x1x1536, .f32⟩
  | 58 => ⟨S8x512x8x1536, .f32⟩
  | 59 => ⟨S8x512x8x1536, .f32⟩
  | 60 => ⟨S8x512x8x1536, .f32⟩
  | 61 => ⟨S_, .f32⟩
  | 62 => ⟨S8x512x8, .f32⟩
  | 63 => ⟨S8x512x8x1, .f32⟩
  | 64 => ⟨S8x512x8x1, .f32⟩
  | 65 => ⟨S_, .f32⟩
  | 66 => ⟨S8x512x8x1, .f32⟩
  | 67 => ⟨S8x512x8x1, .f32⟩
  | 68 => ⟨S8x512x8x1536, .f32⟩
  | 69 => ⟨S8x512x8x1536, .f32⟩
  | 70 => ⟨S_, .f32⟩
  | 71 => ⟨S8x512x8x1536, .f32⟩
  | 72 => ⟨S8x512x8x1536, .f32⟩
  | 73 => ⟨S_, .f32⟩
  | 74 => ⟨S1536, .f32⟩
  | 75 => ⟨S_, .f32⟩
  | 76 => ⟨S1536, .f32⟩
  | 77 => ⟨S1536, .f32⟩
  | 78 => ⟨S_, .i32⟩
  | 79 => ⟨S_, .f32⟩
  | 80 => ⟨S1536, .f32⟩
  | 81 => ⟨S1x1x1x1536, .f32⟩
  | 82 => ⟨S_, .f32⟩
  | 83 => ⟨S1x1x1x1536, .f32⟩
  | 84 => ⟨S1x1x1x1536, .f32⟩
  | 85 => ⟨S8x512x8x1536, .f32⟩
  | 86 => ⟨S8x512x8x1536, .f32⟩
  | 87 => ⟨S8x512x8x1536, .f32⟩
  | 88 => ⟨S_, .f32⟩
  | 89 => ⟨S_, .f32⟩
  | 90 => ⟨S_, .f32⟩
  | 91 => ⟨S_, .f32⟩
  | 92 => ⟨S1536, .f32⟩
  | 93 => ⟨S1536, .f32⟩
  | 94 => ⟨S1536, .f32⟩
  | 95 => ⟨S_, .f32⟩
  | 96 => ⟨S_, .i1⟩
  | 97 => ⟨S_, .f32⟩
  | 98 => ⟨S_, .f32⟩
  | 99 => ⟨S1536, .f32⟩
  | 100 => ⟨S1536, .f32⟩
  | 101 => ⟨S1x1x1x1536, .f32⟩
  | 102 => ⟨S8x512x8x1536, .f32⟩
  | 103 => ⟨S8x512x8x1536, .f32⟩
  | 104 => ⟨S_, .f32⟩
  | 105 => ⟨S1536, .f32⟩
  | 106 => ⟨S1536, .f32⟩
  | 107 => ⟨S1536, .f32⟩
  | 108 => ⟨S1x1x1x1536, .f32⟩
  | 109 => ⟨S8x512x8x1536, .f32⟩
  | 110 => ⟨S8x512x8x1536, .f32⟩
  | 111 => ⟨S1x1x1x1536, .f32⟩
  | 112 => ⟨S8x512x8x1536, .f32⟩
  | 113 => ⟨S8x512x8x1536, .f32⟩
  | 114 => ⟨S1x1x1x1536, .f32⟩
  | 115 => ⟨S8x512x8x1536, .f32⟩
  | 116 => ⟨S8x512x8x1536, .f32⟩
  | _ => ⟨S8x512x8x512, .f32⟩

abbrev hbmTy (i : Nat) : BufTy := match i / 128 with
  | 0 => hbmTy0_0 i
  | 1 => hbmTy0_1 i
  | _ => ⟨S8x512x8x512, .f32⟩

abbrev bufTy : (tb : Table) → Fin (tcTables nBuf tb) → BufTy
  | .hbm, ⟨i, _⟩ => hbmTy i
  | _, _ => ⟨S8x512x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_v35 : Ref sig .tc := ⟨.hbm, 55, rfl⟩
abbrev main_call1_v0 : Ref sig .tc := ⟨.hbm, 56, rfl⟩
abbrev main_call1_cst : Ref sig .tc := ⟨.hbm, 57, rfl⟩
abbrev main_call1_v1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_call2_v0 : Ref sig .tc := ⟨.hbm, 131, rfl⟩
abbrev main_call2_cst : Ref sig .tc := ⟨.hbm, 132, rfl⟩
abbrev main_call2_v1 : Ref sig .tc := ⟨.hbm, 133, rfl⟩
abbrev main_call2_v2 : Ref sig .tc := ⟨.hbm, 134, rfl⟩
abbrev main_v101 : Ref sig .tc := ⟨.hbm, 135, rfl⟩
abbrev main_cst_10 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call3_cst : Ref sig .tc := ⟨.hbm, 141, rfl⟩
abbrev main_call3_v0 : Ref sig .tc := ⟨.hbm, 142, rfl⟩
abbrev main_v106 : Ref sig .tc := ⟨.hbm, 143, rfl⟩
abbrev main_cst_11 : Ref sig .tc := ⟨.hbm, 144, rfl⟩
abbrev main_v107 : Ref sig .tc := ⟨.hbm, 145, rfl⟩
abbrev main_cst_12 : Ref sig .tc := ⟨.hbm, 146, rfl⟩
abbrev main_v108 : Ref sig .tc := ⟨.hbm, 147, rfl⟩
abbrev main_v109 : Ref sig .tc := ⟨.hbm, 148, rfl⟩
abbrev main_c_13 : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_cst_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_v6 : Ref sig .tc := ⟨.hbm, 158, rfl⟩
abbrev main_call4_v7 : Ref sig .tc := ⟨.hbm, 159, rfl⟩
abbrev main_call4_cst_1 : Ref sig .tc := ⟨.hbm, 160, rfl⟩
abbrev main_call4_v8 : Ref sig .tc := ⟨.hbm, 161, rfl⟩
abbrev main_call4_cst_2 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_cst_3 : Ref sig .tc := ⟨.hbm, 166, rfl⟩
abbrev main_call4_v12 : Ref sig .tc := ⟨.hbm, 167, rfl⟩
abbrev main_call4_cst_4 : Ref sig .tc := ⟨.hbm, 168, rfl⟩
abbrev main_call4_call0_v0 : Ref sig .tc := ⟨.hbm, 169, rfl⟩
abbrev main_call4_call0_v1 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_14 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_call5_v0 : Ref sig .tc := ⟨.hbm, 188, rfl⟩
abbrev main_call5_cst : Ref sig .tc := ⟨.hbm, 189, rfl⟩
abbrev main_call5_v1 : Ref sig .tc := ⟨.hbm, 190, rfl⟩
abbrev main_call5_v2 : Ref sig .tc := ⟨.hbm, 191, rfl⟩
abbrev main_v126 : Ref sig .tc := ⟨.hbm, 192, rfl⟩
abbrev main_cst_15 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_call6_cst : Ref sig .tc := ⟨.hbm, 198, rfl⟩
abbrev main_call6_v0 : Ref sig .tc := ⟨.hbm, 199, rfl⟩
abbrev main_v131 : Ref sig .tc := ⟨.hbm, 200, rfl⟩
abbrev main_cst_16 : Ref sig .tc := ⟨.hbm, 201, rfl⟩
abbrev main_v132 : Ref sig .tc := ⟨.hbm, 202, rfl⟩
abbrev main_cst_17 : Ref sig .tc := ⟨.hbm, 203, rfl⟩
abbrev main_v133 : Ref sig .tc := ⟨.hbm, 204, rfl⟩
abbrev main_v134 : Ref sig .tc := ⟨.hbm, 205, rfl⟩
abbrev main_c_18 : Ref sig .tc := ⟨.hbm, 206, rfl⟩
abbrev main_call7_cst : Ref sig .tc := ⟨.hbm, 207, rfl⟩
abbrev main_call7_v0 : Ref sig .tc := ⟨.hbm, 208, rfl⟩
abbrev main_call7_v1 : Ref sig .tc := ⟨.hbm, 209, rfl⟩
abbrev main_call7_cst_0 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_call7_v5 : Ref sig .tc := ⟨.hbm, 214, rfl⟩
abbrev main_call7_v6 : Ref sig .tc := ⟨.hbm, 215, rfl⟩
abbrev main_call7_v7 : Ref sig .tc := ⟨.hbm, 216, rfl⟩
abbrev main_call7_cst_1 : Ref sig .tc := ⟨.hbm, 217, rfl⟩
abbrev main_call7_v8 : Ref sig .tc := ⟨.hbm, 218, rfl⟩
abbrev main_call7_cst_2 : Ref sig .tc := ⟨.hbm, 219, rfl⟩
abbrev main_call7_v9 : Ref sig .tc := ⟨.hbm, 220, rfl⟩
abbrev main_call7_v10 : Ref sig .tc := ⟨.hbm, 221, rfl⟩
abbrev main_call7_v11 : Ref sig .tc := ⟨.hbm, 222, rfl⟩
abbrev main_call7_cst_3 : Ref sig .tc := ⟨.hbm, 223, rfl⟩
abbrev main_call7_v12 : Ref sig .tc := ⟨.hbm, 224, rfl⟩
abbrev main_call7_cst_4 : Ref sig .tc := ⟨.hbm, 225, rfl⟩
abbrev main_call7_call0_v0 : Ref sig .tc := ⟨.hbm, 226, rfl⟩
abbrev main_call7_call0_v1 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_cst_19 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S_S8x512x512 : S_.BroadcastsInDim S8x512x512 (![] : Fin 0 → Fin S8x512x512.rank)
  bcast_S512x512_S1x512x512_1_2 : S512x512.BroadcastsInDim S1x512x512 (![1, 2] : Fin 2 → Fin S1x512x512.rank)
  bcast_S1x512x512_S8x512x512_0_1_2 : S1x512x512.BroadcastsInDim S8x512x512 (![0, 1, 2] : Fin 3 → Fin S8x512x512.rank)
  reducesTo_S8x512x512_S8x512_d2 : S8x512x512.ReducesTo [2] S8x512
  h_S_ : 0 < S_.numel
  shapeCasts_S8x512x8x512_S8x512x4096 : S8x512x8x512.ShapeCasts S8x512x4096
  bcast_S8x512_S8x512x1_0_1 : S8x512.BroadcastsInDim S8x512x1 (![0, 1] : Fin 2 → Fin S8x512x1.rank)
  bcast_S8x512x1_S8x512x4096_0_1_2 : S8x512x1.BroadcastsInDim S8x512x4096 (![0, 1, 2] : Fin 3 → Fin S8x512x4096.rank)
  shapeCasts_S8x512x4096_S8x512x8x512 : S8x512x4096.ShapeCasts S8x512x8x512
  reducesTo_S8x512x4096_S8x512_d2 : S8x512x4096.ReducesTo [2] S8x512
  bcast_S8x512_S8x1x512_0_2 : S8x512.BroadcastsInDim S8x1x512 (![0, 2] : Fin 2 → Fin S8x1x512.rank)
  bcast_S8x512x1_S8x512x512_0_1_2 : S8x512x1.BroadcastsInDim S8x512x512 (![0, 1, 2] : Fin 3 → Fin S8x512x512.rank)
  bcast_S8x1x512_S8x512x512_0_1_2 : S8x1x512.BroadcastsInDim S8x512x512 (![0, 1, 2] : Fin 3 → Fin S8x512x512.rank)
  bcast_S_S8x512 : S_.BroadcastsInDim S8x512 (![] : Fin 0 → Fin S8x512.rank)
  transposes_S8x512x512_S8x512x512_0_2_1 : S8x512x512.Transposes [0, 2, 1] S8x512x512
  bcast_S512_S1x1x1x512_3 : S512.BroadcastsInDim S1x1x1x512 (![3] : Fin 1 → Fin S1x1x1x512.rank)
  bcast_S1x1x1x512_S8x512x8x512_0_1_2_3 : S1x1x1x512.BroadcastsInDim S8x512x8x512 (![0, 1, 2, 3] : Fin 4 → Fin S8x512x8x512.rank)
  concatenates_S8x512x8x512_S8x512x8x512_S8x512x8x512_S8x512x8x1536_d3 : Shape.Concatenates [S8x512x8x512, S8x512x8x512, S8x512x8x512] S8x512x8x1536 3
  reducesTo_S8x512x8x1536_S8x512x8_d3 : S8x512x8x1536.ReducesTo [3] S8x512x8
  bcast_S8x512x8_S8x512x8x1_0_1_2 : S8x512x8.BroadcastsInDim S8x512x8x1 (![0, 1, 2] : Fin 3 → Fin S8x512x8x1.rank)
  bcast_S_S8x512x8x1 : S_.BroadcastsInDim S8x512x8x1 (![] : Fin 0 → Fin S8x512x8x1.rank)
  bcast_S8x512x8x1_S8x512x8x1536_0_1_2_3 : S8x512x8x1.BroadcastsInDim S8x512x8x1536 (![0, 1, 2, 3] : Fin 4 → Fin S8x512x8x1536.rank)
  bcast_S_S8x512x8x1536 : S_.BroadcastsInDim S8x512x8x1536 (![] : Fin 0 → Fin S8x512x8x1536.rank)
  reducesTo_S8x512x8x1536_S1536_d0_1_2 : S8x512x8x1536.ReducesTo [0, 1, 2] S1536
  bcast_S_S1536 : S_.BroadcastsInDim S1536 (![] : Fin 0 → Fin S1536.rank)
  bcast_S1536_S1x1x1x1536_3 : S1536.BroadcastsInDim S1x1x1x1536 (![3] : Fin 1 → Fin S1x1x1x1536.rank)
  bcast_S_S1x1x1x1536 : S_.BroadcastsInDim S1x1x1x1536 (![] : Fin 0 → Fin S1x1x1x1536.rank)
  bcast_S1x1x1x1536_S8x512x8x1536_0_1_2_3 : S1x1x1x1536.BroadcastsInDim S8x512x8x1536 (![0, 1, 2, 3] : Fin 4 → Fin S8x512x8x1536.rank)
  dot_S8x512x512_S8x512x4096_S8x512x4096_2_1_1_2_0_0_wf : DotDims.WF S8x512x512 S8x512x4096 S8x512x4096 [2] [1] [1] [2] [0] [0]
  dot_S8x512x4096_S8x512x4096_S8x512x512_2_2_1_1_0_0_wf : DotDims.WF S8x512x4096 S8x512x4096 S8x512x512 [2] [2] [1] [1] [0] [0]
  dot_S8x512x8x512_S512x512_S8x512x8x512_3_1_012_0_n_n_wf : DotDims.WF S8x512x8x512 S512x512 S8x512x8x512 [3] [1] [0, 1, 2] [0] [] []

variable [Facts₀]

def dot_S8x512x512_S8x512x4096_S8x512x4096_2_1_1_2_0_0 : DotDims S8x512x512 S8x512x4096 S8x512x4096 where
  lhsContracting := [2]
  rhsContracting := [1]
  lhsNonContracting := [1]
  rhsNonContracting := [2]
  lhsBatch := [0]
  rhsBatch := [0]
  wf := dot_S8x512x512_S8x512x4096_S8x512x4096_2_1_1_2_0_0_wf
def dot_S8x512x4096_S8x512x4096_S8x512x512_2_2_1_1_0_0 : DotDims S8x512x4096 S8x512x4096 S8x512x512 where
  lhsContracting := [2]
  rhsContracting := [2]
  lhsNonContracting := [1]
  rhsNonContracting := [1]
  lhsBatch := [0]
  rhsBatch := [0]
  wf := dot_S8x512x4096_S8x512x4096_S8x512x512_2_2_1_1_0_0_wf
def dot_S8x512x8x512_S512x512_S8x512x8x512_3_1_012_0_n_n : DotDims S8x512x8x512 S512x512 S8x512x8x512 where
  lhsContracting := [3]
  rhsContracting := [1]
  lhsNonContracting := [0, 1, 2]
  rhsNonContracting := [0]
  lhsBatch := []
  rhsBatch := []
  wf := dot_S8x512x8x512_S512x512_S8x512x8x512_3_1_012_0_n_n_wf

class Facts : Prop extends Facts₀ where

variable [Facts]
-- ==== Proof.Pass.lean ====
/-
  Buffers carried unchanged across the boundaries of the kernel's @main at the extended reals: a host stretch leaves
  every buffer it does not write, and a region leaves every buffer that is not one of its windows' arrays. Each
  lemma walks one buffer back through the boundaries it survives.
-/
import proofs.«404490_j9337258902039_3_alg».proof.Proof.FrameKI
import Idealize.ShloMosaic.PureOps.Ideal

set_option maxRecDepth 16384

noncomputable section

namespace Cert.KernelIdeal.Pass

open Cert.KernelIdeal Cert.KernelIdeal.Gen Cert.KernelIdeal.GenP
open Idealize.ShloMosaic Idealize.ShloMosaic.TcCoe

variable (m : (ℓ : Loc nD τ sig) → Buf (Elt Ideal) ℓ) (ρ : Dev nD → PrngReg) (c : Dev nD)

/-- A host stretch, given by name, writes none of its operations' results into the buffer at hand. -/
macro "host_skip " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- An argument of @main. -/
def IsArg (b : Ref sig .tc) : Prop := b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11

/-! ## One boundary at a time -/

theorem W1_of_W0 (b : Ref sig .tc) (hb : IsArg b) : W1 m ρ c (Proc.devRef .tc b) = W0 m ρ c (Proc.devRef .tc b) := by
  rcases hb with rfl | rfl | rfl | rfl | rfl | rfl | rfl | rfl | rfl | rfl | rfl | rfl <;> host_skip hostOps0

theorem W2_of_W1 (b : Ref sig .tc) (hb : IsArg b) : W2 m ρ c (Proc.devRef .tc b) = W1 m ρ c (Proc.devRef .tc b) := by
  rcases hb with rfl | rfl | rfl | rfl | rfl | rfl | rfl | rfl | rfl | rfl | rfl | rfl <;>
    first
    | exact W2_of_ne m ρ c _ (by decide)
    | exact (W2_arr m ρ c 2).trans (((dat0 (V1 m ρ) c).arrAt_in 2 rfl _).trans (A_eq0 (V1 m ρ) c 2))
    | exact (W2_arr m ρ c 3).trans (((dat0 (V1 m ρ) c).arrAt_in 3 rfl _).trans (A_eq0 (V1 m ρ) c 3))

theorem W3_of_W2 (b : Ref sig .tc) (hb : IsArg b ∨ b = main_v0 ∨ b = main_v1 ∨ b = main_v4_0 ∨ b = main_v4_1) :
    W3 m ρ c (Proc.devRef .tc b) = W2 m ρ c (Proc.devRef .tc b) := by
  rcases hb with (rfl | rfl | rfl | rfl | rfl | rfl | rfl | rfl | rfl | rfl | rfl | rfl) | rfl | rfl | rfl | rfl <;> host_skip hostOps1

theorem W4_of_W3 (b : Ref sig .tc) (hb : IsArg b ∨ b = main_v0 ∨ b = main_v1 ∨ b = main_v4_0 ∨ b = main_v4_1) :
    W4 m ρ c (Proc.devRef .tc b) = W3 m ρ c (Proc.devRef .tc b) := by
  rcases hb with (rfl | rfl | rfl | rfl | rfl | rfl | rfl | rfl | rfl | rfl | rfl | rfl) | rfl | rfl | rfl | rfl <;> exact W4_of_ne m ρ c _ (by decide)

theorem W5_of_W4 (b : Ref sig .tc) (hb : IsArg b) : W5 m ρ c (Proc.devRef .tc b) = W4 m ρ c (Proc.devRef .tc b) := by
  rcases hb with rfl | rfl | rfl | rfl | rfl | rfl | rfl | rfl | rfl | rfl | rfl | rfl <;> host_skip hostOps2

theorem W6_of_W5 (b : Ref sig .tc) (hb : IsArg b) : W6 m ρ c (Proc.devRef .tc b) = W5 m ρ c (Proc.devRef .tc b) := by
  rcases hb with rfl | rfl | rfl | rfl | rfl | rfl | rfl | rfl | rfl | rfl | rfl | rfl <;>
    first
    | exact W6_of_ne m ρ c _ (by decide)
    | exact (W6_arr m ρ c 9).trans (((dat2 (V5 m ρ) c).arrAt_in 9 rfl _).trans (A_eq2 (V5 m ρ) c 9))
    | exact (W6_arr m ρ c 10).trans (((dat2 (V5 m ρ) c).arrAt_in 10 rfl _).trans (A_eq2 (V5 m ρ) c 10))
    | exact (W6_arr m ρ c 11).trans (((dat2 (V5 m ρ) c).arrAt_in 11 rfl _).trans (A_eq2 (V5 m ρ) c 11))

theorem W7_of_W6 (b : Ref sig .tc) (hb : IsArg b ∨ b = main_v20_0 ∨ b = main_v20_1) :
    W7 m ρ c (Proc.devRef .tc b) = W6 m ρ c (Proc.devRef .tc b) := by
  rcases hb with (rfl | rfl | rfl | rfl | rfl | rfl | rfl | rfl | rfl | rfl | rfl | rfl) | rfl | rfl <;> host_skip hostOps3

/-! ## An argument at each boundary is the launch memory's -/

theorem W0_arg (b : Ref sig .tc) : W0 m ρ c (Proc.devRef .tc b) = m ((c : Thread nD τ).loc b) := rfl

theorem W2_arg (b : Ref sig .tc) (hb : IsArg b) : W2 m ρ c (Proc.devRef .tc b) = m ((c : Thread nD τ).loc b) :=
  (W2_of_W1 m ρ c b hb).trans ((W1_of_W0 m ρ c b hb).trans (W0_arg m ρ c b))

theorem W4_arg (b : Ref sig .tc) (hb : IsArg b) : W4 m ρ c (Proc.devRef .tc b) = m ((c : Thread nD τ).loc b) :=
  (W4_of_W3 m ρ c b (.inl hb)).trans ((W3_of_W2 m ρ c b (.inl hb)).trans (W2_arg m ρ c b hb))

theorem W6_arg (b : Ref sig .tc) (hb : IsArg b) : W6 m ρ c (Proc.devRef .tc b) = m ((c : Thread nD τ).loc b) :=
  (W6_of_W5 m ρ c b hb).trans ((W5_of_W4 m ρ c b hb).trans (W4_arg m ρ c b hb))

theorem W7_arg (b : Ref sig .tc) (hb : IsArg b) : W7 m ρ c (Proc.devRef .tc b) = m ((c : Thread nD τ).loc b) :=
  (W7_of_W6 m ρ c b (.inl hb)).trans (W6_arg m ρ c b hb)

/-- A buffer the first region or the first stretch left, read after the second region. -/
theorem W4_of_W2 (b : Ref sig .tc) (hb : b = main_v0 ∨ b = main_v1 ∨ b = main_v4_0 ∨ b = main_v4_1) :
    W4 m ρ c (Proc.devRef .tc b) = W2 m ρ c (Proc.devRef .tc b) :=
  (W4_of_W3 m ρ c b (.inr hb)).trans (W3_of_W2 m ρ c b (.inr hb))

end Cert.KernelIdeal.Pass

end
-- ==== Proof.Spec.lean ====
/-
  The mathematics both programs compute, stage by stage, over the extended reals, stated once over literal
  shapes and read index by index. Nothing here mentions either program.

  Inputs: two feature arrays x[b, s, p, f] (8 × 512 × 8 × 512), two integer adjacency arrays a[b, i, j]
  (8 × 512 × 512), three weight matrices W[o, f] with biases, and the batch-norm scale and shift.

  Stages.
  * Neighbour mean: the mask entry is 1 where a[b, i, j] > 0 and i ≠ j, else 0; the degree of row (b, i) is the
    sum of its mask entries; the neighbour mean at (b, i, d) is (Σ_j mask · x[b, j, d]) / degree (the quotient is
    the extended reals' own, so a row of degree zero has one definite value on both sides).
  * Cosine attention: sim[b, i, j] = ⟨x1[b, i, ·], x2[b, j, ·]⟩ / max(‖x1[b, i]‖ · ‖x2[b, j]‖, 1e-6); att1 is the
    softmax of sim along j, att2[b, j, i] the softmax of sim along i; mu1 = x1 − att1 · x2, mu2 = x2 − att2 · x1.
    A softmax is written as jax writes it: exp (s − max(−∞, max s)) over the sum of those exponentials.
  * Linear + row normalisation: over the 32768 rows n = (b · 512 + s) · 8 + p the three products x·Wxᵀ + bx,
    nb·Wnᵀ + bn, mu·Wrᵀ + br are laid side by side (1536 columns), each row is divided by
    max(‖row‖, 1e-12) and clipped below at 0.
  * Batch norm: the column mean over the 32768 rows, a column variance, and
    (g − mean) · rsqrt(var + 1e-5) · gamma + beta.
    The variance is stated twice: `varK` = max(E[g²] − mean², 0) and `varR` = E[(g − mean)²].
-/
import Idealize.ShloMosaic.PureOps.Ideal
import Idealize.ShloMosaic.Lib.ValueIdx

noncomputable section

open scoped BigOperators

namespace Cert.Spec

open Idealize.ShloMosaic Idealize.ShloMosaic.ValueIdx

/-! ## Shapes -/

abbrev S4x : Shape := ⟨4, ![8, 512, 8, 512]⟩
abbrev S3x : Shape := ⟨3, ![8, 512, 4096]⟩
abbrev S3a : Shape := ⟨3, ![8, 512, 512]⟩
abbrev S2r : Shape := ⟨2, ![32768, 512]⟩
abbrev S2w : Shape := ⟨2, ![512, 512]⟩
abbrev S1b : Shape := ⟨1, ![512]⟩
abbrev S2h : Shape := ⟨2, ![32768, 1536]⟩
abbrev S1g : Shape := ⟨1, ![1536]⟩
abbrev S4h : Shape := ⟨4, ![8, 512, 8, 1536]⟩

/-! ## One array read in its other row-major layouts -/

/-- x[b, s, p, f] read as [b, s, d] with d = p · 512 + f. -/
def flat (x : S4x.Idx → EReal) : S3x.Idx → EReal := fun y =>
  x (ix4 (y 0) (y 1) ⟨(y 2).val / 512, by have h : (y 2).val < 4096 := (y 2).isLt; omega⟩ ⟨(y 2).val % 512, Nat.mod_lt _ (by decide)⟩)

/-- x[b, s, p, f] read as rows [n, f] with n = (b · 512 + s) · 8 + p. -/
def rows4 (x : S4x.Idx → EReal) : S2r.Idx → EReal := fun y =>
  x (ix4 ⟨(y 0).val / 4096, by have h : (y 0).val < 32768 := (y 0).isLt; omega⟩ ⟨(y 0).val / 8 % 512, Nat.mod_lt _ (by decide)⟩
    ⟨(y 0).val % 8, Nat.mod_lt _ (by decide)⟩ (y 1))

/-- u[b, s, d] read as rows [n, f] with n = (b · 512 + s) · 8 + p and d = p · 512 + f. -/
def rows3 (u : S3x.Idx → EReal) : S2r.Idx → EReal := fun y =>
  u (ix3 ⟨(y 0).val / 4096, by have h : (y 0).val < 32768 := (y 0).isLt; omega⟩ ⟨(y 0).val / 8 % 512, Nat.mod_lt _ (by decide)⟩
    ⟨(y 0).val % 8 * 512 + (y 1).val, by have h : (y 1).val < 512 := (y 1).isLt; have : (y 0).val % 8 < 8 := Nat.mod_lt _ (by decide); omega⟩)

/-- Rows [n, o] read back as [b, s, p, o]. -/
def unrows (h : S2h.Idx → EReal) : S4h.Idx → EReal := fun y =>
  h (ix2 ⟨((y 0).val * 512 + (y 1).val) * 8 + (y 2).val, by
      have h0 : (y 0).val < 8 := (y 0).isLt; have h1 : (y 1).val < 512 := (y 1).isLt; have h2 : (y 2).val < 8 := (y 2).isLt; omega⟩ (y 3))

/-! ## The neighbour mean -/

/-- A mask entry from the adjacency word at row i, column j. -/
def mskv (a : BitVec 32) (i j : Nat) : EReal := if 0 < a.toInt ∧ i ≠ j then 1 else 0

def msk (A : S3a.Idx → BitVec 32) (b : Fin 8) (i j : Fin 512) : EReal := mskv (A (ix3 b i j)) i.val j.val

def deg (A : S3a.Idx → BitVec 32) (b : Fin 8) (i : Fin 512) : EReal := ∑ j : Fin 512, msk A b i j

def nbA (X : S3x.Idx → EReal) (A : S3a.Idx → BitVec 32) : S3x.Idx → EReal := fun y =>
  Ideal.div (∑ j : Fin 512, msk A (y 0) (y 1) j * X (ix3 (y 0) j (y 2))) (deg A (y 0) (y 1))

/-! ## The cosine attention -/

def negInf : EReal := Ideal.ofBits .f32 0xFF800000#32
def eps6 : EReal := Ideal.ofBits .f32 0x358637BD#32

def sq (X : S3x.Idx → EReal) (b : Fin 8) (i : Fin 512) : EReal := ∑ d : Fin 4096, X (ix3 b i d) * X (ix3 b i d)

def dots (X1 X2 : S3x.Idx → EReal) (b : Fin 8) (i j : Fin 512) : EReal :=
  ∑ d : Fin 4096, X1 (ix3 b i d) * X2 (ix3 b j d)

def sim (X1 X2 : S3x.Idx → EReal) (b : Fin 8) (i j : Fin 512) : EReal :=
  Ideal.div (dots X1 X2 b i j) (max (Ideal.sqrt (sq X1 b i) * Ideal.sqrt (sq X2 b j)) eps6)

def rowmax (X1 X2 : S3x.Idx → EReal) (b : Fin 8) (i : Fin 512) : EReal :=
  max negInf ((Finset.univ : Finset (Fin 512)).fold max negInf (fun j => sim X1 X2 b i j))

def colmax (X1 X2 : S3x.Idx → EReal) (b : Fin 8) (j : Fin 512) : EReal :=
  max negInf ((Finset.univ : Finset (Fin 512)).fold max negInf (fun i => sim X1 X2 b i j))

def e1 (X1 X2 : S3x.Idx → EReal) (b : Fin 8) (i j : Fin 512) : EReal := Ideal.exp (sim X1 X2 b i j - rowmax X1 X2 b i)
def e2 (X1 X2 : S3x.Idx → EReal) (b : Fin 8) (i j : Fin 512) : EReal := Ideal.exp (sim X1 X2 b i j - colmax X1 X2 b j)

/-- The softmax of sim along j, at (i, j). -/
def att1 (X1 X2 : S3x.Idx → EReal) (b : Fin 8) (i j : Fin 512) : EReal :=
  Ideal.div (e1 X1 X2 b i j) (∑ j' : Fin 512, e1 X1 X2 b i j')

/-- The softmax of sim along i, read transposed: at (j, i). -/
def att2 (X1 X2 : S3x.Idx → EReal) (b : Fin 8) (j i : Fin 512) : EReal :=
  Ideal.div (e2 X1 X2 b i j) (∑ i' : Fin 512, e2 X1 X2 b i' j)

def mu1A (X1 X2 : S3x.Idx → EReal) : S3x.Idx → EReal := fun y =>
  X1 y - ∑ j : Fin 512, att1 X1 X2 (y 0) (y 1) j * X2 (ix3 (y 0) j (y 2))

def mu2A (X1 X2 : S3x.Idx → EReal) : S3x.Idx → EReal := fun y =>
  X2 y - ∑ i : Fin 512, att2 X1 X2 (y 0) (y 1) i * X1 (ix3 (y 0) i (y 2))

/-! ## The three linear maps side by side, the row normalisation, the clip at zero -/

def eps12 : EReal := Ideal.ofBits .f32 0x2B8CBCCC#32

/-- Row n of U against row o of W (the weights are [out, in]), plus the bias. -/
def lin (U : S2r.Idx → EReal) (W : S2w.Idx → EReal) (bias : S1b.Idx → EReal) (n : Fin 32768) (o : Fin 512) : EReal :=
  (∑ k : Fin 512, U (ix2 n k) * W (ix2 o k)) + bias (ix1 o)

def hpre (Ux Un Ur : S2r.Idx → EReal) (Wx Wn Wr : S2w.Idx → EReal) (bx bn br : S1b.Idx → EReal) : S2h.Idx → EReal := fun y =>
  if h : (y 1).val < 512 then lin Ux Wx bx (y 0) ⟨(y 1).val, h⟩
  else if h2 : (y 1).val < 1024 then lin Un Wn bn (y 0) ⟨(y 1).val - 512, by omega⟩
  else lin Ur Wr br (y 0) ⟨(y 1).val - 1024, by have h3 : (y 1).val < 1536 := (y 1).isLt; omega⟩

def hnorm (H : S2h.Idx → EReal) (n : Fin 32768) : EReal :=
  max (Ideal.sqrt (∑ o : Fin 1536, H (ix2 n o) * H (ix2 n o))) eps12

def gA (H : S2h.Idx → EReal) : S2h.Idx → EReal := fun y => max (Ideal.div (H y) (hnorm H (y 0))) 0

/-! ## Batch norm -/

def nN : EReal := Ideal.ofBits .f32 0x47000000#32
def eps5 : EReal := Ideal.ofBits .f32 0x3727C5AC#32

def colsum (G : S2h.Idx → EReal) (o : Fin 1536) : EReal := ∑ n : Fin 32768, G (ix2 n o)
def colsq (G : S2h.Idx → EReal) (o : Fin 1536) : EReal := ∑ n : Fin 32768, G (ix2 n o) * G (ix2 n o)

def meanA (G : S2h.Idx → EReal) : S1g.Idx → EReal := fun y => Ideal.div (colsum G (y 0)) nN

/-- The variance as mean of squares minus square of mean, clipped below at zero. -/
def varK (G : S2h.Idx → EReal) : S1g.Idx → EReal := fun y =>
  max (Ideal.div (colsq G (y 0)) nN - meanA G y * meanA G y) 0

/-- The variance as the mean of the squared deviations. -/
def varR (G : S2h.Idx → EReal) : S1g.Idx → EReal := fun y =>
  Ideal.div (∑ n : Fin 32768, (G (ix2 n (y 0)) - meanA G y) * (G (ix2 n (y 0)) - meanA G y)) nN

def bnA (G : S2h.Idx → EReal) (mean var gamma beta : S1g.Idx → EReal) : S2h.Idx → EReal := fun y =>
  (G y - mean (ix1 (y 1))) * Ideal.rsqrt (var (ix1 (y 1)) + eps5) * gamma (ix1 (y 1)) + beta (ix1 (y 1))

/-! ## One branch, end to end -/

/-- The normalised activations of one branch from its features, its neighbour means and its attention residual. -/
def act (x : S4x.Idx → EReal) (NB MU : S3x.Idx → EReal) (Wx : S2w.Idx → EReal) (bx : S1b.Idx → EReal)
    (Wn : S2w.Idx → EReal) (bn : S1b.Idx → EReal) (Wr : S2w.Idx → EReal) (br : S1b.Idx → EReal) : S2h.Idx → EReal :=
  gA (hpre (rows4 x) (rows3 NB) (rows3 MU) Wx Wn Wr bx bn br)

/-- One branch's result for a given choice of the variance. -/
def outOf (var : (S2h.Idx → EReal) → S1g.Idx → EReal) (G : S2h.Idx → EReal) (gamma beta : S1g.Idx → EReal) : S4h.Idx → EReal :=
  unrows (bnA G (meanA G) (var G) gamma beta)

end Cert.Spec

end
-- ==== Proof.Math.lean ====
/-
  Arithmetic facts used on both sides, independent of either program.

  * Re-indexing of finite sums: a sum over `Fin (n * k)` is the double sum over quotient and remainder, and the
    three instances used for the 32768 rows (as 8 × 512 × 8 and as 64 × 512) and the 4096 columns (as 8 × 512).
  * The normalised activations are finite and non-negative.
  * For a finite-valued column, mean of squares minus square of mean equals the mean of squared deviations, and
    is non-negative, so clipping it at zero changes nothing.
-/
import proofs.«404490_j9337258902039_3_alg».proof.Proof.Spec
import Mathlib.Algebra.BigOperators.Fin
import Mathlib.Logic.Equiv.Fin.Basic

noncomputable section

open scoped BigOperators

namespace Cert.Math

open Idealize.ShloMosaic Idealize.ShloMosaic.ValueIdx

/-! ## Re-indexing of finite sums -/

/-- Quotient a below n and remainder r below k give a · k + r below n · k. -/
theorem lt_mul_of {n k : ℕ} (a : Fin n) (r : Fin k) : a.val * k + r.val < n * k := by
  have hr : r.val < k := r.isLt
  have ha : a.val + 1 ≤ n := a.isLt
  calc a.val * k + r.val < a.val * k + k := by omega
    _ = (a.val + 1) * k := by rw [Nat.add_mul, Nat.one_mul]
    _ ≤ n * k := Nat.mul_le_mul_right k ha

/-- A sum over N = n · k indices is the double sum over quotient and remainder. -/
theorem sum_split_of {M : Type*} [AddCommMonoid M] (N n k : ℕ) (h : N = n * k) (f : Fin N → M) :
    ∑ d, f d = ∑ a : Fin n, ∑ r : Fin k, f ⟨a.val * k + r.val, h ▸ lt_mul_of a r⟩ := by
  subst h
  rw [← Equiv.sum_comp (finProdFinEquiv (m := n) (n := k)) f, Fintype.sum_prod_type]
  refine Finset.sum_congr rfl fun a _ => Finset.sum_congr rfl fun r _ => ?_
  refine congrArg f (Fin.ext ?_)
  show r.val + k * a.val = a.val * k + r.val
  rw [Nat.mul_comm, Nat.add_comm]

theorem sum_split {M : Type*} [AddCommMonoid M] (n k : ℕ) (f : Fin (n * k) → M) :
    ∑ d, f d = ∑ a : Fin n, ∑ r : Fin k, f ⟨a.val * k + r.val, lt_mul_of a r⟩ :=
  sum_split_of (n * k) n k rfl f

/-- 32768 = 64 · 512. -/
theorem sum_tiles {M : Type*} [AddCommMonoid M] (f : Fin 32768 → M) :
    ∑ n, f n = ∑ t : Fin 64, ∑ r : Fin 512, f ⟨t.val * 512 + r.val, by
      have h0 : t.val < 64 := t.isLt; have h1 : r.val < 512 := r.isLt; omega⟩ :=
  sum_split_of 32768 64 512 (by decide) f

/-- 4096 = 8 · 512. -/
theorem sum_chunks {M : Type*} [AddCommMonoid M] (f : Fin 4096 → M) :
    ∑ d, f d = ∑ k : Fin 8, ∑ r : Fin 512, f ⟨k.val * 512 + r.val, by
      have h0 : k.val < 8 := k.isLt; have h1 : r.val < 512 := r.isLt; omega⟩ :=
  sum_split_of 4096 8 512 (by decide) f

/-- 32768 = (8 · 512) · 8: first split off the last factor 8, then split the 4096 quotients as 8 · 512. -/
theorem sum_rows {M : Type*} [AddCommMonoid M] (f : Fin 32768 → M) :
    ∑ n, f n = ∑ b : Fin 8, ∑ s : Fin 512, ∑ p : Fin 8, f ⟨(b.val * 512 + s.val) * 8 + p.val, by
      have h0 : b.val < 8 := b.isLt; have h1 : s.val < 512 := s.isLt; have h2 : p.val < 8 := p.isLt; omega⟩ := by
  rw [sum_split_of 32768 4096 8 (by decide) f]
  exact sum_split_of 4096 8 512 (by decide)
    (fun a : Fin 4096 => ∑ p : Fin 8, f ⟨a.val * 8 + p.val, by
      have h0 : a.val < 4096 := a.isLt; have h2 : p.val < 8 := p.isLt; omega⟩)

/-! ## The two float constants as reals -/

/-- The row count 32768 = 2¹⁵. -/
theorem nN_eq : Spec.nN = ((32768 : ℝ) : EReal) := by
  simp [Spec.nN, Ideal.ofBits, Ideal.ieee, -EReal.coe_mul]; norm_num

/-- The norm floor is a positive real. -/
theorem eps12_pos : ∃ e : ℝ, 0 < e ∧ Spec.eps12 = (e : EReal) := by
  refine ⟨(9223372 : ℝ) * (2 : ℝ) ^ (-63 : ℤ), by positivity, ?_⟩
  simp [Spec.eps12, Ideal.ofBits, Ideal.ieee, -EReal.coe_mul]

/-! ## Extended-real arithmetic at the corners -/

/-- An extended real is −∞, +∞ or a real. -/
theorem ereal_cases (x : EReal) : x = ⊥ ∨ x = ⊤ ∨ ∃ r : ℝ, x = (r : EReal) := by
  induction x using EReal.rec with
  | bot => exact Or.inl rfl
  | coe r => exact Or.inr (Or.inr ⟨r, rfl⟩)
  | top => exact Or.inr (Or.inl rfl)

/-- A square is never negative, at the infinities too (both squares are +∞). -/
theorem mul_self_nonneg_ereal (x : EReal) : 0 ≤ x * x := by
  rcases ereal_cases x with rfl | rfl | ⟨r, rfl⟩
  · rw [EReal.bot_mul_bot]; exact le_top
  · rw [EReal.top_mul_top]; exact le_top
  · rw [← EReal.coe_mul]; exact EReal.coe_nonneg.2 (mul_self_nonneg r)

/-- A finite sum of non-negative terms one of which is +∞ is +∞. -/
theorem sum_eq_top_of_term {ι : Type*} [Fintype ι] (f : ι → EReal) (h0 : ∀ i, 0 ≤ f i) (j : ι) (hj : f j = ⊤) :
    ∑ i, f i = ⊤ := by
  have h : f j ≤ ∑ i, f i := Finset.single_le_sum (fun i _ => h0 i) (Finset.mem_univ j)
  rw [hj] at h
  exact top_le_iff.1 h

/-- The quotient of two reals with a nonzero divisor is the real quotient. -/
theorem div_real (a b : ℝ) (hb : b ≠ 0) : Ideal.div (a : EReal) (b : EReal) = ((a / b : ℝ) : EReal) := by
  rw [Ideal.div_coe hb, ← EReal.coe_mul, mul_one_div]

/-- Anything divided by +∞ is zero. -/
theorem div_top (x : EReal) : Ideal.div x ⊤ = 0 := by
  rw [Ideal.div, if_neg EReal.top_ne_zero, EReal.inv_top, mul_zero]

/-- Clipping a real at zero, inside the extended reals. -/
theorem max_coe_zero (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- The cast of a finite real sum is the sum of the casts. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ## The normalised activations are finite and non-negative -/

/-- A row with an infinite entry has norm +∞: that entry's square is +∞, so is the sum of squares, so is its root. -/
theorem hnorm_top_of_inf (H : Spec.S2h.Idx → EReal) (y : Spec.S2h.Idx) (h : H y = ⊥ ∨ H y = ⊤) :
    Spec.hnorm H (y 0) = ⊤ := by
  have hsq : H (ix2 (y 0) (y 1)) * H (ix2 (y 0) (y 1)) = ⊤ := by
    have hy : H (ix2 (y 0) (y 1)) = H y := congrArg H (eq_ix2 y).symm
    rw [hy]
    rcases h with h | h <;> rw [h]
    · exact EReal.bot_mul_bot
    · exact EReal.top_mul_top
  have hsum : (∑ o : Fin 1536, H (ix2 (y 0) o) * H (ix2 (y 0) o)) = ⊤ :=
    sum_eq_top_of_term (fun o : Fin 1536 => H (ix2 (y 0) o) * H (ix2 (y 0) o))
      (fun o => mul_self_nonneg_ereal _) (y 1) hsq
  show max (Ideal.sqrt (∑ o : Fin 1536, H (ix2 (y 0) o) * H (ix2 (y 0) o))) Spec.eps12 = ⊤
  rw [hsum, Ideal.sqrt_top]
  exact max_eq_left le_top

theorem gA_real (H : Spec.S2h.Idx → EReal) (y : Spec.S2h.Idx) : ∃ r : ℝ, 0 ≤ r ∧ Spec.gA H y = (r : EReal) := by
  obtain ⟨e, he, hE⟩ := eps12_pos
  have hge : (e : EReal) ≤ Spec.hnorm H (y 0) := by
    rw [← hE]; exact le_max_right _ _
  show ∃ r : ℝ, 0 ≤ r ∧ max (Ideal.div (H y) (Spec.hnorm H (y 0))) 0 = (r : EReal)
  rcases ereal_cases (Spec.hnorm H (y 0)) with hb | ht | ⟨ν, hν⟩
  · -- the norm is at least a real, so it is not −∞
    rw [hb] at hge
    exact absurd hge (not_le.2 (EReal.bot_lt_coe e))
  · -- an infinite norm: the quotient is zero
    refine ⟨0, le_rfl, ?_⟩
    rw [ht, div_top, max_self]; rfl
  · -- a real norm ν ≥ e > 0: the entry is real too, and the quotient is the real one
    rw [hν] at hge ⊢
    have hνpos : 0 < ν := lt_of_lt_of_le he (by exact_mod_cast hge)
    rcases ereal_cases (H y) with hb | ht | ⟨h, hh⟩
    · have := hnorm_top_of_inf H y (Or.inl hb)
      rw [hν] at this
      exact absurd this (EReal.coe_ne_top ν)
    · have := hnorm_top_of_inf H y (Or.inr ht)
      rw [hν] at this
      exact absurd this (EReal.coe_ne_top ν)
    · refine ⟨max (h / ν) 0, le_max_right _ _, ?_⟩
      rw [hh, div_real h ν hνpos.ne', max_coe_zero]

/-! ## The two variances agree on finite columns -/

/-- Over the reals, with m the mean of a over N = 32768 entries: Σ (a − m)² / N = Σ a² / N − m², and it is ≥ 0. -/
theorem var_real (a : Fin 32768 → ℝ) :
    max ((∑ n, a n * a n) / 32768 - (∑ n, a n) / 32768 * ((∑ n, a n) / 32768)) 0
      = (∑ n, (a n - (∑ n, a n) / 32768) * (a n - (∑ n, a n) / 32768)) / 32768 := by
  have hexp : (∑ n, (a n - (∑ n, a n) / 32768) * (a n - (∑ n, a n) / 32768))
      = (∑ n, a n * a n) - 2 * ((∑ n, a n) / 32768) * (∑ n, a n)
          + 32768 * ((∑ n, a n) / 32768 * ((∑ n, a n) / 32768)) := by
    generalize (∑ n, a n) / 32768 = m
    have h1 : ∀ n, (a n - m) * (a n - m) = a n * a n - 2 * m * a n + m * m := fun n => by ring
    simp only [h1, Finset.sum_add_distrib, Finset.sum_sub_distrib, ← Finset.mul_sum, Finset.sum_const,
      Finset.card_univ, Fintype.card_fin, nsmul_eq_mul]
    push_cast
    ring
  generalize (∑ n, a n) = S at hexp ⊢
  generalize (∑ n, a n * a n) = Q at hexp ⊢
  have hnn : 0 ≤ (∑ n, (a n - S / 32768) * (a n - S / 32768)) / 32768 :=
    div_nonneg (Finset.sum_nonneg fun n _ => mul_self_nonneg _) (by norm_num)
  have heq : Q / 32768 - S / 32768 * (S / 32768)
      = (∑ n, (a n - S / 32768) * (a n - S / 32768)) / 32768 := by
    rw [hexp]; ring
  rw [heq]
  exact max_eq_left hnn

/-- The same identity with every operation the extended reals' own, at a finite column. -/
theorem var_core (a : Fin 32768 → ℝ) :
    max (Ideal.div (∑ n, (a n : EReal) * (a n : EReal)) Spec.nN
          - Ideal.div (∑ n, (a n : EReal)) Spec.nN * Ideal.div (∑ n, (a n : EReal)) Spec.nN) 0
      = Ideal.div (∑ n, ((a n : EReal) - Ideal.div (∑ n, (a n : EReal)) Spec.nN)
                        * ((a n : EReal) - Ideal.div (∑ n, (a n : EReal)) Spec.nN)) Spec.nN := by
  have h32 : (32768 : ℝ) ≠ 0 := by norm_num
  have hm : Ideal.div (∑ n, (a n : EReal)) Spec.nN = (((∑ n, a n) / 32768 : ℝ) : EReal) := by
    rw [nN_eq, ← coe_sum, div_real _ _ h32]
  have hq : Ideal.div (∑ n, (a n : EReal) * (a n : EReal)) Spec.nN = (((∑ n, a n * a n) / 32768 : ℝ) : EReal) := by
    simp only [← EReal.coe_mul]
    rw [nN_eq, ← coe_sum, div_real _ _ h32]
  rw [hq, hm]
  simp only [← EReal.coe_sub, ← EReal.coe_mul]
  rw [← coe_sum, nN_eq, div_real _ _ h32, max_coe_zero, var_real a]

theorem varK_eq_varR (G : Spec.S2h.Idx → EReal) (hG : ∀ y, ∃ r : ℝ, G y = (r : EReal)) :
    Spec.varK G = Spec.varR G := by
  choose g hg using hG
  funext y
  have hcol : ∀ n : Fin 32768, G (ix2 n (y 0)) = ((g (ix2 n (y 0)) : ℝ) : EReal) := fun n => hg _
  simp only [Spec.varK, Spec.varR, Spec.meanA, Spec.colsum, Spec.colsq, hcol]
  exact var_core (fun n => g (ix2 n (y 0)))

theorem varK_gA (H : Spec.S2h.Idx → EReal) : Spec.varK (Spec.gA H) = Spec.varR (Spec.gA H) :=
  varK_eq_varR (Spec.gA H) fun y => by
    obtain ⟨r, _, hr⟩ := gA_real H y
    exact ⟨r, hr⟩

end Cert.Math

end
-- ==== Proof.K3Host.lean ====
/-
  The statistics stretch between the third and the fourth region: from the four per-tile arrays of partial column sums
  (per 8-row tile, row 0 holds the column sums over that tile's 512 rows, the other rows are zero) to the two column
  means and the two clipped column variances.

  Each of the four arrays goes through the same chain: read as [64, 8, 1536], keep row 0 of every tile, read as
  [64, 1536], sum over the 64 tiles. The sum over tiles of the per-tile sums is the column sum over all 32768 rows
  (32768 = 64 · 512). The mean is the column sum over 32768; the variance is the mean of squares minus the square of
  the mean, clipped below at zero.
-/
import proofs.«404490_j9337258902039_3_alg».proof.Proof.LaunchKI
import proofs.«404490_j9337258902039_3_alg».proof.Proof.Spec
import proofs.«404490_j9337258902039_3_alg».proof.Proof.Math
import Idealize.ShloMosaic.Lib.StableHlo.Run
import Idealize.ShloMosaic.Lib.IdealHost
import Idealize.ShloMosaic.Lib.ValueIdx
import Idealize.ShloMosaic.Lib.Pipeline.Value
import Idealize.ShloMosaic.PureOps.Ideal.Laws

noncomputable section

namespace Cert.KernelIdeal.K3Host

open Cert.KernelIdeal.Gen Cert.KernelIdeal.GenP
open Idealize.ShloMosaic Idealize.ShloMosaic.ValueIdx Idealize.ShloMosaic.TcCoe
open scoped BigOperators

/-! ## The per-tile layout and the chain that reads it -/

/-- The per-tile array: row 8 · t holds T t, every other row is zero. -/
def tile (T : Fin 64 → Fin 1536 → EReal) : S512x1536.Idx → EReal := fun y =>
  if (y 0).val % 8 = 0 then T ⟨(y 0).val / 8, by have h : (y 0).val < 512 := (y 0).isLt; omega⟩ (y 1) else 0

/-- Row 0 of every 8-row tile, summed over the 64 tiles. -/
def colT (A : FVec Ideal S512x1536 .f32) : FVec Ideal S1536 .f32 :=
  Host.reduceAdd (F := Ideal)
    (shapeCast S64x1536
      (extractStridedSlice S64x1x1536 ![0, 0, 0]
        (shapeCast S64x8x1536 A Facts₀.shapeCasts_S512x1536_S64x8x1536)
        Facts₀.slices_S64x8x1536_S64x1x1536_0_0_0)
      Facts₀.shapeCasts_S64x1x1536_S64x1536)
    (constant (F := Ideal) S_ .f32 0x00000000#32) Facts₀.reducesTo_S64x1536_S1536_d0 Facts₀.h_S_

/-- The row count 32768 at every column. -/
def cN : FVec Ideal S1536 .f32 :=
  broadcastInDim S1536 ![] Facts₀.bcast_S_S1536 (constant (F := Ideal) S_ .f32 0x47000000#32)

/-- Zero at every column. -/
def cZ : FVec Ideal S1536 .f32 :=
  broadcastInDim S1536 ![] Facts₀.bcast_S_S1536 (constant (F := Ideal) S_ .f32 0x00000000#32)

theorem cN_apply (o : Fin 1536) : cN (ix1 o) = Spec.nN := by
  unfold cN Spec.nN
  rw [broadcastInDim_scalar_apply, constant_apply]

theorem cZ_apply (o : Fin 1536) : cZ (ix1 o) = 0 := by
  unfold cZ
  rw [broadcastInDim_scalar_apply, constant_apply, Ideal.ofBits_zero_f32]

/-- On a per-tile array the chain gives, at column o, the sum over the tiles of their row-0 entries. -/
theorem colT_tile (T : Fin 64 → Fin 1536 → EReal) (o : Fin 1536) :
    colT (tile T) (ix1 o) = ∑ t : Fin 64, T t o := by
  have h' : S64x1536.ReducesTo [0] S1536 := Facts₀.reducesTo_S64x1536_S1536_d0
  have h : S64x1536.Reduces [0] S1536 := ⟨h'.1, Nat.one_pos, h'.2⟩
  unfold colT
  rw [hostReduceAdd_apply, Ideal.hostReduceAdd_single h' h, constant_apply, Ideal.ofBits_zero_f32, zero_add]
  show ∑ t : Fin 64, _ = _
  refine Finset.sum_congr rfl fun t _ => ?_
  have e : h.lift (ix1 o) t = ix2 t o := by
    funext a
    match a with
    | ⟨0, _⟩ => rfl
    | ⟨1, _⟩ => rfl
  rw [e]
  -- [64, 1, 1536] read as [64, 1536]: (t, o) is (t, 0, o)
  refine (shapeCast_apply _ _ (ix2 t o) (ix3 t (0 : Fin 1) o) ?_).trans ?_
  · rw [Shape.rowMajor_val_three, Shape.rowMajor_val_two]
    show (t.val * 1 + 0) * 1536 + o.val = t.val * 1536 + o.val
    omega
  -- row 0 of tile t
  refine (extractStridedSlice_apply _ _ _ (ix3 t (0 : Fin 1) o) (ix3 t (0 : Fin 8) o) ?_).trans ?_
  · intro a
    match a with
    | ⟨0, _⟩ => exact (Nat.zero_add _).symm
    | ⟨1, _⟩ => rfl
    | ⟨2, _⟩ => exact (Nat.zero_add _).symm
  -- [512, 1536] read as [64, 8, 1536]: (t, 0, o) is (8 · t, o)
  have ht : t.val * 8 < 512 := by have := t.isLt; omega
  refine (shapeCast_apply _ _ (ix3 t (0 : Fin 8) o) (ix2 (⟨t.val * 8, ht⟩ : Fin 512) o) ?_).trans ?_
  · rw [Shape.rowMajor_val_three, Shape.rowMajor_val_two]
    show t.val * 8 * 1536 + o.val = (t.val * 8 + 0) * 1536 + o.val
    omega
  unfold tile
  show (if t.val * 8 % 8 = 0 then T ⟨t.val * 8 / 8, _⟩ o else 0) = T t o
  rw [if_pos (Nat.mul_mod_left t.val 8)]
  exact congrArg (fun k => T k o) (Fin.ext (Nat.mul_div_cancel t.val (by decide)))

/-! ## The stretch at the four result buffers -/

theorem after_v30 (V : Valuation τ sig (Elt Ideal)) :
    StableHlo.after (hostOps3 (F := Ideal)) V (Proc.devRef .tc main_v30)
      = Host.divf (F := Ideal) (colT (V (Proc.devRef .tc main_v20_2))) cN := by
  unfold hostOps3
  after_results_simp
  rfl

theorem after_v36 (V : Valuation τ sig (Elt Ideal)) :
    StableHlo.after (hostOps3 (F := Ideal)) V (Proc.devRef .tc main_v36)
      = maximumf (subf (Host.divf (F := Ideal) (colT (V (Proc.devRef .tc main_v20_3))) cN)
          (mulf (Host.divf (F := Ideal) (colT (V (Proc.devRef .tc main_v20_2))) cN)
                (Host.divf (F := Ideal) (colT (V (Proc.devRef .tc main_v20_2))) cN))) cZ := by
  unfold hostOps3
  after_results_simp
  rfl

theorem after_v46 (V : Valuation τ sig (Elt Ideal)) :
    StableHlo.after (hostOps3 (F := Ideal)) V (Proc.devRef .tc main_v46)
      = Host.divf (F := Ideal) (colT (V (Proc.devRef .tc main_v20_4))) cN := by
  unfold hostOps3
  after_results_simp
  rfl

theorem after_v52 (V : Valuation τ sig (Elt Ideal)) :
    StableHlo.after (hostOps3 (F := Ideal)) V (Proc.devRef .tc main_v52)
      = maximumf (subf (Host.divf (F := Ideal) (colT (V (Proc.devRef .tc main_v20_5))) cN)
          (mulf (Host.divf (F := Ideal) (colT (V (Proc.devRef .tc main_v20_4))) cN)
                (Host.divf (F := Ideal) (colT (V (Proc.devRef .tc main_v20_4))) cN))) cZ := by
  unfold hostOps3
  after_results_simp
  rfl

/-! ## The column sums over tiles are the column sums over all rows -/

/-- The per-tile column sums of G. -/
def tsum (G : Spec.S2h.Idx → EReal) : Fin 64 → Fin 1536 → EReal := fun t o =>
  ∑ r : Fin 512, G (ix2 ⟨t.val * 512 + r.val, by
    have h0 : t.val < 64 := t.isLt; have h1 : r.val < 512 := r.isLt; omega⟩ o)

/-- The per-tile column sums of the squares of G. -/
def tsq (G : Spec.S2h.Idx → EReal) : Fin 64 → Fin 1536 → EReal := fun t o =>
  ∑ r : Fin 512, G (ix2 ⟨t.val * 512 + r.val, by
    have h0 : t.val < 64 := t.isLt; have h1 : r.val < 512 := r.isLt; omega⟩ o) * G (ix2 ⟨t.val * 512 + r.val, by
    have h0 : t.val < 64 := t.isLt; have h1 : r.val < 512 := r.isLt; omega⟩ o)

theorem sum_tsum (G : Spec.S2h.Idx → EReal) (o : Fin 1536) : ∑ t : Fin 64, tsum G t o = Spec.colsum G o :=
  (Cert.Math.sum_tiles fun n => G (ix2 n o)).symm

theorem sum_tsq (G : Spec.S2h.Idx → EReal) (o : Fin 1536) : ∑ t : Fin 64, tsq G t o = Spec.colsq G o :=
  (Cert.Math.sum_tiles fun n => G (ix2 n o) * G (ix2 n o)).symm

theorem mean_of (G : Spec.S2h.Idx → EReal) (y : S1536.Idx) :
    Host.divf (F := Ideal) (colT (tile (tsum G))) cN y = Spec.meanA G y := by
  obtain ⟨o, rfl⟩ : ∃ o : Fin 1536, y = ix1 o := ⟨y 0, eq_ix1 y⟩
  rw [hostDivf_apply, colT_tile, cN_apply, sum_tsum]
  rfl

theorem meansq_of (G : Spec.S2h.Idx → EReal) (y : S1536.Idx) :
    Host.divf (F := Ideal) (colT (tile (tsq G))) cN y = Ideal.div (Spec.colsq G (y 0)) Spec.nN := by
  obtain ⟨o, rfl⟩ : ∃ o : Fin 1536, y = ix1 o := ⟨y 0, eq_ix1 y⟩
  rw [hostDivf_apply, colT_tile, cN_apply, sum_tsq]

/-! ## The four results -/

theorem host3_mean1 (V : Valuation τ sig (Elt Ideal)) (G1 : Spec.S2h.Idx → EReal)
    (hs : V (Proc.devRef .tc main_v20_2) = tile (tsum G1)) :
    StableHlo.after (hostOps3 (F := Ideal)) V (Proc.devRef .tc main_v30) = Spec.meanA G1 := by
  rw [after_v30, hs]
  funext y
  exact mean_of G1 y

theorem host3_var1 (V : Valuation τ sig (Elt Ideal)) (G1 : Spec.S2h.Idx → EReal)
    (hs : V (Proc.devRef .tc main_v20_2) = tile (tsum G1)) (hq : V (Proc.devRef .tc main_v20_3) = tile (tsq G1)) :
    StableHlo.after (hostOps3 (F := Ideal)) V (Proc.devRef .tc main_v36) = Spec.varK G1 := by
  rw [after_v36, hs, hq]
  funext y
  rw [maximumf_apply, subf_apply, mulf_apply, meansq_of, mean_of]
  obtain ⟨o, rfl⟩ : ∃ o : Fin 1536, y = ix1 o := ⟨y 0, eq_ix1 y⟩
  rw [cZ_apply]
  rfl

theorem host3_mean2 (V : Valuation τ sig (Elt Ideal)) (G2 : Spec.S2h.Idx → EReal)
    (hs : V (Proc.devRef .tc main_v20_4) = tile (tsum G2)) :
    StableHlo.after (hostOps3 (F := Ideal)) V (Proc.devRef .tc main_v46) = Spec.meanA G2 := by
  rw [after_v46, hs]
  funext y
  exact mean_of G2 y

theorem host3_var2 (V : Valuation τ sig (Elt Ideal)) (G2 : Spec.S2h.Idx → EReal)
    (hs : V (Proc.devRef .tc main_v20_4) = tile (tsum G2)) (hq : V (Proc.devRef .tc main_v20_5) = tile (tsq G2)) :
    StableHlo.after (hostOps3 (F := Ideal)) V (Proc.devRef .tc main_v52) = Spec.varK G2 := by
  rw [after_v52, hs, hq]
  funext y
  rw [maximumf_apply, subf_apply, mulf_apply, meansq_of, mean_of]
  obtain ⟨o, rfl⟩ : ∃ o : Fin 1536, y = ix1 o := ⟨y 0, eq_ix1 y⟩
  rw [cZ_apply]
  rfl

end Cert.KernelIdeal.K3Host

end
-- ==== Proof.K0Pay.lean ====
import proofs.«404490_j9337258902039_3_alg».proof.Proof.Gen.KernelIdeal.Skeleton
import proofs.«404490_j9337258902039_3_alg».proof.Proof.Spec
import Idealize.ShloMosaic.Lib.ValueIdx
import Idealize.ShloMosaic.Lib.ValueLayout
import Idealize.ShloMosaic.Lib.Pipeline.Value
import Idealize.ShloMosaic.PureOps.Ideal.Laws

/-!
  Region 0's two stored blocks read at one index.

  Each stored block is a [1, 128, 4096] array. At (0, r, d) it is the quotient of two sums over the 512
  columns j of the adjacency rows held by the grid point: the numerator is Σ_j mask(r, j) · x(j, d), the
  denominator is the degree Σ_j mask(r, j), where mask(r, j) is 1 exactly when the adjacency word is
  positive and the global row (i 1) · 128 + r differs from the column j.
-/

noncomputable section

open scoped BigOperators

namespace Cert.KernelIdeal.K0Pay

open Idealize.ShloMosaic Idealize.ShloMosaic.ValueIdx
open Cert.KernelIdeal.Gen

/-- The [128, 512] by [512, 4096] block product into the zero block, at (r, d): the sum over the 512 shared
    coordinates of the products of the entries. -/
theorem mm_apply (A : FVec Ideal S128x512 .bf16) (B : FVec Ideal S512x4096 .bf16) (r : Fin 128) (d : Fin 4096) :
    matmul (F := Ideal) dot_S128x512_S512x4096_S128x4096_1_0_0_1_n_n none A B (constant S128x4096 .f32 0x00000000#32) (ix2 r d)
      = ∑ j : Fin 512, A (ix2 r j) * B (ix2 j d) := by
  show FloatOps.matmul _ none A B _ (ix2 r d) = _
  rw [Ideal.matmul_constant_zero_apply,
    ← Equiv.sum_comp (contrEquiv1 dot_S128x512_S512x4096_S128x4096_1_0_0_1_n_n 512 rfl rfl).symm]
  refine Finset.sum_congr rfl fun c _ => ?_
  have c2 := contrEquiv1_symm_val dot_S128x512_S512x4096_S128x4096_1_0_0_1_n_n 512 rfl rfl c
  have l2 : dot_S128x512_S512x4096_S128x4096_1_0_0_1_n_n.lhsIdx (ix2 r d) ((contrEquiv1 _ 512 rfl rfl).symm c) = ix2 r c := by
    funext ax; apply Fin.ext
    match ax with
    | ⟨0, _⟩ => simp [DotDims.lhsIdx, dot_S128x512_S512x4096_S128x4096_1_0_0_1_n_n]; rfl
    | ⟨1, _⟩ => simp [DotDims.lhsIdx, dot_S128x512_S512x4096_S128x4096_1_0_0_1_n_n]; exact c2
  have r2 : dot_S128x512_S512x4096_S128x4096_1_0_0_1_n_n.rhsIdx (ix2 r d) ((contrEquiv1 _ 512 rfl rfl).symm c) = ix2 c d := by
    funext ax; apply Fin.ext
    match ax with
    | ⟨0, _⟩ => simp [DotDims.rhsIdx, dot_S128x512_S512x4096_S128x4096_1_0_0_1_n_n]; exact c2
    | ⟨1, _⟩ => simp [DotDims.rhsIdx, dot_S128x512_S512x4096_S128x4096_1_0_0_1_n_n]; rfl
  rw [l2, r2]

/-- A [128] array cast to [128, 1] reads, at (r, u), the operand at r. -/
theorem cast_col_apply (x : FVec Ideal S128 .f32) (r : Fin 128) (u : Fin 1) :
    shapeCast S128x1 x shapeCasts_S128_S128x1 (ix2 r u) = x (ix1 r) :=
  shapeCast_apply x _ _ _ (by
    have hu : u.val = 0 := by omega
    rw [Shape.rowMajor_val_two, Shape.rowMajor_val_one]
    show r.val = r.val * 1 + u.val
    omega)

/-- A [128, 1] column broadcast to [128, 4096] reads, at (r, d), the column's entry at r. -/
theorem bcast_col_apply (v : FVec Ideal S128x1 .f32) (r : Fin 128) (d : Fin 4096) :
    broadcastTo S128x4096 v broadcasts_S128x1_S128x4096 (ix2 r d) = v (ix2 r 0) := by
  refine broadcastTo_apply v _ (ix2 r d) (ix2 r 0) fun ax => ?_
  match ax with
  | ⟨0, _⟩ => rfl
  | ⟨1, _⟩ => rfl

/-- The stored block over any mask and any degree vector, at (0, r, d): the mask row against column d of the
    features, over the degree at r. -/
theorem pay1_gen (v33 : IVec S128x512 1) (v36 : FVec Ideal S128 .f32) (v41 : Vec Ideal S1x512x4096 .bf16)
    (r : Fin 128) (d : Fin 4096) :
    k0_pay1 (F := Ideal) v33 v36 v41 (ix3 0 r d)
      = Ideal.div (∑ j : Fin 512, FloatOps.sitofp (F := Ideal) .f32 ((v33 (ix2 r j)).setWidth 32) * v41 (ix3 0 j d))
                  (v36 (ix1 r)) := by
  unfold k0_pay1
  rw [shapeCast_ab_1ab_apply]
  show Ideal.div (matmul (F := Ideal) dot_S128x512_S512x4096_S128x4096_1_0_0_1_n_n none _ _ _ (ix2 r d))
      (broadcastTo S128x4096 _ broadcasts_S128x1_S128x4096 (ix2 r d)) = _
  rw [mm_apply, bcast_col_apply, cast_col_apply]
  refine congrArg (fun s => Ideal.div s _) (Finset.sum_congr rfl fun j _ => ?_)
  rw [shapeCast_1ab_ab_apply]
  rfl

/-- The mask word of the grid point at (r, j): the adjacency word is positive, and the word of the global row
    (i 1) · 128 + r is not the word of the column j. -/
theorem pay4_word (i : grid0.Coords) (a : Vec Ideal S1x128x512 .i32) (r : Fin 128) (j : Fin 512) :
    k0_pay4 (F := Ideal) i a (ix2 r j)
      = IntOp.andi (IntOp.cmpi .sgt (a (ix3 0 r j)) 0#32)
          (IntOp.xori (IntOp.cmpi .eq (IntOp.addi (Scalar.muli (BitVec.ofNat 32 (i 1).val) 128#32) (BitVec.ofNat 32 r.val))
            (BitVec.ofNat 32 j.val)) 1#1) := by
  unfold k0_pay4 k0_pay2
  show IntOp.andi (IntOp.cmpi .sgt (shapeCast S128x512 a shapeCasts_S1x128x512_S128x512 (ix2 r j)) 0#32)
      (IntOp.xori (IntOp.cmpi .eq (IntOp.addi (Scalar.muli (BitVec.ofNat 32 (i 1).val) 128#32)
        (iota .tc S128x512 32 [0] iota_S128x512_d0_w32 (ix2 r j))) (iota .tc S128x512 32 [1] iota_S128x512_d1_w32 (ix2 r j))) 1#1) = _
  rw [shapeCast_1ab_ab_apply, iota_single_apply, iota_single_apply]

/-- Below 2^32 two naturals have the same 32-bit word exactly when they are equal. -/
theorem ofNat_beq (x y : ℕ) (hx : x < 4294967296) (hy : y < 4294967296) :
    (BitVec.ofNat 32 x == BitVec.ofNat 32 y) = decide (x = y) := by
  rw [Bool.eq_iff_iff, beq_iff_eq, decide_eq_true_eq, ← BitVec.toNat_inj, BitVec.toNat_ofNat, BitVec.toNat_ofNat,
    Nat.mod_eq_of_lt (by omega), Nat.mod_eq_of_lt (by omega)]

/-- The complement of a one-bit decision is the decision of the negation. -/
theorem xori_ofBool_one (p : Bool) : IntOp.xori (BitVec.ofBool p) 1#1 = BitVec.ofBool (!p) := by
  cases p <;> decide

/-- The mask word is the decision "the adjacency word is positive and the row is not the column", the row
    b · 128 + r and the column j being small enough for their words not to wrap. -/
theorem mask_word (a : BitVec 32) (b r j : ℕ) (hb : b < 4) (hr : r < 128) (hj : j < 512) :
    IntOp.andi (IntOp.cmpi .sgt a 0#32)
        (IntOp.xori (IntOp.cmpi .eq (IntOp.addi (Scalar.muli (BitVec.ofNat 32 b) 128#32) (BitVec.ofNat 32 r)) (BitVec.ofNat 32 j)) 1#1)
      = BitVec.ofBool (decide (0 < a.toInt ∧ b * 128 + r ≠ j)) := by
  have h1 : IntOp.addi (Scalar.muli (BitVec.ofNat 32 b) 128#32) (BitVec.ofNat 32 r) = BitVec.ofNat 32 (b * 128 + r) := by
    show BitVec.ofNat 32 b * BitVec.ofNat 32 128 + BitVec.ofNat 32 r = _
    rw [BitVec.ofNat_add, BitVec.ofNat_mul]
  have h2 : IntOp.cmpi .eq (BitVec.ofNat 32 (b * 128 + r)) (BitVec.ofNat 32 j) = BitVec.ofBool (decide (b * 128 + r = j)) :=
    congrArg BitVec.ofBool (ofNat_beq _ _ (by omega) (by omega))
  have h3 : IntOp.cmpi .sgt a 0#32 = BitVec.ofBool (decide (0 < a.toInt)) := by
    show BitVec.ofBool ((0#32).slt a) = _
    rw [BitVec.slt_eq_decide, BitVec.toInt_zero]
  rw [h1, h2, h3, xori_ofBool_one]
  show BitVec.ofBool _ &&& BitVec.ofBool _ = _
  rw [BitVec.ofBool_and_ofBool]
  congr 1
  rw [Bool.eq_iff_iff]
  simp

/-- A one-bit decision widened to 32 bits and read as a signed number is 1 when it holds and 0 when it does not. -/
theorem bit_real (c : Bool) :
    FloatOps.sitofp (F := Ideal) .f32 ((BitVec.ofBool c).setWidth 32) = if c then (1 : EReal) else 0 := by
  cases c
  · show (((0#32 : BitVec 32).toInt : ℝ) : EReal) = 0
    simp
  · show (((1#32 : BitVec 32).toInt : ℝ) : EReal) = 1
    simp

/-- The mask entry of the grid point at (r, j), widened and read as a number, is the mask value of the adjacency
    word at global row (i 1) · 128 + r and column j. -/
theorem mask_elt (i : grid0.Coords) (a : Vec Ideal S1x128x512 .i32) (r : Fin 128) (j : Fin 512) :
    FloatOps.sitofp (F := Ideal) .f32 ((k0_pay4 (F := Ideal) i a (ix2 r j)).setWidth 32)
      = Spec.mskv (a (ix3 0 r j)) ((i 1).val * 128 + r.val) j.val := by
  have hb : (i 1).val < 4 := (i 1).isLt
  rw [pay4_word, mask_word _ _ _ _ hb r.isLt j.isLt, bit_real]
  simp only [Spec.mskv, decide_eq_true_eq]

/-- The degree vector at r: the sum of the mask values along row r. -/
theorem pay5_apply (i : grid0.Coords) (a : Vec Ideal S1x128x512 .i32) (r : Fin 128) :
    k0_pay5 (F := Ideal) i a (ix1 r)
      = ∑ j : Fin 512, Spec.mskv (a (ix3 0 r j)) ((i 1).val * 128 + r.val) j.val := by
  unfold k0_pay5
  refine (Ideal.multiReduction_add_single _ _ reduces_S128x512_S128 _ _ (ix1 r)).trans ?_
  show ∑ j : Fin 512, _ = _
  refine Finset.sum_congr rfl fun j _ => ?_
  have hl : reduces_S128x512_S128.lift (ix1 r) j = ix2 r j := by
    funext ax
    match ax with
    | ⟨0, _⟩ => rfl
    | ⟨1, _⟩ => rfl
  rw [hl]
  exact mask_elt i a r j

/-- The second stored block at (0, r, d): the masked row sum of the features over the degree. -/
theorem pay1_apply (i : grid0.Coords) (v28 : Vec Ideal S1x128x512 .i32) (v41 : Vec Ideal S1x512x4096 .bf16)
    (r : Fin 128) (d : Fin 4096) :
    k0_pay1 (F := Ideal) (k0_pay4 i v28) (k0_pay5 (F := Ideal) i v28) v41 (ix3 0 r d)
      = Ideal.div (∑ j : Fin 512, Spec.mskv (v28 (ix3 0 r j)) ((i 1).val * 128 + r.val) j.val * v41 (ix3 0 j d))
                  (∑ j : Fin 512, Spec.mskv (v28 (ix3 0 r j)) ((i 1).val * 128 + r.val) j.val) := by
  rw [pay1_gen, pay5_apply]
  refine congrArg (fun s => Ideal.div s _) (Finset.sum_congr rfl fun j _ => ?_)
  rw [mask_elt]

/-- The first stored block is the same expression over the first adjacency rows and features: its mask and its
    degree vector are those of the second block's formula, term for term. -/
theorem pay3_eq_pay1 (i : grid0.Coords) (v6 : Vec Ideal S1x128x512 .i32) (v19 : Vec Ideal S1x512x4096 .bf16) :
    k0_pay3 (F := Ideal) i v6 v19 = k0_pay1 (F := Ideal) (k0_pay4 i v6) (k0_pay5 (F := Ideal) i v6) v19 := rfl

/-- The first stored block at (0, r, d): the masked row sum of the features over the degree. -/
theorem pay3_apply (i : grid0.Coords) (v6 : Vec Ideal S1x128x512 .i32) (v19 : Vec Ideal S1x512x4096 .bf16)
    (r : Fin 128) (d : Fin 4096) :
    k0_pay3 (F := Ideal) i v6 v19 (ix3 0 r d)
      = Ideal.div (∑ j : Fin 512, Spec.mskv (v6 (ix3 0 r j)) ((i 1).val * 128 + r.val) j.val * v19 (ix3 0 j d))
                  (∑ j : Fin 512, Spec.mskv (v6 (ix3 0 r j)) ((i 1).val * 128 + r.val) j.val) := by
  rw [pay3_eq_pay1]
  exact pay1_apply i v6 v19 r d

end Cert.KernelIdeal.K0Pay

end
-- ==== Proof.K0Host.lean ====
/-
  The four host operations before region 0, read at the extended reals. The two narrowing casts are the identity
  there, so each cast copy is its argument; the two reshapes [8, 512, 8, 512] → [8, 512, 4096] keep the row-major
  position, so column d of the result is entry (d / 512, d % 512) of the last two axes. The two adjacency
  arguments are written by none of the four operations.
-/
import proofs.«404490_j9337258902039_3_alg».proof.Proof.FrameKI
import proofs.«404490_j9337258902039_3_alg».proof.Proof.Spec
import proofs.«404490_j9337258902039_3_alg».proof.Proof.Pass
import Idealize.ShloMosaic.PureOps.Ideal
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.K0Host

open Cert.KernelIdeal Cert.KernelIdeal.Gen Cert.KernelIdeal.GenP
open Idealize.ShloMosaic Idealize.ShloMosaic.TcCoe Idealize.ShloMosaic.ValueIdx

/-- The reshape [8, 512, 8, 512] → [8, 512, 4096] read at an index: both sides sit at row-major position
((b · 512 + s) · 8 + d / 512) · 512 + d % 512 = (b · 512 + s) · 4096 + d. -/
theorem reshape_flat (x : Spec.S4x.Idx → EReal) (h : S8x512x8x512.ShapeCasts S8x512x4096) :
    shapeCast S8x512x4096 x h = Spec.flat x := by
  funext y
  refine shapeCast_apply x h y _ ?_
  rw [Shape.rowMajor_val_four, Shape.rowMajor_val_three]
  have h2 : (y 2).val < 4096 := (y 2).isLt
  show (((y 0).val * 512 + (y 1).val) * 8 + (y 2).val / 512) * 512 + (y 2).val % 512
    = ((y 0).val * 512 + (y 1).val) * 4096 + (y 2).val
  omega

variable (m : (ℓ : Loc nD τ sig) → Buf (Elt Ideal) ℓ) (ρ : Dev nD → PrngReg) (c : Dev nD)

/-- The cast copy of the first feature array is the array itself. -/
theorem w1_v0 : (W1 m ρ c (Proc.devRef .tc main_v0) : S8x512x8x512.Idx → EReal) = m ((c : Thread nD τ).loc main_arg0) := by
  show StableHlo.after hostOps0 (W0 m ρ c) (Proc.devRef .tc main_v0) = _
  after_results
  rfl

/-- The cast copy of the second feature array is the array itself. -/
theorem w1_v1 : (W1 m ρ c (Proc.devRef .tc main_v1) : S8x512x8x512.Idx → EReal) = m ((c : Thread nD τ).loc main_arg1) := by
  show StableHlo.after hostOps0 (W0 m ρ c) (Proc.devRef .tc main_v1) = _
  after_results
  rfl

/-- The first feature array, cast and reshaped, is its [8, 512, 4096] reading. -/
theorem w1_v2 : (W1 m ρ c (Proc.devRef .tc main_v2) : S8x512x4096.Idx → EReal)
    = Spec.flat (m ((c : Thread nD τ).loc main_arg0)) := by
  show StableHlo.after hostOps0 (W0 m ρ c) (Proc.devRef .tc main_v2) = _
  after_results
  exact reshape_flat _ _

/-- The second feature array, cast and reshaped, is its [8, 512, 4096] reading. -/
theorem w1_v3 : (W1 m ρ c (Proc.devRef .tc main_v3) : S8x512x4096.Idx → EReal)
    = Spec.flat (m ((c : Thread nD τ).loc main_arg1)) := by
  show StableHlo.after hostOps0 (W0 m ρ c) (Proc.devRef .tc main_v3) = _
  after_results
  exact reshape_flat _ _

/-- The first adjacency array is as launched. -/
theorem w1_arg2 : W1 m ρ c (Proc.devRef .tc main_arg2) = m ((c : Thread nD τ).loc main_arg2) :=
  (Pass.W1_of_W0 m ρ c main_arg2 (.inr (.inr (.inl rfl)))).trans (Pass.W0_arg m ρ c main_arg2)

/-- The second adjacency array is as launched. -/
theorem w1_arg3 : W1 m ρ c (Proc.devRef .tc main_arg3) = m ((c : Thread nD τ).loc main_arg3) :=
  (Pass.W1_of_W0 m ρ c main_arg3 (.inr (.inr (.inr (.inl rfl))))).trans (Pass.W0_arg m ρ c main_arg3)

end Cert.KernelIdeal.K0Host

end
-- ==== Proof.K0Arr.lean ====
import proofs.«404490_j9337258902039_3_alg».proof.Proof.FrameKI
import proofs.«404490_j9337258902039_3_alg».proof.Proof.K0Pay
import proofs.«404490_j9337258902039_3_alg».proof.Proof.K0Host
import proofs.«404490_j9337258902039_3_alg».proof.Proof.Spec
import Idealize.ShloMosaic.Lib.ValueIdx
import Idealize.ShloMosaic.Lib.ValueLayout
import Idealize.ShloMosaic.Lib.Pipeline.Value
import Idealize.ShloMosaic.Lib.StableHlo.Run

/-!
  Region 0 and the host operations before it, assembled.

  The grid is 8 × 4: point t has coordinates (b, si). It reads the whole [512, 4096] slab of batch b of each
  feature array and rows si · 128 … si · 128 + 127 of batch b of each adjacency array, and writes rows
  si · 128 … of batch b of each output. Each written block is the neighbour mean restricted to those rows, the
  32 blocks tile each output array, so each output array ends as the neighbour mean of the flattened features.
-/

noncomputable section

open scoped BigOperators

namespace Cert.KernelIdeal.K0Arr

open Idealize.ShloMosaic Idealize.ShloMosaic.TcCoe Idealize.ShloMosaic.ValueIdx
open Idealize.ShloMosaic.Pipeline (Dat Cfg Window)
open Cert.KernelIdeal.Gen Cert.KernelIdeal.GenP

variable (m : (ℓ : Loc nD τ sig) → Buf (Elt Ideal) ℓ) (ρ : Dev nD → PrngReg)

/-! ## The index maps over the grid -/

theorem hz3 : (![0, 0, 0] : Fin 3 → Nat) = fun _ => 0 := funext fun a => by fin_cases a <;> rfl

/-- Over the 32 points: every window's batch index is the output's; the feature windows take the whole slab; the
    adjacency windows and the second output take the output's row block; the output's indices are (b, si, 0) with
    b ≤ 7, si ≤ 3; and the point's second coordinate is the output's row-block index. -/
theorem idx_facts : ∀ t : Fin cfg0.N,
      win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_5.index t (0 : Fin 3) = win0_4.index t (0 : Fin 3) ∧ win0_5.index t (1 : Fin 3) = win0_4.index t (1 : Fin 3) ∧ win0_5.index t (2 : Fin 3) = 0
    ∧ win0_4.index t (0 : Fin 3) ≤ 7 ∧ win0_4.index t (1 : Fin 3) ≤ 3 ∧ win0_4.index t (2 : Fin 3) = 0
    ∧ (grid0.coords t (1 : Fin 2)).val = win0_4.index t (1 : Fin 3) :=
  (by decide +kernel : ∀ t : Fin grid0.N, _)

/-- Every (batch, row block) is some point's. -/
theorem idx_onto : ∀ (q0 : Fin 8) (q1 : Fin 4), ∃ t : Fin cfg0.N, win0_4.index t = ![q0.val, q1.val, 0] ∧ win0_5.index t = ![q0.val, q1.val, 0] :=
  (by decide +kernel : ∀ (q0 : Fin 8) (q1 : Fin 4), ∃ t : Fin grid0.N, win0_4.index t = ![q0.val, q1.val, 0] ∧ win0_5.index t = ![q0.val, q1.val, 0])

/-! ## A point's batch and rows -/

/-- The batch of point t. -/
def bOf (t : Fin cfg0.N) : Fin 8 := ⟨win0_4.index t (0 : Fin 3), by have := (idx_facts t).2.2.2.2.2.2.2.2.2.2.2.2.2.2.2.1; omega⟩

/-- Row r of point t's row block, as a row of the array. -/
def rowOf (t : Fin cfg0.N) (r : Fin 128) : Fin 512 :=
  ⟨win0_4.index t (1 : Fin 3) * 128 + r.val, by have := (idx_facts t).2.2.2.2.2.2.2.2.2.2.2.2.2.2.2.2.1; have := r.isLt; omega⟩

theorem rowOf_val (t : Fin cfg0.N) (r : Fin 128) : (grid0.coords t (1 : Fin 2)).val * 128 + r.val = (rowOf t r).val := by
  have eg := (idx_facts t).2.2.2.2.2.2.2.2.2.2.2.2.2.2.2.2.2.2
  show _ = win0_4.index t (1 : Fin 3) * 128 + r.val
  omega

/-! ## One point's stored blocks, as the neighbour mean of whole arrays -/

/-- If the point's adjacency rows are rows row(r) of batch b of A, with row(r) = (i 1) · 128 + r, and its features are
    slab b of X, then its first stored block at (0, r, d) is the neighbour mean of X and A at (b, row r, d). -/
theorem blk3_apply (i : grid0.Coords) (X : Spec.S3x.Idx → EReal) (A : Spec.S3a.Idx → BitVec 32)
    (v6 : Vec Ideal S1x128x512 .i32) (v19 : Vec Ideal S1x512x4096 .bf16) (b : Fin 8) (row : Fin 128 → Fin 512)
    (hrow : ∀ r, (i 1).val * 128 + r.val = (row r).val)
    (hv6 : ∀ (r : Fin 128) (j : Fin 512), v6 (ix3 0 r j) = A (ix3 b (row r) j))
    (hv19 : ∀ (j : Fin 512) (d : Fin 4096), v19 (ix3 0 j d) = X (ix3 b j d))
    (r : Fin 128) (d : Fin 4096) :
    k0_pay3 (F := Ideal) i v6 v19 (ix3 0 r d) = Spec.nbA X A (ix3 b (row r) d) := by
  refine (K0Pay.pay3_apply i v6 v19 r d).trans ?_
  show _ = Ideal.div (∑ j : Fin 512, Spec.mskv (A (ix3 b (row r) j)) (row r).val j.val * X (ix3 b j d))
      (∑ j : Fin 512, Spec.mskv (A (ix3 b (row r) j)) (row r).val j.val)
  simp only [hv6, hv19, hrow]

/-- The same for the second stored block. -/
theorem blk1_apply (i : grid0.Coords) (X : Spec.S3x.Idx → EReal) (A : Spec.S3a.Idx → BitVec 32)
    (v28 : Vec Ideal S1x128x512 .i32) (v41 : Vec Ideal S1x512x4096 .bf16) (b : Fin 8) (row : Fin 128 → Fin 512)
    (hrow : ∀ r, (i 1).val * 128 + r.val = (row r).val)
    (hv28 : ∀ (r : Fin 128) (j : Fin 512), v28 (ix3 0 r j) = A (ix3 b (row r) j))
    (hv41 : ∀ (j : Fin 512) (d : Fin 4096), v41 (ix3 0 j d) = X (ix3 b j d))
    (r : Fin 128) (d : Fin 4096) :
    k0_pay1 (F := Ideal) (k0_pay4 i v28) (k0_pay5 (F := Ideal) i v28) v41 (ix3 0 r d) = Spec.nbA X A (ix3 b (row r) d) := by
  refine (K0Pay.pay1_apply i v28 v41 r d).trans ?_
  show _ = Ideal.div (∑ j : Fin 512, Spec.mskv (A (ix3 b (row r) j)) (row r).val j.val * X (ix3 b j d))
      (∑ j : Fin 512, Spec.mskv (A (ix3 b (row r) j)) (row r).val j.val)
  simp only [hv28, hv41, hrow]

/-- The same at any index y of the stored block: the neighbour mean at (b, row (y 1), y 2). -/
theorem blk3_at (i : grid0.Coords) (X : Spec.S3x.Idx → EReal) (A : Spec.S3a.Idx → BitVec 32)
    (v6 : Vec Ideal S1x128x512 .i32) (v19 : Vec Ideal S1x512x4096 .bf16) (b : Fin 8) (row : Fin 128 → Fin 512)
    (hrow : ∀ r, (i 1).val * 128 + r.val = (row r).val)
    (hv6 : ∀ (r : Fin 128) (j : Fin 512), v6 (ix3 0 r j) = A (ix3 b (row r) j))
    (hv19 : ∀ (j : Fin 512) (d : Fin 4096), v19 (ix3 0 j d) = X (ix3 b j d))
    (y : S1x128x4096.Idx) :
    k0_pay3 (F := Ideal) i v6 v19 y = Spec.nbA X A (ix3 b (row (y 1)) (y 2)) := by
  obtain ⟨u, r, d, rfl⟩ : ∃ (u : Fin 1) (r : Fin 128) (d : Fin 4096), y = ix3 u r d := ⟨y 0, y 1, y 2, eq_ix3 y⟩
  obtain rfl : u = 0 := Subsingleton.elim _ _
  exact blk3_apply i X A v6 v19 b row hrow hv6 hv19 r d

theorem blk1_at (i : grid0.Coords) (X : Spec.S3x.Idx → EReal) (A : Spec.S3a.Idx → BitVec 32)
    (v28 : Vec Ideal S1x128x512 .i32) (v41 : Vec Ideal S1x512x4096 .bf16) (b : Fin 8) (row : Fin 128 → Fin 512)
    (hrow : ∀ r, (i 1).val * 128 + r.val = (row r).val)
    (hv28 : ∀ (r : Fin 128) (j : Fin 512), v28 (ix3 0 r j) = A (ix3 b (row r) j))
    (hv41 : ∀ (j : Fin 512) (d : Fin 4096), v41 (ix3 0 j d) = X (ix3 b j d))
    (y : S1x128x4096.Idx) :
    k0_pay1 (F := Ideal) (k0_pay4 i v28) (k0_pay5 (F := Ideal) i v28) v41 y = Spec.nbA X A (ix3 b (row (y 1)) (y 2)) := by
  obtain ⟨u, r, d, rfl⟩ : ∃ (u : Fin 1) (r : Fin 128) (d : Fin 4096), y = ix3 u r d := ⟨y 0, y 1, y 2, eq_ix3 y⟩
  obtain rfl : u = 0 := Subsingleton.elim _ _
  exact blk1_apply i X A v28 v41 b row hrow hv28 hv41 r d

/-! ## The arrays region 0 reads, as it finds them -/

/-- The two feature arrays as [8, 512, 4096], and the two adjacency arrays, at region 0's entry. -/
abbrev xs1 (c : Dev nD) : Spec.S3x.Idx → EReal := V1 (F := Ideal) m ρ c main_v2
abbrev xs2 (c : Dev nD) : Spec.S3x.Idx → EReal := V1 (F := Ideal) m ρ c main_v3
abbrev adj1 (c : Dev nD) : Spec.S3a.Idx → BitVec 32 := V1 (F := Ideal) m ρ c main_arg2
abbrev adj2 (c : Dev nD) : Spec.S3a.Idx → BitVec 32 := V1 (F := Ideal) m ρ c main_arg3

/-! ## The input blocks of a point, read off the arrays -/

/-- Point t's first adjacency block is rows rowOf t · of batch bOf t of the first adjacency array. -/
theorem adjblk1 (c : Dev nD) (t : Fin cfg0.N) (r : Fin 128) (jj : Fin 512) :
    iblk0 (V1 (F := Ideal) m ρ) c 2 t (ix3 0 r jj) = adj1 m ρ c (ix3 (bOf t) (rowOf t r) jj) := by
  obtain ⟨e00, e01, e02, e10, e11, e12, e20, e21, e22, e30, e31, e32, e50, e51, e52, b0, b1, e42, eg⟩ := idx_facts t
  show V1 (F := Ideal) m ρ c main_arg2 (((cfg0.win 2).blk t).view.emb (ix3 0 r jj))
      = V1 (F := Ideal) m ρ c main_arg2 (ix3 (bOf t) (rowOf t r) jj)
  refine congrArg (V1 (F := Ideal) m ρ c main_arg2) (funext fun a => Fin.ext ?_)
  match a with
  | ⟨0, _⟩ => show win0_2.index t (0 : Fin 3) * 1 + 1 * 0 = win0_4.index t (0 : Fin 3); omega
  | ⟨1, _⟩ => show win0_2.index t (1 : Fin 3) * 128 + 1 * r.val = win0_4.index t (1 : Fin 3) * 128 + r.val; omega
  | ⟨2, _⟩ => show win0_2.index t (2 : Fin 3) * 512 + 1 * jj.val = jj.val; omega

/-- Point t's second adjacency block likewise. -/
theorem adjblk2 (c : Dev nD) (t : Fin cfg0.N) (r : Fin 128) (jj : Fin 512) :
    iblk0 (V1 (F := Ideal) m ρ) c 3 t (ix3 0 r jj) = adj2 m ρ c (ix3 (bOf t) (rowOf t r) jj) := by
  obtain ⟨e00, e01, e02, e10, e11, e12, e20, e21, e22, e30, e31, e32, e50, e51, e52, b0, b1, e42, eg⟩ := idx_facts t
  show V1 (F := Ideal) m ρ c main_arg3 (((cfg0.win 3).blk t).view.emb (ix3 0 r jj))
      = V1 (F := Ideal) m ρ c main_arg3 (ix3 (bOf t) (rowOf t r) jj)
  refine congrArg (V1 (F := Ideal) m ρ c main_arg3) (funext fun a => Fin.ext ?_)
  match a with
  | ⟨0, _⟩ => show win0_3.index t (0 : Fin 3) * 1 + 1 * 0 = win0_4.index t (0 : Fin 3); omega
  | ⟨1, _⟩ => show win0_3.index t (1 : Fin 3) * 128 + 1 * r.val = win0_4.index t (1 : Fin 3) * 128 + r.val; omega
  | ⟨2, _⟩ => show win0_3.index t (2 : Fin 3) * 512 + 1 * jj.val = jj.val; omega

/-- Point t's first feature block is the whole slab of batch bOf t of the first feature array. -/
theorem xblk1 (c : Dev nD) (t : Fin cfg0.N) (jj : Fin 512) (d : Fin 4096) :
    iblk0 (V1 (F := Ideal) m ρ) c 0 t (ix3 0 jj d) = xs1 m ρ c (ix3 (bOf t) jj d) := by
  obtain ⟨e00, e01, e02, e10, e11, e12, e20, e21, e22, e30, e31, e32, e50, e51, e52, b0, b1, e42, eg⟩ := idx_facts t
  show V1 (F := Ideal) m ρ c main_v2 (((cfg0.win 0).blk t).view.emb (ix3 0 jj d))
      = V1 (F := Ideal) m ρ c main_v2 (ix3 (bOf t) jj d)
  refine congrArg (V1 (F := Ideal) m ρ c main_v2) (funext fun a => Fin.ext ?_)
  match a with
  | ⟨0, _⟩ => show win0_0.index t (0 : Fin 3) * 1 + 1 * 0 = win0_4.index t (0 : Fin 3); omega
  | ⟨1, _⟩ => show win0_0.index t (1 : Fin 3) * 512 + 1 * jj.val = jj.val; omega
  | ⟨2, _⟩ => show win0_0.index t (2 : Fin 3) * 4096 + 1 * d.val = d.val; omega

/-- Point t's second feature block likewise. -/
theorem xblk2 (c : Dev nD) (t : Fin cfg0.N) (jj : Fin 512) (d : Fin 4096) :
    iblk0 (V1 (F := Ideal) m ρ) c 1 t (ix3 0 jj d) = xs2 m ρ c (ix3 (bOf t) jj d) := by
  obtain ⟨e00, e01, e02, e10, e11, e12, e20, e21, e22, e30, e31, e32, e50, e51, e52, b0, b1, e42, eg⟩ := idx_facts t
  show V1 (F := Ideal) m ρ c main_v3 (((cfg0.win 1).blk t).view.emb (ix3 0 jj d))
      = V1 (F := Ideal) m ρ c main_v3 (ix3 (bOf t) jj d)
  refine congrArg (V1 (F := Ideal) m ρ c main_v3) (funext fun a => Fin.ext ?_)
  match a with
  | ⟨0, _⟩ => show win0_1.index t (0 : Fin 3) * 1 + 1 * 0 = win0_4.index t (0 : Fin 3); omega
  | ⟨1, _⟩ => show win0_1.index t (1 : Fin 3) * 512 + 1 * jj.val = jj.val; omega
  | ⟨2, _⟩ => show win0_1.index t (2 : Fin 3) * 4096 + 1 * d.val = d.val; omega

/-! ## Where a point's output blocks sit in the arrays -/

/-- Index y of point t's first output block is index (bOf t, rowOf t (y 1), y 2) of the array. -/
theorem emb4 (t : Fin cfg0.N) (y : S1x128x4096.Idx) :
    ((cfg0.win 4).blk t).view.emb y = ix3 (bOf t) (rowOf t (y 1)) (y 2) := by
  obtain ⟨e00, e01, e02, e10, e11, e12, e20, e21, e22, e30, e31, e32, e50, e51, e52, b0, b1, e42, eg⟩ := idx_facts t
  refine funext fun a => Fin.ext ?_
  match a with
  | ⟨0, _⟩ => show win0_4.index t (0 : Fin 3) * 1 + 1 * (y 0).val = win0_4.index t (0 : Fin 3); have hy : (y 0).val < 1 := (y 0).isLt; omega
  | ⟨1, _⟩ => show win0_4.index t (1 : Fin 3) * 128 + 1 * (y 1).val = win0_4.index t (1 : Fin 3) * 128 + (y 1).val; omega
  | ⟨2, _⟩ => show win0_4.index t (2 : Fin 3) * 4096 + 1 * (y 2).val = (y 2).val; omega

/-- The same for the second output block. -/
theorem emb5 (t : Fin cfg0.N) (y : S1x128x4096.Idx) :
    ((cfg0.win 5).blk t).view.emb y = ix3 (bOf t) (rowOf t (y 1)) (y 2) := by
  obtain ⟨e00, e01, e02, e10, e11, e12, e20, e21, e22, e30, e31, e32, e50, e51, e52, b0, b1, e42, eg⟩ := idx_facts t
  refine funext fun a => Fin.ext ?_
  match a with
  | ⟨0, _⟩ => show win0_5.index t (0 : Fin 3) * 1 + 1 * (y 0).val = win0_4.index t (0 : Fin 3); have hy : (y 0).val < 1 := (y 0).isLt; omega
  | ⟨1, _⟩ => show win0_5.index t (1 : Fin 3) * 128 + 1 * (y 1).val = win0_4.index t (1 : Fin 3) * 128 + (y 1).val; omega
  | ⟨2, _⟩ => show win0_5.index t (2 : Fin 3) * 4096 + 1 * (y 2).val = (y 2).val; omega

/-! ## What each point writes back -/

/-- Point t writes back, into the first output, its block of the neighbour mean of the first features and adjacency. -/
theorem flushed4_eq (c : Dev nD) (t : Fin cfg0.N) :
    (dat0 (V1 (F := Ideal) m ρ) c).flushed 4 t
      = ((cfg0.win 4).blk t).view.read (Elt Ideal) (Spec.nbA (xs1 m ρ c) (adj1 m ρ c)) := by
  show (cfg0.win 4).cut (grid0.coords t) ((dat0 (V1 (F := Ideal) m ρ) c).after 4 t) = _
  rw [after0_4]
  unfold out0_4
  rw [View.canon_unit_zero hz3]
  simp only [View.ld_unit_zero (S := S1x128x512) hz3, View.ld_unit_zero (S := S1x512x4096) hz3]
  funext j
  show k0_pay3 (F := Ideal) (grid0.coords t) (iblk0 (V1 (F := Ideal) m ρ) c 2 t) (iblk0 (V1 (F := Ideal) m ρ) c 0 t) j
      = Spec.nbA (xs1 m ρ c) (adj1 m ρ c) (((cfg0.win 4).blk t).view.emb j)
  refine (blk3_at (grid0.coords t) (xs1 m ρ c) (adj1 m ρ c) (iblk0 (V1 (F := Ideal) m ρ) c 2 t) (iblk0 (V1 (F := Ideal) m ρ) c 0 t)
    (bOf t) (rowOf t) (rowOf_val t) (adjblk1 m ρ c t) (xblk1 m ρ c t) j).trans ?_
  exact congrArg (Spec.nbA (xs1 m ρ c) (adj1 m ρ c)) (emb4 t j).symm

/-- Point t writes back, into the second output, its block of the neighbour mean of the second features and adjacency. -/
theorem flushed5_eq (c : Dev nD) (t : Fin cfg0.N) :
    (dat0 (V1 (F := Ideal) m ρ) c).flushed 5 t
      = ((cfg0.win 5).blk t).view.read (Elt Ideal) (Spec.nbA (xs2 m ρ c) (adj2 m ρ c)) := by
  show (cfg0.win 5).cut (grid0.coords t) ((dat0 (V1 (F := Ideal) m ρ) c).after 5 t) = _
  rw [after0_5]
  unfold out0_5
  rw [View.canon_unit_zero hz3]
  simp only [View.ld_unit_zero (S := S1x128x512) hz3, View.ld_unit_zero (S := S1x512x4096) hz3]
  funext j
  show k0_pay1 (F := Ideal) (k0_pay4 (grid0.coords t) (iblk0 (V1 (F := Ideal) m ρ) c 3 t))
        (k0_pay5 (F := Ideal) (grid0.coords t) (iblk0 (V1 (F := Ideal) m ρ) c 3 t)) (iblk0 (V1 (F := Ideal) m ρ) c 1 t) j
      = Spec.nbA (xs2 m ρ c) (adj2 m ρ c) (((cfg0.win 5).blk t).view.emb j)
  refine (blk1_at (grid0.coords t) (xs2 m ρ c) (adj2 m ρ c) (iblk0 (V1 (F := Ideal) m ρ) c 3 t) (iblk0 (V1 (F := Ideal) m ρ) c 1 t)
    (bOf t) (rowOf t) (rowOf_val t) (adjblk2 m ρ c t) (xblk2 m ρ c t) j).trans ?_
  exact congrArg (Spec.nbA (xs2 m ρ c) (adj2 m ρ c)) (emb5 t j).symm

/-! ## The 32 blocks tile each output array -/

/-- An index of the first output is in point t's block iff each coordinate is in the block's range on its axis. -/
theorem mem_blk4 (t : Fin cfg0.N) (i : S8x512x4096.Idx) :
    i ∈ ((cfg0.win 4).blk t).view.set ↔ ∀ a : Fin 3, win0_4.index t a * S1x128x4096.size a ≤ (i a).val
      ∧ (i a).val < win0_4.index t a * S1x128x4096.size a + S1x128x4096.size a := by
  show i ∈ ((View.whole main_v4_0).slice (win0_4.rect t)).set ↔ _
  rw [View.set_slice_whole, Rect.mem_set_unit]
  exact Iff.rfl

theorem mem_blk5 (t : Fin cfg0.N) (i : S8x512x4096.Idx) :
    i ∈ ((cfg0.win 5).blk t).view.set ↔ ∀ a : Fin 3, win0_5.index t a * S1x128x4096.size a ≤ (i a).val
      ∧ (i a).val < win0_5.index t a * S1x128x4096.size a + S1x128x4096.size a := by
  show i ∈ ((View.whole main_v4_1).slice (win0_5.rect t)).set ↔ _
  rw [View.set_slice_whole, Rect.mem_set_unit]
  exact Iff.rfl

/-- Index (b, s, d) of the first output lies in the block of the point with batch b and row block s / 128. -/
theorem cover4 (i : S8x512x4096.Idx) :
    ∃ t : Fin cfg0.N, (cfg0.win 4).flush t = true ∧ i ∈ ((cfg0.win 4).blk t).view.set := by
  have hi0 : (i 0).val < 8 := (i 0).isLt
  have hi1 : (i 1).val < 512 := (i 1).isLt
  have hi2 : (i 2).val < 4096 := (i 2).isLt
  obtain ⟨t, ht4, ht5⟩ := idx_onto ⟨(i 0).val, hi0⟩ ⟨(i 1).val / 128, by omega⟩
  have q0 : win0_4.index t (0 : Fin 3) = (i 0).val := congrFun ht4 0
  have q1 : win0_4.index t (1 : Fin 3) = (i 1).val / 128 := congrFun ht4 1
  have q2 : win0_4.index t (2 : Fin 3) = 0 := congrFun ht4 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 4096 ≤ (i 2).val ∧ (i 2).val < win0_4.index t (2 : Fin 3) * 4096 + 4096; omega

theorem cover5 (i : S8x512x4096.Idx) :
    ∃ t : Fin cfg0.N, (cfg0.win 5).flush t = true ∧ i ∈ ((cfg0.win 5).blk t).view.set := by
  have hi0 : (i 0).val < 8 := (i 0).isLt
  have hi1 : (i 1).val < 512 := (i 1).isLt
  have hi2 : (i 2).val < 4096 := (i 2).isLt
  obtain ⟨t, ht4, ht5⟩ := idx_onto ⟨(i 0).val, hi0⟩ ⟨(i 1).val / 128, by omega⟩
  have q0 : win0_5.index t (0 : Fin 3) = (i 0).val := congrFun ht5 0
  have q1 : win0_5.index t (1 : Fin 3) = (i 1).val / 128 := congrFun ht5 1
  have q2 : win0_5.index t (2 : Fin 3) = 0 := congrFun ht5 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 4096 ≤ (i 2).val ∧ (i 2).val < win0_5.index t (2 : Fin 3) * 4096 + 4096; omega

/-! ## The output arrays after region 0 -/

/-- The first output array ends as the neighbour mean of the first features and adjacency as region 0 finds them. -/
theorem final4 (c : Dev nD) :
    (dat0 (V1 (F := Ideal) m ρ) c).arrAt 4 cfg0.N = Spec.nbA (xs1 m ρ c) (adj1 m ρ c) :=
  (dat0 (V1 (F := Ideal) m ρ) c).arrAt_eq_of_cover 4 (Spec.nbA (xs1 m ρ c) (adj1 m ρ c))
    (fun t _ => flushed4_eq m ρ c t) cover4

/-- The second output array likewise. -/
theorem final5 (c : Dev nD) :
    (dat0 (V1 (F := Ideal) m ρ) c).arrAt 5 cfg0.N = Spec.nbA (xs2 m ρ c) (adj2 m ρ c) :=
  (dat0 (V1 (F := Ideal) m ρ) c).arrAt_eq_of_cover 5 (Spec.nbA (xs2 m ρ c) (adj2 m ρ c))
    (fun t _ => flushed5_eq m ρ c t) cover5

/-! ## Region 0 with the host operations before it -/

/-- After region 0 the first output holds the neighbour mean of the flattened first features and first adjacency. -/
theorem seg0_nb1 (c : Dev nD) :
    W2 (F := Ideal) m ρ c (Proc.devRef .tc main_v4_0)
      = Spec.nbA (Spec.flat (m ((c : Thread nD τ).loc main_arg0))) (m ((c : Thread nD τ).loc main_arg2)) := by
  refine (W2_arr (F := Ideal) m ρ c 4).trans ((final4 m ρ c).trans ?_)
  show Spec.nbA (W1 (F := Ideal) m ρ c (Proc.devRef .tc main_v2)) (W1 (F := Ideal) m ρ c (Proc.devRef .tc main_arg2)) = _
  rw [K0Host.w1_v2 m ρ c, K0Host.w1_arg2 m ρ c]

/-- After region 0 the second output holds the neighbour mean of the flattened second features and second adjacency. -/
theorem seg0_nb2 (c : Dev nD) :
    W2 (F := Ideal) m ρ c (Proc.devRef .tc main_v4_1)
      = Spec.nbA (Spec.flat (m ((c : Thread nD τ).loc main_arg1))) (m ((c : Thread nD τ).loc main_arg3)) := by
  refine (W2_arr (F := Ideal) m ρ c 5).trans ((final5 m ρ c).trans ?_)
  show Spec.nbA (W1 (F := Ideal) m ρ c (Proc.devRef .tc main_v3)) (W1 (F := Ideal) m ρ c (Proc.devRef .tc main_arg3)) = _
  rw [K0Host.w1_v3 m ρ c, K0Host.w1_arg3 m ρ c]

/-- Region 0 does not write the copy of the first features: it is the first feature array itself. -/
theorem seg0_v0 (c : Dev nD) :
    W2 (F := Ideal) m ρ c (Proc.devRef .tc main_v0) = m ((c : Thread nD τ).loc main_arg0) :=
  (W2_of_ne (F := Ideal) m ρ c main_v0 (by decide)).trans (K0Host.w1_v0 m ρ c)

/-- Region 0 does not write the copy of the second features: it is the second feature array itself. -/
theorem seg0_v1 (c : Dev nD) :
    W2 (F := Ideal) m ρ c (Proc.devRef .tc main_v1) = m ((c : Thread nD τ).loc main_arg1) :=
  (W2_of_ne (F := Ideal) m ρ c main_v1 (by decide)).trans (K0Host.w1_v1 m ρ c)

end Cert.KernelIdeal.K0Arr

end
-- ==== Proof.K1Pay.lean ====
/-
  Region 1's payloads read at an index, over the extended reals: the carried row norms and dot products after one
  more chunk, the cosine similarity from the carried sums, and the two stored blocks — a chunk of one array minus
  the softmax-weighted combination of the other's rows.
-/
import proofs.«404490_j9337258902039_3_alg».proof.Proof.Gen.KernelIdeal.Skeleton
import proofs.«404490_j9337258902039_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.K1Pay

open Idealize.ShloMosaic Idealize.ShloMosaic.ValueIdx Cert.KernelIdeal.Gen

/-! ## Layout operations of this region read at an index -/

/-- The index a row reduction inserts column k at. -/
theorem lift_row (h : S512x512.Reduces [1] S512) (i k : Fin 512) : h.lift (ix1 i) k = ix2 i k := by
  funext a; apply Fin.ext
  match a with
  | ⟨0, _⟩ => rfl
  | ⟨1, _⟩ => rfl

/-- The index a column reduction inserts row i at. -/
theorem lift_col (h : S512x512.Reduces [0] S512) (j i : Fin 512) : h.lift (ix1 j) i = ix2 i j := by
  funext a; apply Fin.ext
  match a with
  | ⟨0, _⟩ => rfl
  | ⟨1, _⟩ => rfl

/-- A row sum. -/
theorem rowsum_apply (g : FVec Ideal S512x512 .f32) (h : S512x512.Reduces [1] S512) (hφ : FKind.Formats .f32)
    (hacc : (0x00000000#32 : BitVec 32) = FKind.add.neutral .f32 hφ) (i : Fin 512) :
    multiReduction .add [1] S512 g 0x00000000#32 h hφ hacc (ix1 i) = ∑ k : Fin 512, g (ix2 i k) := by
  refine (Ideal.multiReduction_add_single g _ h hφ hacc (ix1 i)).trans ?_
  exact Finset.sum_congr rfl fun k _ => congrArg g (lift_row h i k)

/-- A column sum. -/
theorem colsum_apply (g : FVec Ideal S512x512 .f32) (h : S512x512.Reduces [0] S512) (hφ : FKind.Formats .f32)
    (hacc : (0x00000000#32 : BitVec 32) = FKind.add.neutral .f32 hφ) (j : Fin 512) :
    multiReduction .add [0] S512 g 0x00000000#32 h hφ hacc (ix1 j) = ∑ i : Fin 512, g (ix2 i j) := by
  refine (Ideal.multiReduction_add_single g _ h hφ hacc (ix1 j)).trans ?_
  exact Finset.sum_congr rfl fun i _ => congrArg g (lift_col h j i)

/-- A [512] vector seen as a column. -/
theorem col_of_vec (v : FVec Ideal S512 .f32) (h : S512.ShapeCasts S512x1) (i : Fin 512) :
    shapeCast S512x1 v h (ix2 i 0) = v (ix1 i) :=
  shapeCast_apply v h _ _ (by
    rw [Shape.rowMajor_val_one, Shape.rowMajor_val_two]
    show i.val = i.val * 1 + 0
    omega)

/-- A [1,512,512] block seen as a matrix. -/
theorem mat_of_blk (v : Vec Ideal S1x512x512 .f32) (h : S1x512x512.ShapeCasts S512x512) (i k : Fin 512) :
    shapeCast S512x512 v h (ix2 i k) = v (ix3 0 i k) :=
  shapeCast_1ab_ab_apply v h i k

/-- A matrix transposed. -/
theorem tr_apply {φ : FTy} (x : FVec Ideal S512x512 φ) (h : S512x512.Transposes [1, 0] S512x512) (j i : Fin 512) :
    transpose S512x512 [1, 0] x h (ix2 j i) = x (ix2 i j) :=
  transpose_ix2_apply x h j i

/-- The matrix product into the zero accumulator, entry by entry. -/
theorem mm_apply (A B : FVec Ideal S512x512 .bf16) (i j : Fin 512) :
    matmul dot_S512x512_S512x512_S512x512_1_0_0_1_n_n none A B (constant S512x512 .f32 0x00000000#32) (ix2 i j)
      = ∑ k : Fin 512, A (ix2 i k) * B (ix2 k j) := by
  show FloatOps.matmul _ none A B _ (ix2 i j) = _
  rw [Ideal.matmul_constant_zero_apply,
    ← Equiv.sum_comp (contrEquiv1 dot_S512x512_S512x512_S512x512_1_0_0_1_n_n 512 rfl rfl).symm]
  refine Finset.sum_congr rfl fun c _ => ?_
  have c2 := contrEquiv1_symm_val dot_S512x512_S512x512_S512x512_1_0_0_1_n_n 512 rfl rfl c
  have l2 : dot_S512x512_S512x512_S512x512_1_0_0_1_n_n.lhsIdx (ix2 i j) ((contrEquiv1 _ 512 rfl rfl).symm c) = ix2 i c := by
    funext ax; apply Fin.ext
    match ax with
    | ⟨0, _⟩ => simp [DotDims.lhsIdx, dot_S512x512_S512x512_S512x512_1_0_0_1_n_n]; rfl
    | ⟨1, _⟩ => simp [DotDims.lhsIdx, dot_S512x512_S512x512_S512x512_1_0_0_1_n_n]; exact c2
  have r2 : dot_S512x512_S512x512_S512x512_1_0_0_1_n_n.rhsIdx (ix2 i j) ((contrEquiv1 _ 512 rfl rfl).symm c) = ix2 c j := by
    funext ax; apply Fin.ext
    match ax with
    | ⟨0, _⟩ => simp [DotDims.rhsIdx, dot_S512x512_S512x512_S512x512_1_0_0_1_n_n]; exact c2
    | ⟨1, _⟩ => simp [DotDims.rhsIdx, dot_S512x512_S512x512_S512x512_1_0_0_1_n_n]; rfl
  rw [l2, r2]

/-- A column broadcast along the rows. -/
theorem bcol_apply (v : FVec Ideal S512x1 .f32) (h : S512x1.Broadcasts S512x512) (i j : Fin 512) :
    broadcastTo S512x512 v h (ix2 i j) = v (ix2 i 0) :=
  broadcastTo_apply v h (ix2 i j) (ix2 i 0) fun a => match a with
    | ⟨0, _⟩ => rfl
    | ⟨1, _⟩ => rfl

/-- A row broadcast along the columns. -/
theorem brow_apply (v : FVec Ideal S1x512 .f32) (h : S1x512.Broadcasts S512x512) (i j : Fin 512) :
    broadcastTo S512x512 v h (ix2 i j) = v (ix2 0 j) :=
  broadcastTo_1b_ab_apply v h i j

/-- A column seen as a row. -/
theorem row_of_col (v : FVec Ideal S512x1 .f32) (h : S512x1.ShapeCasts S1x512) (j : Fin 512) :
    shapeCast S1x512 v h (ix2 0 j) = v (ix2 j 0) :=
  shapeCast_apply v h _ _ (by
    rw [Shape.rowMajor_val_two, Shape.rowMajor_val_two]
    show j.val * 1 + 0 = 0 * 512 + j.val
    omega)

/-- A [512] vector seen as a row. -/
theorem row_of_vec (v : FVec Ideal S512 .f32) (h : S512.ShapeCasts S1x512) (j : Fin 512) :
    shapeCast S1x512 v h (ix2 0 j) = v (ix1 j) :=
  shapeCast_a_1a_apply v h 0 j

/-- A matrix seen as a [1,512,512] block. -/
theorem blk_of_mat {φ : FTy} (v : FVec Ideal S512x512 φ) (h : S512x512.ShapeCasts S1x512x512) (i k : Fin 512) :
    shapeCast S1x512x512 v h (ix3 0 i k) = v (ix2 i k) :=
  shapeCast_ab_1ab_apply v h 0 i k

/-- A row maximum from minus infinity. -/
theorem rowmax_apply (g : FVec Ideal S512x512 .f32) (h : S512x512.Reduces [1] S512) (hφ : FKind.Formats .f32)
    (hacc : (0xFF800000#32 : BitVec 32) = FKind.maximumf.neutral .f32 hφ) (i : Fin 512) :
    multiReduction .maximumf [1] S512 g 0xFF800000#32 h hφ hacc (ix1 i)
      = (Finset.univ : Finset (Fin 512)).fold max Spec.negInf (fun j => g (ix2 i j)) := by
  refine (Ideal.multiReduction_maximumf_single g _ h hφ hacc (ix1 i)).trans ?_
  refine congrArg (Finset.fold max Spec.negInf · Finset.univ) ?_
  exact funext fun j => congrArg g (lift_row h i j)

/-- A column maximum from minus infinity. -/
theorem colmax_apply (g : FVec Ideal S512x512 .f32) (h : S512x512.Reduces [0] S512) (hφ : FKind.Formats .f32)
    (hacc : (0xFF800000#32 : BitVec 32) = FKind.maximumf.neutral .f32 hφ) (j : Fin 512) :
    multiReduction .maximumf [0] S512 g 0xFF800000#32 h hφ hacc (ix1 j)
      = (Finset.univ : Finset (Fin 512)).fold max Spec.negInf (fun i => g (ix2 i j)) := by
  refine (Ideal.multiReduction_maximumf_single g _ h hφ hacc (ix1 j)).trans ?_
  refine congrArg (Finset.fold max Spec.negInf · Finset.univ) ?_
  exact funext fun i => congrArg g (lift_col h j i)

/-! ## The two softmaxes as the region writes them -/

/-- exp (P − row maximum). -/
def rexp (P : FVec Ideal S512x512 .f32) : FVec Ideal S512x512 .f32 :=
  exp (subf P (broadcastTo S512x512 (shapeCast S512x1 (maximumf (broadcast S512 (Scalar.ofBits .f32 0xFF800000#32))
    (multiReduction .maximumf [1] S512 P 0xFF800000#32 reduces_S512x512_S512 (.inl rfl) rfl)) shapeCasts_S512_S512x1)
    broadcasts_S512x1_S512x512))

/-- The softmax along each row. -/
def rsm (P : FVec Ideal S512x512 .f32) : FVec Ideal S512x512 .f32 :=
  divf (rexp P) (broadcastTo S512x512 (shapeCast S512x1
    (multiReduction .add [1] S512 (rexp P) 0x00000000#32 reduces_S512x512_S512 (.inl rfl) rfl) shapeCasts_S512_S512x1)
    broadcasts_S512x1_S512x512)

/-- exp (P − column maximum). -/
def cexp (P : FVec Ideal S512x512 .f32) : FVec Ideal S512x512 .f32 :=
  exp (subf P (broadcastTo S512x512 (shapeCast S1x512 (maximumf (broadcast S512 (Scalar.ofBits .f32 0xFF800000#32))
    (multiReduction .maximumf [0] S512 P 0xFF800000#32 reduces_S512x512_S512_2 (.inl rfl) rfl)) shapeCasts_S512_S1x512)
    broadcasts_S1x512_S512x512))

/-- The softmax along each column. -/
def csm (P : FVec Ideal S512x512 .f32) : FVec Ideal S512x512 .f32 :=
  divf (cexp P) (broadcastTo S512x512 (shapeCast S1x512
    (multiReduction .add [0] S512 (cexp P) 0x00000000#32 reduces_S512x512_S512_2 (.inl rfl) rfl) shapeCasts_S512_S1x512)
    broadcasts_S1x512_S512x512)

/-- The exponential of a vector, entry by entry. -/
theorem exp_apply {s : Shape} (a : FVec Ideal s .f32) (i : s.Idx) : exp a i = Ideal.exp (a i) := rfl

/-- The word of minus infinity. -/
theorem negInf_eq : (Scalar.ofBits .f32 0xFF800000#32 : Ideal .f32) = Spec.negInf := rfl

theorem rexp_apply (P : FVec Ideal S512x512 .f32) (i j : Fin 512) :
    rexp P (ix2 i j) = Ideal.exp (P (ix2 i j)
      - max Spec.negInf ((Finset.univ : Finset (Fin 512)).fold max Spec.negInf fun j' => P (ix2 i j'))) := by
  unfold rexp
  rw [exp_apply, subf_apply, bcol_apply, col_of_vec, maximumf_apply, broadcast_apply, negInf_eq]
  exact congrArg (fun m => Ideal.exp (P (ix2 i j) - max Spec.negInf m)) (rowmax_apply P _ _ _ i)

theorem rsm_apply (P : FVec Ideal S512x512 .f32) (i j : Fin 512) :
    rsm P (ix2 i j) = Ideal.div (rexp P (ix2 i j)) (∑ j' : Fin 512, rexp P (ix2 i j')) := by
  unfold rsm
  show Ideal.div (rexp P (ix2 i j)) (broadcastTo S512x512 _ _ (ix2 i j)) = _
  rw [bcol_apply, col_of_vec]
  exact congrArg (Ideal.div (rexp P (ix2 i j))) (rowsum_apply (rexp P) _ _ _ i)

theorem cexp_apply (P : FVec Ideal S512x512 .f32) (i j : Fin 512) :
    cexp P (ix2 i j) = Ideal.exp (P (ix2 i j)
      - max Spec.negInf ((Finset.univ : Finset (Fin 512)).fold max Spec.negInf fun i' => P (ix2 i' j))) := by
  unfold cexp
  rw [exp_apply, subf_apply, brow_apply, row_of_vec, maximumf_apply, broadcast_apply, negInf_eq]
  exact congrArg (fun m => Ideal.exp (P (ix2 i j) - max Spec.negInf m)) (colmax_apply P _ _ _ j)

theorem csm_apply (P : FVec Ideal S512x512 .f32) (i j : Fin 512) :
    csm P (ix2 i j) = Ideal.div (cexp P (ix2 i j)) (∑ i' : Fin 512, cexp P (ix2 i' j)) := by
  unfold csm
  show Ideal.div (cexp P (ix2 i j)) (broadcastTo S512x512 _ _ (ix2 i j)) = _
  rw [brow_apply, row_of_vec]
  exact congrArg (Ideal.div (cexp P (ix2 i j))) (colsum_apply (cexp P) _ _ _ j)

/-! ## The carried sums after one more chunk -/

/-- The first row norm's running sum gains the chunk's row sum of squares. -/
theorem pay6_apply (acc : FVec Ideal S512x1 .f32) (v43 : Vec Ideal S1x512x512 .f32) (i : Fin 512) :
    k1_pay6 (F := Ideal) acc v43 (ix2 i 0) = acc (ix2 i 0) + ∑ k : Fin 512, v43 (ix3 0 i k) * v43 (ix3 0 i k) := by
  unfold k1_pay6 k1_pay4
  refine congrArg (acc (ix2 i 0) + ·) ?_
  refine (col_of_vec _ _ i).trans ?_
  refine (rowsum_apply _ _ _ _ i).trans ?_
  refine Finset.sum_congr rfl fun k _ => ?_
  show shapeCast S512x512 v43 _ (ix2 i k) * shapeCast S512x512 v43 _ (ix2 i k) = _
  rw [mat_of_blk]

/-- The second row norm's running sum likewise. -/
theorem pay7_apply (acc : FVec Ideal S512x1 .f32) (v46 : Vec Ideal S1x512x512 .f32) (i : Fin 512) :
    k1_pay7 (F := Ideal) acc v46 (ix2 i 0) = acc (ix2 i 0) + ∑ k : Fin 512, v46 (ix3 0 i k) * v46 (ix3 0 i k) := by
  unfold k1_pay7 k1_pay5
  refine congrArg (acc (ix2 i 0) + ·) ?_
  refine (col_of_vec _ _ i).trans ?_
  refine (rowsum_apply _ _ _ _ i).trans ?_
  refine Finset.sum_congr rfl fun k _ => ?_
  show shapeCast S512x512 v46 _ (ix2 i k) * shapeCast S512x512 v46 _ (ix2 i k) = _
  rw [mat_of_blk]

/-- The running dot products gain the chunk's row-by-row products. -/
theorem pay8_apply (acc : FVec Ideal S512x512 .f32) (v43 v46 : Vec Ideal S1x512x512 .f32) (i j : Fin 512) :
    k1_pay8 (F := Ideal) acc v43 v46 (ix2 i j) = acc (ix2 i j) + ∑ k : Fin 512, v43 (ix3 0 i k) * v46 (ix3 0 j k) := by
  unfold k1_pay8 k1_pay4 k1_pay5
  refine congrArg (acc (ix2 i j) + ·) ?_
  refine (mm_apply _ _ i j).trans ?_
  refine Finset.sum_congr rfl fun k _ => ?_
  rw [tr_apply]
  show shapeCast S512x512 v43 _ (ix2 i k) * shapeCast S512x512 v46 _ (ix2 j k) = _
  rw [mat_of_blk, mat_of_blk]

/-! ## The initial sums are zero -/

theorem pay1_zero (i : Fin 512) : k1_pay1 (F := Ideal) (ix2 i 0) = 0 := by
  unfold k1_pay1
  exact Ideal.ofBits_zero_f32

theorem pay2_zero (i : Fin 512) : k1_pay2 (F := Ideal) (ix2 i 0) = 0 := by
  unfold k1_pay2
  exact Ideal.ofBits_zero_f32

theorem pay3_zero (i j : Fin 512) : k1_pay3 (F := Ideal) (ix2 i j) = 0 := by
  unfold k1_pay3
  exact Ideal.ofBits_zero_f32

/-! ## The cosine similarity from the carried sums -/

theorem pay9_apply (n1 n2 : FVec Ideal S512x1 .f32) (dt : FVec Ideal S512x512 .f32) (i j : Fin 512) :
    k1_pay9 (F := Ideal) n1 n2 dt (ix2 i j)
      = Ideal.div (dt (ix2 i j)) (max (Ideal.sqrt (n1 (ix2 i 0)) * Ideal.sqrt (n2 (ix2 j 0))) Spec.eps6) := by
  unfold k1_pay9
  show Ideal.div (dt (ix2 i j)) (max (broadcastTo S512x512 (sqrt n1) _ (ix2 i j) * broadcastTo S512x512 (shapeCast S1x512 (sqrt n2) _) _ (ix2 i j)) Spec.eps6) = _
  rw [bcol_apply, brow_apply, row_of_col]
  rfl

/-! ## The two stored blocks -/

/-- The similarity at (i, j). -/
def S (n1 n2 : FVec Ideal S512x1 .f32) (dt : FVec Ideal S512x512 .f32) (i j : Fin 512) : EReal :=
  k1_pay9 (F := Ideal) n1 n2 dt (ix2 i j)

/-- Row i's maximum, as the softmax takes it. -/
def RM (n1 n2 : FVec Ideal S512x1 .f32) (dt : FVec Ideal S512x512 .f32) (i : Fin 512) : EReal :=
  max Spec.negInf ((Finset.univ : Finset (Fin 512)).fold max Spec.negInf (fun j => S n1 n2 dt i j))

/-- Column j's maximum. -/
def CM (n1 n2 : FVec Ideal S512x1 .f32) (dt : FVec Ideal S512x512 .f32) (j : Fin 512) : EReal :=
  max Spec.negInf ((Finset.univ : Finset (Fin 512)).fold max Spec.negInf (fun i => S n1 n2 dt i j))

/-- The exponentials along a row. -/
def E1 (n1 n2 : FVec Ideal S512x1 .f32) (dt : FVec Ideal S512x512 .f32) (i j : Fin 512) : EReal :=
  Ideal.exp (S n1 n2 dt i j - RM n1 n2 dt i)

/-- The exponentials along a column. -/
def E2 (n1 n2 : FVec Ideal S512x1 .f32) (dt : FVec Ideal S512x512 .f32) (i j : Fin 512) : EReal :=
  Ideal.exp (S n1 n2 dt i j - CM n1 n2 dt j)

theorem pay12_apply (n1 n2 : FVec Ideal S512x1 .f32) (dt : FVec Ideal S512x512 .f32) (v43 v46 : Vec Ideal S1x512x512 .f32)
    (i k : Fin 512) :
    k1_pay12 (F := Ideal) n1 n2 dt v43 v46 (ix3 0 i k)
      = v43 (ix3 0 i k) - ∑ j : Fin 512, Ideal.div (E1 n1 n2 dt i j) (∑ j' : Fin 512, E1 n1 n2 dt i j') * v46 (ix3 0 j k) := by
  have hE : ∀ a b : Fin 512, rexp (k1_pay9 (F := Ideal) n1 n2 dt) (ix2 a b) = E1 n1 n2 dt a b := fun a b => rexp_apply _ a b
  unfold k1_pay12 k1_pay10 k1_pay11
  refine (blk_of_mat _ _ i k).trans ?_
  show shapeCast S512x512 v43 _ (ix2 i k)
      - matmul dot_S512x512_S512x512_S512x512_1_0_0_1_n_n none (truncf .bf16 (rsm (k1_pay9 (F := Ideal) n1 n2 dt)) bitsLt_bf16_f32)
          (truncf .bf16 (shapeCast S512x512 v46 shapeCasts_S1x512x512_S512x512) bitsLt_bf16_f32) (constant S512x512 .f32 0x00000000#32) (ix2 i k) = _
  rw [mat_of_blk, mm_apply]
  refine congrArg (v43 (ix3 0 i k) - ·) (Finset.sum_congr rfl fun j _ => ?_)
  show rsm (k1_pay9 (F := Ideal) n1 n2 dt) (ix2 i j) * shapeCast S512x512 v46 _ (ix2 j k) = _
  rw [rsm_apply, mat_of_blk, hE]
  simp only [hE]

theorem pay13_apply (n1 n2 : FVec Ideal S512x1 .f32) (dt : FVec Ideal S512x512 .f32) (v43 v46 : Vec Ideal S1x512x512 .f32)
    (j k : Fin 512) :
    k1_pay13 (F := Ideal) n1 n2 dt v43 v46 (ix3 0 j k)
      = v46 (ix3 0 j k) - ∑ i : Fin 512, Ideal.div (E2 n1 n2 dt i j) (∑ i' : Fin 512, E2 n1 n2 dt i' j) * v43 (ix3 0 i k) := by
  have hE : ∀ a b : Fin 512, cexp (k1_pay9 (F := Ideal) n1 n2 dt) (ix2 a b) = E2 n1 n2 dt a b := fun a b => cexp_apply _ a b
  unfold k1_pay13 k1_pay10 k1_pay11
  refine (blk_of_mat _ _ j k).trans ?_
  show shapeCast S512x512 v46 _ (ix2 j k)
      - matmul dot_S512x512_S512x512_S512x512_1_0_0_1_n_n none
          (truncf .bf16 (transpose S512x512 [1, 0] (csm (k1_pay9 (F := Ideal) n1 n2 dt)) transposes_S512x512_p1_0_S512x512) bitsLt_bf16_f32)
          (truncf .bf16 (shapeCast S512x512 v43 shapeCasts_S1x512x512_S512x512) bitsLt_bf16_f32) (constant S512x512 .f32 0x00000000#32) (ix2 j k) = _
  rw [mat_of_blk, mm_apply]
  refine congrArg (v46 (ix3 0 j k) - ·) (Finset.sum_congr rfl fun i _ => ?_)
  show transpose S512x512 [1, 0] (csm (k1_pay9 (F := Ideal) n1 n2 dt)) _ (ix2 j i) * shapeCast S512x512 v43 _ (ix2 i k) = _
  rw [tr_apply, csm_apply, mat_of_blk, hE]
  simp only [hE]

end Cert.KernelIdeal.K1Pay

end
-- ==== Proof.K1Loop.lean ====
import proofs.«404490_j9337258902039_3_alg».proof.Proof.FrameKI
import Idealize.ShloMosaic.Lib.ValueIdx
import Idealize.ShloMosaic.Lib.Pipeline.Value
import Idealize.ShloMosaic.Lib.Tactic

/-! Region 1's body at one grid point, read as values. The body makes two passes over the eight
column chunks (512 columns each) of its two [512, 4096] input blocks x0, x1:
* pass one carries three sums over the chunks (the squared row norms of x0, those of x1, and the
  512 x 512 matrix of row dot products), starting from zero;
* pass two stores, chunk by chunk, the two attention-corrected chunks computed from the finished sums.
So entry (i, d) of either output block is the pass-two payload of chunk d / 512 at column d % 512. -/

set_option maxRecDepth 16384

noncomputable section

namespace Cert.KernelIdeal.K1Loop

open Cert.KernelIdeal Cert.KernelIdeal.Gen Cert.KernelIdeal.GenP
open Idealize.ShloMosaic Idealize.ShloMosaic.TcCoe Idealize.ShloMosaic.ValueIdx

/-- Column chunk k of a [1, 512, 4096] block: columns 512 k ... 512 k + 511, as a [1, 512, 512] block. -/
def chunk (x : Vec Ideal S1x512x4096 .f32) (k : Fin 8) : Vec Ideal S1x512x512 .f32 :=
  fun y => x (ix3 0 (y 1) ⟨k.val * 512 + (y 2).val, by
    have h : (y 2).val < 512 := (y 2).isLt
    have hk : k.val < 8 := k.isLt
    omega⟩)

/-- The three carried sums before chunk k: zero at the start, and each chunk adds its own
contribution (squared norms of the rows of either block, and the rows' dot products). -/
def acc (x0 x1 : Vec Ideal S1x512x4096 .f32) :
    ℕ → FVec Ideal S512x1 .f32 × FVec Ideal S512x1 .f32 × FVec Ideal S512x512 .f32
  | 0 => (k1_pay1 (F := Ideal), k1_pay2 (F := Ideal), k1_pay3 (F := Ideal))
  | k + 1 =>
    if h : k < 8 then
      (k1_pay6 (F := Ideal) (acc x0 x1 k).1 (chunk x0 ⟨k, h⟩),
       k1_pay7 (F := Ideal) (acc x0 x1 k).2.1 (chunk x1 ⟨k, h⟩),
       k1_pay8 (F := Ideal) (acc x0 x1 k).2.2 (chunk x0 ⟨k, h⟩) (chunk x1 ⟨k, h⟩))
    else acc x0 x1 k

theorem acc_zero (x0 x1 : Vec Ideal S1x512x4096 .f32) :
    acc x0 x1 0 = (k1_pay1 (F := Ideal), k1_pay2 (F := Ideal), k1_pay3 (F := Ideal)) := rfl

theorem acc_succ (x0 x1 : Vec Ideal S1x512x4096 .f32) (k : Fin 8) :
    acc x0 x1 (k.val + 1)
      = (k1_pay6 (F := Ideal) (acc x0 x1 k.val).1 (chunk x0 k),
         k1_pay7 (F := Ideal) (acc x0 x1 k.val).2.1 (chunk x1 k),
         k1_pay8 (F := Ideal) (acc x0 x1 k.val).2.2 (chunk x0 k) (chunk x1 k)) := by
  rw [acc]; exact dif_pos k.isLt

variable (V : (c : Dev nD) → (b : Ref sig .tc) → Buf (Elt Ideal) ((c : Thread nD τ).loc b))

/-- The two input blocks of grid point t, as [1, 512, 4096] blocks. -/
abbrev xblk0 (c : Dev nD) (t : Fin cfg1.N) : Vec Ideal S1x512x4096 .f32 := iblk1 (F := Ideal) V c 0 t
abbrev xblk1 (c : Dev nD) (t : Fin cfg1.N) : Vec Ideal S1x512x4096 .f32 := iblk1 (F := Ideal) V c 1 t

/-! ## The loops' extents and offsets, evaluated -/

theorem trips1 : k1_t1_loop.trips = 8 := by decide +kernel
theorem trips2 : k1_t2_loop.trips = 8 := by decide +kernel
/-- Chunk k of either pass starts at column 512 k of row 0 of the one leading slab. -/
theorem off1_eq : ∀ (k : Fin k1_t1_loop.trips) (b : Fin 3), k1_off1 k b = (![0, 0, k.val * 512] : Fin 3 → ℕ) b := by
  decide +kernel
theorem off2_eq : ∀ (k : Fin k1_t2_loop.trips) (b : Fin 3), k1_off2 k b = (![0, 0, k.val * 512] : Fin 3 → ℕ) b := by
  decide +kernel

/-! ## A chunk read through its rectangle -/

/-- Reading a whole [1, 512, 4096] buffer holding x through the unit-stride rectangle of extents
[1, 512, 512] at offsets (0, 0, 512 k) gives chunk k of x: index (0, r, q) of the rectangle is index
(0, r, 512 k + q) of the buffer. -/
theorem read_chunk (a : Memref sig .tc .vmem S1x512x4096 .f32) (h : a.IsWhole) (x : Vec Ideal S1x512x4096 .f32)
    (off : Fin 3 → ℕ) (inb : ∀ b, off b + S1x512x512.size b ≤ S1x512x4096.size b) (kk : Fin 8)
    (hoff : ∀ b, off b = (![0, 0, kk.val * 512] : Fin 3 → ℕ) b) :
    View.readAt (Elt Ideal) a.view (Rect.unit (s := S1x512x4096) off S1x512x512.size inb).toLoadRect (h.unread x)
      = chunk x kk := by
  rw [View.readAt_eq_ld, h.read_unread]
  funext (y : S1x512x512.Idx)
  have o0 : off 0 = 0 := hoff 0
  have o1 : off 1 = 0 := hoff 1
  have o2 : off 2 = kk.val * 512 := hoff 2
  have y0 : (y 0).val < 1 := (y 0).isLt
  show x ((Rect.unit (s := S1x512x4096) off S1x512x512.size inb).toLoadRect.idx y) = x (ix3 0 (y 1) ⟨kk.val * 512 + (y 2).val, _⟩)
  congr 1
  funext b
  apply Fin.ext
  match b with
  | ⟨0, _⟩ => show off 0 + 1 * (y 0).val = 0; omega
  | ⟨1, _⟩ => show off 1 + 1 * (y 1).val = (y 1).val; omega
  | ⟨2, _⟩ => show off 2 + 1 * (y 2).val = kk.val * 512 + (y 2).val; omega

/-! ## One trip of each pass, as a value -/

section Trips
variable (c : Dev nD) (i : grid1.Coords)
  (a1 : Memref sig .tc .vmem S1x512x4096 .f32) (h1 : a1.IsWhole) (a2 : Memref sig .tc .vmem S1x512x4096 .f32) (h2 : a2.IsWhole)
  (a3 : Memref sig .tc .vmem S1x512x4096 .bf16) (h3 : a3.IsWhole) (a4 : Memref sig .tc .vmem S1x512x4096 .bf16) (h4 : a4.IsWhole)
  (x0 x1 : Vec Ideal S1x512x4096 .f32)

/-- Trip k of pass one adds chunk k's contribution to each of the three carried sums. -/
theorem trip1_val (k : Fin k1_t1_loop.trips) (hk : k.val < 8)
    (s : FVec Ideal S512x1 .f32 × FVec Ideal S512x1 .f32 × FVec Ideal S512x512 .f32) :
    (trip_k1_t1 (F := Ideal) Variants.none c none i a1 h1 a2 h2 a3 h3 a4 h4 (h1.unread x0) (h2.unread x1) k).1 s
      = (k1_pay6 (F := Ideal) s.1 (chunk x0 ⟨k.val, hk⟩), k1_pay7 (F := Ideal) s.2.1 (chunk x1 ⟨k.val, hk⟩),
         k1_pay8 (F := Ideal) s.2.2 (chunk x0 ⟨k.val, hk⟩) (chunk x1 ⟨k.val, hk⟩)) := by
  unfold trip_k1_t1
  dsimp only
  rw [read_chunk a1 h1 x0 (k1_off1 k) (k1_off1_inb k) ⟨k.val, hk⟩ (off1_eq k),
    read_chunk a2 h2 x1 (k1_off1 k) (k1_off1_inb k) ⟨k.val, hk⟩ (off1_eq k)]

/-- The carried sums before trip n of pass one are the closed recursion over the chunks. -/
theorem st_eq_acc : ∀ (n : ℕ), n ≤ 8 →
    st_k1_t1 (F := Ideal) Variants.none c none i a1 h1 a2 h2 a3 h3 a4 h4 (h1.unread x0) (h2.unread x1)
      (k1_pay1 (F := Ideal), k1_pay2 (F := Ideal), k1_pay3 (F := Ideal)) n = acc x0 x1 n
  | 0, _ => rfl
  | n + 1, hn => by
    have hk : n < k1_t1_loop.trips := by rw [trips1]; omega
    refine (st_k1_t1_succ (F := Ideal) Variants.none c none i a1 h1 a2 h2 a3 h3 a4 h4 (h1.unread x0) (h2.unread x1)
      (k1_pay1 (F := Ideal), k1_pay2 (F := Ideal), k1_pay3 (F := Ideal)) ⟨n, hk⟩).trans ?_
    show (trip_k1_t1 (F := Ideal) Variants.none c none i a1 h1 a2 h2 a3 h3 a4 h4 (h1.unread x0) (h2.unread x1) ⟨n, hk⟩).1
      (st_k1_t1 (F := Ideal) Variants.none c none i a1 h1 a2 h2 a3 h3 a4 h4 (h1.unread x0) (h2.unread x1)
        (k1_pay1 (F := Ideal), k1_pay2 (F := Ideal), k1_pay3 (F := Ideal)) n) = acc x0 x1 (n + 1)
    have hn8 : n < 8 := by omega
    rw [trip1_val c i a1 h1 a2 h2 a3 h3 a4 h4 x0 x1 ⟨n, hk⟩ hn8, st_eq_acc n (by omega)]
    exact (acc_succ x0 x1 ⟨n, hn8⟩).symm

end Trips

/-! ## The stored pieces are blocks of one function -/

/-- The [1, 512, 4096] block whose column chunk k is P of chunk k of x0 and chunk k of x1:
entry (0, r, q) is entry (0, r, q % 512) of P applied to the chunks numbered q / 512. -/
def blockOf (P : Vec Ideal S1x512x512 .f32 → Vec Ideal S1x512x512 .f32 → Vec Ideal S1x512x512 .bf16)
    (x0 x1 : Vec Ideal S1x512x4096 .f32) : Vec Ideal S1x512x4096 .bf16 :=
  fun y => P (chunk x0 ⟨(y 2).val / 512, by have h : (y 2).val < 4096 := (y 2).isLt; omega⟩)
    (chunk x1 ⟨(y 2).val / 512, by have h : (y 2).val < 4096 := (y 2).isLt; omega⟩)
    (ix3 0 (y 1) ⟨(y 2).val % 512, Nat.mod_lt _ (by norm_num)⟩)

/-- At a buffer index whose row is r and whose column is 512 k + q with q < 512, the block is chunk k's
payload at (0, r, q): the column's quotient by 512 is k and its remainder is q. -/
theorem blockOf_at (P : Vec Ideal S1x512x512 .f32 → Vec Ideal S1x512x512 .f32 → Vec Ideal S1x512x512 .bf16)
    (x0 x1 : Vec Ideal S1x512x4096 .f32) (kk : Fin 8) (x : S1x512x512.Idx) (y : S1x512x4096.Idx)
    (e1 : (y 1).val = (x 1).val) (e2 : (y 2).val = kk.val * 512 + (x 2).val) :
    blockOf P x0 x1 y = P (chunk x0 kk) (chunk x1 kk) x := by
  have x2 : (x 2).val < 512 := (x 2).isLt
  have x0' : (x 0).val < 1 := (x 0).isLt
  have hk : kk.val < 8 := kk.isLt
  have q : (⟨(y 2).val / 512, by have h : (y 2).val < 4096 := (y 2).isLt; omega⟩ : Fin 8) = kk :=
    Fin.ext (by show (y 2).val / 512 = kk.val; omega)
  have r : (ix3 0 (y 1) ⟨(y 2).val % 512, Nat.mod_lt _ (by norm_num)⟩ : S1x512x512.Idx) = x := by
    funext b
    apply Fin.ext
    match b with
    | ⟨0, _⟩ => show 0 = (x 0).val; omega
    | ⟨1, _⟩ => show (y 1).val = (x 1).val; exact e1
    | ⟨2, _⟩ => show (y 2).val % 512 = (x 2).val; omega
  unfold blockOf
  rw [q, r]

/-- A payload stored through the rectangle of extents [1, 512, 512] at offsets (0, 0, 512 k) is the
block restricted to that rectangle. -/
theorem piece_ok (P : Vec Ideal S1x512x512 .f32 → Vec Ideal S1x512x512 .f32 → Vec Ideal S1x512x512 .bf16)
    (x0 x1 : Vec Ideal S1x512x4096 .f32) (off : Fin 3 → ℕ)
    (inb : ∀ b, off b + S1x512x512.size b ≤ S1x512x4096.size b) (kk : Fin 8)
    (hoff : ∀ b, off b = (![0, 0, kk.val * 512] : Fin 3 → ℕ) b) (x : S1x512x512.Idx) :
    P (chunk x0 kk) (chunk x1 kk) x
      = blockOf P x0 x1 ((Rect.unit (s := S1x512x4096) off S1x512x512.size inb).emb x) := by
  have o1 : off 1 = 0 := hoff 1
  have o2 : off 2 = kk.val * 512 := hoff 2
  refine (blockOf_at P x0 x1 kk x _ ?_ ?_).symm
  · show off 1 + 1 * (x 1).val = (x 1).val; omega
  · show off 2 + 1 * (x 2).val = kk.val * 512 + (x 2).val; omega

section Pieces
variable (c : Dev nD) (i : grid1.Coords)
  (a1 : Memref sig .tc .vmem S1x512x4096 .f32) (h1 : a1.IsWhole) (a2 : Memref sig .tc .vmem S1x512x4096 .f32) (h2 : a2.IsWhole)
  (a3 : Memref sig .tc .vmem S1x512x4096 .bf16) (h3 : a3.IsWhole) (a4 : Memref sig .tc .vmem S1x512x4096 .bf16) (h4 : a4.IsWhole)
  (x0 x1 : Vec Ideal S1x512x4096 .f32)
  (n1 n2 : FVec Ideal S512x1 .f32) (dt : FVec Ideal S512x512 .f32)

/-- Trip k of pass two stores one piece into the first output: chunk k's corrected first block, at chunk k's rectangle. -/
theorem trip2_fst (k : Fin k1_t2_loop.trips) (hk : k.val < 8) :
    (trip_k1_t2 (F := Ideal) Variants.none c none i a1 h1 a2 h2 a3 h3 a4 h4 n1 n2 dt (h1.unread x0) (h2.unread x1) k).1
      = [⟨Rect.unit (s := S1x512x4096) (k1_off2 k) S1x512x512.size (k1_off2_inb k),
          k1_pay12 (F := Ideal) n1 n2 dt (chunk x0 ⟨k.val, hk⟩) (chunk x1 ⟨k.val, hk⟩)⟩] := by
  unfold trip_k1_t2
  dsimp only
  rw [read_chunk a1 h1 x0 (k1_off2 k) (k1_off2_inb k) ⟨k.val, hk⟩ (off2_eq k),
    read_chunk a2 h2 x1 (k1_off2 k) (k1_off2_inb k) ⟨k.val, hk⟩ (off2_eq k)]

/-- And one piece into the second output: chunk k's corrected second block, at the same rectangle. -/
theorem trip2_snd (k : Fin k1_t2_loop.trips) (hk : k.val < 8) :
    (trip_k1_t2 (F := Ideal) Variants.none c none i a1 h1 a2 h2 a3 h3 a4 h4 n1 n2 dt (h1.unread x0) (h2.unread x1) k).2.1
      = [⟨Rect.unit (s := S1x512x4096) (k1_off2 k) S1x512x512.size (k1_off2_inb k),
          k1_pay13 (F := Ideal) n1 n2 dt (chunk x0 ⟨k.val, hk⟩) (chunk x1 ⟨k.val, hk⟩)⟩] := by
  unfold trip_k1_t2
  dsimp only
  rw [read_chunk a1 h1 x0 (k1_off2 k) (k1_off2_inb k) ⟨k.val, hk⟩ (off2_eq k),
    read_chunk a2 h2 x1 (k1_off2 k) (k1_off2_inb k) ⟨k.val, hk⟩ (off2_eq k)]

/-- Every piece the first n trips of pass two leave in the first output is a restriction of one block. -/
theorem pieces_fst : ∀ (n : ℕ), n ≤ 8 →
    ∀ p ∈ (pb_k1_t2 (F := Ideal) Variants.none c none i a1 h1 a2 h2 a3 h3 a4 h4 n1 n2 dt (h1.unread x0) (h2.unread x1) n).1,
      ∀ x : p.1.shape.Idx, p.2 x = blockOf (k1_pay12 (F := Ideal) n1 n2 dt) x0 x1 (p.1.emb x)
  | 0, _ => fun p hp => absurd hp List.not_mem_nil
  | n + 1, hn => by
    have hk : n < k1_t2_loop.trips := by rw [trips2]; omega
    have hn8 : n < 8 := by omega
    intro p hp
    rw [pb_k1_t2_succ (F := Ideal) Variants.none c none i a1 h1 a2 h2 a3 h3 a4 h4 n1 n2 dt (h1.unread x0) (h2.unread x1) ⟨n, hk⟩] at hp
    change p ∈ (trip_k1_t2 (F := Ideal) Variants.none c none i a1 h1 a2 h2 a3 h3 a4 h4 n1 n2 dt (h1.unread x0) (h2.unread x1) ⟨n, hk⟩).1
      ++ (pb_k1_t2 (F := Ideal) Variants.none c none i a1 h1 a2 h2 a3 h3 a4 h4 n1 n2 dt (h1.unread x0) (h2.unread x1) n).1 at hp
    rcases List.mem_append.mp hp with h | h
    · rw [trip2_fst c i a1 h1 a2 h2 a3 h3 a4 h4 x0 x1 n1 n2 dt ⟨n, hk⟩ hn8] at h
      obtain rfl := List.mem_singleton.mp h
      intro x
      exact piece_ok (k1_pay12 (F := Ideal) n1 n2 dt) x0 x1 (k1_off2 ⟨n, hk⟩) (k1_off2_inb ⟨n, hk⟩) ⟨n, hn8⟩ (off2_eq ⟨n, hk⟩) x
    · exact pieces_fst n (by omega) p h

/-- Likewise for the second output. -/
theorem pieces_snd : ∀ (n : ℕ), n ≤ 8 →
    ∀ p ∈ (pb_k1_t2 (F := Ideal) Variants.none c none i a1 h1 a2 h2 a3 h3 a4 h4 n1 n2 dt (h1.unread x0) (h2.unread x1) n).2,
      ∀ x : p.1.shape.Idx, p.2 x = blockOf (k1_pay13 (F := Ideal) n1 n2 dt) x0 x1 (p.1.emb x)
  | 0, _ => fun p hp => absurd hp List.not_mem_nil
  | n + 1, hn => by
    have hk : n < k1_t2_loop.trips := by rw [trips2]; omega
    have hn8 : n < 8 := by omega
    intro p hp
    rw [pb_k1_t2_succ (F := Ideal) Variants.none c none i a1 h1 a2 h2 a3 h3 a4 h4 n1 n2 dt (h1.unread x0) (h2.unread x1) ⟨n, hk⟩] at hp
    change p ∈ (trip_k1_t2 (F := Ideal) Variants.none c none i a1 h1 a2 h2 a3 h3 a4 h4 n1 n2 dt (h1.unread x0) (h2.unread x1) ⟨n, hk⟩).2.1
      ++ (pb_k1_t2 (F := Ideal) Variants.none c none i a1 h1 a2 h2 a3 h3 a4 h4 n1 n2 dt (h1.unread x0) (h2.unread x1) n).2 at hp
    rcases List.mem_append.mp hp with h | h
    · rw [trip2_snd c i a1 h1 a2 h2 a3 h3 a4 h4 x0 x1 n1 n2 dt ⟨n, hk⟩ hn8] at h
      obtain rfl := List.mem_singleton.mp h
      intro x
      exact piece_ok (k1_pay13 (F := Ideal) n1 n2 dt) x0 x1 (k1_off2 ⟨n, hk⟩) (k1_off2_inb ⟨n, hk⟩) ⟨n, hn8⟩ (off2_eq ⟨n, hk⟩) x
    · exact pieces_snd n (by omega) p h

end Pieces

/-! ## The run's pieces, and each output block as one function -/

/-- Both passes make eight trips. -/
theorem tripsRun : Scf.trips (0#32) (Scalar.addi 0#32 8#32) 1#32 = 8 := by decide +kernel

section Run
variable (c : Dev nD) (i : grid1.Coords)
  (a1 : Memref sig .tc .vmem S1x512x4096 .f32) (h1 : a1.IsWhole) (a2 : Memref sig .tc .vmem S1x512x4096 .f32) (h2 : a2.IsWhole)
  (a3 : Memref sig .tc .vmem S1x512x4096 .bf16) (h3 : a3.IsWhole) (a4 : Memref sig .tc .vmem S1x512x4096 .bf16) (h4 : a4.IsWhole)
  (x0 x1 : Vec Ideal S1x512x4096 .f32)

/-- What the body leaves in the first output: the eight pieces of pass two, computed from the sums pass one finished with. -/
theorem run_fst :
    (kernelRun1_A (F := Ideal) c i a1 h1 a2 h2 a3 h3 a4 h4 x0 x1).1
      = (pb_k1_t2 (F := Ideal) Variants.none c none i a1 h1 a2 h2 a3 h3 a4 h4 (acc x0 x1 8).1 (acc x0 x1 8).2.1 (acc x0 x1 8).2.2 (h1.unread x0) (h2.unread x1) 8).1 := by
  unfold kernelRun1_A
  dsimp only
  rw [tripsRun, st_eq_acc c i a1 h1 a2 h2 a3 h3 a4 h4 x0 x1 8 (le_refl 8)]

/-- And in the second output. -/
theorem run_snd :
    (kernelRun1_A (F := Ideal) c i a1 h1 a2 h2 a3 h3 a4 h4 x0 x1).2.1
      = (pb_k1_t2 (F := Ideal) Variants.none c none i a1 h1 a2 h2 a3 h3 a4 h4 (acc x0 x1 8).1 (acc x0 x1 8).2.1 (acc x0 x1 8).2.2 (h1.unread x0) (h2.unread x1) 8).2 := by
  unfold kernelRun1_A
  dsimp only
  rw [tripsRun, st_eq_acc c i a1 h1 a2 h2 a3 h3 a4 h4 x0 x1 8 (le_refl 8)]

/-- The first output block read back: eight pieces, each a restriction of one block, tiling the buffer. -/
theorem out2_apply (y : S1x512x4096.Idx) :
    out1_A_2 (F := Ideal) c i a1 h1 a2 h2 a3 h3 a4 h4 x0 x1 y
      = blockOf (k1_pay12 (F := Ideal) (acc x0 x1 8).1 (acc x0 x1 8).2.1 (acc x0 x1 8).2.2) x0 x1 y := by
  unfold out1_A_2
  rw [View.read_writes_junk_eq_canon]
  refine View.canon_apply_of_pieces _ _ ?_ y (cover1_A_2 (F := Ideal) c i a1 h1 a2 h2 a3 h3 a4 h4 x0 x1 y)
  rw [run_fst c i a1 h1 a2 h2 a3 h3 a4 h4 x0 x1]
  exact pieces_fst c i a1 h1 a2 h2 a3 h3 a4 h4 x0 x1 (acc x0 x1 8).1 (acc x0 x1 8).2.1 (acc x0 x1 8).2.2 8 (le_refl 8)

/-- The second output block likewise. -/
theorem out3_apply (y : S1x512x4096.Idx) :
    out1_A_3 (F := Ideal) c i a1 h1 a2 h2 a3 h3 a4 h4 x0 x1 y
      = blockOf (k1_pay13 (F := Ideal) (acc x0 x1 8).1 (acc x0 x1 8).2.1 (acc x0 x1 8).2.2) x0 x1 y := by
  unfold out1_A_3
  rw [View.read_writes_junk_eq_canon]
  refine View.canon_apply_of_pieces _ _ ?_ y (cover1_A_3 (F := Ideal) c i a1 h1 a2 h2 a3 h3 a4 h4 x0 x1 y)
  rw [run_snd c i a1 h1 a2 h2 a3 h3 a4 h4 x0 x1]
  exact pieces_snd c i a1 h1 a2 h2 a3 h3 a4 h4 x0 x1 (acc x0 x1 8).1 (acc x0 x1 8).2.1 (acc x0 x1 8).2.2 8 (le_refl 8)

end Run

/-- Entry (i, d) of the first output block: chunk d / 512's corrected first block at column d % 512. -/
theorem outs1_fst (c : Dev nD) (t : Fin cfg1.N) (i : Fin 512) (d : Fin 4096) :
    (outsAt1 (F := Ideal) V c t).1 (ix3 0 i d)
      = k1_pay12 (F := Ideal) (acc (xblk0 V c t) (xblk1 V c t) 8).1 (acc (xblk0 V c t) (xblk1 V c t) 8).2.1
          (acc (xblk0 V c t) (xblk1 V c t) 8).2.2
          (chunk (xblk0 V c t) ⟨d.val / 512, by have := d.isLt; omega⟩)
          (chunk (xblk1 V c t) ⟨d.val / 512, by have := d.isLt; omega⟩)
          (ix3 0 i ⟨d.val % 512, Nat.mod_lt _ (by norm_num)⟩) := by
  unfold outsAt1
  dsimp only
  exact out2_apply c (grid1.coords t) (ms1_0 t) (hs1_0 t) (ms1_1 t) (hs1_1 t) (ms1_2 t) (hs1_2 t) (ms1_3 t) (hs1_3 t) (xblk0 V c t) (xblk1 V c t) (ix3 0 i d)

/-- Entry (i, d) of the second output block: chunk d / 512's corrected second block at column d % 512. -/
theorem outs1_snd (c : Dev nD) (t : Fin cfg1.N) (i : Fin 512) (d : Fin 4096) :
    (outsAt1 (F := Ideal) V c t).2 (ix3 0 i d)
      = k1_pay13 (F := Ideal) (acc (xblk0 V c t) (xblk1 V c t) 8).1 (acc (xblk0 V c t) (xblk1 V c t) 8).2.1
          (acc (xblk0 V c t) (xblk1 V c t) 8).2.2
          (chunk (xblk0 V c t) ⟨d.val / 512, by have := d.isLt; omega⟩)
          (chunk (xblk1 V c t) ⟨d.val / 512, by have := d.isLt; omega⟩)
          (ix3 0 i ⟨d.val % 512, Nat.mod_lt _ (by norm_num)⟩) := by
  unfold outsAt1
  dsimp only
  exact out3_apply c (grid1.coords t) (ms1_0 t) (hs1_0 t) (ms1_1 t) (hs1_1 t) (ms1_2 t) (hs1_2 t) (ms1_3 t) (hs1_3 t) (xblk0 V c t) (xblk1 V c t) (ix3 0 i d)

end Cert.KernelIdeal.K1Loop

end
-- ==== Proof.K1Arr.lean ====
/-
  Region 1 (the cosine attention) assembled with the two reshapes before it.

  The region's grid has one point per batch b; each window's block at that point is the [512, 4096] slab b of its
  array. At a point the body carries, over the eight column chunks, the squared row norms of either slab and the
  512 × 512 matrix of row dot products; a sum over the 4096 columns is the sum over chunks of the sums over a
  chunk's 512 columns, so after the eighth chunk the carried sums are the specification's norms and dot products
  of batch b. The stored chunks are then a chunk of one slab minus the softmax-weighted rows of the other, which
  is the specification's residual read at column 512 · (d / 512) + d % 512 = d. The eight slabs tile the array.
-/
import proofs.«404490_j9337258902039_3_alg».proof.Proof.FrameKI
import proofs.«404490_j9337258902039_3_alg».proof.Proof.Spec
import proofs.«404490_j9337258902039_3_alg».proof.Proof.K1Pay
import proofs.«404490_j9337258902039_3_alg».proof.Proof.K1Loop
import proofs.«404490_j9337258902039_3_alg».proof.Proof.Math
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators

namespace Cert.KernelIdeal.K1Arr

open Cert.KernelIdeal Cert.KernelIdeal.Gen Cert.KernelIdeal.GenP
open Cert.KernelIdeal.K1Pay Cert.KernelIdeal.K1Loop
open Idealize.ShloMosaic Idealize.ShloMosaic.TcCoe Idealize.ShloMosaic.ValueIdx
open Idealize.ShloMosaic.Pipeline (Dat)

/-! ## The carried sums after the eighth chunk -/

/-- The sum of f over column chunk kk (columns 512 kk … 512 kk + 511); zero past the eighth chunk. -/
def chsum (f : Fin 4096 → EReal) (kk : ℕ) : EReal :=
  if h : kk < 8 then ∑ r : Fin 512, f ⟨kk * 512 + r.val, by have := r.isLt; omega⟩ else 0

/-- The eight chunk sums add up to the sum over all 4096 columns. -/
theorem sum_chsum (f : Fin 4096 → EReal) : ∑ kk ∈ Finset.range 8, chsum f kk = ∑ d, f d := by
  rw [Cert.Math.sum_chunks f, Finset.sum_range]
  refine Finset.sum_congr rfl fun k _ => ?_
  unfold chsum
  rw [dif_pos k.isLt]

variable (x0 x1 : Vec Ideal S1x512x4096 .f32)

/-- Before chunk k the first carried sum at row i is the sum of squares over the chunks below k. -/
theorem acc_fst (i : Fin 512) : ∀ k, k ≤ 8 →
    (acc x0 x1 k).1 (ix2 i 0) = ∑ kk ∈ Finset.range k, chsum (fun d => x0 (ix3 0 i d) * x0 (ix3 0 i d)) kk
  | 0, _ => by rw [acc_zero, Finset.range_zero, Finset.sum_empty]; exact pay1_zero i
  | k + 1, hk => by
    have h : k < 8 := by omega
    rw [show acc x0 x1 (k + 1) = _ from acc_succ x0 x1 ⟨k, h⟩, Finset.sum_range_succ, ← acc_fst i k (by omega)]
    refine (pay6_apply _ _ i).trans ?_
    congr 1
    unfold chsum
    rw [dif_pos h]
    rfl

theorem acc_snd (i : Fin 512) : ∀ k, k ≤ 8 →
    (acc x0 x1 k).2.1 (ix2 i 0) = ∑ kk ∈ Finset.range k, chsum (fun d => x1 (ix3 0 i d) * x1 (ix3 0 i d)) kk
  | 0, _ => by rw [acc_zero, Finset.range_zero, Finset.sum_empty]; exact pay2_zero i
  | k + 1, hk => by
    have h : k < 8 := by omega
    rw [show acc x0 x1 (k + 1) = _ from acc_succ x0 x1 ⟨k, h⟩, Finset.sum_range_succ, ← acc_snd i k (by omega)]
    refine (pay7_apply _ _ i).trans ?_
    congr 1
    unfold chsum
    rw [dif_pos h]
    rfl

theorem acc_trd (i j : Fin 512) : ∀ k, k ≤ 8 →
    (acc x0 x1 k).2.2 (ix2 i j) = ∑ kk ∈ Finset.range k, chsum (fun d => x0 (ix3 0 i d) * x1 (ix3 0 j d)) kk
  | 0, _ => by rw [acc_zero, Finset.range_zero, Finset.sum_empty]; exact pay3_zero i j
  | k + 1, hk => by
    have h : k < 8 := by omega
    rw [show acc x0 x1 (k + 1) = _ from acc_succ x0 x1 ⟨k, h⟩, Finset.sum_range_succ, ← acc_trd i j k (by omega)]
    refine (pay8_apply _ _ _ i j).trans ?_
    congr 1
    unfold chsum
    rw [dif_pos h]
    rfl

/-! ## The stored chunks are the specification's residuals -/

/-- Column d of a slab is column d % 512 of its chunk d / 512. -/
theorem chunk_at (x : Vec Ideal S1x512x4096 .f32) (i : Fin 512) (d : Fin 4096) :
    chunk x ⟨d.val / 512, by have := d.isLt; omega⟩ (ix3 0 i ⟨d.val % 512, Nat.mod_lt _ (by norm_num)⟩) = x (ix3 0 i d) := by
  unfold chunk
  refine congrArg x ?_
  refine congrArg (ix3 0 i) (Fin.ext ?_)
  show d.val / 512 * 512 + d.val % 512 = d.val
  omega

section Residual
variable (X1 X2 : Spec.S3x.Idx → EReal) (b : Fin 8)
  (h0 : ∀ (i : Fin 512) (d : Fin 4096), x0 (ix3 0 i d) = X1 (ix3 b i d))
  (h1 : ∀ (i : Fin 512) (d : Fin 4096), x1 (ix3 0 i d) = X2 (ix3 b i d))
include h0 h1

theorem n1_eq (i : Fin 512) : (acc x0 x1 8).1 (ix2 i 0) = Spec.sq X1 b i := by
  rw [acc_fst x0 x1 i 8 le_rfl, sum_chsum]
  unfold Spec.sq
  simp only [h0]

theorem n2_eq (i : Fin 512) : (acc x0 x1 8).2.1 (ix2 i 0) = Spec.sq X2 b i := by
  rw [acc_snd x0 x1 i 8 le_rfl, sum_chsum]
  unfold Spec.sq
  simp only [h1]

theorem dt_eq (i j : Fin 512) : (acc x0 x1 8).2.2 (ix2 i j) = Spec.dots X1 X2 b i j := by
  rw [acc_trd x0 x1 i j 8 le_rfl, sum_chsum]
  unfold Spec.dots
  simp only [h0, h1]

theorem S_eq (i j : Fin 512) :
    S (acc x0 x1 8).1 (acc x0 x1 8).2.1 (acc x0 x1 8).2.2 i j = Spec.sim X1 X2 b i j := by
  unfold S Spec.sim
  rw [pay9_apply, n1_eq x0 x1 X1 X2 b h0 h1, n2_eq x0 x1 X1 X2 b h0 h1, dt_eq x0 x1 X1 X2 b h0 h1]

theorem E1_eq (i j : Fin 512) :
    E1 (acc x0 x1 8).1 (acc x0 x1 8).2.1 (acc x0 x1 8).2.2 i j = Spec.e1 X1 X2 b i j := by
  unfold E1 RM Spec.e1 Spec.rowmax
  simp only [S_eq x0 x1 X1 X2 b h0 h1]

theorem E2_eq (i j : Fin 512) :
    E2 (acc x0 x1 8).1 (acc x0 x1 8).2.1 (acc x0 x1 8).2.2 i j = Spec.e2 X1 X2 b i j := by
  unfold E2 CM Spec.e2 Spec.colmax
  simp only [S_eq x0 x1 X1 X2 b h0 h1]

theorem mu1_at (i : Fin 512) (d : Fin 4096) :
    k1_pay12 (F := Ideal) (acc x0 x1 8).1 (acc x0 x1 8).2.1 (acc x0 x1 8).2.2
        (chunk x0 ⟨d.val / 512, by have := d.isLt; omega⟩) (chunk x1 ⟨d.val / 512, by have := d.isLt; omega⟩)
        (ix3 0 i ⟨d.val % 512, Nat.mod_lt _ (by norm_num)⟩)
      = Spec.mu1A X1 X2 (ix3 b i d) := by
  rw [pay12_apply]
  simp only [chunk_at, E1_eq x0 x1 X1 X2 b h0 h1, h0, h1]
  rfl

theorem mu2_at (j : Fin 512) (d : Fin 4096) :
    k1_pay13 (F := Ideal) (acc x0 x1 8).1 (acc x0 x1 8).2.1 (acc x0 x1 8).2.2
        (chunk x0 ⟨d.val / 512, by have := d.isLt; omega⟩) (chunk x1 ⟨d.val / 512, by have := d.isLt; omega⟩)
        (ix3 0 j ⟨d.val % 512, Nat.mod_lt _ (by norm_num)⟩)
      = Spec.mu2A X1 X2 (ix3 b j d) := by
  rw [pay13_apply]
  simp only [chunk_at, E2_eq x0 x1 X1 X2 b h0 h1, h0, h1]
  rfl

end Residual

/-! ## The two reshapes before the region -/

/-- The reshape [8,512,8,512] → [8,512,4096] read at an index: column d is (d / 512, d % 512). -/
theorem reshape_flat (x : Spec.S4x.Idx → EReal) (h : S8x512x8x512.ShapeCasts S8x512x4096) :
    shapeCast S8x512x4096 x h = Spec.flat x := by
  funext y
  refine shapeCast_apply x h y _ ?_
  rw [Shape.rowMajor_val_four, Shape.rowMajor_val_three]
  have h2 : (y 2).val < 4096 := (y 2).isLt
  show (((y 0).val * 512 + (y 1).val) * 8 + (y 2).val / 512) * 512 + (y 2).val % 512 = ((y 0).val * 512 + (y 1).val) * 4096 + (y 2).val
  omega

variable (m : (ℓ : Loc nD τ sig) → Buf (Elt Ideal) ℓ) (ρ : Dev nD → PrngReg) (c : Dev nD)

theorem v5_eq : (W3 m ρ c (Proc.devRef .tc main_v5) : S8x512x4096.Idx → EReal)
    = Spec.flat (W2 m ρ c (Proc.devRef .tc main_arg0)) := by
  show StableHlo.after hostOps1 (W2 m ρ c) (Proc.devRef .tc main_v5) = _
  after_results
  exact reshape_flat _ _

theorem v6_eq : (W3 m ρ c (Proc.devRef .tc main_v6) : S8x512x4096.Idx → EReal)
    = Spec.flat (W2 m ρ c (Proc.devRef .tc main_arg1)) := by
  show StableHlo.after hostOps1 (W2 m ρ c) (Proc.devRef .tc main_v6) = _
  after_results
  exact reshape_flat _ _

/-! ## The region at its entry contents V: blocks, write-backs, the cover -/

section Blocks
variable (V : (c : Dev nD) → (b : Ref sig .tc) → Buf (Elt Ideal) ((c : Thread nD τ).loc b))

/-- The region's two input arrays at their literal type. -/
abbrev arr5 : Spec.S3x.Idx → EReal := V c main_v5
abbrev arr6 : Spec.S3x.Idx → EReal := V c main_v6

/-- Grid point t of region 1 is batch t: every window's block index is (t, 0, 0). -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

theorem bt_lt (t : Fin cfg1.N) : t.val < 8 := by have := t.isLt; have h : cfg1.N = 8 := N_1; omega

/-- Window 0's block at point t, at (0, i, d), is the first array at (t, i, d). -/
theorem xblk0_apply (t : Fin cfg1.N) (i : Fin 512) (d : Fin 4096) :
    xblk0 V c t (ix3 0 i d) = arr5 c V (ix3 ⟨t.val, bt_lt t⟩ i d) := by
  obtain ⟨e0, e1, e2, -⟩ := idx_facts1 t
  unfold xblk0 iblk1
  rw [View.read_apply]
  show V c main_v5 _ = V c main_v5 _
  congr 1
  funext a
  apply Fin.ext
  match a with
  | ⟨0, _⟩ => show win1_0.index t 0 * 1 + 1 * 0 = t.val; rw [e0]; omega
  | ⟨1, _⟩ => show win1_0.index t 1 * 512 + 1 * i.val = i.val; rw [e1]; omega
  | ⟨2, _⟩ => show win1_0.index t 2 * 4096 + 1 * d.val = d.val; rw [e2]; omega

/-- Window 1's block at point t, at (0, i, d), is the second array at (t, i, d). -/
theorem xblk1_apply (t : Fin cfg1.N) (i : Fin 512) (d : Fin 4096) :
    xblk1 V c t (ix3 0 i d) = arr6 c V (ix3 ⟨t.val, bt_lt t⟩ i d) := by
  obtain ⟨-, -, -, e0, e1, e2, -⟩ := idx_facts1 t
  unfold xblk1 iblk1
  rw [View.read_apply]
  show V c main_v6 _ = V c main_v6 _
  congr 1
  funext a
  apply Fin.ext
  match a with
  | ⟨0, _⟩ => show win1_1.index t 0 * 1 + 1 * 0 = t.val; rw [e0]; omega
  | ⟨1, _⟩ => show win1_1.index t 1 * 512 + 1 * i.val = i.val; rw [e1]; omega
  | ⟨2, _⟩ => show win1_1.index t 2 * 4096 + 1 * d.val = d.val; rw [e2]; omega

/-- What point t writes back through window 2 is slab t of the first residual. -/
theorem flushed2_eq (t : Fin cfg1.N) :
    (dat1 V c).flushed 2 t
      = ((cfg1.win 2).blk t).view.read (Elt Ideal) (Spec.mu1A (arr5 c V) (arr6 c V)) := by
  obtain ⟨-, -, -, -, -, -, e0, e1, e2, -⟩ := idx_facts1 t
  show (cfg1.win 2).cut (grid1.coords t) ((dat1 V c).after 2 t) = _
  rw [after1_2]
  funext y
  rw [View.read_apply]
  have hy0 : (y 0).val < 1 := (y 0).isLt
  have hy1 : (y 1).val < 512 := (y 1).isLt
  have hy2 : (y 2).val < 4096 := (y 2).isLt
  have hin : win1_2.xinj (grid1.coords t) y = ix3 (0 : Fin 1) (⟨(y 1).val, hy1⟩ : Fin 512) (⟨(y 2).val, hy2⟩ : Fin 4096) := by
    funext a
    apply Fin.ext
    match a with
    | ⟨0, _⟩ => show (y 0).val = 0; omega
    | ⟨1, _⟩ => rfl
    | ⟨2, _⟩ => rfl
  have hemb : ((cfg1.win 2).blk t).view.emb y = ix3 (⟨t.val, bt_lt t⟩ : Fin 8) (⟨(y 1).val, hy1⟩ : Fin 512) (⟨(y 2).val, hy2⟩ : Fin 4096) := by
    funext a
    apply Fin.ext
    match a with
    | ⟨0, _⟩ => show win1_2.index t 0 * 1 + 1 * (y 0).val = t.val; rw [e0]; omega
    | ⟨1, _⟩ => show win1_2.index t 1 * 512 + 1 * (y 1).val = (y 1).val; rw [e1]; omega
    | ⟨2, _⟩ => show win1_2.index t 2 * 4096 + 1 * (y 2).val = (y 2).val; rw [e2]; omega
  show (outsAt1 (F := Ideal) V c t).1 (win1_2.xinj (grid1.coords t) y) = Spec.mu1A (arr5 c V) (arr6 c V) (((cfg1.win 2).blk t).view.emb y)
  rw [hin, hemb]
  refine (outs1_fst V c t ⟨(y 1).val, hy1⟩ ⟨(y 2).val, hy2⟩).trans ?_
  exact mu1_at (xblk0 V c t) (xblk1 V c t) (arr5 c V) (arr6 c V) ⟨t.val, bt_lt t⟩ (xblk0_apply c V t) (xblk1_apply c V t) _ _

/-- What point t writes back through window 3 is slab t of the second residual. -/
theorem flushed3_eq (t : Fin cfg1.N) :
    (dat1 V c).flushed 3 t
      = ((cfg1.win 3).blk t).view.read (Elt Ideal) (Spec.mu2A (arr5 c V) (arr6 c V)) := by
  obtain ⟨-, -, -, -, -, -, -, -, -, e0, e1, e2⟩ := idx_facts1 t
  show (cfg1.win 3).cut (grid1.coords t) ((dat1 V c).after 3 t) = _
  rw [after1_3]
  funext y
  rw [View.read_apply]
  have hy0 : (y 0).val < 1 := (y 0).isLt
  have hy1 : (y 1).val < 512 := (y 1).isLt
  have hy2 : (y 2).val < 4096 := (y 2).isLt
  have hin : win1_3.xinj (grid1.coords t) y = ix3 (0 : Fin 1) (⟨(y 1).val, hy1⟩ : Fin 512) (⟨(y 2).val, hy2⟩ : Fin 4096) := by
    funext a
    apply Fin.ext
    match a with
    | ⟨0, _⟩ => show (y 0).val = 0; omega
    | ⟨1, _⟩ => rfl
    | ⟨2, _⟩ => rfl
  have hemb : ((cfg1.win 3).blk t).view.emb y = ix3 (⟨t.val, bt_lt t⟩ : Fin 8) (⟨(y 1).val, hy1⟩ : Fin 512) (⟨(y 2).val, hy2⟩ : Fin 4096) := by
    funext a
    apply Fin.ext
    match a with
    | ⟨0, _⟩ => show win1_3.index t 0 * 1 + 1 * (y 0).val = t.val; rw [e0]; omega
    | ⟨1, _⟩ => show win1_3.index t 1 * 512 + 1 * (y 1).val = (y 1).val; rw [e1]; omega
    | ⟨2, _⟩ => show win1_3.index t 2 * 4096 + 1 * (y 2).val = (y 2).val; rw [e2]; omega
  show (outsAt1 (F := Ideal) V c t).2 (win1_3.xinj (grid1.coords t) y) = Spec.mu2A (arr5 c V) (arr6 c V) (((cfg1.win 3).blk t).view.emb y)
  rw [hin, hemb]
  refine (outs1_snd V c t ⟨(y 1).val, hy1⟩ ⟨(y 2).val, hy2⟩).trans ?_
  exact mu2_at (xblk0 V c t) (xblk1 V c t) (arr5 c V) (arr6 c V) ⟨t.val, bt_lt t⟩ (xblk0_apply c V t) (xblk1_apply c V t) _ _

/-- An index of the array is in point t's block of window 2 iff each coordinate is in the block's range. -/
theorem mem_blk2 (t : Fin cfg1.N) (i : S8x512x4096.Idx) :
    i ∈ ((cfg1.win 2).blk t).view.set ↔ ∀ a : Fin 3, win1_2.index t a * S1x512x4096.size a ≤ (i a).val ∧ (i a).val < win1_2.index t a * S1x512x4096.size a + S1x512x4096.size a := by
  show i ∈ ((View.whole main_v7_0).slice (win1_2.rect t)).set ↔ _
  rw [View.set_slice_whole, Rect.mem_set_unit]
  exact Iff.rfl

theorem mem_blk3 (t : Fin cfg1.N) (i : S8x512x4096.Idx) :
    i ∈ ((cfg1.win 3).blk t).view.set ↔ ∀ a : Fin 3, win1_3.index t a * S1x512x4096.size a ≤ (i a).val ∧ (i a).val < win1_3.index t a * S1x512x4096.size a + S1x512x4096.size a := by
  show i ∈ ((View.whole main_v7_1).slice (win1_3.rect t)).set ↔ _
  rw [View.set_slice_whole, Rect.mem_set_unit]
  exact Iff.rfl

/-- The eight slabs tile the array: index (b, i, d) is in point b's block. -/
theorem cover2 (i : S8x512x4096.Idx) : ∃ t : Fin cfg1.N, (cfg1.win 2).flush t = true ∧ i ∈ ((cfg1.win 2).blk t).view.set := by
  have h0 : (i 0).val < 8 := (i 0).isLt
  have h1 : (i 1).val < 512 := (i 1).isLt
  have h2 : (i 2).val < 4096 := (i 2).isLt
  obtain ⟨t, ht⟩ : ∃ t : Fin cfg1.N, t.val = (i 0).val := ⟨⟨(i 0).val, by rw [show cfg1.N = 8 from N_1]; exact h0⟩, rfl⟩
  refine ⟨t, flush1_2 t, ?_⟩
  rw [mem_blk2]
  obtain ⟨-, -, -, -, -, -, e0, e1, e2, -⟩ := idx_facts1 t
  intro a
  match a with
  | ⟨0, _⟩ => show win1_2.index t 0 * 1 ≤ (i 0).val ∧ (i 0).val < win1_2.index t 0 * 1 + 1; rw [e0]; omega
  | ⟨1, _⟩ => show win1_2.index t 1 * 512 ≤ (i 1).val ∧ (i 1).val < win1_2.index t 1 * 512 + 512; rw [e1]; omega
  | ⟨2, _⟩ => show win1_2.index t 2 * 4096 ≤ (i 2).val ∧ (i 2).val < win1_2.index t 2 * 4096 + 4096; rw [e2]; omega

theorem cover3 (i : S8x512x4096.Idx) : ∃ t : Fin cfg1.N, (cfg1.win 3).flush t = true ∧ i ∈ ((cfg1.win 3).blk t).view.set := by
  have h0 : (i 0).val < 8 := (i 0).isLt
  have h1 : (i 1).val < 512 := (i 1).isLt
  have h2 : (i 2).val < 4096 := (i 2).isLt
  obtain ⟨t, ht⟩ : ∃ t : Fin cfg1.N, t.val = (i 0).val := ⟨⟨(i 0).val, by rw [show cfg1.N = 8 from N_1]; exact h0⟩, rfl⟩
  refine ⟨t, flush1_3 t, ?_⟩
  rw [mem_blk3]
  obtain ⟨-, -, -, -, -, -, -, -, -, e0, e1, e2⟩ := idx_facts1 t
  intro a
  match a with
  | ⟨0, _⟩ => show win1_3.index t 0 * 1 ≤ (i 0).val ∧ (i 0).val < win1_3.index t 0 * 1 + 1; rw [e0]; omega
  | ⟨1, _⟩ => show win1_3.index t 1 * 512 ≤ (i 1).val ∧ (i 1).val < win1_3.index t 1 * 512 + 512; rw [e1]; omega
  | ⟨2, _⟩ => show win1_3.index t 2 * 4096 ≤ (i 2).val ∧ (i 2).val < win1_3.index t 2 * 4096 + 4096; rw [e2]; omega

/-- After the region the first output array is the first residual of the two input arrays as entered. -/
theorem final2 : (dat1 V c).arrAt 2 cfg1.N = Spec.mu1A (arr5 c V) (arr6 c V) :=
  (dat1 V c).arrAt_eq_of_cover 2 (Spec.mu1A (arr5 c V) (arr6 c V)) (fun t _ => flushed2_eq c V t) (cover2)

theorem final3 : (dat1 V c).arrAt 3 cfg1.N = Spec.mu2A (arr5 c V) (arr6 c V) :=
  (dat1 V c).arrAt_eq_of_cover 3 (Spec.mu2A (arr5 c V) (arr6 c V)) (fun t _ => flushed3_eq c V t) (cover3)

end Blocks

/-! ## Region 1 in the run -/

theorem seg1_mu1 (hx1 : W2 m ρ c (Proc.devRef .tc main_arg0) = m ((c : Thread nD τ).loc main_arg0))
    (hx2 : W2 m ρ c (Proc.devRef .tc main_arg1) = m ((c : Thread nD τ).loc main_arg1)) :
    W4 m ρ c (Proc.devRef .tc main_v7_0)
      = Spec.mu1A (Spec.flat (m ((c : Thread nD τ).loc main_arg0))) (Spec.flat (m ((c : Thread nD τ).loc main_arg1))) := by
  refine (W4_arr m ρ c 2).trans ?_
  refine (final2 c (V3 m ρ)).trans ?_
  show Spec.mu1A (W3 m ρ c (Proc.devRef .tc main_v5)) (W3 m ρ c (Proc.devRef .tc main_v6)) = _
  rw [v5_eq, v6_eq, hx1, hx2]

theorem seg1_mu2 (hx1 : W2 m ρ c (Proc.devRef .tc main_arg0) = m ((c : Thread nD τ).loc main_arg0))
    (hx2 : W2 m ρ c (Proc.devRef .tc main_arg1) = m ((c : Thread nD τ).loc main_arg1)) :
    W4 m ρ c (Proc.devRef .tc main_v7_1)
      = Spec.mu2A (Spec.flat (m ((c : Thread nD τ).loc main_arg0))) (Spec.flat (m ((c : Thread nD τ).loc main_arg1))) := by
  refine (W4_arr m ρ c 3).trans ?_
  refine (final3 c (V3 m ρ)).trans ?_
  show Spec.mu2A (W3 m ρ c (Proc.devRef .tc main_v5)) (W3 m ρ c (Proc.devRef .tc main_v6)) = _
  rw [v5_eq, v6_eq, hx1, hx2]

end Cert.KernelIdeal.K1Arr

end
-- ==== Proof.K2Pay.lean ====
/-
  Region 2's stored values, read at one index.

  One point of the region holds 512 rows. For a 512 × 512 block u and a transposed weight matrix wT
  (wT[k, o] = W[o, k]) with a bias b, the linear map at (r, o) is  Σ_k u[r, k] · wT[k, o] + b[o].
  Three such maps laid side by side give a 512 × 1536 block hb; each of its rows is divided by
  max(‖row‖, 1e-12) and clipped below at zero. The two statistics blocks are 8 × 1536: row 0 holds the
  column sums (of the values, of their squares) over the 512 rows, rows 1 … 7 are zero.
-/
import proofs.«404490_j9337258902039_3_alg».proof.Proof.Gen.KernelIdeal.Skeleton
import proofs.«404490_j9337258902039_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.K2Pay

open Idealize.ShloMosaic Idealize.ShloMosaic.ValueIdx Cert.KernelIdeal.Gen

/-- A 512 × 512 block of values and a vector of 512 values, as plain functions of the index. -/
abbrev Blk : Type := S512x512.Idx → EReal
abbrev Bias : Type := S512.Idx → EReal

/-- One linear map at (r, o): row r of u against column o of the transposed weights, plus the bias. -/
def L (u wT : Blk) (b : Bias) (r o : Fin 512) : EReal :=
  (∑ k : Fin 512, u (ix2 r k) * wT (ix2 k o)) + b (ix1 o)

/-- The three linear maps side by side, at (r, o) with o < 1536. -/
def hb (x WxT : Blk) (bx : Bias) (nb WnT : Blk) (bn : Bias) (mu WrT : Blk) (br : Bias)
    (r : Fin 512) (o : Fin 1536) : EReal :=
  if h : o.val < 512 then L x WxT bx r ⟨o.val, h⟩
  else if h2 : o.val < 1024 then L nb WnT bn r ⟨o.val - 512, by omega⟩
  else L mu WrT br r ⟨o.val - 1024, by have h3 : o.val < 1536 := o.isLt; omega⟩

/-- A row of hb divided by max(‖row‖, 1e-12), clipped below at zero. -/
def gb (x WxT : Blk) (bx : Bias) (nb WnT : Blk) (bn : Bias) (mu WrT : Blk) (br : Bias)
    (r : Fin 512) (o : Fin 1536) : EReal :=
  max (Ideal.div (hb x WxT bx nb WnT bn mu WrT br r o)
        (max (Ideal.sqrt (∑ o' : Fin 1536, hb x WxT bx nb WnT bn mu WrT br r o' * hb x WxT bx nb WnT bn mu WrT br r o'))
          Spec.eps12)) 0

/-! ## One linear map -/

/-- The 512 × 512 product read at (r, o): the sum over the contracted coordinate. -/
theorem mm_apply (u w : FVec Ideal S512x512 .bf16) (r o : Fin 512) :
    matmul dot_S512x512_S512x512_S512x512_1_0_0_1_n_n none u w (constant S512x512 .f32 0x00000000#32) (ix2 r o)
      = ∑ k : Fin 512, u (ix2 r k) * w (ix2 k o) := by
  show FloatOps.matmul dot_S512x512_S512x512_S512x512_1_0_0_1_n_n none u w _ (ix2 r o) = _
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have hl : dot_S512x512_S512x512_S512x512_1_0_0_1_n_n.lhsIdx (ix2 r o)
      ((contrEquiv1 dot_S512x512_S512x512_S512x512_1_0_0_1_n_n 512 rfl rfl).symm k) = ix2 r k := by
    funext ax; apply Fin.ext
    match ax with
    | ⟨0, _⟩ => simp [DotDims.lhsIdx, dot_S512x512_S512x512_S512x512_1_0_0_1_n_n]; rfl
    | ⟨1, _⟩ => simp [DotDims.lhsIdx, dot_S512x512_S512x512_S512x512_1_0_0_1_n_n]; exact hk
  have hr : dot_S512x512_S512x512_S512x512_1_0_0_1_n_n.rhsIdx (ix2 r o)
      ((contrEquiv1 dot_S512x512_S512x512_S512x512_1_0_0_1_n_n 512 rfl rfl).symm k) = ix2 k o := by
    funext ax; apply Fin.ext
    match ax with
    | ⟨0, _⟩ => simp [DotDims.rhsIdx, dot_S512x512_S512x512_S512x512_1_0_0_1_n_n]; exact hk
    | ⟨1, _⟩ => simp [DotDims.rhsIdx, dot_S512x512_S512x512_S512x512_1_0_0_1_n_n]; rfl
  rw [hl, hr]

/-- A bias row laid under every row of a block, read at (r, o). -/
theorem bias_apply (b : Vec Ideal S512 .f32) (r o : Fin 512) :
    broadcastTo S512x512 (shapeCast S1x512 b shapeCasts_S512_S1x512 : FVec Ideal S1x512 .f32) broadcasts_S1x512_S512x512 (ix2 r o) = b (ix1 o) :=
  (broadcastTo_1b_ab_apply _ _ r o).trans (shapeCast_a_1a_apply b _ 0 o)

/-- Product plus bias, with the block already in place. -/
theorem lin_apply' (u : FVec Ideal S512x512 .bf16) (wT : Vec Ideal S512x512 .bf16) (b : Vec Ideal S512 .f32) (r o : Fin 512) :
    addf (F := Ideal) (matmul (F := Ideal) dot_S512x512_S512x512_S512x512_1_0_0_1_n_n none u
          (shapeCast S512x512 wT shapeCasts_S512x512_S512x512 : FVec Ideal S512x512 .bf16) (constant S512x512 .f32 0x00000000#32))
        (broadcastTo S512x512 (shapeCast S1x512 b shapeCasts_S512_S1x512 : FVec Ideal S1x512 .f32) broadcasts_S1x512_S512x512) (ix2 r o)
      = L u wT b r o := by
  rw [shapeCast_self]
  show matmul (F := Ideal) dot_S512x512_S512x512_S512x512_1_0_0_1_n_n none u (wT : FVec Ideal S512x512 .bf16) (constant S512x512 .f32 0x00000000#32) (ix2 r o)
      + broadcastTo S512x512 (shapeCast S1x512 b shapeCasts_S512_S1x512 : FVec Ideal S1x512 .f32) broadcasts_S1x512_S512x512 (ix2 r o) = _
  rw [mm_apply, bias_apply]
  rfl

theorem lin_apply (u wT : Vec Ideal S512x512 .bf16) (b : Vec Ideal S512 .f32) (r o : Fin 512) :
    addf (F := Ideal) (matmul (F := Ideal) dot_S512x512_S512x512_S512x512_1_0_0_1_n_n none
          (shapeCast S512x512 u shapeCasts_S512x512_S512x512 : FVec Ideal S512x512 .bf16)
          (shapeCast S512x512 wT shapeCasts_S512x512_S512x512 : FVec Ideal S512x512 .bf16) (constant S512x512 .f32 0x00000000#32))
        (broadcastTo S512x512 (shapeCast S1x512 b shapeCasts_S512_S1x512 : FVec Ideal S1x512 .f32) broadcasts_S1x512_S512x512) (ix2 r o)
      = L u wT b r o := by
  rw [shapeCast_self u]
  exact lin_apply' u wT b r o

/-! ## Three blocks side by side -/

theorem cat3_apply (a b c : FVec Ideal S512x512 .f32) (r : Fin 512) (o : Fin 1536) :
    concatenate S512x1536 1 [⟨S512x512, a⟩, ⟨S512x512, b⟩, ⟨S512x512, c⟩]
        concatenates_S512x512_S512x512_S512x512_S512x1536_d1 (ix2 r o)
      = if h : o.val < 512 then a (ix2 r ⟨o.val, h⟩)
        else if h2 : o.val < 1024 then b (ix2 r ⟨o.val - 512, by omega⟩)
        else c (ix2 r ⟨o.val - 1024, by have h3 : o.val < 1536 := o.isLt; omega⟩) := by
  have h3 : o.val < 1536 := o.isLt
  split
  · next h =>
    refine concatenate_apply_piece _ _ _ (ix2 r o) 0 (by show (0 : Nat) < 3; omega) S512x512 a rfl rfl 0 rfl (ix2 r ⟨o.val, h⟩) (fun ax hax => ?_) ?_
    · match ax with
      | ⟨0, _⟩ => rfl
      | ⟨1, _⟩ => exact absurd rfl hax
    · show 0 + o.val = o.val
      omega
  · next h =>
    split
    · next h2 =>
      refine concatenate_apply_piece _ _ _ (ix2 r o) 1 (by show (1 : Nat) < 3; omega) S512x512 b rfl rfl 512 rfl (ix2 r ⟨o.val - 512, by omega⟩) (fun ax hax => ?_) ?_
      · match ax with
        | ⟨0, _⟩ => rfl
        | ⟨1, _⟩ => exact absurd rfl hax
      · show 512 + (o.val - 512) = o.val
        omega
    · next h2 =>
      refine concatenate_apply_piece _ _ _ (ix2 r o) 2 (by show (2 : Nat) < 3; omega) S512x512 c rfl rfl 1024 rfl (ix2 r ⟨o.val - 1024, by omega⟩) (fun ax hax => ?_) ?_
      · match ax with
        | ⟨0, _⟩ => rfl
        | ⟨1, _⟩ => exact absurd rfl hax
      · show 1024 + (o.val - 1024) = o.val
        omega

/-! ## A row divided by its norm and clipped -/

/-- The index over row r with column k put back on the reduced axis is (r, k). -/
theorem lift_row (h : S512x1536.Reduces [1] S512) (r : Fin 512) (k : Fin (S512x1536.size 1)) :
    h.lift (ix1 r) k = ix2 (n1 := 1536) r k := by
  funext c
  apply Fin.ext
  show h.liftVal (ix1 r) k.val c = _
  match c with
  | ⟨0, _⟩ => rfl
  | ⟨1, _⟩ => rfl

/-- Row sums over the 1536 columns, as a vector of 512 values. -/
theorem rowsum_apply (g : FVec Ideal S512x1536 .f32) (hφ : FKind.Formats .f32)
    (hacc : (0x00000000#32 : BitVec 32) = FKind.add.neutral .f32 hφ) (r : Fin 512) :
    multiReduction (F := Ideal) .add [1] S512 g 0x00000000#32 reduces_S512x1536_S512 hφ hacc (ix1 r)
      = ∑ o : Fin 1536, g (ix2 r o) := by
  rw [Ideal.multiReduction_add_single]
  exact Finset.sum_congr rfl fun k _ => congrArg g (lift_row _ r k)

/-- A vector of 512 values read as a 512 × 1 column. -/
theorem col_apply (v : FVec Ideal S512 .f32) (r : Fin 512) (z : Fin 1) :
    shapeCast S512x1 v shapeCasts_S512_S512x1 (ix2 r z) = v (ix1 r) :=
  shapeCast_apply v _ _ _ (by
    have hz : z.val = 0 := by omega
    rw [Shape.rowMajor_val_two, Shape.rowMajor_val_one]
    show r.val = r.val * 1 + z.val
    omega)

/-- A 512 × 1 column laid beside itself 1536 times, read at (r, o). -/
theorem spread_apply (v : FVec Ideal S512x1 .f32) (r : Fin 512) (o : Fin 1536) :
    broadcastTo S512x1536 v broadcasts_S512x1_S512x1536 (ix2 r o) = v (ix2 r (0 : Fin 1)) := by
  refine broadcastTo_apply v _ (ix2 r o) (ix2 r (0 : Fin 1)) fun ax => ?_
  match ax with
  | ⟨0, _⟩ => rfl
  | ⟨1, _⟩ => rfl

theorem eps12_eq : (Scalar.ofBits (F := Ideal) .f32 0x2B8CBCCC#32 : Ideal .f32) = Spec.eps12 := rfl

theorem zero_eq : (Scalar.ofBits (F := Ideal) .f32 0x00000000#32 : Ideal .f32) = (0 : EReal) :=
  Ideal.ofBits_zero_f32

theorem norm_apply (h27 : FVec Ideal S512x1536 .f32) (H : Fin 512 → Fin 1536 → EReal)
    (hH : ∀ r o, h27 (ix2 r o) = H r o) (hφ : FKind.Formats .f32)
    (hacc : (0x00000000#32 : BitVec 32) = FKind.add.neutral .f32 hφ) (r : Fin 512) (o : Fin 1536) :
    maximumf
        (divf h27
          (broadcastTo S512x1536
            (maximumf
              (sqrt (shapeCast S512x1
                (multiReduction (F := Ideal) .add [1] S512 (mulf h27 h27) 0x00000000#32 reduces_S512x1536_S512 hφ hacc)
                shapeCasts_S512_S512x1))
              (broadcast S512x1 (Scalar.ofBits (F := Ideal) .f32 0x2B8CBCCC#32)))
            broadcasts_S512x1_S512x1536))
        (broadcast S512x1536 (Scalar.ofBits (F := Ideal) .f32 0x00000000#32)) (ix2 r o)
      = max (Ideal.div (H r o) (max (Ideal.sqrt (∑ o' : Fin 1536, H r o' * H r o')) Spec.eps12)) 0 := by
  rw [maximumf_apply, divf_apply, spread_apply, maximumf_apply, broadcast_apply, broadcast_apply, eps12_eq, zero_eq]
  show max (Ideal.div (h27 (ix2 r o)) (max (Ideal.sqrt (shapeCast S512x1 _ shapeCasts_S512_S512x1 (ix2 r (0 : Fin 1)))) Spec.eps12)) 0 = _
  rw [col_apply, rowsum_apply, hH]
  refine congrArg (fun s => max (Ideal.div (H r o) (max (Ideal.sqrt s) Spec.eps12)) 0) ?_
  exact Finset.sum_congr rfl fun o' _ => by rw [mulf_apply, hH]

/-! ## The two activation blocks -/

/-- Three products with their biases side by side are hb. -/
theorem wide_apply (x WxT : Blk) (bx : Bias) (nb WnT : Blk) (bn : Bias) (mu WrT : Blk) (br : Bias)
    (a b c : FVec Ideal S512x512 .f32)
    (ha : ∀ r o, a (ix2 r o) = L x WxT bx r o) (hb' : ∀ r o, b (ix2 r o) = L nb WnT bn r o)
    (hc : ∀ r o, c (ix2 r o) = L mu WrT br r o) (r : Fin 512) (o : Fin 1536) :
    concatenate S512x1536 1 [⟨S512x512, a⟩, ⟨S512x512, b⟩, ⟨S512x512, c⟩]
        concatenates_S512x512_S512x512_S512x512_S512x1536_d1 (ix2 r o)
      = hb x WxT bx nb WnT bn mu WrT br r o := by
  refine (cat3_apply a b c r o).trans ?_
  unfold hb
  split
  · exact ha _ _
  · split
    · exact hb' _ _
    · exact hc _ _

theorem pay5_apply (v0 v2 : Vec Ideal S512x512 .bf16) (v5 : Vec Ideal S512 .f32)
    (v9 v11 : Vec Ideal S512x512 .bf16) (v14 : Vec Ideal S512 .f32)
    (v18 v20 : Vec Ideal S512x512 .bf16) (v23 : Vec Ideal S512 .f32) (r : Fin 512) (o : Fin 1536) :
    k2_pay5 (F := Ideal) v0 v2 v5 v9 v11 v14 v18 v20 v23 (ix2 r o)
      = gb v0 v2 v5 v9 v11 v14 v18 v20 v23 r o := by
  unfold k2_pay5 gb
  refine norm_apply _ (hb v0 v2 v5 v9 v11 v14 v18 v20 v23) (fun r' o' => ?_) _ _ r o
  exact wide_apply v0 v2 v5 v9 v11 v14 v18 v20 v23 _ _ _
    (lin_apply v0 v2 v5) (lin_apply v9 v11 v14) (lin_apply v18 v20 v23) r' o'

theorem pay9_apply (v49 v51 : Vec Ideal S512x512 .bf16) (v54 : Vec Ideal S512 .f32) (r o : Fin 512) :
    k2_pay9 (F := Ideal) v49 v51 v54 (ix2 r o) = L v49 v51 v54 r o := by
  unfold k2_pay9
  exact lin_apply v49 v51 v54 r o

theorem pay10_apply (v58 v60 : Vec Ideal S512x512 .bf16) (v63 : Vec Ideal S512 .f32) (r o : Fin 512) :
    k2_pay10 (F := Ideal) v58 v60 v63 (ix2 r o) = L v58 v60 v63 r o := by
  unfold k2_pay10
  exact lin_apply v58 v60 v63 r o

theorem pay1_apply (v49 v51 : Vec Ideal S512x512 .bf16) (v54 : Vec Ideal S512 .f32)
    (v58 v60 : Vec Ideal S512x512 .bf16) (v63 : Vec Ideal S512 .f32)
    (v67 v69 : Vec Ideal S512x512 .bf16) (v72 : Vec Ideal S512 .f32) (r : Fin 512) (o : Fin 1536) :
    k2_pay1 (F := Ideal) (k2_pay9 v49 v51 v54) (k2_pay10 v58 v60 v63) (k2_pay11 v67) v69 v72 (ix2 r o)
      = gb v49 v51 v54 v58 v60 v63 v67 v69 v72 r o := by
  unfold k2_pay1 gb
  refine norm_apply _ (hb v49 v51 v54 v58 v60 v63 v67 v69 v72) (fun r' o' => ?_) _ _ r o
  exact wide_apply v49 v51 v54 v58 v60 v63 v67 v69 v72 _ _ _
    (pay9_apply v49 v51 v54) (pay10_apply v58 v60 v63) (lin_apply v67 v69 v72) r' o'

/-! ## The statistics blocks -/

/-- The index over column o with row k put back on the reduced axis is (k, o). -/
theorem lift_col (h : S512x1536.Reduces [0] S1536) (o : Fin 1536) (k : Fin (S512x1536.size 0)) :
    h.lift (ix1 o) k = ix2 (n0 := 512) k o := by
  funext c
  apply Fin.ext
  show h.liftVal (ix1 o) k.val c = _
  match c with
  | ⟨0, _⟩ => rfl
  | ⟨1, _⟩ => rfl

/-- Column sums over the 512 rows, as a vector of 1536 values. -/
theorem colsum_apply (g : FVec Ideal S512x1536 .f32) (hφ : FKind.Formats .f32)
    (hacc : (0x00000000#32 : BitVec 32) = FKind.add.neutral .f32 hφ) (o : Fin 1536) :
    multiReduction (F := Ideal) .add [0] S1536 g 0x00000000#32 reduces_S512x1536_S1536 hφ hacc (ix1 o)
      = ∑ r : Fin 512, g (ix2 r o) := by
  rw [Ideal.multiReduction_add_single]
  exact Finset.sum_congr rfl fun k _ => congrArg g (lift_col _ o k)

theorem pay6_zero (j : S7x1536.Idx) : k2_pay6 (F := Ideal) j = 0 := by
  show Ideal.ofBits .f32 0x00000000#32 = 0
  exact Ideal.ofBits_zero_f32

theorem pay2_zero (j : S7x1536.Idx) : k2_pay2 (F := Ideal) j = 0 := by
  show Ideal.ofBits .f32 0x00000000#32 = 0
  exact Ideal.ofBits_zero_f32

/-- A one-row block on top of seven rows, read at (q, o). -/
theorem stack_apply (top : FVec Ideal S1x1536 .f32) (rest : FVec Ideal S7x1536 .f32) (q : Fin 8) (o : Fin 1536) :
    concatenate S8x1536 0 [⟨S1x1536, top⟩, ⟨S7x1536, rest⟩] concatenates_S1x1536_S7x1536_S8x1536_d0 (ix2 q o)
      = if h : q.val = 0 then top (ix2 (0 : Fin 1) o) else rest (ix2 ⟨q.val - 1, by have := q.isLt; omega⟩ o) := by
  split
  · next h =>
    refine concatenate_pair_apply_left _ top rest _ (ix2 q o) rfl (ix2 (0 : Fin 1) o) fun b => ?_
    match b with
    | ⟨0, _⟩ => exact h.symm
    | ⟨1, _⟩ => rfl
  · next h =>
    refine concatenate_pair_apply_right _ top rest _ (ix2 q o) rfl rfl (ix2 ⟨q.val - 1, by have := q.isLt; omega⟩ o) (fun b hb => ?_) ?_
    · match b with
      | ⟨0, _⟩ => exact absurd rfl hb
      | ⟨1, _⟩ => rfl
    · show q.val - 1 + 1 = q.val
      omega

/-- The statistics block: column sums in row 0, zeros below. -/
theorem stat_apply (g : FVec Ideal S512x1536 .f32) (hφ : FKind.Formats .f32)
    (hacc : (0x00000000#32 : BitVec 32) = FKind.add.neutral .f32 hφ) (rest : FVec Ideal S7x1536 .f32)
    (hrest : ∀ j, rest j = 0) (q : Fin 8) (o : Fin 1536) :
    concatenate S8x1536 0
        [⟨S1x1536, shapeCast S1x1536 (multiReduction (F := Ideal) .add [0] S1536 g 0x00000000#32 reduces_S512x1536_S1536 hφ hacc)
            shapeCasts_S1536_S1x1536⟩, ⟨S7x1536, rest⟩]
        concatenates_S1x1536_S7x1536_S8x1536_d0 (ix2 q o)
      = if q.val = 0 then ∑ r : Fin 512, g (ix2 r o) else 0 := by
  refine (stack_apply _ _ q o).trans ?_
  split
  · next h =>
    refine (shapeCast_a_1a_apply _ _ 0 o).trans ?_
    exact colsum_apply g hφ hacc o
  · next h => exact hrest _

theorem pay7_apply (g : FVec Ideal S512x1536 .f32) (q : Fin 8) (o : Fin 1536) :
    k2_pay7 (F := Ideal) g (ix2 q o) = if q.val = 0 then ∑ r : Fin 512, g (ix2 r o) else 0 := by
  unfold k2_pay7
  exact stat_apply g _ _ _ pay6_zero q o

theorem pay8_apply (g : FVec Ideal S512x1536 .f32) (q : Fin 8) (o : Fin 1536) :
    k2_pay8 (F := Ideal) g (ix2 q o) = if q.val = 0 then ∑ r : Fin 512, g (ix2 r o) * g (ix2 r o) else 0 := by
  unfold k2_pay8
  exact stat_apply (mulf g g) _ _ _ pay6_zero q o

theorem pay3_apply (v57 v66 : FVec Ideal S512x512 .f32) (v68 : FVec Ideal S512x512 .bf16)
    (v69 : Vec Ideal S512x512 .bf16) (v72 : Vec Ideal S512 .f32) (q : Fin 8) (o : Fin 1536) :
    k2_pay3 (F := Ideal) v57 v66 v68 v69 v72 (ix2 q o)
      = if q.val = 0 then ∑ r : Fin 512, k2_pay1 (F := Ideal) v57 v66 v68 v69 v72 (ix2 r o) else 0 := by
  unfold k2_pay3
  exact stat_apply _ _ _ _ pay2_zero q o

theorem pay4_apply (v57 v66 : FVec Ideal S512x512 .f32) (v68 : FVec Ideal S512x512 .bf16)
    (v69 : Vec Ideal S512x512 .bf16) (v72 : Vec Ideal S512 .f32) (q : Fin 8) (o : Fin 1536) :
    k2_pay4 (F := Ideal) v57 v66 v68 v69 v72 (ix2 q o)
      = if q.val = 0 then ∑ r : Fin 512, k2_pay1 (F := Ideal) v57 v66 v68 v69 v72 (ix2 r o)
            * k2_pay1 (F := Ideal) v57 v66 v68 v69 v72 (ix2 r o) else 0 := by
  unfold k2_pay4
  exact stat_apply (mulf _ _) _ _ _ pay2_zero q o

end Cert.KernelIdeal.K2Pay

end
-- ==== Proof.K2Blk.lean ====
/-
  Region 2 (three linear maps side by side, row normalisation, clip at zero) seen from the whole arrays:
  the host stretch in front of it and what one grid point reads.

  The host stretch reshapes the six feature arrays to 32768 rows of 512 entries, row n = (b · 512 + s) · 8 + p,
  which is the specification's row reading of a 4-D array x[b, s, p, f] and of a 3-D array u[b, s, p · 512 + f];
  it transposes the three weight matrices; it leaves the biases alone.

  The grid has 64 points. Point t reads rows 512 · t … 512 · t + 511 of each row array, and the three transposed
  weight matrices and the three biases whole. So entry (r, k) of a row block is entry (512 · t + r, k) of its array,
  and the block's linear map  Σ_k u[r, k] · wT[k, o] + b[o]  is the specification's  Σ_k U[n, k] · W[o, k] + b[o]  at
  row n = 512 · t + r. Laid side by side, divided by max(‖row‖, 1e-12) and clipped below at zero, the stored
  512 × 1536 block at (r, o) is therefore the specification's activation at (512 · t + r, o).
-/
import proofs.«404490_j9337258902039_3_alg».proof.Proof.FrameKI
import proofs.«404490_j9337258902039_3_alg».proof.Proof.K2Pay
import Idealize.ShloMosaic.Lib.ValueIdx
import Idealize.ShloMosaic.Lib.Pipeline.Value
import Idealize.ShloMosaic.Lib.ValueLayout
import Idealize.ShloMosaic.Lib.StableHlo.Run

noncomputable section

open scoped BigOperators

namespace Cert.KernelIdeal.K2Blk

open Idealize.ShloMosaic Idealize.ShloMosaic.TcCoe Idealize.ShloMosaic.ValueIdx Cert.KernelIdeal Cert.KernelIdeal.Gen Cert.KernelIdeal.GenP

/-! ## Row-major re-readings: a reshape to rows is the specification's row reading -/

/-- x[b, s, p, f] reshaped to [32768, 512] is its reading by rows n = (b · 512 + s) · 8 + p. -/
theorem cast4_rows (X : Spec.S4x.Idx → EReal) (h : S8x512x8x512.ShapeCasts S32768x512) :
    shapeCast S32768x512 X h = Spec.rows4 X := by
  funext y
  unfold Spec.rows4
  refine shapeCast_apply X h y _ ?_
  rw [Shape.rowMajor_val_four, Shape.rowMajor_val_two]
  have h0 : (y 0).val < 32768 := (y 0).isLt
  show (((y 0).val / 4096 * 512 + (y 0).val / 8 % 512) * 8 + (y 0).val % 8) * 512 + (y 1).val = (y 0).val * 512 + (y 1).val
  omega

/-- u[b, s, d] reshaped to [32768, 512] is its reading by rows, d = p · 512 + f. -/
theorem cast3_rows (X : Spec.S3x.Idx → EReal) (h : S8x512x4096.ShapeCasts S32768x512) :
    shapeCast S32768x512 X h = Spec.rows3 X := by
  funext y
  unfold Spec.rows3
  refine shapeCast_apply X h y _ ?_
  rw [Shape.rowMajor_val_three, Shape.rowMajor_val_two]
  have h0 : (y 0).val < 32768 := (y 0).isLt
  have h1 : (y 1).val < 512 := (y 1).isLt
  show ((y 0).val / 4096 * 512 + (y 0).val / 8 % 512) * 4096 + ((y 0).val % 8 * 512 + (y 1).val) = (y 0).val * 512 + (y 1).val
  omega

/-- A 512 × 512 matrix read transposed. -/
def tr (W : Spec.S2w.Idx → EReal) : Spec.S2w.Idx → EReal := fun y => W (ix2 (y 1) (y 0))

/-! ## The host stretch before the region: six reshapes to rows, three transposes; the biases untouched -/

section Host

variable (V : Valuation τ sig (Elt Ideal))

theorem host2_v8 (X : Spec.S4x.Idx → EReal) (h : V (Proc.devRef .tc main_v0) = X) :
    StableHlo.after (hostOps2 (F := Ideal)) V (Proc.devRef .tc main_v8) = Spec.rows4 X := by
  subst h; after_results; exact cast4_rows _ _

theorem host2_v9 (X : Spec.S4x.Idx → EReal) (h : V (Proc.devRef .tc main_v1) = X) :
    StableHlo.after (hostOps2 (F := Ideal)) V (Proc.devRef .tc main_v9) = Spec.rows4 X := by
  subst h; after_results; exact cast4_rows _ _

theorem host2_v10 (X : Spec.S3x.Idx → EReal) (h : V (Proc.devRef .tc main_v4_0) = X) :
    StableHlo.after (hostOps2 (F := Ideal)) V (Proc.devRef .tc main_v10) = Spec.rows3 X := by
  subst h; after_results; exact cast3_rows _ _

theorem host2_v11 (X : Spec.S3x.Idx → EReal) (h : V (Proc.devRef .tc main_v4_1) = X) :
    StableHlo.after (hostOps2 (F := Ideal)) V (Proc.devRef .tc main_v11) = Spec.rows3 X := by
  subst h; after_results; exact cast3_rows _ _

theorem host2_v12 (X : Spec.S3x.Idx → EReal) (h : V (Proc.devRef .tc main_v7_0) = X) :
    StableHlo.after (hostOps2 (F := Ideal)) V (Proc.devRef .tc main_v12) = Spec.rows3 X := by
  subst h; after_results; exact cast3_rows _ _

theorem host2_v13 (X : Spec.S3x.Idx → EReal) (h : V (Proc.devRef .tc main_v7_1) = X) :
    StableHlo.after (hostOps2 (F := Ideal)) V (Proc.devRef .tc main_v13) = Spec.rows3 X := by
  subst h; after_results; exact cast3_rows _ _

theorem tr_of_transpose (W : Spec.S2w.Idx → EReal) (h : S512x512.Transposes [1, 0] S512x512) :
    transpose S512x512 [1, 0] W h = tr W := by
  funext y
  obtain ⟨k, o, rfl⟩ : ∃ (k o : Fin 512), y = ix2 k o := ⟨y 0, y 1, eq_ix2 y⟩
  exact transpose_ix2_apply W h k o

theorem host2_v15 (W : Spec.S2w.Idx → EReal) (h : V (Proc.devRef .tc main_arg4) = W) :
    StableHlo.after (hostOps2 (F := Ideal)) V (Proc.devRef .tc main_v15) = tr W := by
  subst h; after_results; exact tr_of_transpose _ _

theorem host2_v17 (W : Spec.S2w.Idx → EReal) (h : V (Proc.devRef .tc main_arg6) = W) :
    StableHlo.after (hostOps2 (F := Ideal)) V (Proc.devRef .tc main_v17) = tr W := by
  subst h; after_results; exact tr_of_transpose _ _

theorem host2_v19 (W : Spec.S2w.Idx → EReal) (h : V (Proc.devRef .tc main_arg8) = W) :
    StableHlo.after (hostOps2 (F := Ideal)) V (Proc.devRef .tc main_v19) = tr W := by
  subst h; after_results; exact tr_of_transpose _ _

theorem host2_arg5 : StableHlo.after (hostOps2 (F := Ideal)) V (Proc.devRef .tc main_arg5) = V (Proc.devRef .tc main_arg5) := by
  after_results
theorem host2_arg7 : StableHlo.after (hostOps2 (F := Ideal)) V (Proc.devRef .tc main_arg7) = V (Proc.devRef .tc main_arg7) := by
  after_results
theorem host2_arg9 : StableHlo.after (hostOps2 (F := Ideal)) V (Proc.devRef .tc main_arg9) = V (Proc.devRef .tc main_arg9) := by
  after_results

end Host

/-! ## One point's block against the whole arrays

A point holds 512 consecutive rows. If each row block agrees with rows n = base + r of its array, each weight
block is the transposed matrix and each bias block the bias, then the block's three linear maps are the
specification's at row n, and so is the normalised, clipped row. -/

section Math

variable (x nb mu WxT WnT WrT : K2Pay.Blk) (bxb bnb brb : K2Pay.Bias)
  (Ux Un Ur : Spec.S2r.Idx → EReal) (Wx Wn Wr : Spec.S2w.Idx → EReal) (bx bn br : Spec.S1b.Idx → EReal)

theorem L_eq_lin (u wT : K2Pay.Blk) (bb : K2Pay.Bias) (U : Spec.S2r.Idx → EReal) (W : Spec.S2w.Idx → EReal)
    (b : Spec.S1b.Idx → EReal) (n : Fin 32768) (r : Fin 512)
    (hu : ∀ k : Fin 512, u (ix2 r k) = U (ix2 n k)) (hw : ∀ k o : Fin 512, wT (ix2 k o) = W (ix2 o k))
    (hb : ∀ o : Fin 512, bb (ix1 o) = b (ix1 o)) (o : Fin 512) :
    K2Pay.L u wT bb r o = Spec.lin U W b n o := by
  unfold K2Pay.L Spec.lin
  rw [hb o]
  exact congrArg (· + b (ix1 o)) (Finset.sum_congr rfl fun k _ => by rw [hu k, hw k o])

theorem hb_eq_hpre (n : Fin 32768) (r : Fin 512)
    (hx : ∀ k : Fin 512, x (ix2 r k) = Ux (ix2 n k)) (hn : ∀ k : Fin 512, nb (ix2 r k) = Un (ix2 n k))
    (hm : ∀ k : Fin 512, mu (ix2 r k) = Ur (ix2 n k))
    (hWx : ∀ k o : Fin 512, WxT (ix2 k o) = Wx (ix2 o k)) (hWn : ∀ k o : Fin 512, WnT (ix2 k o) = Wn (ix2 o k))
    (hWr : ∀ k o : Fin 512, WrT (ix2 k o) = Wr (ix2 o k))
    (hbx : ∀ o : Fin 512, bxb (ix1 o) = bx (ix1 o)) (hbn : ∀ o : Fin 512, bnb (ix1 o) = bn (ix1 o))
    (hbr : ∀ o : Fin 512, brb (ix1 o) = br (ix1 o)) (o : Fin 1536) :
    K2Pay.hb x WxT bxb nb WnT bnb mu WrT brb r o = Spec.hpre Ux Un Ur Wx Wn Wr bx bn br (ix2 n o) := by
  unfold K2Pay.hb Spec.hpre
  show (if h : o.val < 512 then _ else if h2 : o.val < 1024 then _ else _)
      = (if h : o.val < 512 then _ else if h2 : o.val < 1024 then _ else _)
  by_cases h : o.val < 512
  · rw [dif_pos h, dif_pos h]; exact L_eq_lin x WxT bxb Ux Wx bx n r hx hWx hbx _
  · rw [dif_neg h, dif_neg h]
    by_cases h2 : o.val < 1024
    · rw [dif_pos h2, dif_pos h2]; exact L_eq_lin nb WnT bnb Un Wn bn n r hn hWn hbn _
    · rw [dif_neg h2, dif_neg h2]; exact L_eq_lin mu WrT brb Ur Wr br n r hm hWr hbr _

theorem gb_eq_gA (n : Fin 32768) (r : Fin 512)
    (hx : ∀ k : Fin 512, x (ix2 r k) = Ux (ix2 n k)) (hn : ∀ k : Fin 512, nb (ix2 r k) = Un (ix2 n k))
    (hm : ∀ k : Fin 512, mu (ix2 r k) = Ur (ix2 n k))
    (hWx : ∀ k o : Fin 512, WxT (ix2 k o) = Wx (ix2 o k)) (hWn : ∀ k o : Fin 512, WnT (ix2 k o) = Wn (ix2 o k))
    (hWr : ∀ k o : Fin 512, WrT (ix2 k o) = Wr (ix2 o k))
    (hbx : ∀ o : Fin 512, bxb (ix1 o) = bx (ix1 o)) (hbn : ∀ o : Fin 512, bnb (ix1 o) = bn (ix1 o))
    (hbr : ∀ o : Fin 512, brb (ix1 o) = br (ix1 o)) (o : Fin 1536) :
    K2Pay.gb x WxT bxb nb WnT bnb mu WrT brb r o = Spec.gA (Spec.hpre Ux Un Ur Wx Wn Wr bx bn br) (ix2 n o) := by
  have e := hb_eq_hpre x nb mu WxT WnT WrT bxb bnb brb Ux Un Ur Wx Wn Wr bx bn br n r hx hn hm hWx hWn hWr hbx hbn hbr
  unfold K2Pay.gb Spec.gA Spec.hnorm
  rw [e o]
  show max (Ideal.div _ (max (Ideal.sqrt (∑ o' : Fin 1536, _)) Spec.eps12)) 0
      = max (Ideal.div _ (max (Ideal.sqrt (∑ o' : Fin 1536, _)) Spec.eps12)) 0
  rw [Finset.sum_congr rfl fun o' _ => by rw [e o']]

end Math

/-! ## The region's blocks: point t holds rows 512 · t … of every row array, the weights and biases whole -/

section Region

variable (V : (c : Dev nD) → (b : Ref sig .tc) → Buf (Elt Ideal) ((c : Thread nD τ).loc b)) (c : Dev nD)

/-- A point of the grid as a number below 64. -/
def pt (t : Fin cfg2.N) : Fin 64 := ⟨t.val, lt_of_lt_of_eq t.isLt N_2⟩

/-- Row 512 · t + r of a 32768-row array. -/
def rowAt (t : Fin cfg2.N) (r : Fin 512) : Fin 32768 :=
  ⟨(pt t).val * 512 + r.val, by have h0 : (pt t).val < 64 := (pt t).isLt; have h1 : r.val < 512 := r.isLt; omega⟩

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: a row window's block index is (t, 0); a weight or bias window's is 0. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 1) = 0 :=
  (by decide +kernel : ∀ t : Fin grid2.N, _)
theorem idx2_10 : ∀ t : Fin cfg2.N, win2_10.index t (0 : Fin 1) = 0 :=
  (by decide +kernel : ∀ t : Fin grid2.N, _)
theorem idx2_11 : ∀ t : Fin cfg2.N, win2_11.index t (0 : Fin 1) = 0 :=
  (by decide +kernel : ∀ t : Fin grid2.N, _)
theorem idx2_12 : ∀ t : Fin cfg2.N, win2_12.index t (0 : Fin 2) = t.val ∧ win2_12.index t (1 : Fin 2) = 0 :=
  (by decide +kernel : ∀ t : Fin grid2.N, _)
theorem idx2_13 : ∀ t : Fin cfg2.N, win2_13.index t (0 : Fin 2) = t.val ∧ win2_13.index t (1 : Fin 2) = 0 :=
  (by decide +kernel : ∀ t : Fin grid2.N, _)
theorem idx2_14 : ∀ t : Fin cfg2.N, win2_14.index t (0 : Fin 2) = t.val ∧ win2_14.index t (1 : Fin 2) = 0 :=
  (by decide +kernel : ∀ t : Fin grid2.N, _)
theorem idx2_15 : ∀ t : Fin cfg2.N, win2_15.index t (0 : Fin 2) = t.val ∧ win2_15.index t (1 : Fin 2) = 0 :=
  (by decide +kernel : ∀ t : Fin grid2.N, _)
theorem idx2_16 : ∀ t : Fin cfg2.N, win2_16.index t (0 : Fin 2) = t.val ∧ win2_16.index t (1 : Fin 2) = 0 :=
  (by decide +kernel : ∀ t : Fin grid2.N, _)
theorem idx2_17 : ∀ t : Fin cfg2.N, win2_17.index t (0 : Fin 2) = t.val ∧ win2_17.index t (1 : Fin 2) = 0 :=
  (by decide +kernel : ∀ t : Fin grid2.N, _)

/-- The twelve input blocks at a point, and the twelve arrays they are cut from, by their literal types. -/
abbrev b0 (t : Fin cfg2.N) : Vec Ideal S512x512 .bf16 := iblk2 V c 0 t
abbrev b1 (t : Fin cfg2.N) : Vec Ideal S512x512 .bf16 := iblk2 V c 1 t
abbrev b2 (t : Fin cfg2.N) : Vec Ideal S512x512 .bf16 := iblk2 V c 2 t
abbrev b3 (t : Fin cfg2.N) : Vec Ideal S512x512 .bf16 := iblk2 V c 3 t
abbrev b4 (t : Fin cfg2.N) : Vec Ideal S512x512 .bf16 := iblk2 V c 4 t
abbrev b5 (t : Fin cfg2.N) : Vec Ideal S512x512 .bf16 := iblk2 V c 5 t
abbrev b6 (t : Fin cfg2.N) : Vec Ideal S512x512 .bf16 := iblk2 V c 6 t
abbrev b7 (t : Fin cfg2.N) : Vec Ideal S512x512 .bf16 := iblk2 V c 7 t
abbrev b8 (t : Fin cfg2.N) : Vec Ideal S512x512 .bf16 := iblk2 V c 8 t
abbrev b9 (t : Fin cfg2.N) : Vec Ideal S512 .f32 := iblk2 V c 9 t
abbrev b10 (t : Fin cfg2.N) : Vec Ideal S512 .f32 := iblk2 V c 10 t
abbrev b11 (t : Fin cfg2.N) : Vec Ideal S512 .f32 := iblk2 V c 11 t

abbrev a8 : Spec.S2r.Idx → EReal := V c main_v8
abbrev a10 : Spec.S2r.Idx → EReal := V c main_v10
abbrev a12 : Spec.S2r.Idx → EReal := V c main_v12
abbrev a9 : Spec.S2r.Idx → EReal := V c main_v9
abbrev a11 : Spec.S2r.Idx → EReal := V c main_v11
abbrev a13 : Spec.S2r.Idx → EReal := V c main_v13
abbrev a15 : Spec.S2w.Idx → EReal := V c main_v15
abbrev a17 : Spec.S2w.Idx → EReal := V c main_v17
abbrev a19 : Spec.S2w.Idx → EReal := V c main_v19
abbrev a5 : Spec.S1b.Idx → EReal := V c main_arg5
abbrev a7 : Spec.S1b.Idx → EReal := V c main_arg7
abbrev a9b : Spec.S1b.Idx → EReal := V c main_arg9

/-- Entry (r, k) of a row window's block at point t is entry (512 · t + r, k) of its array. -/
theorem blk0 (t : Fin cfg2.N) (r k : Fin 512) : b0 V c t (ix2 r k) = a8 V c (ix2 (rowAt t r) k) := by
  unfold b0 iblk2
  show V c main_v8 (((cfg2.win 0).blk t).view.emb (ix2 r k)) = V c main_v8 (ix2 (rowAt t r) k)
  refine congrArg (V c main_v8) (funext fun a => Fin.ext ?_)
  obtain ⟨e0, e1⟩ := idx2_0 t
  match a with
  | ⟨0, _⟩ => show win2_0.index t (0 : Fin 2) * 512 + 1 * r.val = t.val * 512 + r.val; omega
  | ⟨1, _⟩ => show win2_0.index t (1 : Fin 2) * 512 + 1 * k.val = k.val; omega

theorem blk1 (t : Fin cfg2.N) (r k : Fin 512) : b1 V c t (ix2 r k) = a10 V c (ix2 (rowAt t r) k) := by
  unfold b1 iblk2
  show V c main_v10 (((cfg2.win 1).blk t).view.emb (ix2 r k)) = V c main_v10 (ix2 (rowAt t r) k)
  refine congrArg (V c main_v10) (funext fun a => Fin.ext ?_)
  obtain ⟨e0, e1⟩ := idx2_1 t
  match a with
  | ⟨0, _⟩ => show win2_1.index t (0 : Fin 2) * 512 + 1 * r.val = t.val * 512 + r.val; omega
  | ⟨1, _⟩ => show win2_1.index t (1 : Fin 2) * 512 + 1 * k.val = k.val; omega

theorem blk2 (t : Fin cfg2.N) (r k : Fin 512) : b2 V c t (ix2 r k) = a12 V c (ix2 (rowAt t r) k) := by
  unfold b2 iblk2
  show V c main_v12 (((cfg2.win 2).blk t).view.emb (ix2 r k)) = V c main_v12 (ix2 (rowAt t r) k)
  refine congrArg (V c main_v12) (funext fun a => Fin.ext ?_)
  obtain ⟨e0, e1⟩ := idx2_2 t
  match a with
  | ⟨0, _⟩ => show win2_2.index t (0 : Fin 2) * 512 + 1 * r.val = t.val * 512 + r.val; omega
  | ⟨1, _⟩ => show win2_2.index t (1 : Fin 2) * 512 + 1 * k.val = k.val; omega

theorem blk3 (t : Fin cfg2.N) (r k : Fin 512) : b3 V c t (ix2 r k) = a9 V c (ix2 (rowAt t r) k) := by
  unfold b3 iblk2
  show V c main_v9 (((cfg2.win 3).blk t).view.emb (ix2 r k)) = V c main_v9 (ix2 (rowAt t r) k)
  refine congrArg (V c main_v9) (funext fun a => Fin.ext ?_)
  obtain ⟨e0, e1⟩ := idx2_3 t
  match a with
  | ⟨0, _⟩ => show win2_3.index t (0 : Fin 2) * 512 + 1 * r.val = t.val * 512 + r.val; omega
  | ⟨1, _⟩ => show win2_3.index t (1 : Fin 2) * 512 + 1 * k.val = k.val; omega

theorem blk4 (t : Fin cfg2.N) (r k : Fin 512) : b4 V c t (ix2 r k) = a11 V c (ix2 (rowAt t r) k) := by
  unfold b4 iblk2
  show V c main_v11 (((cfg2.win 4).blk t).view.emb (ix2 r k)) = V c main_v11 (ix2 (rowAt t r) k)
  refine congrArg (V c main_v11) (funext fun a => Fin.ext ?_)
  obtain ⟨e0, e1⟩ := idx2_4 t
  match a with
  | ⟨0, _⟩ => show win2_4.index t (0 : Fin 2) * 512 + 1 * r.val = t.val * 512 + r.val; omega
  | ⟨1, _⟩ => show win2_4.index t (1 : Fin 2) * 512 + 1 * k.val = k.val; omega

theorem blk5 (t : Fin cfg2.N) (r k : Fin 512) : b5 V c t (ix2 r k) = a13 V c (ix2 (rowAt t r) k) := by
  unfold b5 iblk2
  show V c main_v13 (((cfg2.win 5).blk t).view.emb (ix2 r k)) = V c main_v13 (ix2 (rowAt t r) k)
  refine congrArg (V c main_v13) (funext fun a => Fin.ext ?_)
  obtain ⟨e0, e1⟩ := idx2_5 t
  match a with
  | ⟨0, _⟩ => show win2_5.index t (0 : Fin 2) * 512 + 1 * r.val = t.val * 512 + r.val; omega
  | ⟨1, _⟩ => show win2_5.index t (1 : Fin 2) * 512 + 1 * k.val = k.val; omega

/-- A weight window's block is its whole array. -/
theorem blk6 (t : Fin cfg2.N) (k o : Fin 512) : b6 V c t (ix2 k o) = a15 V c (ix2 k o) := by
  unfold b6 iblk2
  show V c main_v15 (((cfg2.win 6).blk t).view.emb (ix2 k o)) = V c main_v15 (ix2 k o)
  refine congrArg (V c main_v15) (funext fun a => Fin.ext ?_)
  obtain ⟨e0, e1⟩ := idx2_6 t
  match a with
  | ⟨0, _⟩ => show win2_6.index t (0 : Fin 2) * 512 + 1 * k.val = k.val; omega
  | ⟨1, _⟩ => show win2_6.index t (1 : Fin 2) * 512 + 1 * o.val = o.val; omega

theorem blk7 (t : Fin cfg2.N) (k o : Fin 512) : b7 V c t (ix2 k o) = a17 V c (ix2 k o) := by
  unfold b7 iblk2
  show V c main_v17 (((cfg2.win 7).blk t).view.emb (ix2 k o)) = V c main_v17 (ix2 k o)
  refine congrArg (V c main_v17) (funext fun a => Fin.ext ?_)
  obtain ⟨e0, e1⟩ := idx2_7 t
  match a with
  | ⟨0, _⟩ => show win2_7.index t (0 : Fin 2) * 512 + 1 * k.val = k.val; omega
  | ⟨1, _⟩ => show win2_7.index t (1 : Fin 2) * 512 + 1 * o.val = o.val; omega

theorem blk8 (t : Fin cfg2.N) (k o : Fin 512) : b8 V c t (ix2 k o) = a19 V c (ix2 k o) := by
  unfold b8 iblk2
  show V c main_v19 (((cfg2.win 8).blk t).view.emb (ix2 k o)) = V c main_v19 (ix2 k o)
  refine congrArg (V c main_v19) (funext fun a => Fin.ext ?_)
  obtain ⟨e0, e1⟩ := idx2_8 t
  match a with
  | ⟨0, _⟩ => show win2_8.index t (0 : Fin 2) * 512 + 1 * k.val = k.val; omega
  | ⟨1, _⟩ => show win2_8.index t (1 : Fin 2) * 512 + 1 * o.val = o.val; omega

/-- A bias window's block is its whole array. -/
theorem blk9 (t : Fin cfg2.N) (o : Fin 512) : b9 V c t (ix1 o) = a5 V c (ix1 o) := by
  unfold b9 iblk2
  show V c main_arg5 (((cfg2.win 9).blk t).view.emb (ix1 o)) = V c main_arg5 (ix1 o)
  refine congrArg (V c main_arg5) (funext fun a => Fin.ext ?_)
  have e0 := idx2_9 t
  match a with
  | ⟨0, _⟩ => show win2_9.index t (0 : Fin 1) * 512 + 1 * o.val = o.val; omega

theorem blk10 (t : Fin cfg2.N) (o : Fin 512) : b10 V c t (ix1 o) = a7 V c (ix1 o) := by
  unfold b10 iblk2
  show V c main_arg7 (((cfg2.win 10).blk t).view.emb (ix1 o)) = V c main_arg7 (ix1 o)
  refine congrArg (V c main_arg7) (funext fun a => Fin.ext ?_)
  have e0 := idx2_10 t
  match a with
  | ⟨0, _⟩ => show win2_10.index t (0 : Fin 1) * 512 + 1 * o.val = o.val; omega

theorem blk11 (t : Fin cfg2.N) (o : Fin 512) : b11 V c t (ix1 o) = a9b V c (ix1 o) := by
  unfold b11 iblk2
  show V c main_arg9 (((cfg2.win 11).blk t).view.emb (ix1 o)) = V c main_arg9 (ix1 o)
  refine congrArg (V c main_arg9) (funext fun a => Fin.ext ?_)
  have e0 := idx2_11 t
  match a with
  | ⟨0, _⟩ => show win2_11.index t (0 : Fin 1) * 512 + 1 * o.val = o.val; omega

/-! ## One point's stored rows are the specification's rows -/

variable (Ux Un Ur : Spec.S2r.Idx → EReal) (Wx Wn Wr : Spec.S2w.Idx → EReal) (bx bn br : Spec.S1b.Idx → EReal)

/-- Branch 1: the stored 512 × 1536 block at (r, o) is the normalised, clipped row 512 · t + r at column o. -/
theorem pt_g1 (h8 : a8 V c = Ux) (h10 : a10 V c = Un) (h12 : a12 V c = Ur)
    (h15 : a15 V c = tr Wx) (h17 : a17 V c = tr Wn) (h19 : a19 V c = tr Wr)
    (h5 : a5 V c = bx) (h7 : a7 V c = bn) (h9 : a9b V c = br)
    (t : Fin cfg2.N) (r : Fin 512) (o : Fin 1536) :
    k2_pay5 (F := Ideal) (b0 V c t) (b6 V c t) (b9 V c t) (b1 V c t) (b7 V c t) (b10 V c t) (b2 V c t) (b8 V c t) (b11 V c t) (ix2 r o)
      = Spec.gA (Spec.hpre Ux Un Ur Wx Wn Wr bx bn br) (ix2 (rowAt t r) o) := by
  rw [K2Pay.pay5_apply]
  exact gb_eq_gA (b0 V c t) (b1 V c t) (b2 V c t) (b6 V c t) (b7 V c t) (b8 V c t) (b9 V c t) (b10 V c t) (b11 V c t)
    Ux Un Ur Wx Wn Wr bx bn br (rowAt t r) r
    (fun k => by rw [blk0, h8]) (fun k => by rw [blk1, h10]) (fun k => by rw [blk2, h12])
    (fun k o => by rw [blk6, h15]; rfl) (fun k o => by rw [blk7, h17]; rfl) (fun k o => by rw [blk8, h19]; rfl)
    (fun o => by rw [blk9, h5]) (fun o => by rw [blk10, h7]) (fun o => by rw [blk11, h9]) o

/-- Branch 2: the same with the second branch's three row arrays. -/
theorem pt_g2 (h8 : a9 V c = Ux) (h10 : a11 V c = Un) (h12 : a13 V c = Ur)
    (h15 : a15 V c = tr Wx) (h17 : a17 V c = tr Wn) (h19 : a19 V c = tr Wr)
    (h5 : a5 V c = bx) (h7 : a7 V c = bn) (h9 : a9b V c = br)
    (t : Fin cfg2.N) (r : Fin 512) (o : Fin 1536) :
    k2_pay1 (F := Ideal) (k2_pay9 (b3 V c t) (b6 V c t) (b9 V c t)) (k2_pay10 (b4 V c t) (b7 V c t) (b10 V c t)) (k2_pay11 (b5 V c t)) (b8 V c t) (b11 V c t) (ix2 r o)
      = Spec.gA (Spec.hpre Ux Un Ur Wx Wn Wr bx bn br) (ix2 (rowAt t r) o) := by
  rw [K2Pay.pay1_apply]
  exact gb_eq_gA (b3 V c t) (b4 V c t) (b5 V c t) (b6 V c t) (b7 V c t) (b8 V c t) (b9 V c t) (b10 V c t) (b11 V c t)
    Ux Un Ur Wx Wn Wr bx bn br (rowAt t r) r
    (fun k => by rw [blk3, h8]) (fun k => by rw [blk4, h10]) (fun k => by rw [blk5, h12])
    (fun k o => by rw [blk6, h15]; rfl) (fun k o => by rw [blk7, h17]; rfl) (fun k o => by rw [blk8, h19]; rfl)
    (fun o => by rw [blk9, h5]) (fun o => by rw [blk10, h7]) (fun o => by rw [blk11, h9]) o

end Region

end Cert.KernelIdeal.K2Blk

end
-- ==== Proof.K2Arr.lean ====
/-
  Region 2's two activation arrays after the run.

  The grid's 64 points each write back one 512 × 1536 block: point t's block is rows 512 · t … 512 · t + 511 of the
  [32768, 1536] output, and its entry (r, o) is the specification's activation at (512 · t + r, o) of the arrays the
  region was entered with. Row n lies in the block of point n / 512, so the 64 blocks cover the array and it ends
  holding the activations everywhere.

  With the host stretch in front (reshapes to rows, transposed weights, biases untouched) the activations are those
  of the branch's features, neighbour means and attention residual: Spec.act.
-/
import proofs.«404490_j9337258902039_3_alg».proof.Proof.K2Blk

noncomputable section

open scoped BigOperators

namespace Cert.KernelIdeal.K2Arr

open Idealize.ShloMosaic Idealize.ShloMosaic.TcCoe Idealize.ShloMosaic.ValueIdx Cert.KernelIdeal Cert.KernelIdeal.Gen Cert.KernelIdeal.GenP
open Cert.KernelIdeal.K2Blk

/-! ## What a point writes back, and the cover -/

section Region

variable (V : (c : Dev nD) → (b : Ref sig .tc) → Buf (Elt Ideal) ((c : Thread nD τ).loc b)) (c : Dev nD)
variable (Ux Un Ur : Spec.S2r.Idx → EReal) (Wx Wn Wr : Spec.S2w.Idx → EReal) (bx bn br : Spec.S1b.Idx → EReal)

/-- Where entry (r, o) of point t's activation block sits in the [32768, 1536] array: row 512 · t + r, column o. -/
theorem emb12 (t : Fin cfg2.N) (r : Fin 512) (o : Fin 1536) :
    ((cfg2.win 12).blk t).view.emb (ix2 r o) = ix2 (rowAt t r) o := by
  funext a; apply Fin.ext
  obtain ⟨e0, e1⟩ := idx2_12 t
  match a with
  | ⟨0, _⟩ => show win2_12.index t (0 : Fin 2) * 512 + 1 * r.val = t.val * 512 + r.val; omega
  | ⟨1, _⟩ => show win2_12.index t (1 : Fin 2) * 1536 + 1 * o.val = o.val; omega

theorem emb13 (t : Fin cfg2.N) (r : Fin 512) (o : Fin 1536) :
    ((cfg2.win 13).blk t).view.emb (ix2 r o) = ix2 (rowAt t r) o := by
  funext a; apply Fin.ext
  obtain ⟨e0, e1⟩ := idx2_13 t
  match a with
  | ⟨0, _⟩ => show win2_13.index t (0 : Fin 2) * 512 + 1 * r.val = t.val * 512 + r.val; omega
  | ⟨1, _⟩ => show win2_13.index t (1 : Fin 2) * 1536 + 1 * o.val = o.val; omega

/-- Branch 1: point t writes back rows 512 · t … of the specification's activations. -/
theorem flushed12 (h8 : a8 V c = Ux) (h10 : a10 V c = Un) (h12 : a12 V c = Ur)
    (h15 : a15 V c = tr Wx) (h17 : a17 V c = tr Wn) (h19 : a19 V c = tr Wr)
    (h5 : a5 V c = bx) (h7 : a7 V c = bn) (h9 : a9b V c = br) (t : Fin cfg2.N) :
    (dat2 V c).flushed 12 t
      = ((cfg2.win 12).blk t).view.read (Elt Ideal) (Spec.gA (Spec.hpre Ux Un Ur Wx Wn Wr bx bn br)) := by
  show (cfg2.win 12).cut (grid2.coords t) ((dat2 V c).after 12 t) = _
  rw [after2_12]
  unfold out2_12
  rw [View.canon_unit_zero hz2]
  simp only [View.ld_unit_zero (S := S512x512) hz2, View.ld_unit_zero (S := S512) hz1]
  funext j
  obtain ⟨r, o, rfl⟩ : ∃ (r : Fin 512) (o : Fin 1536), j = ix2 r o := ⟨j 0, j 1, eq_ix2 j⟩
  show k2_pay5 (F := Ideal) (b0 V c t) (b6 V c t) (b9 V c t) (b1 V c t) (b7 V c t) (b10 V c t) (b2 V c t) (b8 V c t) (b11 V c t) (ix2 r o)
    = Spec.gA (Spec.hpre Ux Un Ur Wx Wn Wr bx bn br) (((cfg2.win 12).blk t).view.emb (ix2 r o))
  rw [emb12]
  exact pt_g1 V c Ux Un Ur Wx Wn Wr bx bn br h8 h10 h12 h15 h17 h19 h5 h7 h9 t r o

/-- Branch 2. -/
theorem flushed13 (h8 : a9 V c = Ux) (h10 : a11 V c = Un) (h12 : a13 V c = Ur)
    (h15 : a15 V c = tr Wx) (h17 : a17 V c = tr Wn) (h19 : a19 V c = tr Wr)
    (h5 : a5 V c = bx) (h7 : a7 V c = bn) (h9 : a9b V c = br) (t : Fin cfg2.N) :
    (dat2 V c).flushed 13 t
      = ((cfg2.win 13).blk t).view.read (Elt Ideal) (Spec.gA (Spec.hpre Ux Un Ur Wx Wn Wr bx bn br)) := by
  show (cfg2.win 13).cut (grid2.coords t) ((dat2 V c).after 13 t) = _
  rw [after2_13]
  unfold out2_13
  rw [View.canon_unit_zero hz2]
  simp only [View.ld_unit_zero (S := S512x512) hz2, View.ld_unit_zero (S := S512) hz1]
  funext j
  obtain ⟨r, o, rfl⟩ : ∃ (r : Fin 512) (o : Fin 1536), j = ix2 r o := ⟨j 0, j 1, eq_ix2 j⟩
  show k2_pay1 (F := Ideal) (k2_pay9 (b3 V c t) (b6 V c t) (b9 V c t)) (k2_pay10 (b4 V c t) (b7 V c t) (b10 V c t)) (k2_pay11 (b5 V c t)) (b8 V c t) (b11 V c t) (ix2 r o)
    = Spec.gA (Spec.hpre Ux Un Ur Wx Wn Wr bx bn br) (((cfg2.win 13).blk t).view.emb (ix2 r o))
  rw [emb13]
  exact pt_g2 V c Ux Un Ur Wx Wn Wr bx bn br h8 h10 h12 h15 h17 h19 h5 h7 h9 t r o

/-- An index of the [32768, 1536] array is in point t's block iff each coordinate is in the block's range. -/
theorem mem_blk12 (t : Fin cfg2.N) (i : S32768x1536.Idx) :
    i ∈ ((cfg2.win 12).blk t).view.set ↔ ∀ a : Fin 2, win2_12.index t a * S512x1536.size a ≤ (i a).val ∧ (i a).val < win2_12.index t a * S512x1536.size a + S512x1536.size a := by
  show i ∈ ((View.whole main_v20_0).slice (win2_12.rect t)).set ↔ _
  rw [View.set_slice_whole, Rect.mem_set_unit]
  exact Iff.rfl

theorem mem_blk13 (t : Fin cfg2.N) (i : S32768x1536.Idx) :
    i ∈ ((cfg2.win 13).blk t).view.set ↔ ∀ a : Fin 2, win2_13.index t a * S512x1536.size a ≤ (i a).val ∧ (i a).val < win2_13.index t a * S512x1536.size a + S512x1536.size a := by
  show i ∈ ((View.whole main_v20_1).slice (win2_13.rect t)).set ↔ _
  rw [View.set_slice_whole, Rect.mem_set_unit]
  exact Iff.rfl

/-- Row n is written by point n / 512. -/
theorem cover12 (i : S32768x1536.Idx) :
    ∃ t : Fin cfg2.N, (cfg2.win 12).flush t = true ∧ i ∈ ((cfg2.win 12).blk t).view.set := by
  have hi0 : (i 0).val < 32768 := (i 0).isLt
  have hi1 : (i 1).val < 1536 := (i 1).isLt
  have hlt : (i 0).val / 512 < cfg2.N := lt_of_lt_of_eq (by omega : (i 0).val / 512 < 64) N_2.symm
  refine ⟨⟨(i 0).val / 512, hlt⟩, flush2_12 _, ?_⟩
  rw [mem_blk12]
  obtain ⟨e0, e1⟩ := idx2_12 ⟨(i 0).val / 512, hlt⟩
  have ev : (⟨(i 0).val / 512, hlt⟩ : Fin cfg2.N).val = (i 0).val / 512 := rfl
  intro a
  match a with
  | ⟨0, _⟩ =>
    show win2_12.index ⟨(i 0).val / 512, hlt⟩ (0 : Fin 2) * 512 ≤ (i 0).val ∧ (i 0).val < win2_12.index ⟨(i 0).val / 512, hlt⟩ (0 : Fin 2) * 512 + 512
    omega
  | ⟨1, _⟩ =>
    show win2_12.index ⟨(i 0).val / 512, hlt⟩ (1 : Fin 2) * 1536 ≤ (i 1).val ∧ (i 1).val < win2_12.index ⟨(i 0).val / 512, hlt⟩ (1 : Fin 2) * 1536 + 1536
    omega

theorem cover13 (i : S32768x1536.Idx) :
    ∃ t : Fin cfg2.N, (cfg2.win 13).flush t = true ∧ i ∈ ((cfg2.win 13).blk t).view.set := by
  have hi0 : (i 0).val < 32768 := (i 0).isLt
  have hi1 : (i 1).val < 1536 := (i 1).isLt
  have hlt : (i 0).val / 512 < cfg2.N := lt_of_lt_of_eq (by omega : (i 0).val / 512 < 64) N_2.symm
  refine ⟨⟨(i 0).val / 512, hlt⟩, flush2_13 _, ?_⟩
  rw [mem_blk13]
  obtain ⟨e0, e1⟩ := idx2_13 ⟨(i 0).val / 512, hlt⟩
  have ev : (⟨(i 0).val / 512, hlt⟩ : Fin cfg2.N).val = (i 0).val / 512 := rfl
  intro a
  match a with
  | ⟨0, _⟩ =>
    show win2_13.index ⟨(i 0).val / 512, hlt⟩ (0 : Fin 2) * 512 ≤ (i 0).val ∧ (i 0).val < win2_13.index ⟨(i 0).val / 512, hlt⟩ (0 : Fin 2) * 512 + 512
    omega
  | ⟨1, _⟩ =>
    show win2_13.index ⟨(i 0).val / 512, hlt⟩ (1 : Fin 2) * 1536 ≤ (i 1).val ∧ (i 1).val < win2_13.index ⟨(i 0).val / 512, hlt⟩ (1 : Fin 2) * 1536 + 1536
    omega

/-- The 64 blocks tile the array: after the run it holds the specification's activations. -/
theorem arr12 (h8 : a8 V c = Ux) (h10 : a10 V c = Un) (h12 : a12 V c = Ur)
    (h15 : a15 V c = tr Wx) (h17 : a17 V c = tr Wn) (h19 : a19 V c = tr Wr)
    (h5 : a5 V c = bx) (h7 : a7 V c = bn) (h9 : a9b V c = br) :
    (dat2 V c).arrAt 12 cfg2.N = Spec.gA (Spec.hpre Ux Un Ur Wx Wn Wr bx bn br) :=
  (dat2 V c).arrAt_eq_of_cover 12 _
    (fun t _ => flushed12 V c Ux Un Ur Wx Wn Wr bx bn br h8 h10 h12 h15 h17 h19 h5 h7 h9 t) cover12

theorem arr13 (h8 : a9 V c = Ux) (h10 : a11 V c = Un) (h12 : a13 V c = Ur)
    (h15 : a15 V c = tr Wx) (h17 : a17 V c = tr Wn) (h19 : a19 V c = tr Wr)
    (h5 : a5 V c = bx) (h7 : a7 V c = bn) (h9 : a9b V c = br) :
    (dat2 V c).arrAt 13 cfg2.N = Spec.gA (Spec.hpre Ux Un Ur Wx Wn Wr bx bn br) :=
  (dat2 V c).arrAt_eq_of_cover 13 _
    (fun t _ => flushed13 V c Ux Un Ur Wx Wn Wr bx bn br h8 h10 h12 h15 h17 h19 h5 h7 h9 t) cover13

end Region

/-! ## The region with the host stretch in front of it -/

section Run

variable (m : (ℓ : Loc nD τ sig) → Buf (Elt Ideal) ℓ) (ρ : Dev nD → PrngReg) (c : Dev nD)
variable (X : Spec.S4x.Idx → EReal) (NB MU : Spec.S3x.Idx → EReal)
  (Wx : Spec.S2w.Idx → EReal) (bx : Spec.S1b.Idx → EReal) (Wn : Spec.S2w.Idx → EReal) (bn : Spec.S1b.Idx → EReal)
  (Wr : Spec.S2w.Idx → EReal) (br : Spec.S1b.Idx → EReal)

/-- Branch 1: after region 2 the first output array holds the branch's activations. -/
theorem seg2_g1 (h0 : W4 m ρ c (Proc.devRef .tc main_v0) = X) (hnb : W4 m ρ c (Proc.devRef .tc main_v4_0) = NB)
    (hmu : W4 m ρ c (Proc.devRef .tc main_v7_0) = MU)
    (hWx : W4 m ρ c (Proc.devRef .tc main_arg4) = Wx) (hbx : W4 m ρ c (Proc.devRef .tc main_arg5) = bx)
    (hWn : W4 m ρ c (Proc.devRef .tc main_arg6) = Wn) (hbn : W4 m ρ c (Proc.devRef .tc main_arg7) = bn)
    (hWr : W4 m ρ c (Proc.devRef .tc main_arg8) = Wr) (hbr : W4 m ρ c (Proc.devRef .tc main_arg9) = br) :
    W6 m ρ c (Proc.devRef .tc main_v20_0) = Spec.act X NB MU Wx bx Wn bn Wr br := by
  refine (W6_arr m ρ c 12).trans ?_
  unfold Spec.act
  exact arr12 (V5 m ρ) c (Spec.rows4 X) (Spec.rows3 NB) (Spec.rows3 MU) Wx Wn Wr bx bn br
    (host2_v8 (W4 m ρ c) X h0) (host2_v10 (W4 m ρ c) NB hnb) (host2_v12 (W4 m ρ c) MU hmu)
    (host2_v15 (W4 m ρ c) Wx hWx) (host2_v17 (W4 m ρ c) Wn hWn) (host2_v19 (W4 m ρ c) Wr hWr)
    ((host2_arg5 (W4 m ρ c)).trans hbx) ((host2_arg7 (W4 m ρ c)).trans hbn) ((host2_arg9 (W4 m ρ c)).trans hbr)

/-- Branch 2: the second output array, from the second branch's three arrays. -/
theorem seg2_g2 (h0 : W4 m ρ c (Proc.devRef .tc main_v1) = X) (hnb : W4 m ρ c (Proc.devRef .tc main_v4_1) = NB)
    (hmu : W4 m ρ c (Proc.devRef .tc main_v7_1) = MU)
    (hWx : W4 m ρ c (Proc.devRef .tc main_arg4) = Wx) (hbx : W4 m ρ c (Proc.devRef .tc main_arg5) = bx)
    (hWn : W4 m ρ c (Proc.devRef .tc main_arg6) = Wn) (hbn : W4 m ρ c (Proc.devRef .tc main_arg7) = bn)
    (hWr : W4 m ρ c (Proc.devRef .tc main_arg8) = Wr) (hbr : W4 m ρ c (Proc.devRef .tc main_arg9) = br) :
    W6 m ρ c (Proc.devRef .tc main_v20_1) = Spec.act X NB MU Wx bx Wn bn Wr br := by
  refine (W6_arr m ρ c 13).trans ?_
  unfold Spec.act
  exact arr13 (V5 m ρ) c (Spec.rows4 X) (Spec.rows3 NB) (Spec.rows3 MU) Wx Wn Wr bx bn br
    (host2_v9 (W4 m ρ c) X h0) (host2_v11 (W4 m ρ c) NB hnb) (host2_v13 (W4 m ρ c) MU hmu)
    (host2_v15 (W4 m ρ c) Wx hWx) (host2_v17 (W4 m ρ c) Wn hWn) (host2_v19 (W4 m ρ c) Wr hWr)
    ((host2_arg5 (W4 m ρ c)).trans hbx) ((host2_arg7 (W4 m ρ c)).trans hbn) ((host2_arg9 (W4 m ρ c)).trans hbr)

end Run

end Cert.KernelIdeal.K2Arr

end
-- ==== Proof.K2Stat.lean ====
/-
  The four statistics arrays the third region leaves: per 8-row tile, row 0 holds that tile's column sums (of the
  normalised activations, or of their squares) over the tile's 512 rows, rows 1 … 7 are zero.

  Point t of the 64-point grid writes rows 8·t … 8·t+7 of each [512, 1536] statistics array; the 64 blocks tile the
  array. What point t writes at (q, o) is the column sum over the point's 512 rows when q = 0 and zero otherwise, and
  the point's rows are rows 512·t … 512·t+511 of the activations.
-/
import proofs.«404490_j9337258902039_3_alg».proof.Proof.FrameKI
import proofs.«404490_j9337258902039_3_alg».proof.Proof.K2Pay
import proofs.«404490_j9337258902039_3_alg».proof.Proof.K3Host
import proofs.«404490_j9337258902039_3_alg».proof.Proof.K2Blk
import Idealize.ShloMosaic.Lib.ValueIdx
import Idealize.ShloMosaic.Lib.Pipeline.Value

noncomputable section

open scoped BigOperators

namespace Cert.KernelIdeal.K2Stat

open Idealize.ShloMosaic Idealize.ShloMosaic.ValueIdx Idealize.ShloMosaic.TcCoe
open Cert.KernelIdeal Cert.KernelIdeal.Gen Cert.KernelIdeal.GenP
open Idealize.ShloMosaic.Pipeline (Dat)
open Cert.KernelIdeal.K2Blk (pt rowAt hz1 hz2 idx2_14 idx2_15 idx2_16 idx2_17)

/-! ## The grid and the tiles -/

/-- Row 8 · t + q of a 512-row array. -/
def tileRow (t : Fin cfg2.N) (q : Fin 8) : Fin 512 :=
  ⟨(pt t).val * 8 + q.val, by have h0 : (pt t).val < 64 := (pt t).isLt; have h1 : q.val < 8 := q.isLt; omega⟩

/-- The per-tile layout read at row 8 · t + q: the tile's entry when q = 0, zero otherwise. -/
theorem tile_at (T : Fin 64 → Fin 1536 → EReal) (t : Fin cfg2.N) (q : Fin 8) (o : Fin 1536) :
    K3Host.tile T (ix2 (tileRow t q) o) = if q.val = 0 then T (pt t) o else 0 := by
  have hq : q.val < 8 := q.isLt
  unfold K3Host.tile
  show (if ((pt t).val * 8 + q.val) % 8 = 0 then T ⟨((pt t).val * 8 + q.val) / 8, _⟩ o else 0) = _
  by_cases h : q.val = 0
  · rw [if_pos h, if_pos (by omega)]
    exact congrArg (fun k => T k o) (Fin.ext (by show ((pt t).val * 8 + q.val) / 8 = (pt t).val; omega))
  · rw [if_neg h, if_neg (by omega)]

section Region

variable (V : (c : Dev nD) → (b : Ref sig .tc) → Buf (Elt Ideal) ((c : Thread nD τ).loc b)) (c : Dev nD)

/-- Branch 1's normalised block at a point, from the point's nine input blocks. -/
abbrev g1 (t : Fin cfg2.N) : FVec Ideal S512x1536 .f32 :=
  k2_pay5 (F := Ideal) (iblk2 V c 0 t) (iblk2 V c 6 t) (iblk2 V c 9 t) (iblk2 V c 1 t) (iblk2 V c 7 t) (iblk2 V c 10 t)
    (iblk2 V c 2 t) (iblk2 V c 8 t) (iblk2 V c 11 t)

/-- Branch 2's normalised block at a point. -/
abbrev g2 (t : Fin cfg2.N) : FVec Ideal S512x1536 .f32 :=
  k2_pay1 (F := Ideal) (k2_pay9 (F := Ideal) (iblk2 V c 3 t) (iblk2 V c 6 t) (iblk2 V c 9 t)) (k2_pay10 (F := Ideal) (iblk2 V c 4 t) (iblk2 V c 7 t) (iblk2 V c 10 t))
    (k2_pay11 (F := Ideal) (iblk2 V c 5 t)) (iblk2 V c 8 t) (iblk2 V c 11 t)

/-! ### Window 14: the column-sum array of branch 1 -/

/-- Entry (q, o) of point t's block is entry (8 · t + q, o) of the array. -/
theorem emb14 (t : Fin cfg2.N) (q : Fin 8) (o : Fin 1536) :
    ((cfg2.win 14).blk t).view.emb (ix2 q o) = ix2 (tileRow t q) o := by
  obtain ⟨e0, e1⟩ := idx2_14 t
  funext a; apply Fin.ext
  match a with
  | ⟨0, _⟩ => show win2_14.index t (0 : Fin 2) * 8 + 1 * q.val = t.val * 8 + q.val; omega
  | ⟨1, _⟩ => show win2_14.index t (1 : Fin 2) * 1536 + 1 * o.val = o.val; omega

/-- The 64 blocks tile the array. -/
theorem cover14 (i : S512x1536.Idx) :
    ∃ t : Fin cfg2.N, (cfg2.win 14).flush t = true ∧ i ∈ ((cfg2.win 14).blk t).view.set := by
  have hi0 : (i 0).val < 512 := (i 0).isLt
  have hi1 : (i 1).val < 1536 := (i 1).isLt
  have hN : cfg2.N = 64 := N_2
  let t : Fin cfg2.N := ⟨(i 0).val / 8, by rw [hN]; omega⟩
  obtain ⟨e0, e1⟩ := idx2_14 t
  have ht : t.val = (i 0).val / 8 := rfl
  refine ⟨t, flush2_14 t, ?_⟩
  show i ∈ ((View.whole main_v20_2).slice (win2_14.rect t)).set
  rw [View.set_slice_whole, Rect.mem_set_unit]
  intro a
  match a with
  | ⟨0, _⟩ => show win2_14.index t (0 : Fin 2) * 8 ≤ (i 0).val ∧ (i 0).val < win2_14.index t (0 : Fin 2) * 8 + 8; omega
  | ⟨1, _⟩ => show win2_14.index t (1 : Fin 2) * 1536 ≤ (i 1).val ∧ (i 1).val < win2_14.index t (1 : Fin 2) * 1536 + 1536; omega

/-- What point t writes back is block t of the per-tile layout of G's column sums. -/
theorem flushed14_eq (G : Spec.S2h.Idx → EReal)
    (hg : ∀ (t : Fin cfg2.N) (r : Fin 512) (o : Fin 1536), g1 V c t (ix2 r o) = G (ix2 (rowAt t r) o)) (t : Fin cfg2.N) :
    (dat2 V c).flushed 14 t = ((cfg2.win 14).blk t).view.read (Elt Ideal) (K3Host.tile (K3Host.tsum G)) := by
  show (cfg2.win 14).cut (grid2.coords t) ((dat2 V c).after 14 t) = _
  rw [after2_14]
  unfold out2_14
  rw [View.canon_unit_zero hz2]
  simp only [View.ld_unit_zero (S := S512x512) hz2, View.ld_unit_zero (S := S512) hz1]
  funext j
  obtain ⟨q, o, rfl⟩ : ∃ (q : Fin 8) (o : Fin 1536), j = ix2 q o := ⟨j 0, j 1, eq_ix2 j⟩
  show k2_pay7 (F := Ideal) (g1 V c t) (ix2 q o)
      = K3Host.tile (K3Host.tsum G) (((cfg2.win 14).blk t).view.emb (ix2 q o))
  rw [emb14, tile_at, K2Pay.pay7_apply]
  refine if_congr Iff.rfl ?_ rfl
  exact Finset.sum_congr rfl fun r _ => hg t r o

/-- The array after the region. -/
theorem arr14 (G : Spec.S2h.Idx → EReal)
    (hg : ∀ (t : Fin cfg2.N) (r : Fin 512) (o : Fin 1536), g1 V c t (ix2 r o) = G (ix2 (rowAt t r) o)) :
    (dat2 V c).arrAt 14 cfg2.N = K3Host.tile (K3Host.tsum G) :=
  (dat2 V c).arrAt_eq_of_cover 14 _ (fun t _ => flushed14_eq V c G hg t) cover14

/-! ### Window 15: the column-sum-of-squares array of branch 1 -/

/-- Entry (q, o) of point t's block is entry (8 · t + q, o) of the array. -/
theorem emb15 (t : Fin cfg2.N) (q : Fin 8) (o : Fin 1536) :
    ((cfg2.win 15).blk t).view.emb (ix2 q o) = ix2 (tileRow t q) o := by
  obtain ⟨e0, e1⟩ := idx2_15 t
  funext a; apply Fin.ext
  match a with
  | ⟨0, _⟩ => show win2_15.index t (0 : Fin 2) * 8 + 1 * q.val = t.val * 8 + q.val; omega
  | ⟨1, _⟩ => show win2_15.index t (1 : Fin 2) * 1536 + 1 * o.val = o.val; omega

/-- The 64 blocks tile the array. -/
theorem cover15 (i : S512x1536.Idx) :
    ∃ t : Fin cfg2.N, (cfg2.win 15).flush t = true ∧ i ∈ ((cfg2.win 15).blk t).view.set := by
  have hi0 : (i 0).val < 512 := (i 0).isLt
  have hi1 : (i 1).val < 1536 := (i 1).isLt
  have hN : cfg2.N = 64 := N_2
  let t : Fin cfg2.N := ⟨(i 0).val / 8, by rw [hN]; omega⟩
  obtain ⟨e0, e1⟩ := idx2_15 t
  have ht : t.val = (i 0).val / 8 := rfl
  refine ⟨t, flush2_15 t, ?_⟩
  show i ∈ ((View.whole main_v20_3).slice (win2_15.rect t)).set
  rw [View.set_slice_whole, Rect.mem_set_unit]
  intro a
  match a with
  | ⟨0, _⟩ => show win2_15.index t (0 : Fin 2) * 8 ≤ (i 0).val ∧ (i 0).val < win2_15.index t (0 : Fin 2) * 8 + 8; omega
  | ⟨1, _⟩ => show win2_15.index t (1 : Fin 2) * 1536 ≤ (i 1).val ∧ (i 1).val < win2_15.index t (1 : Fin 2) * 1536 + 1536; omega

/-- What point t writes back is block t of the per-tile layout of G's column sums of squares. -/
theorem flushed15_eq (G : Spec.S2h.Idx → EReal)
    (hg : ∀ (t : Fin cfg2.N) (r : Fin 512) (o : Fin 1536), g1 V c t (ix2 r o) = G (ix2 (rowAt t r) o)) (t : Fin cfg2.N) :
    (dat2 V c).flushed 15 t = ((cfg2.win 15).blk t).view.read (Elt Ideal) (K3Host.tile (K3Host.tsq G)) := by
  show (cfg2.win 15).cut (grid2.coords t) ((dat2 V c).after 15 t) = _
  rw [after2_15]
  unfold out2_15
  rw [View.canon_unit_zero hz2]
  simp only [View.ld_unit_zero (S := S512x512) hz2, View.ld_unit_zero (S := S512) hz1]
  funext j
  obtain ⟨q, o, rfl⟩ : ∃ (q : Fin 8) (o : Fin 1536), j = ix2 q o := ⟨j 0, j 1, eq_ix2 j⟩
  show k2_pay8 (F := Ideal) (g1 V c t) (ix2 q o)
      = K3Host.tile (K3Host.tsq G) (((cfg2.win 15).blk t).view.emb (ix2 q o))
  rw [emb15, tile_at, K2Pay.pay8_apply]
  refine if_congr Iff.rfl ?_ rfl
  exact Finset.sum_congr rfl fun r _ => by
    have e := hg t r o
    show g1 V c t (ix2 r o) * g1 V c t (ix2 r o) = _
    rw [e]; rfl

/-- The array after the region. -/
theorem arr15 (G : Spec.S2h.Idx → EReal)
    (hg : ∀ (t : Fin cfg2.N) (r : Fin 512) (o : Fin 1536), g1 V c t (ix2 r o) = G (ix2 (rowAt t r) o)) :
    (dat2 V c).arrAt 15 cfg2.N = K3Host.tile (K3Host.tsq G) :=
  (dat2 V c).arrAt_eq_of_cover 15 _ (fun t _ => flushed15_eq V c G hg t) cover15

/-! ### Window 16: the column-sum array of branch 2 -/

/-- Entry (q, o) of point t's block is entry (8 · t + q, o) of the array. -/
theorem emb16 (t : Fin cfg2.N) (q : Fin 8) (o : Fin 1536) :
    ((cfg2.win 16).blk t).view.emb (ix2 q o) = ix2 (tileRow t q) o := by
  obtain ⟨e0, e1⟩ := idx2_16 t
  funext a; apply Fin.ext
  match a with
  | ⟨0, _⟩ => show win2_16.index t (0 : Fin 2) * 8 + 1 * q.val = t.val * 8 + q.val; omega
  | ⟨1, _⟩ => show win2_16.index t (1 : Fin 2) * 1536 + 1 * o.val = o.val; omega

/-- The 64 blocks tile the array. -/
theorem cover16 (i : S512x1536.Idx) :
    ∃ t : Fin cfg2.N, (cfg2.win 16).flush t = true ∧ i ∈ ((cfg2.win 16).blk t).view.set := by
  have hi0 : (i 0).val < 512 := (i 0).isLt
  have hi1 : (i 1).val < 1536 := (i 1).isLt
  have hN : cfg2.N = 64 := N_2
  let t : Fin cfg2.N := ⟨(i 0).val / 8, by rw [hN]; omega⟩
  obtain ⟨e0, e1⟩ := idx2_16 t
  have ht : t.val = (i 0).val / 8 := rfl
  refine ⟨t, flush2_16 t, ?_⟩
  show i ∈ ((View.whole main_v20_4).slice (win2_16.rect t)).set
  rw [View.set_slice_whole, Rect.mem_set_unit]
  intro a
  match a with
  | ⟨0, _⟩ => show win2_16.index t (0 : Fin 2) * 8 ≤ (i 0).val ∧ (i 0).val < win2_16.index t (0 : Fin 2) * 8 + 8; omega
  | ⟨1, _⟩ => show win2_16.index t (1 : Fin 2) * 1536 ≤ (i 1).val ∧ (i 1).val < win2_16.index t (1 : Fin 2) * 1536 + 1536; omega

/-- What point t writes back is block t of the per-tile layout of G's column sums. -/
theorem flushed16_eq (G : Spec.S2h.Idx → EReal)
    (hg : ∀ (t : Fin cfg2.N) (r : Fin 512) (o : Fin 1536), g2 V c t (ix2 r o) = G (ix2 (rowAt t r) o)) (t : Fin cfg2.N) :
    (dat2 V c).flushed 16 t = ((cfg2.win 16).blk t).view.read (Elt Ideal) (K3Host.tile (K3Host.tsum G)) := by
  show (cfg2.win 16).cut (grid2.coords t) ((dat2 V c).after 16 t) = _
  rw [after2_16]
  unfold out2_16
  rw [View.canon_unit_zero hz2]
  simp only [View.ld_unit_zero (S := S512x512) hz2, View.ld_unit_zero (S := S512) hz1]
  funext j
  obtain ⟨q, o, rfl⟩ : ∃ (q : Fin 8) (o : Fin 1536), j = ix2 q o := ⟨j 0, j 1, eq_ix2 j⟩
  show k2_pay3 (F := Ideal) (k2_pay9 (F := Ideal) (iblk2 V c 3 t) (iblk2 V c 6 t) (iblk2 V c 9 t)) (k2_pay10 (F := Ideal) (iblk2 V c 4 t) (iblk2 V c 7 t) (iblk2 V c 10 t)) (k2_pay11 (F := Ideal) (iblk2 V c 5 t)) (iblk2 V c 8 t) (iblk2 V c 11 t) (ix2 q o)
      = K3Host.tile (K3Host.tsum G) (((cfg2.win 16).blk t).view.emb (ix2 q o))
  rw [emb16, tile_at, K2Pay.pay3_apply]
  refine if_congr Iff.rfl ?_ rfl
  exact Finset.sum_congr rfl fun r _ => hg t r o

/-- The array after the region. -/
theorem arr16 (G : Spec.S2h.Idx → EReal)
    (hg : ∀ (t : Fin cfg2.N) (r : Fin 512) (o : Fin 1536), g2 V c t (ix2 r o) = G (ix2 (rowAt t r) o)) :
    (dat2 V c).arrAt 16 cfg2.N = K3Host.tile (K3Host.tsum G) :=
  (dat2 V c).arrAt_eq_of_cover 16 _ (fun t _ => flushed16_eq V c G hg t) cover16

/-! ### Window 17: the column-sum-of-squares array of branch 2 -/

/-- Entry (q, o) of point t's block is entry (8 · t + q, o) of the array. -/
theorem emb17 (t : Fin cfg2.N) (q : Fin 8) (o : Fin 1536) :
    ((cfg2.win 17).blk t).view.emb (ix2 q o) = ix2 (tileRow t q) o := by
  obtain ⟨e0, e1⟩ := idx2_17 t
  funext a; apply Fin.ext
  match a with
  | ⟨0, _⟩ => show win2_17.index t (0 : Fin 2) * 8 + 1 * q.val = t.val * 8 + q.val; omega
  | ⟨1, _⟩ => show win2_17.index t (1 : Fin 2) * 1536 + 1 * o.val = o.val; omega

/-- The 64 blocks tile the array. -/
theorem cover17 (i : S512x1536.Idx) :
    ∃ t : Fin cfg2.N, (cfg2.win 17).flush t = true ∧ i ∈ ((cfg2.win 17).blk t).view.set := by
  have hi0 : (i 0).val < 512 := (i 0).isLt
  have hi1 : (i 1).val < 1536 := (i 1).isLt
  have hN : cfg2.N = 64 := N_2
  let t : Fin cfg2.N := ⟨(i 0).val / 8, by rw [hN]; omega⟩
  obtain ⟨e0, e1⟩ := idx2_17 t
  have ht : t.val = (i 0).val / 8 := rfl
  refine ⟨t, flush2_17 t, ?_⟩
  show i ∈ ((View.whole main_v20_5).slice (win2_17.rect t)).set
  rw [View.set_slice_whole, Rect.mem_set_unit]
  intro a
  match a with
  | ⟨0, _⟩ => show win2_17.index t (0 : Fin 2) * 8 ≤ (i 0).val ∧ (i 0).val < win2_17.index t (0 : Fin 2) * 8 + 8; omega
  | ⟨1, _⟩ => show win2_17.index t (1 : Fin 2) * 1536 ≤ (i 1).val ∧ (i 1).val < win2_17.index t (1 : Fin 2) * 1536 + 1536; omega

/-- What point t writes back is block t of the per-tile layout of G's column sums of squares. -/
theorem flushed17_eq (G : Spec.S2h.Idx → EReal)
    (hg : ∀ (t : Fin cfg2.N) (r : Fin 512) (o : Fin 1536), g2 V c t (ix2 r o) = G (ix2 (rowAt t r) o)) (t : Fin cfg2.N) :
    (dat2 V c).flushed 17 t = ((cfg2.win 17).blk t).view.read (Elt Ideal) (K3Host.tile (K3Host.tsq G)) := by
  show (cfg2.win 17).cut (grid2.coords t) ((dat2 V c).after 17 t) = _
  rw [after2_17]
  unfold out2_17
  rw [View.canon_unit_zero hz2]
  simp only [View.ld_unit_zero (S := S512x512) hz2, View.ld_unit_zero (S := S512) hz1]
  funext j
  obtain ⟨q, o, rfl⟩ : ∃ (q : Fin 8) (o : Fin 1536), j = ix2 q o := ⟨j 0, j 1, eq_ix2 j⟩
  show k2_pay4 (F := Ideal) (k2_pay9 (F := Ideal) (iblk2 V c 3 t) (iblk2 V c 6 t) (iblk2 V c 9 t)) (k2_pay10 (F := Ideal) (iblk2 V c 4 t) (iblk2 V c 7 t) (iblk2 V c 10 t)) (k2_pay11 (F := Ideal) (iblk2 V c 5 t)) (iblk2 V c 8 t) (iblk2 V c 11 t) (ix2 q o)
      = K3Host.tile (K3Host.tsq G) (((cfg2.win 17).blk t).view.emb (ix2 q o))
  rw [emb17, tile_at, K2Pay.pay4_apply]
  refine if_congr Iff.rfl ?_ rfl
  exact Finset.sum_congr rfl fun r _ => by
    have e := hg t r o
    show g2 V c t (ix2 r o) * g2 V c t (ix2 r o) = _
    rw [e]; rfl

/-- The array after the region. -/
theorem arr17 (G : Spec.S2h.Idx → EReal)
    (hg : ∀ (t : Fin cfg2.N) (r : Fin 512) (o : Fin 1536), g2 V c t (ix2 r o) = G (ix2 (rowAt t r) o)) :
    (dat2 V c).arrAt 17 cfg2.N = K3Host.tile (K3Host.tsq G) :=
  (dat2 V c).arrAt_eq_of_cover 17 _ (fun t _ => flushed17_eq V c G hg t) cover17

end Region

/-! ## The four arrays at the region's exit -/

section Run

variable (m : (ℓ : Loc nD τ sig) → Buf (Elt Ideal) ℓ) (ρ : Dev nD → PrngReg) (c : Dev nD)

theorem seg2_s1_of (G1 : Spec.S2h.Idx → EReal)
    (hg : ∀ (t : Fin cfg2.N) (r : Fin 512) (o : Fin 1536), g1 (V5 m ρ) c t (ix2 r o) = G1 (ix2 (rowAt t r) o)) :
    W6 m ρ c (Proc.devRef .tc main_v20_2) = K3Host.tile (K3Host.tsum G1) :=
  (W6_arr m ρ c 14).trans (arr14 (V5 m ρ) c G1 hg)

theorem seg2_sq1_of (G1 : Spec.S2h.Idx → EReal)
    (hg : ∀ (t : Fin cfg2.N) (r : Fin 512) (o : Fin 1536), g1 (V5 m ρ) c t (ix2 r o) = G1 (ix2 (rowAt t r) o)) :
    W6 m ρ c (Proc.devRef .tc main_v20_3) = K3Host.tile (K3Host.tsq G1) :=
  (W6_arr m ρ c 15).trans (arr15 (V5 m ρ) c G1 hg)

theorem seg2_s2_of (G2 : Spec.S2h.Idx → EReal)
    (hg : ∀ (t : Fin cfg2.N) (r : Fin 512) (o : Fin 1536), g2 (V5 m ρ) c t (ix2 r o) = G2 (ix2 (rowAt t r) o)) :
    W6 m ρ c (Proc.devRef .tc main_v20_4) = K3Host.tile (K3Host.tsum G2) :=
  (W6_arr m ρ c 16).trans (arr16 (V5 m ρ) c G2 hg)

theorem seg2_sq2_of (G2 : Spec.S2h.Idx → EReal)
    (hg : ∀ (t : Fin cfg2.N) (r : Fin 512) (o : Fin 1536), g2 (V5 m ρ) c t (ix2 r o) = G2 (ix2 (rowAt t r) o)) :
    W6 m ρ c (Proc.devRef .tc main_v20_5) = K3Host.tile (K3Host.tsq G2) :=
  (W6_arr m ρ c 17).trans (arr17 (V5 m ρ) c G2 hg)

/-! ## The same from the contents the region's host stretch finds

The stretch before the region reads the features, the neighbour means and the attention residuals by rows and
transposes the weights; with those read, each point's stored rows are the specification's rows. -/

/-- Branch 1's stored block at a point, in terms of the arrays before the host stretch. -/
theorem hg1 (X : Spec.S4x.Idx → EReal) (NB MU : Spec.S3x.Idx → EReal)
    (Wx : Spec.S2w.Idx → EReal) (bx : Spec.S1b.Idx → EReal) (Wn : Spec.S2w.Idx → EReal) (bn : Spec.S1b.Idx → EReal)
    (Wr : Spec.S2w.Idx → EReal) (br : Spec.S1b.Idx → EReal)
    (h0 : W4 m ρ c (Proc.devRef .tc main_v0) = X) (hnb : W4 m ρ c (Proc.devRef .tc main_v4_0) = NB)
    (hmu : W4 m ρ c (Proc.devRef .tc main_v7_0) = MU)
    (hWx : W4 m ρ c (Proc.devRef .tc main_arg4) = Wx) (hbx : W4 m ρ c (Proc.devRef .tc main_arg5) = bx)
    (hWn : W4 m ρ c (Proc.devRef .tc main_arg6) = Wn) (hbn : W4 m ρ c (Proc.devRef .tc main_arg7) = bn)
    (hWr : W4 m ρ c (Proc.devRef .tc main_arg8) = Wr) (hbr : W4 m ρ c (Proc.devRef .tc main_arg9) = br)
    (t : Fin cfg2.N) (r : Fin 512) (o : Fin 1536) :
    g1 (V5 m ρ) c t (ix2 r o) = Spec.act X NB MU Wx bx Wn bn Wr br (ix2 (rowAt t r) o) :=
  K2Blk.pt_g1 (V5 m ρ) c (Spec.rows4 X) (Spec.rows3 NB) (Spec.rows3 MU) Wx Wn Wr bx bn br
    (K2Blk.host2_v8 (W4 m ρ c) X h0) (K2Blk.host2_v10 (W4 m ρ c) NB hnb) (K2Blk.host2_v12 (W4 m ρ c) MU hmu)
    (K2Blk.host2_v15 (W4 m ρ c) Wx hWx) (K2Blk.host2_v17 (W4 m ρ c) Wn hWn) (K2Blk.host2_v19 (W4 m ρ c) Wr hWr)
    ((K2Blk.host2_arg5 (W4 m ρ c)).trans hbx) ((K2Blk.host2_arg7 (W4 m ρ c)).trans hbn) ((K2Blk.host2_arg9 (W4 m ρ c)).trans hbr) t r o

/-- Branch 2's stored block at a point, in terms of the arrays before the host stretch. -/
theorem hg2 (X : Spec.S4x.Idx → EReal) (NB MU : Spec.S3x.Idx → EReal)
    (Wx : Spec.S2w.Idx → EReal) (bx : Spec.S1b.Idx → EReal) (Wn : Spec.S2w.Idx → EReal) (bn : Spec.S1b.Idx → EReal)
    (Wr : Spec.S2w.Idx → EReal) (br : Spec.S1b.Idx → EReal)
    (h0 : W4 m ρ c (Proc.devRef .tc main_v1) = X) (hnb : W4 m ρ c (Proc.devRef .tc main_v4_1) = NB)
    (hmu : W4 m ρ c (Proc.devRef .tc main_v7_1) = MU)
    (hWx : W4 m ρ c (Proc.devRef .tc main_arg4) = Wx) (hbx : W4 m ρ c (Proc.devRef .tc main_arg5) = bx)
    (hWn : W4 m ρ c (Proc.devRef .tc main_arg6) = Wn) (hbn : W4 m ρ c (Proc.devRef .tc main_arg7) = bn)
    (hWr : W4 m ρ c (Proc.devRef .tc main_arg8) = Wr) (hbr : W4 m ρ c (Proc.devRef .tc main_arg9) = br)
    (t : Fin cfg2.N) (r : Fin 512) (o : Fin 1536) :
    g2 (V5 m ρ) c t (ix2 r o) = Spec.act X NB MU Wx bx Wn bn Wr br (ix2 (rowAt t r) o) :=
  K2Blk.pt_g2 (V5 m ρ) c (Spec.rows4 X) (Spec.rows3 NB) (Spec.rows3 MU) Wx Wn Wr bx bn br
    (K2Blk.host2_v9 (W4 m ρ c) X h0) (K2Blk.host2_v11 (W4 m ρ c) NB hnb) (K2Blk.host2_v13 (W4 m ρ c) MU hmu)
    (K2Blk.host2_v15 (W4 m ρ c) Wx hWx) (K2Blk.host2_v17 (W4 m ρ c) Wn hWn) (K2Blk.host2_v19 (W4 m ρ c) Wr hWr)
    ((K2Blk.host2_arg5 (W4 m ρ c)).trans hbx) ((K2Blk.host2_arg7 (W4 m ρ c)).trans hbn) ((K2Blk.host2_arg9 (W4 m ρ c)).trans hbr) t r o

theorem seg2_s1 (X : Spec.S4x.Idx → EReal) (NB MU : Spec.S3x.Idx → EReal)
    (Wx : Spec.S2w.Idx → EReal) (bx : Spec.S1b.Idx → EReal) (Wn : Spec.S2w.Idx → EReal) (bn : Spec.S1b.Idx → EReal)
    (Wr : Spec.S2w.Idx → EReal) (br : Spec.S1b.Idx → EReal)
    (h0 : W4 m ρ c (Proc.devRef .tc main_v0) = X) (hnb : W4 m ρ c (Proc.devRef .tc main_v4_0) = NB)
    (hmu : W4 m ρ c (Proc.devRef .tc main_v7_0) = MU)
    (hWx : W4 m ρ c (Proc.devRef .tc main_arg4) = Wx) (hbx : W4 m ρ c (Proc.devRef .tc main_arg5) = bx)
    (hWn : W4 m ρ c (Proc.devRef .tc main_arg6) = Wn) (hbn : W4 m ρ c (Proc.devRef .tc main_arg7) = bn)
    (hWr : W4 m ρ c (Proc.devRef .tc main_arg8) = Wr) (hbr : W4 m ρ c (Proc.devRef .tc main_arg9) = br) :
    W6 m ρ c (Proc.devRef .tc main_v20_2) = K3Host.tile (K3Host.tsum (Spec.act X NB MU Wx bx Wn bn Wr br)) :=
  seg2_s1_of m ρ c _ (hg1 m ρ c X NB MU Wx bx Wn bn Wr br h0 hnb hmu hWx hbx hWn hbn hWr hbr)

theorem seg2_sq1 (X : Spec.S4x.Idx → EReal) (NB MU : Spec.S3x.Idx → EReal)
    (Wx : Spec.S2w.Idx → EReal) (bx : Spec.S1b.Idx → EReal) (Wn : Spec.S2w.Idx → EReal) (bn : Spec.S1b.Idx → EReal)
    (Wr : Spec.S2w.Idx → EReal) (br : Spec.S1b.Idx → EReal)
    (h0 : W4 m ρ c (Proc.devRef .tc main_v0) = X) (hnb : W4 m ρ c (Proc.devRef .tc main_v4_0) = NB)
    (hmu : W4 m ρ c (Proc.devRef .tc main_v7_0) = MU)
    (hWx : W4 m ρ c (Proc.devRef .tc main_arg4) = Wx) (hbx : W4 m ρ c (Proc.devRef .tc main_arg5) = bx)
    (hWn : W4 m ρ c (Proc.devRef .tc main_arg6) = Wn) (hbn : W4 m ρ c (Proc.devRef .tc main_arg7) = bn)
    (hWr : W4 m ρ c (Proc.devRef .tc main_arg8) = Wr) (hbr : W4 m ρ c (Proc.devRef .tc main_arg9) = br) :
    W6 m ρ c (Proc.devRef .tc main_v20_3) = K3Host.tile (K3Host.tsq (Spec.act X NB MU Wx bx Wn bn Wr br)) :=
  seg2_sq1_of m ρ c _ (hg1 m ρ c X NB MU Wx bx Wn bn Wr br h0 hnb hmu hWx hbx hWn hbn hWr hbr)

theorem seg2_s2 (X : Spec.S4x.Idx → EReal) (NB MU : Spec.S3x.Idx → EReal)
    (Wx : Spec.S2w.Idx → EReal) (bx : Spec.S1b.Idx → EReal) (Wn : Spec.S2w.Idx → EReal) (bn : Spec.S1b.Idx → EReal)
    (Wr : Spec.S2w.Idx → EReal) (br : Spec.S1b.Idx → EReal)
    (h0 : W4 m ρ c (Proc.devRef .tc main_v1) = X) (hnb : W4 m ρ c (Proc.devRef .tc main_v4_1) = NB)
    (hmu : W4 m ρ c (Proc.devRef .tc main_v7_1) = MU)
    (hWx : W4 m ρ c (Proc.devRef .tc main_arg4) = Wx) (hbx : W4 m ρ c (Proc.devRef .tc main_arg5) = bx)
    (hWn : W4 m ρ c (Proc.devRef .tc main_arg6) = Wn) (hbn : W4 m ρ c (Proc.devRef .tc main_arg7) = bn)
    (hWr : W4 m ρ c (Proc.devRef .tc main_arg8) = Wr) (hbr : W4 m ρ c (Proc.devRef .tc main_arg9) = br) :
    W6 m ρ c (Proc.devRef .tc main_v20_4) = K3Host.tile (K3Host.tsum (Spec.act X NB MU Wx bx Wn bn Wr br)) :=
  seg2_s2_of m ρ c _ (hg2 m ρ c X NB MU Wx bx Wn bn Wr br h0 hnb hmu hWx hbx hWn hbn hWr hbr)

theorem seg2_sq2 (X : Spec.S4x.Idx → EReal) (NB MU : Spec.S3x.Idx → EReal)
    (Wx : Spec.S2w.Idx → EReal) (bx : Spec.S1b.Idx → EReal) (Wn : Spec.S2w.Idx → EReal) (bn : Spec.S1b.Idx → EReal)
    (Wr : Spec.S2w.Idx → EReal) (br : Spec.S1b.Idx → EReal)
    (h0 : W4 m ρ c (Proc.devRef .tc main_v1) = X) (hnb : W4 m ρ c (Proc.devRef .tc main_v4_1) = NB)
    (hmu : W4 m ρ c (Proc.devRef .tc main_v7_1) = MU)
    (hWx : W4 m ρ c (Proc.devRef .tc main_arg4) = Wx) (hbx : W4 m ρ c (Proc.devRef .tc main_arg5) = bx)
    (hWn : W4 m ρ c (Proc.devRef .tc main_arg6) = Wn) (hbn : W4 m ρ c (Proc.devRef .tc main_arg7) = bn)
    (hWr : W4 m ρ c (Proc.devRef .tc main_arg8) = Wr) (hbr : W4 m ρ c (Proc.devRef .tc main_arg9) = br) :
    W6 m ρ c (Proc.devRef .tc main_v20_5) = K3Host.tile (K3Host.tsq (Spec.act X NB MU Wx bx Wn bn Wr br)) :=
  seg2_sq2_of m ρ c _ (hg2 m ρ c X NB MU Wx bx Wn bn Wr br h0 hnb hmu hWx hbx hWn hbn hWr hbr)

end Run

end Cert.KernelIdeal.K2Stat

end
-- ==== Proof.K3Pay.lean ====
/-
  Region 3's two stored payloads read at an index.

  Each output block is, entry by entry, the batch-norm affine map of the activation block: with the column's mean,
  variance, scale and shift (one entry per column, the same for every row of the block),
    out[r, o] = (h[r, o] − mean[o]) · rsqrt(var[o] + 1e-5) · γ[o] + β[o].
  The per-column vectors enter the body as [1536], are viewed as one row [1, 1536] and that row is repeated over the
  512 rows of the block; every arithmetic operation is entrywise. The second output computes the product first and
  adds the shift in a separate step: the same expression.
-/
import proofs.«404490_j9337258902039_3_alg».proof.Proof.Gen.KernelIdeal.Skeleton
import proofs.«404490_j9337258902039_3_alg».proof.Proof.Spec
import Idealize.ShloMosaic.Lib.ValueIdx
import Idealize.ShloMosaic.Lib.ValueLayout
import Idealize.ShloMosaic.Lib.Pipeline.Value

noncomputable section

namespace Cert.KernelIdeal.K3Pay

open Idealize.ShloMosaic Idealize.ShloMosaic.ValueIdx
open Cert.KernelIdeal Cert.KernelIdeal.Gen

/-- A per-column vector viewed as one row and repeated over the block's rows reads, at (r, o), its entry o. -/
theorem row_apply (v : FVec Ideal S1536 .f32) (r : Fin 512) (o : Fin 1536) :
    broadcastTo S512x1536 (shapeCast S1x1536 v shapeCasts_S1536_S1x1536) broadcasts_S1x1536_S512x1536 (ix2 r o)
      = v (ix1 o) :=
  (broadcastTo_1b_ab_apply (shapeCast S1x1536 v shapeCasts_S1536_S1x1536) broadcasts_S1x1536_S512x1536 r o).trans
    (shapeCast_a_1a_apply v shapeCasts_S1536_S1x1536 (0 : Fin 1) o)

/-- The first output's payload at (r, o): centre by the mean, scale by rsqrt(var + 1e-5), then by γ, shift by β. -/
theorem pay2_apply (var : Vec Ideal S1536 .f32) (h : Vec Ideal S512x1536 .f32) (mean γ β : Vec Ideal S1536 .f32)
    (r : Fin 512) (o : Fin 1536) :
    k3_pay2 (F := Ideal) var h mean γ β (ix2 r o)
      = (h (ix2 r o) - mean (ix1 o)) * Ideal.rsqrt (var (ix1 o) + Spec.eps5) * γ (ix1 o) + β (ix1 o) := by
  unfold k3_pay2
  simp only [shapeCast_self]
  rw [addf_apply, mulf_apply, mulf_apply, subf_apply, row_apply, row_apply, row_apply, row_apply]
  rfl

/-- The second output's product at (r, o): centre by the mean, scale by rsqrt(var + 1e-5), then by γ. -/
theorem pay3_apply (var : Vec Ideal S1536 .f32) (h : Vec Ideal S512x1536 .f32) (mean γ : Vec Ideal S1536 .f32)
    (r : Fin 512) (o : Fin 1536) :
    k3_pay3 (F := Ideal) var h mean γ (ix2 r o)
      = (h (ix2 r o) - mean (ix1 o)) * Ideal.rsqrt (var (ix1 o) + Spec.eps5) * γ (ix1 o) := by
  unfold k3_pay3
  simp only [shapeCast_self]
  rw [mulf_apply, mulf_apply, subf_apply, row_apply, row_apply, row_apply]
  rfl

/-- The second output's payload at (r, o): the product above shifted by β. -/
theorem pay1_apply (var : Vec Ideal S1536 .f32) (h : Vec Ideal S512x1536 .f32) (mean γ β : Vec Ideal S1536 .f32)
    (r : Fin 512) (o : Fin 1536) :
    k3_pay1 (F := Ideal) (k3_pay3 (F := Ideal) var h mean γ) β (ix2 r o)
      = (h (ix2 r o) - mean (ix1 o)) * Ideal.rsqrt (var (ix1 o) + Spec.eps5) * γ (ix1 o) + β (ix1 o) := by
  unfold k3_pay1
  rw [addf_apply, row_apply, pay3_apply]

end Cert.KernelIdeal.K3Pay

end
-- ==== Proof.K3Arr.lean ====
/-
  Region 3 (the batch-norm apply, 64 grid points) and the two host reshapes after it.

  Grid point t stages rows 512·t … 512·t + 511 of the two activation arrays [32768, 1536] and the whole of the six
  per-column vectors [1536] (mean, variance of each branch, scale, shift), and writes back rows 512·t … of the two output
  arrays. Entry (r, o) of what it writes is the batch-norm affine map of entry (512·t + r, o) of the activations with
  column o's statistics, so each output array ends as ONE function of the arrays the region found: the 64 row blocks tile
  the 32768 rows. The host then views each [32768, 1536] output as [8, 512, 8, 1536]: row n = (b·512 + s)·8 + p.
-/
import proofs.«404490_j9337258902039_3_alg».proof.Proof.FrameKI
import proofs.«404490_j9337258902039_3_alg».proof.Proof.Spec
import proofs.«404490_j9337258902039_3_alg».proof.Proof.K3Pay
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.K3Arr

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

/-! ## The region at the contents V it is entered with -/

section Region

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of every window at grid point t: the row-blocked windows (activations, outputs) sit at block row t,
    the per-column windows at their one block; it holds at each of the 64 points. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0 ∧ win3_3.index t (0 : Fin 1) = 0 ∧ win3_4.index t (0 : Fin 1) = 0
    ∧ win3_5.index t (0 : Fin 1) = 0 ∧ win3_6.index t (0 : Fin 1) = 0 ∧ win3_7.index t (0 : Fin 1) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

theorem t_lt (t : Fin cfg3.N) : t.val < 64 := lt_of_lt_of_eq t.isLt N_3

/-- Row r of grid point t's block is row 512·t + r of the array. -/
abbrev rowOf (t : Fin cfg3.N) (r : Fin 512) : Fin 32768 :=
  ⟨t.val * 512 + r.val, by have := t_lt t; have := r.isLt; omega⟩

/-! ### The arrays the region reads and their blocks at a point, at their literal types -/

abbrev h1arr (c : Dev nD) : Vec Ideal S32768x1536 .f32 := V c main_v20_0
abbrev h2arr (c : Dev nD) : Vec Ideal S32768x1536 .f32 := V c main_v20_1
abbrev mean1arr (c : Dev nD) : Vec Ideal S1536 .f32 := V c main_v30
abbrev var1arr (c : Dev nD) : Vec Ideal S1536 .f32 := V c main_v36
abbrev mean2arr (c : Dev nD) : Vec Ideal S1536 .f32 := V c main_v46
abbrev var2arr (c : Dev nD) : Vec Ideal S1536 .f32 := V c main_v52
abbrev gammaarr (c : Dev nD) : Vec Ideal S1536 .f32 := V c main_arg10
abbrev betaarr (c : Dev nD) : Vec Ideal S1536 .f32 := V c main_arg11

abbrev h1blk (c : Dev nD) (t : Fin cfg3.N) : Vec Ideal S512x1536 .f32 := iblk3 V c 0 t
abbrev h2blk (c : Dev nD) (t : Fin cfg3.N) : Vec Ideal S512x1536 .f32 := iblk3 V c 1 t
abbrev mean1blk (c : Dev nD) (t : Fin cfg3.N) : Vec Ideal S1536 .f32 := iblk3 V c 2 t
abbrev var1blk (c : Dev nD) (t : Fin cfg3.N) : Vec Ideal S1536 .f32 := iblk3 V c 3 t
abbrev mean2blk (c : Dev nD) (t : Fin cfg3.N) : Vec Ideal S1536 .f32 := iblk3 V c 4 t
abbrev var2blk (c : Dev nD) (t : Fin cfg3.N) : Vec Ideal S1536 .f32 := iblk3 V c 5 t
abbrev gammablk (c : Dev nD) (t : Fin cfg3.N) : Vec Ideal S1536 .f32 := iblk3 V c 6 t
abbrev betablk (c : Dev nD) (t : Fin cfg3.N) : Vec Ideal S1536 .f32 := iblk3 V c 7 t

/-! ### Each block read where its window's rectangle says -/

theorem h1blk_apply (c : Dev nD) (t : Fin cfg3.N) (r : Fin 512) (o : Fin 1536) :
    h1blk V c t (ix2 r o) = h1arr V c (ix2 (rowOf t r) o) := by
  obtain ⟨e0, e1, -⟩ := idx_facts t
  unfold h1blk iblk3
  rw [View.read_apply]
  show V c main_v20_0 _ = V c main_v20_0 _
  congr 1
  funext a
  apply Fin.ext
  match a with
  | ⟨0, _⟩ => show win3_0.index t (0 : Fin 2) * 512 + 1 * r.val = t.val * 512 + r.val; rw [e0]; omega
  | ⟨1, _⟩ => show win3_0.index t (1 : Fin 2) * 1536 + 1 * o.val = o.val; rw [e1]; omega

theorem h2blk_apply (c : Dev nD) (t : Fin cfg3.N) (r : Fin 512) (o : Fin 1536) :
    h2blk V c t (ix2 r o) = h2arr V c (ix2 (rowOf t r) o) := by
  obtain ⟨-, -, e0, e1, -⟩ := idx_facts t
  unfold h2blk iblk3
  rw [View.read_apply]
  show V c main_v20_1 _ = V c main_v20_1 _
  congr 1
  funext a
  apply Fin.ext
  match a with
  | ⟨0, _⟩ => show win3_1.index t (0 : Fin 2) * 512 + 1 * r.val = t.val * 512 + r.val; rw [e0]; omega
  | ⟨1, _⟩ => show win3_1.index t (1 : Fin 2) * 1536 + 1 * o.val = o.val; rw [e1]; omega

theorem mean1blk_apply (c : Dev nD) (t : Fin cfg3.N) (o : Fin 1536) :
    mean1blk V c t (ix1 o) = mean1arr V c (ix1 o) := by
  obtain ⟨-, -, -, -, e, -⟩ := idx_facts t
  unfold mean1blk iblk3
  rw [View.read_apply]
  show V c main_v30 _ = V c main_v30 _
  congr 1
  funext a
  apply Fin.ext
  match a with
  | ⟨0, _⟩ => show win3_2.index t (0 : Fin 1) * 1536 + 1 * o.val = o.val; rw [e]; omega

theorem var1blk_apply (c : Dev nD) (t : Fin cfg3.N) (o : Fin 1536) :
    var1blk V c t (ix1 o) = var1arr V c (ix1 o) := by
  obtain ⟨-, -, -, -, -, e, -⟩ := idx_facts t
  unfold var1blk iblk3
  rw [View.read_apply]
  show V c main_v36 _ = V c main_v36 _
  congr 1
  funext a
  apply Fin.ext
  match a with
  | ⟨0, _⟩ => show win3_3.index t (0 : Fin 1) * 1536 + 1 * o.val = o.val; rw [e]; omega

theorem mean2blk_apply (c : Dev nD) (t : Fin cfg3.N) (o : Fin 1536) :
    mean2blk V c t (ix1 o) = mean2arr V c (ix1 o) := by
  obtain ⟨-, -, -, -, -, -, e, -⟩ := idx_facts t
  unfold mean2blk iblk3
  rw [View.read_apply]
  show V c main_v46 _ = V c main_v46 _
  congr 1
  funext a
  apply Fin.ext
  match a with
  | ⟨0, _⟩ => show win3_4.index t (0 : Fin 1) * 1536 + 1 * o.val = o.val; rw [e]; omega

theorem var2blk_apply (c : Dev nD) (t : Fin cfg3.N) (o : Fin 1536) :
    var2blk V c t (ix1 o) = var2arr V c (ix1 o) := by
  obtain ⟨-, -, -, -, -, -, -, e, -⟩ := idx_facts t
  unfold var2blk iblk3
  rw [View.read_apply]
  show V c main_v52 _ = V c main_v52 _
  congr 1
  funext a
  apply Fin.ext
  match a with
  | ⟨0, _⟩ => show win3_5.index t (0 : Fin 1) * 1536 + 1 * o.val = o.val; rw [e]; omega

theorem gammablk_apply (c : Dev nD) (t : Fin cfg3.N) (o : Fin 1536) :
    gammablk V c t (ix1 o) = gammaarr V c (ix1 o) := by
  obtain ⟨-, -, -, -, -, -, -, -, e, -⟩ := idx_facts t
  unfold gammablk iblk3
  rw [View.read_apply]
  show V c main_arg10 _ = V c main_arg10 _
  congr 1
  funext a
  apply Fin.ext
  match a with
  | ⟨0, _⟩ => show win3_6.index t (0 : Fin 1) * 1536 + 1 * o.val = o.val; rw [e]; omega

theorem betablk_apply (c : Dev nD) (t : Fin cfg3.N) (o : Fin 1536) :
    betablk V c t (ix1 o) = betaarr V c (ix1 o) := by
  obtain ⟨-, -, -, -, -, -, -, -, -, e, -⟩ := idx_facts t
  unfold betablk iblk3
  rw [View.read_apply]
  show V c main_arg11 _ = V c main_arg11 _
  congr 1
  funext a
  apply Fin.ext
  match a with
  | ⟨0, _⟩ => show win3_7.index t (0 : Fin 1) * 1536 + 1 * o.val = o.val; rw [e]; omega

/-! ### What a point writes back is its row block of the batch-norm map of the whole arrays -/

/-- Output 1: point t writes rows 512·t … of bnA(h1, mean1, var1, γ, β). -/
theorem flushed8_eq (c : Dev nD) (t : Fin cfg3.N) :
    (dat3 (F := Ideal) V c).flushed 8 t = ((cfg3.win 8).blk t).view.read (Elt Ideal)
      (Spec.bnA (h1arr V c) (mean1arr V c) (var1arr V c) (gammaarr V c) (betaarr V c)) := by
  show (cfg3.win 8).cut (grid3.coords t) ((dat3 (F := Ideal) V c).after 8 t) = _
  rw [after3_8]
  unfold out3_8
  rw [View.canon_unit_zero hz2]
  simp only [View.ld_unit_zero (S := S512x1536) hz2, View.ld_unit_zero (S := S1536) hz1]
  funext j
  obtain ⟨r, o, rfl⟩ : ∃ (r : Fin 512) (o : Fin 1536), j = ix2 r o := ⟨j 0, j 1, eq_ix2 j⟩
  show k3_pay2 (F := Ideal) (iblk3 V c 3 t) (iblk3 V c 0 t) (iblk3 V c 2 t) (iblk3 V c 6 t) (iblk3 V c 7 t) (ix2 r o)
     = Spec.bnA (h1arr V c) (mean1arr V c) (var1arr V c) (gammaarr V c) (betaarr V c) (((cfg3.win 8).blk t).view.emb (ix2 r o))
  refine (K3Pay.pay2_apply (iblk3 V c 3 t) (iblk3 V c 0 t) (iblk3 V c 2 t) (iblk3 V c 6 t) (iblk3 V c 7 t) r o).trans ?_
  obtain ⟨-, -, -, -, -, -, -, -, -, -, e0, e1, -⟩ := idx_facts t
  have hemb : ((cfg3.win 8).blk t).view.emb (ix2 r o) = ix2 (rowOf t r) o := by
    funext a; apply Fin.ext
    match a with
    | ⟨0, _⟩ => show win3_8.index t (0 : Fin 2) * 512 + 1 * r.val = t.val * 512 + r.val; rw [e0]; omega
    | ⟨1, _⟩ => show win3_8.index t (1 : Fin 2) * 1536 + 1 * o.val = o.val; rw [e1]; omega
  rw [hemb]
  show (h1blk V c t (ix2 r o) - mean1blk V c t (ix1 o)) * Ideal.rsqrt (var1blk V c t (ix1 o) + Spec.eps5)
      * gammablk V c t (ix1 o) + betablk V c t (ix1 o) = _
  rw [h1blk_apply, mean1blk_apply, var1blk_apply, gammablk_apply, betablk_apply]
  rfl

/-- Output 2: point t writes rows 512·t … of bnA(h2, mean2, var2, γ, β). -/
theorem flushed9_eq (c : Dev nD) (t : Fin cfg3.N) :
    (dat3 (F := Ideal) V c).flushed 9 t = ((cfg3.win 9).blk t).view.read (Elt Ideal)
      (Spec.bnA (h2arr V c) (mean2arr V c) (var2arr V c) (gammaarr V c) (betaarr V c)) := by
  show (cfg3.win 9).cut (grid3.coords t) ((dat3 (F := Ideal) V c).after 9 t) = _
  rw [after3_9]
  unfold out3_9
  rw [View.canon_unit_zero hz2]
  simp only [View.ld_unit_zero (S := S512x1536) hz2, View.ld_unit_zero (S := S1536) hz1]
  funext j
  obtain ⟨r, o, rfl⟩ : ∃ (r : Fin 512) (o : Fin 1536), j = ix2 r o := ⟨j 0, j 1, eq_ix2 j⟩
  show k3_pay1 (F := Ideal) (k3_pay3 (F := Ideal) (iblk3 V c 5 t) (iblk3 V c 1 t) (iblk3 V c 4 t) (iblk3 V c 6 t)) (iblk3 V c 7 t) (ix2 r o)
     = Spec.bnA (h2arr V c) (mean2arr V c) (var2arr V c) (gammaarr V c) (betaarr V c) (((cfg3.win 9).blk t).view.emb (ix2 r o))
  refine (K3Pay.pay1_apply (iblk3 V c 5 t) (iblk3 V c 1 t) (iblk3 V c 4 t) (iblk3 V c 6 t) (iblk3 V c 7 t) r o).trans ?_
  obtain ⟨-, -, -, -, -, -, -, -, -, -, -, -, e0, e1⟩ := idx_facts t
  have hemb : ((cfg3.win 9).blk t).view.emb (ix2 r o) = ix2 (rowOf t r) o := by
    funext a; apply Fin.ext
    match a with
    | ⟨0, _⟩ => show win3_9.index t (0 : Fin 2) * 512 + 1 * r.val = t.val * 512 + r.val; rw [e0]; omega
    | ⟨1, _⟩ => show win3_9.index t (1 : Fin 2) * 1536 + 1 * o.val = o.val; rw [e1]; omega
  rw [hemb]
  show (h2blk V c t (ix2 r o) - mean2blk V c t (ix1 o)) * Ideal.rsqrt (var2blk V c t (ix1 o) + Spec.eps5)
      * gammablk V c t (ix1 o) + betablk V c t (ix1 o) = _
  rw [h2blk_apply, mean2blk_apply, var2blk_apply, gammablk_apply, betablk_apply]
  rfl

/-! ### The 64 row blocks tile the rows -/

theorem mem_blk8 (t : Fin cfg3.N) (i : S32768x1536.Idx) :
    i ∈ ((cfg3.win 8).blk t).view.set ↔ ∀ a : Fin 2, win3_8.index t a * S512x1536.size a ≤ (i a).val
      ∧ (i a).val < win3_8.index t a * S512x1536.size a + S512x1536.size a := by
  show i ∈ ((View.whole main_v53_0).slice (win3_8.rect t)).set ↔ _
  rw [View.set_slice_whole, Rect.mem_set_unit]
  exact Iff.rfl

theorem mem_blk9 (t : Fin cfg3.N) (i : S32768x1536.Idx) :
    i ∈ ((cfg3.win 9).blk t).view.set ↔ ∀ a : Fin 2, win3_9.index t a * S512x1536.size a ≤ (i a).val
      ∧ (i a).val < win3_9.index t a * S512x1536.size a + S512x1536.size a := by
  show i ∈ ((View.whole main_v53_1).slice (win3_9.rect t)).set ↔ _
  rw [View.set_slice_whole, Rect.mem_set_unit]
  exact Iff.rfl

/-- The point whose block holds row n is n / 512. -/
abbrev pointOf (i : S32768x1536.Idx) : Fin cfg3.N :=
  ⟨(i 0).val / 512, lt_of_lt_of_eq (by have h : (i 0).val < 32768 := (i 0).isLt; omega : (i 0).val / 512 < 64) N_3.symm⟩

theorem cover8 (i : S32768x1536.Idx) :
    ∃ t : Fin cfg3.N, (cfg3.win 8).flush t = true ∧ i ∈ ((cfg3.win 8).blk t).view.set := by
  have hi0 : (i 0).val < 32768 := (i 0).isLt
  have hi1 : (i 1).val < 1536 := (i 1).isLt
  obtain ⟨-, -, -, -, -, -, -, -, -, -, e0, e1, -⟩ := idx_facts (pointOf i)
  refine ⟨pointOf i, flush3_8 _, ?_⟩
  rw [mem_blk8]
  intro a
  match a with
  | ⟨0, _⟩ =>
    show win3_8.index (pointOf i) (0 : Fin 2) * 512 ≤ (i 0).val ∧ (i 0).val < win3_8.index (pointOf i) (0 : Fin 2) * 512 + 512
    rw [e0]; show (i 0).val / 512 * 512 ≤ (i 0).val ∧ (i 0).val < (i 0).val / 512 * 512 + 512; omega
  | ⟨1, _⟩ =>
    show win3_8.index (pointOf i) (1 : Fin 2) * 1536 ≤ (i 1).val ∧ (i 1).val < win3_8.index (pointOf i) (1 : Fin 2) * 1536 + 1536
    rw [e1]; omega

theorem cover9 (i : S32768x1536.Idx) :
    ∃ t : Fin cfg3.N, (cfg3.win 9).flush t = true ∧ i ∈ ((cfg3.win 9).blk t).view.set := by
  have hi0 : (i 0).val < 32768 := (i 0).isLt
  have hi1 : (i 1).val < 1536 := (i 1).isLt
  obtain ⟨-, -, -, -, -, -, -, -, -, -, -, -, e0, e1⟩ := idx_facts (pointOf i)
  refine ⟨pointOf i, flush3_9 _, ?_⟩
  rw [mem_blk9]
  intro a
  match a with
  | ⟨0, _⟩ =>
    show win3_9.index (pointOf i) (0 : Fin 2) * 512 ≤ (i 0).val ∧ (i 0).val < win3_9.index (pointOf i) (0 : Fin 2) * 512 + 512
    rw [e0]; show (i 0).val / 512 * 512 ≤ (i 0).val ∧ (i 0).val < (i 0).val / 512 * 512 + 512; omega
  | ⟨1, _⟩ =>
    show win3_9.index (pointOf i) (1 : Fin 2) * 1536 ≤ (i 1).val ∧ (i 1).val < win3_9.index (pointOf i) (1 : Fin 2) * 1536 + 1536
    rw [e1]; omega

/-- So after the 64 points output 1 is the batch-norm map of the arrays the region found … -/
theorem final8 (c : Dev nD) : (dat3 (F := Ideal) V c).arrAt 8 cfg3.N
    = Spec.bnA (h1arr V c) (mean1arr V c) (var1arr V c) (gammaarr V c) (betaarr V c) :=
  (dat3 (F := Ideal) V c).arrAt_eq_of_cover 8 _ (fun t _ => flushed8_eq V c t) cover8

/-- … and output 2 likewise. -/
theorem final9 (c : Dev nD) : (dat3 (F := Ideal) V c).arrAt 9 cfg3.N
    = Spec.bnA (h2arr V c) (mean2arr V c) (var2arr V c) (gammaarr V c) (betaarr V c) :=
  (dat3 (F := Ideal) V c).arrAt_eq_of_cover 9 _ (fun t _ => flushed9_eq V c t) cover9

end Region

/-! ## The run: the region's exit contents and the two host reshapes after it -/

section Run

variable (m : (ℓ : Loc nD τ sig) → Buf (Elt Ideal) ℓ) (ρ : Dev nD → PrngReg)

/-- A [32768, 1536] array viewed as [8, 512, 8, 1536] reads, at (b, s, p, o), its row (b·512 + s)·8 + p: the two
    indices have the same row-major position. -/
theorem reshape_unrows (X : Vec Ideal S32768x1536 .f32) :
    shapeCast S8x512x8x1536 X shapeCasts_S32768x1536_S8x512x8x1536 = Spec.unrows X := by
  funext y
  obtain ⟨b, s, p, o, rfl⟩ : ∃ (b : Fin 8) (s : Fin 512) (p : Fin 8) (o : Fin 1536), y = ix4 b s p o :=
    ⟨y 0, y 1, y 2, y 3, eq_ix4 y⟩
  show _ = X (ix2 (⟨(b.val * 512 + s.val) * 8 + p.val, by
    have h0 := b.isLt; have h1 := s.isLt; have h2 := p.isLt; omega⟩ : Fin 32768) o)
  refine shapeCast_apply X shapeCasts_S32768x1536_S8x512x8x1536 _ _ ?_
  rw [Shape.rowMajor_val_two, Shape.rowMajor_val_four]
  rfl

/-- The first result is the first output array, re-viewed. -/
theorem W9_v54 (c : Dev nD) :
    (W9 m ρ c (Proc.devRef .tc main_v54) : Vec Ideal S8x512x8x1536 .f32)
      = shapeCast S8x512x8x1536 (W8 m ρ c (Proc.devRef .tc main_v53_0) : Vec Ideal S32768x1536 .f32)
          shapeCasts_S32768x1536_S8x512x8x1536 := by
  show StableHlo.after hostOps4 (W8 m ρ c) (Proc.devRef .tc main_v54) = _
  after_results
  rfl

/-- The second result is the second output array, re-viewed. -/
theorem W9_v55 (c : Dev nD) :
    (W9 m ρ c (Proc.devRef .tc main_v55) : Vec Ideal S8x512x8x1536 .f32)
      = shapeCast S8x512x8x1536 (W8 m ρ c (Proc.devRef .tc main_v53_1) : Vec Ideal S32768x1536 .f32)
          shapeCasts_S32768x1536_S8x512x8x1536 := by
  show StableHlo.after hostOps4 (W8 m ρ c) (Proc.devRef .tc main_v55) = _
  after_results
  rfl

/-- Branch 1, from the region's entry contents to the result: the batch-norm map of the activations with the given
    statistics, scale and shift, read back as [8, 512, 8, 1536]. -/
theorem seg3_out1 (c : Dev nD) (G1 : Spec.S2h.Idx → EReal) (MEAN1 VAR1 γ β : Spec.S1g.Idx → EReal)
    (hG : W7 m ρ c (Proc.devRef .tc main_v20_0) = G1)
    (hmean : W7 m ρ c (Proc.devRef .tc main_v30) = MEAN1)
    (hvar : W7 m ρ c (Proc.devRef .tc main_v36) = VAR1)
    (hγ : W7 m ρ c (Proc.devRef .tc main_arg10) = γ)
    (hβ : W7 m ρ c (Proc.devRef .tc main_arg11) = β) :
    W9 m ρ c (Proc.devRef .tc main_v54) = Spec.unrows (Spec.bnA G1 MEAN1 VAR1 γ β) := by
  have h8 : (W8 m ρ c (Proc.devRef .tc main_v53_0) : Vec Ideal S32768x1536 .f32) = Spec.bnA G1 MEAN1 VAR1 γ β := by
    refine ((W8_arr m ρ c 8).trans (final8 (V7 m ρ) c)).trans ?_
    show Spec.bnA (W7 m ρ c (Proc.devRef .tc main_v20_0)) (W7 m ρ c (Proc.devRef .tc main_v30))
      (W7 m ρ c (Proc.devRef .tc main_v36)) (W7 m ρ c (Proc.devRef .tc main_arg10)) (W7 m ρ c (Proc.devRef .tc main_arg11)) = _
    rw [hG, hmean, hvar, hγ, hβ]
  refine (W9_v54 m ρ c).trans ?_
  rw [h8]
  exact reshape_unrows _

/-- Branch 2 likewise. -/
theorem seg3_out2 (c : Dev nD) (G2 : Spec.S2h.Idx → EReal) (MEAN2 VAR2 γ β : Spec.S1g.Idx → EReal)
    (hG : W7 m ρ c (Proc.devRef .tc main_v20_1) = G2)
    (hmean : W7 m ρ c (Proc.devRef .tc main_v46) = MEAN2)
    (hvar : W7 m ρ c (Proc.devRef .tc main_v52) = VAR2)
    (hγ : W7 m ρ c (Proc.devRef .tc main_arg10) = γ)
    (hβ : W7 m ρ c (Proc.devRef .tc main_arg11) = β) :
    W9 m ρ c (Proc.devRef .tc main_v55) = Spec.unrows (Spec.bnA G2 MEAN2 VAR2 γ β) := by
  have h9 : (W8 m ρ c (Proc.devRef .tc main_v53_1) : Vec Ideal S32768x1536 .f32) = Spec.bnA G2 MEAN2 VAR2 γ β := by
    refine ((W8_arr m ρ c 9).trans (final9 (V7 m ρ) c)).trans ?_
    show Spec.bnA (W7 m ρ c (Proc.devRef .tc main_v20_1)) (W7 m ρ c (Proc.devRef .tc main_v46))
      (W7 m ρ c (Proc.devRef .tc main_v52)) (W7 m ρ c (Proc.devRef .tc main_arg10)) (W7 m ρ c (Proc.devRef .tc main_arg11)) = _
    rw [hG, hmean, hvar, hγ, hβ]
  refine (W9_v55 m ρ c).trans ?_
  rw [h9]
  exact reshape_unrows _

end Run

end Cert.KernelIdeal.K3Arr

end
-- ==== Proof.KOut.lean ====
/-
  The kernel's value chain: from the launch memory to the two results, one boundary at a time.

  With the inputs x1, x2 (features), a1, a2 (adjacency), the three weight matrices and biases, and the batch-norm
  scale and shift read from the launch memory:
  * region 0 leaves the two neighbour means NB1, NB2 (and the features' working copies are the features);
  * region 1 leaves the two attention residuals MU1, MU2;
  * region 2 leaves the normalised activations G1, G2 and, per 512-row tile, their column sums and column sums of
    squares;
  * the statistics stretch turns those into the column means and the clipped variances mean-of-squares minus
    square-of-mean;
  * region 3 and the last reshape leave the batch-norm map of G1, G2, read back as [8, 512, 8, 1536].
  Between the stages each needed buffer is carried unchanged.
-/
import proofs.«404490_j9337258902039_3_alg».proof.Proof.Pass
import proofs.«404490_j9337258902039_3_alg».proof.Proof.RunKI
import proofs.«404490_j9337258902039_3_alg».proof.Proof.Math
import proofs.«404490_j9337258902039_3_alg».proof.Proof.K3Host
import proofs.«404490_j9337258902039_3_alg».proof.Proof.K0Arr
import proofs.«404490_j9337258902039_3_alg».proof.Proof.K1Arr
import proofs.«404490_j9337258902039_3_alg».proof.Proof.K2Arr
import proofs.«404490_j9337258902039_3_alg».proof.Proof.K2Stat
import proofs.«404490_j9337258902039_3_alg».proof.Proof.K3Arr

set_option maxRecDepth 16384

noncomputable section

namespace Cert.KernelIdeal.KOut

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (ρ : Dev nD → PrngReg) (c : Dev nD)

/-! ## The inputs, read from the launch memory at their literal types -/

abbrev X1 : Spec.S4x.Idx → EReal := m ((c : Thread nD τ).loc main_arg0)
abbrev X2 : Spec.S4x.Idx → EReal := m ((c : Thread nD τ).loc main_arg1)
abbrev A1 : Spec.S3a.Idx → BitVec 32 := m ((c : Thread nD τ).loc main_arg2)
abbrev A2 : Spec.S3a.Idx → BitVec 32 := m ((c : Thread nD τ).loc main_arg3)
abbrev Wx : Spec.S2w.Idx → EReal := m ((c : Thread nD τ).loc main_arg4)
abbrev bx : Spec.S1b.Idx → EReal := m ((c : Thread nD τ).loc main_arg5)
abbrev Wn : Spec.S2w.Idx → EReal := m ((c : Thread nD τ).loc main_arg6)
abbrev bn : Spec.S1b.Idx → EReal := m ((c : Thread nD τ).loc main_arg7)
abbrev Wr : Spec.S2w.Idx → EReal := m ((c : Thread nD τ).loc main_arg8)
abbrev br : Spec.S1b.Idx → EReal := m ((c : Thread nD τ).loc main_arg9)
abbrev γ : Spec.S1g.Idx → EReal := m ((c : Thread nD τ).loc main_arg10)
abbrev β : Spec.S1g.Idx → EReal := m ((c : Thread nD τ).loc main_arg11)

/-! ## The stages' values -/

/-- The neighbour means. -/
abbrev NB1 : Spec.S3x.Idx → EReal := Spec.nbA (Spec.flat (X1 m c)) (A1 m c)
abbrev NB2 : Spec.S3x.Idx → EReal := Spec.nbA (Spec.flat (X2 m c)) (A2 m c)
/-- The attention residuals. -/
abbrev MU1 : Spec.S3x.Idx → EReal := Spec.mu1A (Spec.flat (X1 m c)) (Spec.flat (X2 m c))
abbrev MU2 : Spec.S3x.Idx → EReal := Spec.mu2A (Spec.flat (X1 m c)) (Spec.flat (X2 m c))
/-- The normalised activations. -/
abbrev G1 : Spec.S2h.Idx → EReal :=
  Spec.act (X1 m c) (NB1 m c) (MU1 m c) (Wx m c) (bx m c) (Wn m c) (bn m c) (Wr m c) (br m c)
abbrev G2 : Spec.S2h.Idx → EReal :=
  Spec.act (X2 m c) (NB2 m c) (MU2 m c) (Wx m c) (bx m c) (Wn m c) (bn m c) (Wr m c) (br m c)

/-! ## Each argument is one of @main's arguments -/

theorem isArg0 : Pass.IsArg main_arg0 := Or.inl rfl
theorem isArg1 : Pass.IsArg main_arg1 := Or.inr (Or.inl rfl)
theorem isArg4 : Pass.IsArg main_arg4 := Or.inr (Or.inr (Or.inr (Or.inr (Or.inl rfl))))
theorem isArg5 : Pass.IsArg main_arg5 := Or.inr (Or.inr (Or.inr (Or.inr (Or.inr (Or.inl rfl)))))
theorem isArg6 : Pass.IsArg main_arg6 := Or.inr (Or.inr (Or.inr (Or.inr (Or.inr (Or.inr (Or.inl rfl))))))
theorem isArg7 : Pass.IsArg main_arg7 := Or.inr (Or.inr (Or.inr (Or.inr (Or.inr (Or.inr (Or.inr (Or.inl rfl)))))))
theorem isArg8 : Pass.IsArg main_arg8 := Or.inr (Or.inr (Or.inr (Or.inr (Or.inr (Or.inr (Or.inr (Or.inr (Or.inl rfl))))))))
theorem isArg9 : Pass.IsArg main_arg9 := Or.inr (Or.inr (Or.inr (Or.inr (Or.inr (Or.inr (Or.inr (Or.inr (Or.inr (Or.inl rfl)))))))))
theorem isArg10 : Pass.IsArg main_arg10 := Or.inr (Or.inr (Or.inr (Or.inr (Or.inr (Or.inr (Or.inr (Or.inr (Or.inr (Or.inr (Or.inl rfl))))))))))
theorem isArg11 : Pass.IsArg main_arg11 := Or.inr (Or.inr (Or.inr (Or.inr (Or.inr (Or.inr (Or.inr (Or.inr (Or.inr (Or.inr (Or.inr (rfl)))))))))))

/-! ## After region 1: the features' copies, the neighbour means and the attention residuals -/

theorem at4_v0 : W4 m ρ c (Proc.devRef .tc main_v0) = X1 m c :=
  (Pass.W4_of_W2 m ρ c main_v0 (Or.inl rfl)).trans (K0Arr.seg0_v0 m ρ c)

theorem at4_v1 : W4 m ρ c (Proc.devRef .tc main_v1) = X2 m c :=
  (Pass.W4_of_W2 m ρ c main_v1 (Or.inr (Or.inl rfl))).trans (K0Arr.seg0_v1 m ρ c)

theorem at4_nb1 : W4 m ρ c (Proc.devRef .tc main_v4_0) = NB1 m c :=
  (Pass.W4_of_W2 m ρ c main_v4_0 (Or.inr (Or.inr (Or.inl rfl)))).trans (K0Arr.seg0_nb1 m ρ c)

theorem at4_nb2 : W4 m ρ c (Proc.devRef .tc main_v4_1) = NB2 m c :=
  (Pass.W4_of_W2 m ρ c main_v4_1 (Or.inr (Or.inr (Or.inr rfl)))).trans (K0Arr.seg0_nb2 m ρ c)

theorem at4_mu1 : W4 m ρ c (Proc.devRef .tc main_v7_0) = MU1 m c :=
  K1Arr.seg1_mu1 m ρ c (Pass.W2_arg m ρ c main_arg0 isArg0) (Pass.W2_arg m ρ c main_arg1 isArg1)

theorem at4_mu2 : W4 m ρ c (Proc.devRef .tc main_v7_1) = MU2 m c :=
  K1Arr.seg1_mu2 m ρ c (Pass.W2_arg m ρ c main_arg0 isArg0) (Pass.W2_arg m ρ c main_arg1 isArg1)

/-! ## After region 2: the activations and their per-tile column sums -/

theorem at6_g1 : W6 m ρ c (Proc.devRef .tc main_v20_0) = G1 m c :=
  K2Arr.seg2_g1 m ρ c (X1 m c) (NB1 m c) (MU1 m c) (Wx m c) (bx m c) (Wn m c) (bn m c) (Wr m c) (br m c)
    (at4_v0 m ρ c) (at4_nb1 m ρ c) (at4_mu1 m ρ c)
    (Pass.W4_arg m ρ c main_arg4 isArg4) (Pass.W4_arg m ρ c main_arg5 isArg5) (Pass.W4_arg m ρ c main_arg6 isArg6)
    (Pass.W4_arg m ρ c main_arg7 isArg7) (Pass.W4_arg m ρ c main_arg8 isArg8) (Pass.W4_arg m ρ c main_arg9 isArg9)

theorem at6_g2 : W6 m ρ c (Proc.devRef .tc main_v20_1) = G2 m c :=
  K2Arr.seg2_g2 m ρ c (X2 m c) (NB2 m c) (MU2 m c) (Wx m c) (bx m c) (Wn m c) (bn m c) (Wr m c) (br m c)
    (at4_v1 m ρ c) (at4_nb2 m ρ c) (at4_mu2 m ρ c)
    (Pass.W4_arg m ρ c main_arg4 isArg4) (Pass.W4_arg m ρ c main_arg5 isArg5) (Pass.W4_arg m ρ c main_arg6 isArg6)
    (Pass.W4_arg m ρ c main_arg7 isArg7) (Pass.W4_arg m ρ c main_arg8 isArg8) (Pass.W4_arg m ρ c main_arg9 isArg9)

theorem at6_s1 : W6 m ρ c (Proc.devRef .tc main_v20_2) = K3Host.tile (K3Host.tsum (G1 m c)) :=
  K2Stat.seg2_s1 m ρ c (X1 m c) (NB1 m c) (MU1 m c) (Wx m c) (bx m c) (Wn m c) (bn m c) (Wr m c) (br m c)
    (at4_v0 m ρ c) (at4_nb1 m ρ c) (at4_mu1 m ρ c)
    (Pass.W4_arg m ρ c main_arg4 isArg4) (Pass.W4_arg m ρ c main_arg5 isArg5) (Pass.W4_arg m ρ c main_arg6 isArg6)
    (Pass.W4_arg m ρ c main_arg7 isArg7) (Pass.W4_arg m ρ c main_arg8 isArg8) (Pass.W4_arg m ρ c main_arg9 isArg9)

theorem at6_sq1 : W6 m ρ c (Proc.devRef .tc main_v20_3) = K3Host.tile (K3Host.tsq (G1 m c)) :=
  K2Stat.seg2_sq1 m ρ c (X1 m c) (NB1 m c) (MU1 m c) (Wx m c) (bx m c) (Wn m c) (bn m c) (Wr m c) (br m c)
    (at4_v0 m ρ c) (at4_nb1 m ρ c) (at4_mu1 m ρ c)
    (Pass.W4_arg m ρ c main_arg4 isArg4) (Pass.W4_arg m ρ c main_arg5 isArg5) (Pass.W4_arg m ρ c main_arg6 isArg6)
    (Pass.W4_arg m ρ c main_arg7 isArg7) (Pass.W4_arg m ρ c main_arg8 isArg8) (Pass.W4_arg m ρ c main_arg9 isArg9)

theorem at6_s2 : W6 m ρ c (Proc.devRef .tc main_v20_4) = K3Host.tile (K3Host.tsum (G2 m c)) :=
  K2Stat.seg2_s2 m ρ c (X2 m c) (NB2 m c) (MU2 m c) (Wx m c) (bx m c) (Wn m c) (bn m c) (Wr m c) (br m c)
    (at4_v1 m ρ c) (at4_nb2 m ρ c) (at4_mu2 m ρ c)
    (Pass.W4_arg m ρ c main_arg4 isArg4) (Pass.W4_arg m ρ c main_arg5 isArg5) (Pass.W4_arg m ρ c main_arg6 isArg6)
    (Pass.W4_arg m ρ c main_arg7 isArg7) (Pass.W4_arg m ρ c main_arg8 isArg8) (Pass.W4_arg m ρ c main_arg9 isArg9)

theorem at6_sq2 : W6 m ρ c (Proc.devRef .tc main_v20_5) = K3Host.tile (K3Host.tsq (G2 m c)) :=
  K2Stat.seg2_sq2 m ρ c (X2 m c) (NB2 m c) (MU2 m c) (Wx m c) (bx m c) (Wn m c) (bn m c) (Wr m c) (br m c)
    (at4_v1 m ρ c) (at4_nb2 m ρ c) (at4_mu2 m ρ c)
    (Pass.W4_arg m ρ c main_arg4 isArg4) (Pass.W4_arg m ρ c main_arg5 isArg5) (Pass.W4_arg m ρ c main_arg6 isArg6)
    (Pass.W4_arg m ρ c main_arg7 isArg7) (Pass.W4_arg m ρ c main_arg8 isArg8) (Pass.W4_arg m ρ c main_arg9 isArg9)

/-! ## After the statistics stretch: the means, the clipped variances, and what is carried -/

theorem at7_mean1 : W7 m ρ c (Proc.devRef .tc main_v30) = Spec.meanA (G1 m c) :=
  K3Host.host3_mean1 (W6 m ρ c) (G1 m c) (at6_s1 m ρ c)

theorem at7_var1 : W7 m ρ c (Proc.devRef .tc main_v36) = Spec.varK (G1 m c) :=
  K3Host.host3_var1 (W6 m ρ c) (G1 m c) (at6_s1 m ρ c) (at6_sq1 m ρ c)

theorem at7_mean2 : W7 m ρ c (Proc.devRef .tc main_v46) = Spec.meanA (G2 m c) :=
  K3Host.host3_mean2 (W6 m ρ c) (G2 m c) (at6_s2 m ρ c)

theorem at7_var2 : W7 m ρ c (Proc.devRef .tc main_v52) = Spec.varK (G2 m c) :=
  K3Host.host3_var2 (W6 m ρ c) (G2 m c) (at6_s2 m ρ c) (at6_sq2 m ρ c)

theorem at7_g1 : W7 m ρ c (Proc.devRef .tc main_v20_0) = G1 m c :=
  (Pass.W7_of_W6 m ρ c main_v20_0 (Or.inr (Or.inl rfl))).trans (at6_g1 m ρ c)

theorem at7_g2 : W7 m ρ c (Proc.devRef .tc main_v20_1) = G2 m c :=
  (Pass.W7_of_W6 m ρ c main_v20_1 (Or.inr (Or.inr rfl))).trans (at6_g2 m ρ c)

theorem at7_γ : W7 m ρ c (Proc.devRef .tc main_arg10) = γ m c := Pass.W7_arg m ρ c main_arg10 isArg10

theorem at7_β : W7 m ρ c (Proc.devRef .tc main_arg11) = β m c := Pass.W7_arg m ρ c main_arg11 isArg11

/-! ## The two results -/

theorem kernel_out1 : W9 m ρ c (Proc.devRef .tc main_v54) = Spec.outOf Spec.varK (G1 m c) (γ m c) (β m c) :=
  K3Arr.seg3_out1 m ρ c (G1 m c) (Spec.meanA (G1 m c)) (Spec.varK (G1 m c)) (γ m c) (β m c)
    (at7_g1 m ρ c) (at7_mean1 m ρ c) (at7_var1 m ρ c) (at7_γ m ρ c) (at7_β m ρ c)

theorem kernel_out2 : W9 m ρ c (Proc.devRef .tc main_v55) = Spec.outOf Spec.varK (G2 m c) (γ m c) (β m c) :=
  K3Arr.seg3_out2 m ρ c (G2 m c) (Spec.meanA (G2 m c)) (Spec.varK (G2 m c)) (γ m c) (β m c)
    (at7_g2 m ρ c) (at7_mean2 m ρ c) (at7_var2 m ρ c) (at7_γ m ρ c) (at7_β m ρ c)

end Cert.KernelIdeal.KOut

end
-- ==== Proof.RefNb.lean ====
/-
  The reference's first stretch: both branches' neighbour means. Each branch builds the mask
  (adjacency entry positive, and off the diagonal), its row sums (the degrees), the product of the mask with the
  features read as [b, s, d], and the quotient of that product by the degree of its row; the quotient is then read
  back as [b, s, p, f]. Both branches apply one and the same function, to (argument 0, argument 2) and to
  (argument 1, argument 3).
-/
import proofs.«404490_j9337258902039_3_alg».proof.ReferenceIdeal
import proofs.«404490_j9337258902039_3_alg».proof.Proof.Spec
import Idealize.ShloMosaic.Lib.StableHlo.Run
import Idealize.ShloMosaic.Lib.IdealHost
import Idealize.ShloMosaic.Lib.StackMember
import Idealize.ShloMosaic.Lib.Pipeline.Value

noncomputable section

namespace Cert.ReferenceIdeal.RefNb

open Idealize.ShloMosaic Idealize.ShloMosaic.ValueIdx Idealize.ShloMosaic.TcCoe Idealize.ShloMosaic.StableHlo Idealize.SL.Sem
open Cert.ReferenceIdeal Cert.ReferenceIdeal.Facts₀ Cert.ReferenceIdeal.Facts
open scoped BigOperators

/-! ## The operations -/

section Ops

variable {F : FTy → Type} [FloatOps F] [Facts]

/-- The stretch's operations in @main's order: the two coordinate grids and the diagonal test they give, then per
    branch the positivity test of the adjacency, the mask, its conversion, the degrees, the features read as
    [b, s, d], the product, the degrees spread along d, the quotient, and the quotient read as [b, s, p, f]. -/
abbrev opsNb : List (HloOp τ sig (Elt F)) :=
  [ StableHlo.nullary main_v0 (iotaInDim S512x512 32 0),
    StableHlo.nullary main_v1 (iotaInDim S512x512 32 1),
    StableHlo.nullary main_c (constantI S_ 32 0#32),
    StableHlo.unary main_c main_v2 (broadcastInDim S512x512 ![] bcast_S_S512x512 : (⟨S_, .i32⟩ : BufTy).Contents (Elt F) → (⟨S512x512, .i32⟩ : BufTy).Contents (Elt F)),
    StableHlo.binary main_v0 main_v2 main_v3 (addi : (⟨S512x512, .i32⟩ : BufTy).Contents (Elt F) → (⟨S512x512, .i32⟩ : BufTy).Contents (Elt F) → (⟨S512x512, .i32⟩ : BufTy).Contents (Elt F)),
    StableHlo.binary main_v3 main_v1 main_v4 (cmpi .eq : (⟨S512x512, .i32⟩ : BufTy).Contents (Elt F) → (⟨S512x512, .i32⟩ : BufTy).Contents (Elt F) → (⟨S512x512, .i1⟩ : BufTy).Contents (Elt F)),
    StableHlo.nullary main_c_0 (constantI S_ 32 0#32),
    StableHlo.unary main_c_0 main_v5 (broadcastInDim S8x512x512 ![] bcast_S_S8x512x512 : (⟨S_, .i32⟩ : BufTy).Contents (Elt F) → (⟨S8x512x512, .i32⟩ : BufTy).Contents (Elt F)),
    StableHlo.binary main_arg2 main_v5 main_v6 (cmpi .sgt : (⟨S8x512x512, .i32⟩ : BufTy).Contents (Elt F) → (⟨S8x512x512, .i32⟩ : BufTy).Contents (Elt F) → (⟨S8x512x512, .i1⟩ : BufTy).Contents (Elt F)),
    StableHlo.unary main_v4 main_v7 (noti : (⟨S512x512, .i1⟩ : BufTy).Contents (Elt F) → (⟨S512x512, .i1⟩ : BufTy).Contents (Elt F)),
    StableHlo.unary main_v7 main_v8 (broadcastInDim S1x512x512 ![1, 2] bcast_S512x512_S1x512x512_1_2 : (⟨S512x512, .i1⟩ : BufTy).Contents (Elt F) → (⟨S1x512x512, .i1⟩ : BufTy).Contents (Elt F)),
    StableHlo.unary main_v8 main_v9 (broadcastInDim S8x512x512 ![0, 1, 2] bcast_S1x512x512_S8x512x512_0_1_2 : (⟨S1x512x512, .i1⟩ : BufTy).Contents (Elt F) → (⟨S8x512x512, .i1⟩ : BufTy).Contents (Elt F)),
    StableHlo.binary main_v6 main_v9 main_v10 (andi : (⟨S8x512x512, .i1⟩ : BufTy).Contents (Elt F) → (⟨S8x512x512, .i1⟩ : BufTy).Contents (Elt F) → (⟨S8x512x512, .i1⟩ : BufTy).Contents (Elt F)),
    StableHlo.unary main_v10 main_v11 (uitofp .f32 : (⟨S8x512x512, .i1⟩ : BufTy).Contents (Elt F) → (⟨S8x512x512, .f32⟩ : BufTy).Contents (Elt F)),
    StableHlo.nullary main_cst (constant S_ .f32 0x00000000#32),
    StableHlo.binary main_v11 main_cst main_v12 ((fun x v => Host.reduceAdd x v reducesTo_S8x512x512_S8x512_d2 h_S_) : (⟨S8x512x512, .f32⟩ : BufTy).Contents (Elt F) → (⟨S_, .f32⟩ : BufTy).Contents (Elt F) → (⟨S8x512, .f32⟩ : BufTy).Contents (Elt F)),
    StableHlo.reshape main_arg0 main_v13 rfl shapeCasts_S8x512x8x512_S8x512x4096,
    StableHlo.binary main_v11 main_v13 main_v14 ((fun l r => Host.dotGeneral dot_S8x512x512_S8x512x4096_S8x512x4096_2_1_1_2_0_0 none l r) : (⟨S8x512x512, .f32⟩ : BufTy).Contents (Elt F) → (⟨S8x512x4096, .f32⟩ : BufTy).Contents (Elt F) → (⟨S8x512x4096, .f32⟩ : BufTy).Contents (Elt F)),
    StableHlo.unary main_v12 main_v15 (broadcastInDim S8x512x1 ![0, 1] bcast_S8x512_S8x512x1_0_1 : (⟨S8x512, .f32⟩ : BufTy).Contents (Elt F) → (⟨S8x512x1, .f32⟩ : BufTy).Contents (Elt F)),
    StableHlo.unary main_v15 main_v16 (broadcastInDim S8x512x4096 ![0, 1, 2] bcast_S8x512x1_S8x512x4096_0_1_2 : (⟨S8x512x1, .f32⟩ : BufTy).Contents (Elt F) → (⟨S8x512x4096, .f32⟩ : BufTy).Contents (Elt F)),
    StableHlo.binary main_v14 main_v16 main_v17 (Host.divf : (⟨S8x512x4096, .f32⟩ : BufTy).Contents (Elt F) → (⟨S8x512x4096, .f32⟩ : BufTy).Contents (Elt F) → (⟨S8x512x4096, .f32⟩ : BufTy).Contents (Elt F)),
    StableHlo.reshape main_v17 main_v18 rfl shapeCasts_S8x512x4096_S8x512x8x512,
    StableHlo.nullary main_c_1 (constantI S_ 32 0#32),
    StableHlo.unary main_c_1 main_v19 (broadcastInDim S8x512x512 ![] bcast_S_S8x512x512 : (⟨S_, .i32⟩ : BufTy).Contents (Elt F) → (⟨S8x512x512, .i32⟩ : BufTy).Contents (Elt F)),
    StableHlo.binary main_arg3 main_v19 main_v20 (cmpi .sgt : (⟨S8x512x512, .i32⟩ : BufTy).Contents (Elt F) → (⟨S8x512x512, .i32⟩ : BufTy).Contents (Elt F) → (⟨S8x512x512, .i1⟩ : BufTy).Contents (Elt F)),
    StableHlo.unary main_v4 main_v21 (noti : (⟨S512x512, .i1⟩ : BufTy).Contents (Elt F) → (⟨S512x512, .i1⟩ : BufTy).Contents (Elt F)),
    StableHlo.unary main_v21 main_v22 (broadcastInDim S1x512x512 ![1, 2] bcast_S512x512_S1x512x512_1_2 : (⟨S512x512, .i1⟩ : BufTy).Contents (Elt F) → (⟨S1x512x512, .i1⟩ : BufTy).Contents (Elt F)),
    StableHlo.unary main_v22 main_v23 (broadcastInDim S8x512x512 ![0, 1, 2] bcast_S1x512x512_S8x512x512_0_1_2 : (⟨S1x512x512, .i1⟩ : BufTy).Contents (Elt F) → (⟨S8x512x512, .i1⟩ : BufTy).Contents (Elt F)),
    StableHlo.binary main_v20 main_v23 main_v24 (andi : (⟨S8x512x512, .i1⟩ : BufTy).Contents (Elt F) → (⟨S8x512x512, .i1⟩ : BufTy).Contents (Elt F) → (⟨S8x512x512, .i1⟩ : BufTy).Contents (Elt F)),
    StableHlo.unary main_v24 main_v25 (uitofp .f32 : (⟨S8x512x512, .i1⟩ : BufTy).Contents (Elt F) → (⟨S8x512x512, .f32⟩ : BufTy).Contents (Elt F)),
    StableHlo.nullary main_cst_2 (constant S_ .f32 0x00000000#32),
    StableHlo.binary main_v25 main_cst_2 main_v26 ((fun x v => Host.reduceAdd x v reducesTo_S8x512x512_S8x512_d2 h_S_) : (⟨S8x512x512, .f32⟩ : BufTy).Contents (Elt F) → (⟨S_, .f32⟩ : BufTy).Contents (Elt F) → (⟨S8x512, .f32⟩ : BufTy).Contents (Elt F)),
    StableHlo.reshape main_arg1 main_v27 rfl shapeCasts_S8x512x8x512_S8x512x4096,
    StableHlo.binary main_v25 main_v27 main_v28 ((fun l r => Host.dotGeneral dot_S8x512x512_S8x512x4096_S8x512x4096_2_1_1_2_0_0 none l r) : (⟨S8x512x512, .f32⟩ : BufTy).Contents (Elt F) → (⟨S8x512x4096, .f32⟩ : BufTy).Contents (Elt F) → (⟨S8x512x4096, .f32⟩ : BufTy).Contents (Elt F)),
    StableHlo.unary main_v26 main_v29 (broadcastInDim S8x512x1 ![0, 1] bcast_S8x512_S8x512x1_0_1 : (⟨S8x512, .f32⟩ : BufTy).Contents (Elt F) → (⟨S8x512x1, .f32⟩ : BufTy).Contents (Elt F)),
    StableHlo.unary main_v29 main_v30 (broadcastInDim S8x512x4096 ![0, 1, 2] bcast_S8x512x1_S8x512x4096_0_1_2 : (⟨S8x512x1, .f32⟩ : BufTy).Contents (Elt F) → (⟨S8x512x4096, .f32⟩ : BufTy).Contents (Elt F)),
    StableHlo.binary main_v28 main_v30 main_v31 (Host.divf : (⟨S8x512x4096, .f32⟩ : BufTy).Contents (Elt F) → (⟨S8x512x4096, .f32⟩ : BufTy).Contents (Elt F) → (⟨S8x512x4096, .f32⟩ : BufTy).Contents (Elt F)),
    StableHlo.reshape main_v31 main_v32 rfl shapeCasts_S8x512x4096_S8x512x8x512 ]

theorem opsNb_sub : (opsNb : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., binary_bufs_sub .., unary_bufs_sub .., unary_bufs_sub .., unary_bufs_sub .., binary_bufs_sub .., unary_bufs_sub .., nullary_bufs_sub .., binary_bufs_sub .., reshape_bufs_sub .., binary_bufs_sub .., unary_bufs_sub .., unary_bufs_sub .., binary_bufs_sub .., reshape_bufs_sub .., nullary_bufs_sub .., unary_bufs_sub .., binary_bufs_sub .., unary_bufs_sub .., unary_bufs_sub .., unary_bufs_sub .., binary_bufs_sub .., unary_bufs_sub .., nullary_bufs_sub .., binary_bufs_sub .., reshape_bufs_sub .., binary_bufs_sub .., unary_bufs_sub .., unary_bufs_sub .., binary_bufs_sub .., reshape_bufs_sub ..⟩

/-- The buffers the stretch writes, in order. -/
abbrev writesNb : List (Ref sig .tc) :=
  [main_v0, main_v1, main_c, main_v2, main_v3, main_v4, main_c_0, main_v5, main_v6, main_v7, main_v8, main_v9, main_v10, main_v11, main_cst, main_v12, main_v13, main_v14, main_v15, main_v16, main_v17, main_v18, main_c_1, main_v19, main_v20, main_v21, main_v22, main_v23, main_v24, main_v25, main_cst_2, main_v26, main_v27, main_v28, main_v29, main_v30, main_v31, main_v32]

/-- Every operation of the stretch writes a buffer of that list. -/
theorem opsNb_writes :
    (opsNb : List (HloOp τ sig (Elt F))).Forall fun op => op.writes ⊆ (writesNb.map (Proc.devRef (τ := τ) .tc)).toFinset := by
  simp only [opsNb, List.Forall, nullary_writes, unary_writes, binary_writes, reshape_writes, Finset.singleton_subset_iff,
    List.mem_toFinset, List.mem_map]
  repeat' apply And.intro
  all_goals exact ⟨_, by decide, rfl⟩

/-- A buffer outside that list holds after the stretch what it held before. -/
theorem opsNb_keeps (V : Valuation τ sig (Elt F)) {r : Ref sig .tc} (hr : r ∉ writesNb) :
    after opsNb V (Proc.devRef .tc r) = V (Proc.devRef .tc r) :=
  after_of_writes_sub opsNb V opsNb_writes hr

end Ops

/-! ## The stretch as one function of an array and an adjacency -/

section Terms

variable {F : FTy → Type} [FloatOps F] [Facts]

/-- One off the diagonal of a 512 × 512 grid, zero on it: the complement of the test "row number = column number". -/
def offDiag : IVec S512x512 1 :=
  noti (cmpi .eq (addi (iotaInDim S512x512 32 0) (broadcastInDim S512x512 ![] bcast_S_S512x512 (constantI S_ 32 0#32)))
    (iotaInDim S512x512 32 1))

/-- The mask as a bit: the adjacency entry is positive, and the entry is off the diagonal. -/
def maskI (A : IVec S8x512x512 32) : IVec S8x512x512 1 :=
  andi (cmpi .sgt A (broadcastInDim S8x512x512 ![] bcast_S_S8x512x512 (constantI S_ 32 0#32)))
    (broadcastInDim S8x512x512 ![0, 1, 2] bcast_S1x512x512_S8x512x512_0_1_2
      (broadcastInDim S1x512x512 ![1, 2] bcast_S512x512_S1x512x512_1_2 offDiag))

/-- The mask as a float. -/
def maskF (A : IVec S8x512x512 32) : FVec F S8x512x512 .f32 := uitofp .f32 (maskI A)

/-- The degrees: the mask summed along its last axis. -/
def degT (A : IVec S8x512x512 32) : FVec F S8x512 .f32 :=
  Host.reduceAdd (maskF A) (constant S_ .f32 0x00000000#32) reducesTo_S8x512x512_S8x512_d2 h_S_

/-- The neighbour mean over [b, s, d]: the mask times the features read as [b, s, d], over the degree of the row. -/
def nbT (X : FVec F S8x512x8x512 .f32) (A : IVec S8x512x512 32) : FVec F S8x512x4096 .f32 :=
  Host.divf
    (Host.dotGeneral dot_S8x512x512_S8x512x4096_S8x512x4096_2_1_1_2_0_0 none (maskF A)
      (shapeCast S8x512x4096 X shapeCasts_S8x512x8x512_S8x512x4096))
    (broadcastInDim S8x512x4096 ![0, 1, 2] bcast_S8x512x1_S8x512x4096_0_1_2
      (broadcastInDim S8x512x1 ![0, 1] bcast_S8x512_S8x512x1_0_1 (degT A)))

/-- The neighbour mean read back as [b, s, p, f]. -/
def nbT4 (X : FVec F S8x512x8x512 .f32) (A : IVec S8x512x512 32) : FVec F S8x512x8x512 .f32 :=
  shapeCast S8x512x8x512 (nbT X A) shapeCasts_S8x512x4096_S8x512x8x512

end Terms

/-! ## What the four result buffers hold after the stretch -/

section Results

variable {F : FTy → Type} [FloatOps F] [Facts]

attribute [local irreducible] Host.reduceAdd Host.divf shapeCast broadcastInDim in
set_option maxRecDepth 8192 in
/-- Branch 1's quotient buffer holds the stretch's function of argument 0 and adjacency 2: the fold of the
    operations, each result read where it is written. -/
theorem after_v17 (V : Valuation τ sig (Elt F)) :
    after opsNb V (main_v17 : DevRef τ sig) = nbT (V (main_arg0 : DevRef τ sig)) (V (main_arg2 : DevRef τ sig)) := by
  simp only [after_cons, after_nil]
  rfl

attribute [local irreducible] Host.reduceAdd Host.divf shapeCast broadcastInDim in
set_option maxRecDepth 8192 in
/-- Branch 1's quotient read as [b, s, p, f]. -/
theorem after_v18 (V : Valuation τ sig (Elt F)) :
    after opsNb V (main_v18 : DevRef τ sig) = nbT4 (V (main_arg0 : DevRef τ sig)) (V (main_arg2 : DevRef τ sig)) := by
  simp only [after_cons, after_nil]
  rfl

attribute [local irreducible] Host.reduceAdd Host.divf shapeCast broadcastInDim in
set_option maxRecDepth 8192 in
/-- Branch 2's quotient buffer holds the same function of argument 1 and adjacency 3. -/
theorem after_v31 (V : Valuation τ sig (Elt F)) :
    after opsNb V (main_v31 : DevRef τ sig) = nbT (V (main_arg1 : DevRef τ sig)) (V (main_arg3 : DevRef τ sig)) := by
  simp only [after_cons, after_nil]
  rfl

attribute [local irreducible] Host.reduceAdd Host.divf shapeCast broadcastInDim in
set_option maxRecDepth 8192 in
/-- Branch 2's quotient read as [b, s, p, f]. -/
theorem after_v32 (V : Valuation τ sig (Elt F)) :
    after opsNb V (main_v32 : DevRef τ sig) = nbT4 (V (main_arg1 : DevRef τ sig)) (V (main_arg3 : DevRef τ sig)) := by
  simp only [after_cons, after_nil]
  rfl

end Results

/-! ## The function at an index, over the extended reals -/

section Values

variable [Facts]

/-- Off the diagonal the bit is one, on it zero: two coordinates below 512 are equal as words exactly when they are
    equal as numbers. -/
theorem offDiag_apply (i k : Fin 512) : offDiag (ix2 i k) = if i.val = k.val then 0#1 else 1#1 := by
  have hi := i.isLt
  have hk := k.isLt
  show ~~~ (BitVec.ofBool (BitVec.ofNat 32 i.val + 0#32 == BitVec.ofNat 32 k.val)) = _
  by_cases h : i.val = k.val
  · simp [h]
  · have hne : BitVec.ofNat 32 i.val ≠ BitVec.ofNat 32 k.val := by
      intro e
      have := congrArg BitVec.toNat e
      simp only [BitVec.toNat_ofNat] at this
      omega
    have hb : (BitVec.ofNat 32 i.val == BitVec.ofNat 32 k.val) = false := beq_eq_false_iff_ne.mpr hne
    simp [h, hb]

/-- The float mask at (b, i, k) is the mask entry of the adjacency word there. -/
theorem maskF_apply (A : IVec S8x512x512 32) (b : Fin 8) (i k : Fin 512) :
    maskF (F := Ideal) A (ix3 b i k) = Spec.mskv (A (ix3 b i k)) i.val k.val := by
  have e1 : broadcastInDim S8x512x512 ![0, 1, 2] bcast_S1x512x512_S8x512x512_0_1_2
      (broadcastInDim S1x512x512 ![1, 2] bcast_S512x512_S1x512x512_1_2 offDiag) (ix3 b i k) = offDiag (ix2 i k) := by
    refine (broadcastInDim_apply _ _ _ (ix3 b i k) (ix3 (0 : Fin 1) i k) (fun a => ?_)).trans
      (broadcastInDim_apply _ _ _ (ix3 (0 : Fin 1) i k) (ix2 i k) (fun a => ?_))
    · match a with
      | ⟨0, _⟩ => rfl
      | ⟨1, _⟩ => rfl
      | ⟨2, _⟩ => rfl
    · match a with
      | ⟨0, _⟩ => rfl
      | ⟨1, _⟩ => rfl
  show (((IntOp.andi (IntOp.cmpi .sgt (A (ix3 b i k)) 0#32) (broadcastInDim S8x512x512 ![0, 1, 2] bcast_S1x512x512_S8x512x512_0_1_2
      (broadcastInDim S1x512x512 ![1, 2] bcast_S512x512_S1x512x512_1_2 offDiag) (ix3 b i k))).toNat : ℝ) : EReal) = _
  rw [e1, offDiag_apply]
  unfold Spec.mskv IntOp.andi IntOp.cmpi
  by_cases h1 : 0 < (A (ix3 b i k)).toInt <;> by_cases h2 : i.val = k.val <;> simp [h1, h2, BitVec.slt]

/-- The degree of row (b, i): the mask entries of that row summed. -/
theorem degT_apply (A : IVec S8x512x512 32) (b : Fin 8) (i : Fin 512) :
    degT (F := Ideal) A (ix2 b i) = Spec.deg A b i := by
  have h' : S8x512x512.ReducesTo [2] S8x512 := reducesTo_S8x512x512_S8x512_d2
  have h : S8x512x512.Reduces [2] S8x512 := ⟨h'.1, by decide, h'.2⟩
  show Ideal.hostReduceAdd h' (maskF (F := Ideal) A) (Ideal.ofBits .f32 0x00000000#32) (ix2 b i) = _
  rw [Ideal.hostReduceAdd_single h' h, Ideal.ofBits_zero_f32, zero_add]
  show _ = ∑ j : Fin 512, Spec.mskv (A (ix3 b i j)) i.val j.val
  refine Finset.sum_congr rfl fun k _ => ?_
  have e : h.lift (ix2 b i) k = ix3 b i k := by
    funext a
    apply Fin.ext
    match a with
    | ⟨0, _⟩ => rfl
    | ⟨1, _⟩ => rfl
    | ⟨2, _⟩ => rfl
  rw [e]
  exact maskF_apply A b i k

/-- The neighbour mean at (b, i, d): the masked sum of the features of batch b at column d, over the degree of row
    (b, i). The product's contraction runs over the row's 512 neighbours; the features read as [b, s, d] are the
    array at (b, s, d / 512, d % 512). -/
theorem nbT_apply (X : FVec Ideal S8x512x8x512 .f32) (A : IVec S8x512x512 32) (b : Fin 8) (i : Fin 512) (d : Fin 4096) :
    nbT (F := Ideal) X A (ix3 b i d) = Spec.nbA (Spec.flat X) A (ix3 b i d) := by
  show Ideal.div
      (Host.dotGeneral dot_S8x512x512_S8x512x4096_S8x512x4096_2_1_1_2_0_0 none (maskF (F := Ideal) A)
        (shapeCast S8x512x4096 X shapeCasts_S8x512x8x512_S8x512x4096) (ix3 b i d))
      (broadcastInDim S8x512x4096 ![0, 1, 2] bcast_S8x512x1_S8x512x4096_0_1_2
        (broadcastInDim S8x512x1 ![0, 1] bcast_S8x512_S8x512x1_0_1 (degT (F := Ideal) A)) (ix3 b i d))
    = Ideal.div (∑ j : Fin 512, Spec.msk A b i j * Spec.flat X (ix3 b j d)) (Spec.deg A b i)
  have eN : Host.dotGeneral dot_S8x512x512_S8x512x4096_S8x512x4096_2_1_1_2_0_0 none (maskF (F := Ideal) A)
        (shapeCast S8x512x4096 X shapeCasts_S8x512x8x512_S8x512x4096) (ix3 b i d)
      = ∑ j : Fin 512, Spec.msk A b i j * Spec.flat X (ix3 b j d) := by
    refine (StackMember.dotGeneral_stack_apply dot_S8x512x512_S8x512x4096_S8x512x4096_2_1_1_2_0_0_wf none (maskF (F := Ideal) A)
      (shapeCast S8x512x4096 X shapeCasts_S8x512x8x512_S8x512x4096) b i d).trans ?_
    refine Finset.sum_congr rfl fun j _ => ?_
    rw [maskF_apply]
    refine congrArg (Spec.mskv (A (ix3 b i j)) i.val j.val * ·) ?_
    have hd := d.isLt
    exact shapeCast_apply X shapeCasts_S8x512x8x512_S8x512x4096 (ix3 b j d)
      (ix4 b j ⟨d.val / 512, by omega⟩ ⟨d.val % 512, Nat.mod_lt _ (by decide)⟩) (by
        rw [Shape.rowMajor_val_four, Shape.rowMajor_val_three]
        show ((b.val * 512 + j.val) * 8 + d.val / 512) * 512 + d.val % 512 = (b.val * 512 + j.val) * 4096 + d.val
        omega)
  have eD : broadcastInDim S8x512x4096 ![0, 1, 2] bcast_S8x512x1_S8x512x4096_0_1_2
        (broadcastInDim S8x512x1 ![0, 1] bcast_S8x512_S8x512x1_0_1 (degT (F := Ideal) A)) (ix3 b i d) = Spec.deg A b i := by
    refine ((broadcastInDim_apply _ _ _ (ix3 b i d) (ix3 b i (0 : Fin 1)) (fun a => ?_)).trans
      (broadcastInDim_apply _ _ _ (ix3 b i (0 : Fin 1)) (ix2 b i) (fun a => ?_))).trans (degT_apply A b i)
    · match a with
      | ⟨0, _⟩ => rfl
      | ⟨1, _⟩ => rfl
      | ⟨2, _⟩ => rfl
    · match a with
      | ⟨0, _⟩ => rfl
      | ⟨1, _⟩ => rfl
  rw [eN, eD]

/-- Read back as [b, s, p, f], the neighbour mean at (b, s, p, f) is the one at (b, s, p · 512 + f). -/
theorem nbT4_apply (X : FVec Ideal S8x512x8x512 .f32) (A : IVec S8x512x512 32) (y : S8x512x8x512.Idx) :
    nbT4 (F := Ideal) X A y = Spec.nbA (Spec.flat X) A (ix3 (y 0) (y 1) ⟨(y 2).val * 512 + (y 3).val, by
      have h2 : (y 2).val < 8 := (y 2).isLt
      have h3 : (y 3).val < 512 := (y 3).isLt
      omega⟩) := by
  obtain ⟨b, s, p, f, rfl⟩ : ∃ (b : Fin 8) (s : Fin 512) (p : Fin 8) (f : Fin 512), y = ix4 b s p f :=
    ⟨y 0, y 1, y 2, y 3, eq_ix4 y⟩
  have hp := p.isLt
  have hf := f.isLt
  refine (shapeCast_apply (nbT (F := Ideal) X A) shapeCasts_S8x512x4096_S8x512x8x512 (ix4 b s p f)
    (ix3 b s ⟨p.val * 512 + f.val, by omega⟩) (by
      rw [Shape.rowMajor_val_four, Shape.rowMajor_val_three]
      show (b.val * 512 + s.val) * 4096 + (p.val * 512 + f.val) = ((b.val * 512 + s.val) * 8 + p.val) * 512 + f.val
      omega)).trans ?_
  exact nbT_apply X A b s ⟨p.val * 512 + f.val, by omega⟩

end Values

/-! ## The stretch's results are the neighbour means -/

section Claims

variable [Facts]

/-- Branch 1: the quotient buffer is the neighbour mean of argument 0, read as [b, s, d], under adjacency 2. -/
theorem nb_v17 (V : Valuation τ sig (Elt Ideal)) :
    after (opsNb (F := Ideal)) V (main_v17 : DevRef τ sig)
      = Spec.nbA (Spec.flat (V (main_arg0 : DevRef τ sig))) (V (main_arg2 : DevRef τ sig)) := by
  rw [after_v17]
  funext y
  obtain ⟨b, i, d, rfl⟩ : ∃ (b : Fin 8) (i : Fin 512) (d : Fin 4096), y = ix3 b i d := ⟨y 0, y 1, y 2, eq_ix3 y⟩
  exact nbT_apply _ _ b i d

/-- Branch 2: the quotient buffer is the neighbour mean of argument 1, read as [b, s, d], under adjacency 3. -/
theorem nb_v31 (V : Valuation τ sig (Elt Ideal)) :
    after (opsNb (F := Ideal)) V (main_v31 : DevRef τ sig)
      = Spec.nbA (Spec.flat (V (main_arg1 : DevRef τ sig))) (V (main_arg3 : DevRef τ sig)) := by
  rw [after_v31]
  funext y
  obtain ⟨b, i, d, rfl⟩ : ∃ (b : Fin 8) (i : Fin 512) (d : Fin 4096), y = ix3 b i d := ⟨y 0, y 1, y 2, eq_ix3 y⟩
  exact nbT_apply _ _ b i d

/-- Branch 1's neighbour mean read as [b, s, p, f]: the entry at (b, s, p · 512 + f). -/
theorem nb_v18 (V : Valuation τ sig (Elt Ideal)) :
    after (opsNb (F := Ideal)) V (main_v18 : DevRef τ sig)
      = fun y : Spec.S4x.Idx =>
          Spec.nbA (Spec.flat (V (main_arg0 : DevRef τ sig))) (V (main_arg2 : DevRef τ sig))
            (ix3 (y 0) (y 1) ⟨(y 2).val * 512 + (y 3).val, by
              have h2 : (y 2).val < 8 := (y 2).isLt
              have h3 : (y 3).val < 512 := (y 3).isLt
              omega⟩) := by
  rw [after_v18]
  funext y
  exact nbT4_apply _ _ y

/-- Branch 2's neighbour mean read as [b, s, p, f]: the entry at (b, s, p · 512 + f). -/
theorem nb_v32 (V : Valuation τ sig (Elt Ideal)) :
    after (opsNb (F := Ideal)) V (main_v32 : DevRef τ sig)
      = fun y : Spec.S4x.Idx =>
          Spec.nbA (Spec.flat (V (main_arg1 : DevRef τ sig))) (V (main_arg3 : DevRef τ sig))
            (ix3 (y 0) (y 1) ⟨(y 2).val * 512 + (y 3).val, by
              have h2 : (y 2).val < 8 := (y 2).isLt
              have h3 : (y 3).val < 512 := (y 3).isLt
              omega⟩) := by
  rw [after_v32]
  funext y
  exact nbT4_apply _ _ y

end Claims

end Cert.ReferenceIdeal.RefNb

end
-- ==== Proof.RefAtt.lean ====
/-
  The cosine-attention stretch of the reference: the two feature arrays flattened to [8, 512, 4096], their row
  norms, the batched inner products of rows, the quotient by the clipped product of norms, the two softmaxes (along
  each of the two node axes), the two attention-weighted sums and the two residuals, each also read back in the
  four-dimensional layout.

  The stretch is first named as a composition of array-level functions (flatten, row norm, similarity, row maximum,
  exponential, softmax, transpose, weighted sum); the buffers the stretch ends at are those compositions by
  unfolding the run. Each function is then read at an index — a sum over the contracted or reduced coordinate, a
  maximum folded over it, a quotient of extended reals — and the two residuals are the stated ones term by term.
-/
import proofs.«404490_j9337258902039_3_alg».proof.Proof.Gen.ReferenceIdeal
import proofs.«404490_j9337258902039_3_alg».proof.Proof.Spec
import Idealize.ShloMosaic.Lib.StableHlo.Run
import Idealize.ShloMosaic.Lib.ValueIdx
import Idealize.ShloMosaic.Lib.IdealHost
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.RefAtt

open Idealize.ShloMosaic Idealize.ShloMosaic.ValueIdx Idealize.SL.Sem
open Idealize.ShloMosaic.StableHlo
open Cert.ReferenceIdeal Cert.ReferenceIdeal.Facts₀
open scoped BigOperators

variable {F : FTy → Type} [FloatOps F]

/-- The operations from the first flattening of the features to the second residual's four-dimensional
    reading, in the program's order; each of the two row-norm functions contributes its four operations
    (the squares, the zero, the row sums, the square roots) in place. -/
abbrev opsAtt : List (HloOp τ sig (Elt F)) :=
  [ StableHlo.reshape main_arg0 main_v33 rfl shapeCasts_S8x512x8x512_S8x512x4096,
    StableHlo.reshape main_arg1 main_v34 rfl shapeCasts_S8x512x8x512_S8x512x4096,
    StableHlo.TRef.binary (StableHlo.TRef.of main_v33 : StableHlo.TRef sig ⟨S8x512x4096, .f32⟩) (StableHlo.TRef.of main_v33 : StableHlo.TRef sig ⟨S8x512x4096, .f32⟩) main_call0.v0 mulf,
    StableHlo.TRef.nullary main_call0.cst (constant S_ .f32 0x00000000#32),
    StableHlo.TRef.binary main_call0.v0 main_call0.cst main_call0.v1 (fun x v => Host.reduceAdd x v reducesTo_S8x512x4096_S8x512_d2 h_S_),
    StableHlo.TRef.unary main_call0.v1 main_call0.v2 Host.sqrt,
    StableHlo.TRef.binary (StableHlo.TRef.of main_v34 : StableHlo.TRef sig ⟨S8x512x4096, .f32⟩) (StableHlo.TRef.of main_v34 : StableHlo.TRef sig ⟨S8x512x4096, .f32⟩) main_call1.v0 mulf,
    StableHlo.TRef.nullary main_call1.cst (constant S_ .f32 0x00000000#32),
    StableHlo.TRef.binary main_call1.v0 main_call1.cst main_call1.v1 (fun x v => Host.reduceAdd x v reducesTo_S8x512x4096_S8x512_d2 h_S_),
    StableHlo.TRef.unary main_call1.v1 main_call1.v2 Host.sqrt,
    StableHlo.binary main_v33 main_v34 main_v37 ((fun l r => Host.dotGeneral dot_S8x512x4096_S8x512x4096_S8x512x512_2_2_1_1_0_0 none l r) : (⟨S8x512x4096, .f32⟩ : BufTy).Contents (Elt F) → (⟨S8x512x4096, .f32⟩ : BufTy).Contents (Elt F) → (⟨S8x512x512, .f32⟩ : BufTy).Contents (Elt F)),
    StableHlo.unary main_v35 main_v38 (broadcastInDim S8x512x1 ![0, 1] bcast_S8x512_S8x512x1_0_1 : (⟨S8x512, .f32⟩ : BufTy).Contents (Elt F) → (⟨S8x512x1, .f32⟩ : BufTy).Contents (Elt F)),
    StableHlo.unary main_v36 main_v39 (broadcastInDim S8x1x512 ![0, 2] bcast_S8x512_S8x1x512_0_2 : (⟨S8x512, .f32⟩ : BufTy).Contents (Elt F) → (⟨S8x1x512, .f32⟩ : BufTy).Contents (Elt F)),
    StableHlo.unary main_v38 main_v40 (broadcastInDim S8x512x512 ![0, 1, 2] bcast_S8x512x1_S8x512x512_0_1_2 : (⟨S8x512x1, .f32⟩ : BufTy).Contents (Elt F) → (⟨S8x512x512, .f32⟩ : BufTy).Contents (Elt F)),
    StableHlo.unary main_v39 main_v41 (broadcastInDim S8x512x512 ![0, 1, 2] bcast_S8x1x512_S8x512x512_0_1_2 : (⟨S8x1x512, .f32⟩ : BufTy).Contents (Elt F) → (⟨S8x512x512, .f32⟩ : BufTy).Contents (Elt F)),
    StableHlo.binary main_v40 main_v41 main_v42 (mulf : (⟨S8x512x512, .f32⟩ : BufTy).Contents (Elt F) → (⟨S8x512x512, .f32⟩ : BufTy).Contents (Elt F) → (⟨S8x512x512, .f32⟩ : BufTy).Contents (Elt F)),
    StableHlo.nullary main_cst_3 (constant S_ .f32 0x358637BD#32),
    StableHlo.unary main_cst_3 main_v43 (broadcastInDim S8x512x512 ![] bcast_S_S8x512x512 : (⟨S_, .f32⟩ : BufTy).Contents (Elt F) → (⟨S8x512x512, .f32⟩ : BufTy).Contents (Elt F)),
    StableHlo.binary main_v42 main_v43 main_v44 (maximumf : (⟨S8x512x512, .f32⟩ : BufTy).Contents (Elt F) → (⟨S8x512x512, .f32⟩ : BufTy).Contents (Elt F) → (⟨S8x512x512, .f32⟩ : BufTy).Contents (Elt F)),
    StableHlo.binary main_v37 main_v44 main_v45 (Host.divf : (⟨S8x512x512, .f32⟩ : BufTy).Contents (Elt F) → (⟨S8x512x512, .f32⟩ : BufTy).Contents (Elt F) → (⟨S8x512x512, .f32⟩ : BufTy).Contents (Elt F)),
    StableHlo.nullary main_cst_4 (constant S_ .f32 0xFF800000#32),
    StableHlo.binary main_v45 main_cst_4 main_v46 ((fun x v => Host.reduce FloatOps.maximumf x v reducesTo_S8x512x512_S8x512_d2 h_S_) : (⟨S8x512x512, .f32⟩ : BufTy).Contents (Elt F) → (⟨S_, .f32⟩ : BufTy).Contents (Elt F) → (⟨S8x512, .f32⟩ : BufTy).Contents (Elt F)),
    StableHlo.nullary main_cst_5 (constant S_ .f32 0xFF800000#32),
    StableHlo.unary main_cst_5 main_v47 (broadcastInDim S8x512 ![] bcast_S_S8x512 : (⟨S_, .f32⟩ : BufTy).Contents (Elt F) → (⟨S8x512, .f32⟩ : BufTy).Contents (Elt F)),
    StableHlo.binary main_v47 main_v46 main_v48 (maximumf : (⟨S8x512, .f32⟩ : BufTy).Contents (Elt F) → (⟨S8x512, .f32⟩ : BufTy).Contents (Elt F) → (⟨S8x512, .f32⟩ : BufTy).Contents (Elt F)),
    StableHlo.unary main_v48 main_v49 (broadcastInDim S8x512x1 ![0, 1] bcast_S8x512_S8x512x1_0_1 : (⟨S8x512, .f32⟩ : BufTy).Contents (Elt F) → (⟨S8x512x1, .f32⟩ : BufTy).Contents (Elt F)),
    StableHlo.unary main_v49 main_v50 (broadcastInDim S8x512x512 ![0, 1, 2] bcast_S8x512x1_S8x512x512_0_1_2 : (⟨S8x512x1, .f32⟩ : BufTy).Contents (Elt F) → (⟨S8x512x512, .f32⟩ : BufTy).Contents (Elt F)),
    StableHlo.binary main_v45 main_v50 main_v51 (subf : (⟨S8x512x512, .f32⟩ : BufTy).Contents (Elt F) → (⟨S8x512x512, .f32⟩ : BufTy).Contents (Elt F) → (⟨S8x512x512, .f32⟩ : BufTy).Contents (Elt F)),
    StableHlo.unary main_v51 main_v52 (Host.exp : (⟨S8x512x512, .f32⟩ : BufTy).Contents (Elt F) → (⟨S8x512x512, .f32⟩ : BufTy).Contents (Elt F)),
    StableHlo.nullary main_cst_6 (constant S_ .f32 0x00000000#32),
    StableHlo.binary main_v52 main_cst_6 main_v53 ((fun x v => Host.reduceAdd x v reducesTo_S8x512x512_S8x512_d2 h_S_) : (⟨S8x512x512, .f32⟩ : BufTy).Contents (Elt F) → (⟨S_, .f32⟩ : BufTy).Contents (Elt F) → (⟨S8x512, .f32⟩ : BufTy).Contents (Elt F)),
    StableHlo.unary main_v53 main_v54 (broadcastInDim S8x512x1 ![0, 1] bcast_S8x512_S8x512x1_0_1 : (⟨S8x512, .f32⟩ : BufTy).Contents (Elt F) → (⟨S8x512x1, .f32⟩ : BufTy).Contents (Elt F)),
    StableHlo.unary main_v54 main_v55 (broadcastInDim S8x512x512 ![0, 1, 2] bcast_S8x512x1_S8x512x512_0_1_2 : (⟨S8x512x1, .f32⟩ : BufTy).Contents (Elt F) → (⟨S8x512x512, .f32⟩ : BufTy).Contents (Elt F)),
    StableHlo.binary main_v52 main_v55 main_v56 (Host.divf : (⟨S8x512x512, .f32⟩ : BufTy).Contents (Elt F) → (⟨S8x512x512, .f32⟩ : BufTy).Contents (Elt F) → (⟨S8x512x512, .f32⟩ : BufTy).Contents (Elt F)),
    StableHlo.unary main_v45 main_v57 ((transpose S8x512x512 [0, 2, 1] · transposes_S8x512x512_S8x512x512_0_2_1) : (⟨S8x512x512, .f32⟩ : BufTy).Contents (Elt F) → (⟨S8x512x512, .f32⟩ : BufTy).Contents (Elt F)),
    StableHlo.nullary main_cst_7 (constant S_ .f32 0xFF800000#32),
    StableHlo.binary main_v57 main_cst_7 main_v58 ((fun x v => Host.reduce FloatOps.maximumf x v reducesTo_S8x512x512_S8x512_d2 h_S_) : (⟨S8x512x512, .f32⟩ : BufTy).Contents (Elt F) → (⟨S_, .f32⟩ : BufTy).Contents (Elt F) → (⟨S8x512, .f32⟩ : BufTy).Contents (Elt F)),
    StableHlo.nullary main_cst_8 (constant S_ .f32 0xFF800000#32),
    StableHlo.unary main_cst_8 main_v59 (broadcastInDim S8x512 ![] bcast_S_S8x512 : (⟨S_, .f32⟩ : BufTy).Contents (Elt F) → (⟨S8x512, .f32⟩ : BufTy).Contents (Elt F)),
    StableHlo.binary main_v59 main_v58 main_v60 (maximumf : (⟨S8x512, .f32⟩ : BufTy).Contents (Elt F) → (⟨S8x512, .f32⟩ : BufTy).Contents (Elt F) → (⟨S8x512, .f32⟩ : BufTy).Contents (Elt F)),
    StableHlo.unary main_v60 main_v61 (broadcastInDim S8x512x1 ![0, 1] bcast_S8x512_S8x512x1_0_1 : (⟨S8x512, .f32⟩ : BufTy).Contents (Elt F) → (⟨S8x512x1, .f32⟩ : BufTy).Contents (Elt F)),
    StableHlo.unary main_v61 main_v62 (broadcastInDim S8x512x512 ![0, 1, 2] bcast_S8x512x1_S8x512x512_0_1_2 : (⟨S8x512x1, .f32⟩ : BufTy).Contents (Elt F) → (⟨S8x512x512, .f32⟩ : BufTy).Contents (Elt F)),
    StableHlo.binary main_v57 main_v62 main_v63 (subf : (⟨S8x512x512, .f32⟩ : BufTy).Contents (Elt F) → (⟨S8x512x512, .f32⟩ : BufTy).Contents (Elt F) → (⟨S8x512x512, .f32⟩ : BufTy).Contents (Elt F)),
    StableHlo.unary main_v63 main_v64 (Host.exp : (⟨S8x512x512, .f32⟩ : BufTy).Contents (Elt F) → (⟨S8x512x512, .f32⟩ : BufTy).Contents (Elt F)),
    StableHlo.nullary main_cst_9 (constant S_ .f32 0x00000000#32),
    StableHlo.binary main_v64 main_cst_9 main_v65 ((fun x v => Host.reduceAdd x v reducesTo_S8x512x512_S8x512_d2 h_S_) : (⟨S8x512x512, .f32⟩ : BufTy).Contents (Elt F) → (⟨S_, .f32⟩ : BufTy).Contents (Elt F) → (⟨S8x512, .f32⟩ : BufTy).Contents (Elt F)),
    StableHlo.unary main_v65 main_v66 (broadcastInDim S8x512x1 ![0, 1] bcast_S8x512_S8x512x1_0_1 : (⟨S8x512, .f32⟩ : BufTy).Contents (Elt F) → (⟨S8x512x1, .f32⟩ : BufTy).Contents (Elt F)),
    StableHlo.unary main_v66 main_v67 (broadcastInDim S8x512x512 ![0, 1, 2] bcast_S8x512x1_S8x512x512_0_1_2 : (⟨S8x512x1, .f32⟩ : BufTy).Contents (Elt F) → (⟨S8x512x512, .f32⟩ : BufTy).Contents (Elt F)),
    StableHlo.binary main_v64 main_v67 main_v68 (Host.divf : (⟨S8x512x512, .f32⟩ : BufTy).Contents (Elt F) → (⟨S8x512x512, .f32⟩ : BufTy).Contents (Elt F) → (⟨S8x512x512, .f32⟩ : BufTy).Contents (Elt F)),
    StableHlo.binary main_v56 main_v34 main_v69 ((fun l r => Host.dotGeneral dot_S8x512x512_S8x512x4096_S8x512x4096_2_1_1_2_0_0 none l r) : (⟨S8x512x512, .f32⟩ : BufTy).Contents (Elt F) → (⟨S8x512x4096, .f32⟩ : BufTy).Contents (Elt F) → (⟨S8x512x4096, .f32⟩ : BufTy).Contents (Elt F)),
    StableHlo.binary main_v33 main_v69 main_v70 (subf : (⟨S8x512x4096, .f32⟩ : BufTy).Contents (Elt F) → (⟨S8x512x4096, .f32⟩ : BufTy).Contents (Elt F) → (⟨S8x512x4096, .f32⟩ : BufTy).Contents (Elt F)),
    StableHlo.reshape main_v70 main_v71 rfl shapeCasts_S8x512x4096_S8x512x8x512,
    StableHlo.binary main_v68 main_v33 main_v72 ((fun l r => Host.dotGeneral dot_S8x512x512_S8x512x4096_S8x512x4096_2_1_1_2_0_0 none l r) : (⟨S8x512x512, .f32⟩ : BufTy).Contents (Elt F) → (⟨S8x512x4096, .f32⟩ : BufTy).Contents (Elt F) → (⟨S8x512x4096, .f32⟩ : BufTy).Contents (Elt F)),
    StableHlo.binary main_v34 main_v72 main_v73 (subf : (⟨S8x512x4096, .f32⟩ : BufTy).Contents (Elt F) → (⟨S8x512x4096, .f32⟩ : BufTy).Contents (Elt F) → (⟨S8x512x4096, .f32⟩ : BufTy).Contents (Elt F)),
    StableHlo.reshape main_v73 main_v74 rfl shapeCasts_S8x512x4096_S8x512x8x512 ]

/-- Every operation of the stretch touches TensorCore buffers only. -/
theorem opsAtt_sub : (opsAtt : List (HloOp τ sig (Elt F))).Forall fun op => op.bufs ⊆ StableHlo.tcRefs τ sig :=
  ⟨StableHlo.reshape_bufs_sub .., StableHlo.reshape_bufs_sub .., StableHlo.binary_bufs_sub .., StableHlo.nullary_bufs_sub .., StableHlo.binary_bufs_sub ..,
    StableHlo.unary_bufs_sub .., StableHlo.binary_bufs_sub .., StableHlo.nullary_bufs_sub .., StableHlo.binary_bufs_sub .., StableHlo.unary_bufs_sub ..,
    StableHlo.binary_bufs_sub .., StableHlo.unary_bufs_sub .., StableHlo.unary_bufs_sub .., StableHlo.unary_bufs_sub .., StableHlo.unary_bufs_sub ..,
    StableHlo.binary_bufs_sub .., StableHlo.nullary_bufs_sub .., StableHlo.unary_bufs_sub .., StableHlo.binary_bufs_sub .., StableHlo.binary_bufs_sub ..,
    StableHlo.nullary_bufs_sub .., StableHlo.binary_bufs_sub .., StableHlo.nullary_bufs_sub .., StableHlo.unary_bufs_sub .., StableHlo.binary_bufs_sub ..,
    StableHlo.unary_bufs_sub .., StableHlo.unary_bufs_sub .., StableHlo.binary_bufs_sub .., StableHlo.unary_bufs_sub .., StableHlo.nullary_bufs_sub ..,
    StableHlo.binary_bufs_sub .., StableHlo.unary_bufs_sub .., StableHlo.unary_bufs_sub .., StableHlo.binary_bufs_sub .., StableHlo.unary_bufs_sub ..,
    StableHlo.nullary_bufs_sub .., StableHlo.binary_bufs_sub .., StableHlo.nullary_bufs_sub .., StableHlo.unary_bufs_sub .., StableHlo.binary_bufs_sub ..,
    StableHlo.unary_bufs_sub .., StableHlo.unary_bufs_sub .., StableHlo.binary_bufs_sub .., StableHlo.unary_bufs_sub .., StableHlo.nullary_bufs_sub ..,
    StableHlo.binary_bufs_sub .., StableHlo.unary_bufs_sub .., StableHlo.unary_bufs_sub .., StableHlo.binary_bufs_sub .., StableHlo.binary_bufs_sub ..,
    StableHlo.binary_bufs_sub .., StableHlo.reshape_bufs_sub .., StableHlo.binary_bufs_sub .., StableHlo.binary_bufs_sub .., StableHlo.reshape_bufs_sub ..⟩

/-! ## The stretch as array-level functions -/

abbrev A4 : Type := FVec Ideal S8x512x8x512 .f32
abbrev A3 : Type := FVec Ideal S8x512x4096 .f32
abbrev M3 : Type := FVec Ideal S8x512x512 .f32
abbrev R2 : Type := FVec Ideal S8x512 .f32

/-- The features read as [b, s, d]. -/
def flatT (x : A4) : A3 := shapeCast S8x512x4096 x shapeCasts_S8x512x8x512_S8x512x4096

/-- [b, s, d] read back as [b, s, p, f]. -/
def unflatT (u : A3) : A4 := shapeCast S8x512x8x512 u shapeCasts_S8x512x4096_S8x512x8x512

/-- The row norms: the square root of the row sums of squares. -/
def nrmT (x : A3) : R2 :=
  Host.sqrt (Host.reduceAdd (mulf x x) (constant S_ .f32 0x00000000#32) reducesTo_S8x512x4096_S8x512_d2 h_S_)

/-- The inner products of rows over the clipped products of the row norms. -/
def simT (x1 x2 : A3) : M3 :=
  Host.divf (Host.dotGeneral dot_S8x512x4096_S8x512x4096_S8x512x512_2_2_1_1_0_0 none x1 x2)
    (maximumf
      (mulf
        (broadcastInDim S8x512x512 ![0, 1, 2] bcast_S8x512x1_S8x512x512_0_1_2
          (broadcastInDim S8x512x1 ![0, 1] bcast_S8x512_S8x512x1_0_1 (nrmT x1)))
        (broadcastInDim S8x512x512 ![0, 1, 2] bcast_S8x1x512_S8x512x512_0_1_2
          (broadcastInDim S8x1x512 ![0, 2] bcast_S8x512_S8x1x512_0_2 (nrmT x2))))
      (broadcastInDim S8x512x512 ![] bcast_S_S8x512x512 (constant S_ .f32 0x358637BD#32)))

/-- The maximum along the last axis, from minus infinity, and once more against minus infinity. -/
def rmaxT (s : M3) : R2 :=
  maximumf (broadcastInDim S8x512 ![] bcast_S_S8x512 (constant S_ .f32 0xFF800000#32))
    (Host.reduce FloatOps.maximumf s (constant S_ .f32 0xFF800000#32) reducesTo_S8x512x512_S8x512_d2 h_S_)

/-- The exponentials of the entries less their row's maximum. -/
def expT (s : M3) : M3 :=
  Host.exp (subf s
    (broadcastInDim S8x512x512 ![0, 1, 2] bcast_S8x512x1_S8x512x512_0_1_2
      (broadcastInDim S8x512x1 ![0, 1] bcast_S8x512_S8x512x1_0_1 (rmaxT s))))

/-- The softmax along the last axis. -/
def smT (s : M3) : M3 :=
  Host.divf (expT s)
    (broadcastInDim S8x512x512 ![0, 1, 2] bcast_S8x512x1_S8x512x512_0_1_2
      (broadcastInDim S8x512x1 ![0, 1] bcast_S8x512_S8x512x1_0_1
        (Host.reduceAdd (expT s) (constant S_ .f32 0x00000000#32) reducesTo_S8x512x512_S8x512_d2 h_S_)))

/-- Each matrix of the stack transposed. -/
def trT (s : M3) : M3 := transpose S8x512x512 [0, 2, 1] s transposes_S8x512x512_S8x512x512_0_2_1

/-- The weighted sums of rows. -/
def mixT (a : M3) (x : A3) : A3 :=
  Host.dotGeneral dot_S8x512x512_S8x512x4096_S8x512x4096_2_1_1_2_0_0 none a x

def mu1T (x1 x2 : A3) : A3 := subf x1 (mixT (smT (simT x1 x2)) x2)
def mu2T (x1 x2 : A3) : A3 := subf x2 (mixT (smT (trT (simT x1 x2))) x1)

/-! ## The run of the stretch, buffer by buffer -/

set_option maxRecDepth 8192 in
set_option maxHeartbeats 1000000 in
theorem raw70 (V : Valuation τ sig (Elt Ideal)) :
    after (opsAtt (F := Ideal)) V (Proc.devRef .tc main_v70)
      = mu1T (flatT (V (Proc.devRef .tc main_arg0))) (flatT (V (Proc.devRef .tc main_arg1))) := by
  after_results_simp
  rfl

set_option maxRecDepth 8192 in
set_option maxHeartbeats 1000000 in
theorem raw73 (V : Valuation τ sig (Elt Ideal)) :
    after (opsAtt (F := Ideal)) V (Proc.devRef .tc main_v73)
      = mu2T (flatT (V (Proc.devRef .tc main_arg0))) (flatT (V (Proc.devRef .tc main_arg1))) := by
  after_results_simp
  rfl

set_option maxRecDepth 8192 in
set_option maxHeartbeats 1000000 in
theorem raw71 (V : Valuation τ sig (Elt Ideal)) :
    after (opsAtt (F := Ideal)) V (Proc.devRef .tc main_v71)
      = unflatT (mu1T (flatT (V (Proc.devRef .tc main_arg0))) (flatT (V (Proc.devRef .tc main_arg1)))) := by
  after_results_simp
  rfl

set_option maxRecDepth 8192 in
set_option maxHeartbeats 1000000 in
theorem raw74 (V : Valuation τ sig (Elt Ideal)) :
    after (opsAtt (F := Ideal)) V (Proc.devRef .tc main_v74)
      = unflatT (mu2T (flatT (V (Proc.devRef .tc main_arg0))) (flatT (V (Proc.devRef .tc main_arg1)))) := by
  after_results_simp
  rfl

/-! ## The pieces at an index -/

theorem flatT_eq (x : A4) : flatT x = Spec.flat x := by
  funext y
  unfold flatT Spec.flat
  refine shapeCast_apply x _ y _ ?_
  rw [Shape.rowMajor_val_four, Shape.rowMajor_val_three]
  have h2 : (y 2).val < 4096 := (y 2).isLt
  show (((y 0).val * 512 + (y 1).val) * 8 + (y 2).val / 512) * 512 + (y 2).val % 512
      = ((y 0).val * 512 + (y 1).val) * 4096 + (y 2).val
  omega

theorem unflatT_apply (u : A3) (y : S8x512x8x512.Idx) :
    unflatT u y = u (ix3 (y 0) (y 1) ⟨(y 2).val * 512 + (y 3).val, by
      have h2 : (y 2).val < 8 := (y 2).isLt
      have h3 : (y 3).val < 512 := (y 3).isLt
      omega⟩) := by
  unfold unflatT
  refine shapeCast_apply u _ y _ ?_
  rw [Shape.rowMajor_val_three, Shape.rowMajor_val_four]
  show ((y 0).val * 512 + (y 1).val) * 4096 + ((y 2).val * 512 + (y 3).val)
      = (((y 0).val * 512 + (y 1).val) * 8 + (y 2).val) * 512 + (y 3).val
  omega

theorem red3 : S8x512x4096.Reduces [2] S8x512 := by decide
theorem red3m : S8x512x512.Reduces [2] S8x512 := by decide

/-- The index over (b, i) with d inserted on the last axis. -/
theorem lift3 (b : Fin 8) (i : Fin 512) (d : Fin 4096) : red3.lift (ix2 b i) d = ix3 b i d := by
  funext a; apply Fin.ext
  match a with
  | ⟨0, _⟩ => rfl
  | ⟨1, _⟩ => rfl
  | ⟨2, _⟩ => rfl

theorem lift3m (b : Fin 8) (i : Fin 512) (j : Fin 512) : red3m.lift (ix2 b i) j = ix3 b i j := by
  funext a; apply Fin.ext
  match a with
  | ⟨0, _⟩ => rfl
  | ⟨1, _⟩ => rfl
  | ⟨2, _⟩ => rfl

theorem nrmT_apply (x : A3) (b : Fin 8) (i : Fin 512) :
    nrmT x (ix2 b i) = Ideal.sqrt (∑ d : Fin 4096, x (ix3 b i d) * x (ix3 b i d)) := by
  unfold nrmT
  show Ideal.sqrt (Host.reduceAdd (mulf x x) (constant S_ .f32 0x00000000#32)
      reducesTo_S8x512x4096_S8x512_d2 h_S_ (ix2 b i)) = _
  rw [hostReduceAdd_apply, Ideal.hostReduceAdd_single _ red3, constant_apply, Ideal.ofBits_zero_f32, zero_add]
  refine congrArg Ideal.sqrt (Finset.sum_congr rfl fun d _ => ?_)
  exact (congrArg (mulf x x) (lift3 b i d)).trans (mulf_apply x x _)

/-- A [8, 512] array spread along a new last axis. -/
theorem bcRow_apply (v : R2) (b : Fin 8) (i j : Fin 512) :
    broadcastInDim S8x512x512 ![0, 1, 2] bcast_S8x512x1_S8x512x512_0_1_2
      (broadcastInDim S8x512x1 ![0, 1] bcast_S8x512_S8x512x1_0_1 v) (ix3 b i j) = v (ix2 b i) := by
  rw [broadcastInDim_apply _ _ _ (ix3 b i j) (ix3 b i (0 : Fin 1)) (fun a => by
      match a with
      | ⟨0, _⟩ => rfl
      | ⟨1, _⟩ => rfl
      | ⟨2, _⟩ => rfl),
    broadcastInDim_apply _ _ _ (ix3 b i (0 : Fin 1)) (ix2 b i) (fun a => by
      match a with
      | ⟨0, _⟩ => rfl
      | ⟨1, _⟩ => rfl)]

/-- A [8, 512] array spread along a new middle axis. -/
theorem bcCol_apply (v : R2) (b : Fin 8) (i j : Fin 512) :
    broadcastInDim S8x512x512 ![0, 1, 2] bcast_S8x1x512_S8x512x512_0_1_2
      (broadcastInDim S8x1x512 ![0, 2] bcast_S8x512_S8x1x512_0_2 v) (ix3 b i j) = v (ix2 b j) := by
  rw [broadcastInDim_apply _ _ _ (ix3 b i j) (ix3 b (0 : Fin 1) j) (fun a => by
      match a with
      | ⟨0, _⟩ => rfl
      | ⟨1, _⟩ => rfl
      | ⟨2, _⟩ => rfl),
    broadcastInDim_apply _ _ _ (ix3 b (0 : Fin 1) j) (ix2 b j) (fun a => by
      match a with
      | ⟨0, _⟩ => rfl
      | ⟨1, _⟩ => rfl)]

theorem trT_apply (s : M3) (b : Fin 8) (j i : Fin 512) : trT s (ix3 b j i) = s (ix3 b i j) := by
  unfold trT
  exact transpose_ix3_021_apply s _ b j i

/-- Rows against rows: the batched product contracting the last axis of both operands. -/
theorem dotRR_apply (w : DotDims.WF S8x512x4096 S8x512x4096 S8x512x512 [2] [2] [1] [1] [0] [0]) (A B : A3)
    (g : Fin 8) (i j : Fin 512) :
    Host.dotGeneral (⟨[2], [2], [1], [1], [0], [0], w⟩ : DotDims S8x512x4096 S8x512x4096 S8x512x512) none A B (ix3 g i j)
      = ∑ c : Fin 4096, A (ix3 g i c) * B (ix3 g j c) := by
  show FloatOps.dotGeneral _ none _ A B (ix3 g i j) = _
  rw [Ideal.dotGeneral_apply,
    ← Equiv.sum_comp (contrEquiv1 (⟨[2], [2], [1], [1], [0], [0], w⟩ : DotDims S8x512x4096 S8x512x4096 S8x512x512) 4096 rfl rfl).symm]
  refine Finset.sum_congr rfl fun c _ => ?_
  have hc := contrEquiv1_symm_val
    (⟨[2], [2], [1], [1], [0], [0], w⟩ : DotDims S8x512x4096 S8x512x4096 S8x512x512) 4096 rfl rfl c
  have hl : (⟨[2], [2], [1], [1], [0], [0], w⟩ : DotDims S8x512x4096 S8x512x4096 S8x512x512).lhsIdx (ix3 g i j)
      ((contrEquiv1 _ 4096 rfl rfl).symm c) = ix3 g i c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [2], [1], [1], [0], [0], w⟩ : DotDims S8x512x4096 S8x512x4096 S8x512x512).rhsIdx (ix3 g i j)
      ((contrEquiv1 _ 4096 rfl rfl).symm c) = ix3 g j c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact hc
  rw [hl, hr]

theorem mixT_apply (a : M3) (x : A3) (b : Fin 8) (i : Fin 512) (d : Fin 4096) :
    mixT a x (ix3 b i d) = ∑ j : Fin 512, a (ix3 b i j) * x (ix3 b j d) := by
  unfold mixT
  exact StackMember.dotGeneral_stack_apply (G := 8) (m := 512) (n := 4096) (k := 512) _ none a x b i d

theorem simT_apply (x1 x2 : A3) (b : Fin 8) (i j : Fin 512) :
    simT x1 x2 (ix3 b i j) = Spec.sim x1 x2 b i j := by
  unfold simT Spec.sim Spec.dots Spec.sq Spec.eps6
  rw [hostDivf_apply, maximumf_apply, mulf_apply, bcRow_apply, bcCol_apply, nrmT_apply, nrmT_apply,
    broadcastInDim_scalar_apply, constant_apply]
  exact congrArg (fun t => Ideal.div t _) (dotRR_apply _ x1 x2 b i j)

theorem rmaxT_apply (s : M3) (b : Fin 8) (i : Fin 512) :
    rmaxT s (ix2 b i)
      = max Spec.negInf ((Finset.univ : Finset (Fin 512)).fold max Spec.negInf (fun j => s (ix3 b i j))) := by
  unfold rmaxT Spec.negInf
  rw [maximumf_apply, broadcastInDim_scalar_apply, constant_apply,
    Host.reduce_eq_fold_single FloatOps.maximumf s _ reducesTo_S8x512x512_S8x512_d2 red3m h_S_ (ix2 b i)]
  refine congrArg (max _) ?_
  show (Finset.univ : Finset (Fin 512)).fold max (Ideal.ofBits .f32 0xFF800000#32) (s ∘ red3m.lift (ix2 b i)) = _
  exact congrArg (fun f : Fin 512 → EReal => (Finset.univ : Finset (Fin 512)).fold max (Ideal.ofBits .f32 0xFF800000#32) f)
    (funext fun j => congrArg s (lift3m b i j))

theorem expT_apply (s : M3) (b : Fin 8) (i j : Fin 512) :
    expT s (ix3 b i j) = Ideal.exp (s (ix3 b i j) - rmaxT s (ix2 b i)) := by
  unfold expT
  show Ideal.exp (s (ix3 b i j) - _) = _
  rw [bcRow_apply]

theorem smT_apply (s : M3) (b : Fin 8) (i j : Fin 512) :
    smT s (ix3 b i j) = Ideal.div (expT s (ix3 b i j)) (∑ j' : Fin 512, expT s (ix3 b i j')) := by
  unfold smT
  rw [hostDivf_apply, bcRow_apply, hostReduceAdd_apply, Ideal.hostReduceAdd_single _ red3m, constant_apply,
    Ideal.ofBits_zero_f32, zero_add]
  refine congrArg (Ideal.div _) (Finset.sum_congr rfl fun j' _ => ?_)
  exact congrArg (expT s) (lift3m b i j')

/-! ## The two residuals -/

theorem mu1T_eq (x1 x2 : A3) : mu1T x1 x2 = Spec.mu1A x1 x2 := by
  funext y
  obtain ⟨b, i, d, rfl⟩ : ∃ (b : Fin 8) (i : Fin 512) (d : Fin 4096), y = ix3 b i d := ⟨y 0, y 1, y 2, eq_ix3 y⟩
  unfold mu1T Spec.mu1A
  rw [subf_apply, mixT_apply]
  show x1 (ix3 b i d) - _ = x1 (ix3 b i d) - ∑ j : Fin 512, Spec.att1 x1 x2 b i j * x2 (ix3 b j d)
  refine congrArg (x1 (ix3 b i d) - ·) (Finset.sum_congr rfl fun j _ => ?_)
  refine congrArg (· * x2 (ix3 b j d)) ?_
  unfold Spec.att1 Spec.e1 Spec.rowmax
  rw [smT_apply]
  simp only [expT_apply, rmaxT_apply, simT_apply]

theorem mu2T_eq (x1 x2 : A3) : mu2T x1 x2 = Spec.mu2A x1 x2 := by
  funext y
  obtain ⟨b, j, d, rfl⟩ : ∃ (b : Fin 8) (j : Fin 512) (d : Fin 4096), y = ix3 b j d := ⟨y 0, y 1, y 2, eq_ix3 y⟩
  unfold mu2T Spec.mu2A
  rw [subf_apply, mixT_apply]
  show x2 (ix3 b j d) - _ = x2 (ix3 b j d) - ∑ i : Fin 512, Spec.att2 x1 x2 b j i * x1 (ix3 b i d)
  refine congrArg (x2 (ix3 b j d) - ·) (Finset.sum_congr rfl fun i _ => ?_)
  refine congrArg (· * x1 (ix3 b i d)) ?_
  unfold Spec.att2 Spec.e2 Spec.colmax
  rw [smT_apply]
  simp only [expT_apply, rmaxT_apply, trT_apply, simT_apply]

/-! ## The stretch's results -/

/-- p · 512 + f stays below 4096. -/
theorem pf_lt (y : Spec.S4x.Idx) : (y 2).val * 512 + (y 3).val < 4096 := by
  have h2 : (y 2).val < 8 := (y 2).isLt
  have h3 : (y 3).val < 512 := (y 3).isLt
  omega

/-- The first residual: the first features less the second features weighted by the softmax along the second
    node axis. -/
theorem att_v70 (V : Valuation τ sig (Elt Ideal)) :
    after (opsAtt (F := Ideal)) V (Proc.devRef .tc main_v70)
      = Spec.mu1A (Spec.flat (V (Proc.devRef .tc main_arg0))) (Spec.flat (V (Proc.devRef .tc main_arg1))) := by
  rw [raw70, flatT_eq, flatT_eq, mu1T_eq]

/-- The second residual: the second features less the first features weighted by the softmax along the first
    node axis. -/
theorem att_v73 (V : Valuation τ sig (Elt Ideal)) :
    after (opsAtt (F := Ideal)) V (Proc.devRef .tc main_v73)
      = Spec.mu2A (Spec.flat (V (Proc.devRef .tc main_arg0))) (Spec.flat (V (Proc.devRef .tc main_arg1))) := by
  rw [raw73, flatT_eq, flatT_eq, mu2T_eq]

/-- The first residual read as [b, s, p, f]: entry d = p · 512 + f of row (b, s). -/
theorem att_v71 (V : Valuation τ sig (Elt Ideal)) :
    after (opsAtt (F := Ideal)) V (Proc.devRef .tc main_v71)
      = fun y : Spec.S4x.Idx =>
          Spec.mu1A (Spec.flat (V (Proc.devRef .tc main_arg0))) (Spec.flat (V (Proc.devRef .tc main_arg1)))
            (ix3 (y 0) (y 1) ⟨(y 2).val * 512 + (y 3).val, pf_lt y⟩) := by
  rw [raw71, flatT_eq, flatT_eq, mu1T_eq]
  funext y
  exact unflatT_apply _ y

/-- The second residual read as [b, s, p, f]. -/
theorem att_v74 (V : Valuation τ sig (Elt Ideal)) :
    after (opsAtt (F := Ideal)) V (Proc.devRef .tc main_v74)
      = fun y : Spec.S4x.Idx =>
          Spec.mu2A (Spec.flat (V (Proc.devRef .tc main_arg0))) (Spec.flat (V (Proc.devRef .tc main_arg1)))
            (ix3 (y 0) (y 1) ⟨(y 2).val * 512 + (y 3).val, pf_lt y⟩) := by
  rw [raw74, flatT_eq, flatT_eq, mu2T_eq]
  funext y
  exact unflatT_apply _ y

end Cert.ReferenceIdeal.RefAtt

end
-- ==== Proof.RefLinMath.lean ====
/-
  The linear stretch read index by index, at the extended reals. A 4-D array [b, s, p, k] contracted on its last
  axis with a weight matrix [o, k] is, at (b, s, p, o), the sum over k of the products; a bias [o] broadcast along
  the last axis reads the bias at o; three blocks laid side by side along the last axis read the block the column
  falls in. Together they are the stated pre-activation at row (b · 512 + s) · 8 + p. The row normalisation reads,
  at every column of a row, the larger of the square root of the row's sum of squares and the clip constant; the
  quotient by it, clipped below at zero, is the stated activation.
-/
import proofs.«404490_j9337258902039_3_alg».proof.ReferenceIdeal
import proofs.«404490_j9337258902039_3_alg».proof.Proof.Gen.ReferenceIdeal
import proofs.«404490_j9337258902039_3_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefLin

open Idealize.ShloMosaic Idealize.ShloMosaic.StableHlo Idealize.ShloMosaic.ValueIdx Idealize.SL.Sem
open Cert.ReferenceIdeal Cert.ReferenceIdeal.Facts₀ Cert.ReferenceIdeal.Facts
open scoped BigOperators

/-! ## The product of a 4-D array with a weight matrix, read at an index -/

/-- The contraction of the last axis of a [8,512,8,512] array with the second axis of a [512,512] matrix, at
    (b, s, p, o): the sum over k of A[b,s,p,k] · W[o,k]. -/
theorem dot4_apply (w : DotDims.WF S8x512x8x512 S512x512 S8x512x8x512 [3] [1] [0, 1, 2] [0] [] [])
    (A : FVec Ideal S8x512x8x512 .f32) (W : FVec Ideal S512x512 .f32) (b : Fin 8) (s : Fin 512) (p : Fin 8) (o : Fin 512) :
    Host.dotGeneral (⟨[3], [1], [0, 1, 2], [0], [], [], w⟩ : DotDims S8x512x8x512 S512x512 S8x512x8x512) none A W (ix4 b s p o)
      = ∑ k : Fin 512, A (ix4 b s p k) * W (ix2 o k) := by
  show FloatOps.dotGeneral _ none _ A W (ix4 b s p o) = _
  rw [Ideal.dotGeneral_apply,
    ← Equiv.sum_comp (contrEquiv1 (⟨[3], [1], [0, 1, 2], [0], [], [], w⟩ : DotDims S8x512x8x512 S512x512 S8x512x8x512) 512 rfl rfl).symm]
  refine Finset.sum_congr rfl fun c _ => ?_
  have c3 := contrEquiv1_symm_val
    (⟨[3], [1], [0, 1, 2], [0], [], [], w⟩ : DotDims S8x512x8x512 S512x512 S8x512x8x512) 512 rfl rfl c
  have l3 : (⟨[3], [1], [0, 1, 2], [0], [], [], w⟩ : DotDims S8x512x8x512 S512x512 S8x512x8x512).lhsIdx (ix4 b s p o)
      ((contrEquiv1 _ 512 rfl rfl).symm c) = ix4 b s p c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [1], [0, 1, 2], [0], [], [], w⟩ : DotDims S8x512x8x512 S512x512 S8x512x8x512).rhsIdx (ix4 b s p o)
      ((contrEquiv1 _ 512 rfl rfl).symm c) = ix2 o c := by
    funext ax; apply Fin.ext
    match ax with
    | ⟨0, _⟩ => simp [DotDims.rhsIdx]; rfl
    | ⟨1, _⟩ => simp [DotDims.rhsIdx]; exact c3
  rw [l3, r3]

/-! ## A bias vector broadcast along the last axis, read at an index -/

theorem bias4_apply (h1 : S512.BroadcastsInDim S1x1x1x512 ![3]) (h2 : S1x1x1x512.BroadcastsInDim S8x512x8x512 ![0, 1, 2, 3])
    (v : S512.Idx → EReal) (b : Fin 8) (s : Fin 512) (p : Fin 8) (o : Fin 512) :
    broadcastInDim S8x512x8x512 ![0, 1, 2, 3] h2 (broadcastInDim S1x1x1x512 ![3] h1 v) (ix4 b s p o) = v (ix1 o) := by
  rw [broadcastInDim_apply _ h2 _ (ix4 b s p o) (ix4 (0 : Fin 1) (0 : Fin 1) (0 : Fin 1) o) (fun a => by
    match a with
    | ⟨0, _⟩ => rfl
    | ⟨1, _⟩ => rfl
    | ⟨2, _⟩ => rfl
    | ⟨3, _⟩ => rfl)]
  rw [broadcastInDim_apply _ h1 _ (ix4 (0 : Fin 1) (0 : Fin 1) (0 : Fin 1) o) (ix1 o) (fun a => by
    match a with
    | ⟨0, _⟩ => rfl)]

/-! ## Three blocks laid side by side along the last axis, read at an index -/

theorem cat3_apply (h : Shape.Concatenates [S8x512x8x512, S8x512x8x512, S8x512x8x512] S8x512x8x1536 3)
    (x0 x1 x2 : S8x512x8x512.Idx → EReal) (b : Fin 8) (s : Fin 512) (p : Fin 8) (o : Fin 1536) :
    concatenate S8x512x8x1536 3 [⟨S8x512x8x512, x0⟩, ⟨S8x512x8x512, x1⟩, ⟨S8x512x8x512, x2⟩] h (ix4 b s p o)
      = if h0 : o.val < 512 then x0 (ix4 b s p ⟨o.val, h0⟩)
        else if h1 : o.val < 1024 then x1 (ix4 b s p ⟨o.val - 512, by omega⟩)
        else x2 (ix4 b s p ⟨o.val - 1024, by have := o.isLt; omega⟩) := by
  have ho : o.val < 1536 := o.isLt
  by_cases h0 : o.val < 512
  · rw [dif_pos h0]
    exact concatenate_apply_piece (t := S8x512x8x1536) 3 ([⟨S8x512x8x512, x0⟩, ⟨S8x512x8x512, x1⟩, ⟨S8x512x8x512, x2⟩] : List ((s : Shape) × (s.Idx → EReal))) h (ix4 b s p o) 0 (by show (0 : Nat) < 3; omega) S8x512x8x512 x0 rfl rfl 0 rfl (ix4 b s p ⟨o.val, h0⟩)
      (fun a ha => by
        match a with
        | ⟨0, _⟩ => rfl
        | ⟨1, _⟩ => rfl
        | ⟨2, _⟩ => rfl
        | ⟨3, _⟩ => exact absurd rfl ha)
      (by show 0 + o.val = o.val; omega)
  · rw [dif_neg h0]
    by_cases h1 : o.val < 1024
    · rw [dif_pos h1]
      exact concatenate_apply_piece (t := S8x512x8x1536) 3 ([⟨S8x512x8x512, x0⟩, ⟨S8x512x8x512, x1⟩, ⟨S8x512x8x512, x2⟩] : List ((s : Shape) × (s.Idx → EReal))) h (ix4 b s p o) 1 (by show (1 : Nat) < 3; omega) S8x512x8x512 x1 rfl rfl 512 rfl (ix4 b s p ⟨o.val - 512, by omega⟩)
        (fun a ha => by
          match a with
          | ⟨0, _⟩ => rfl
          | ⟨1, _⟩ => rfl
          | ⟨2, _⟩ => rfl
          | ⟨3, _⟩ => exact absurd rfl ha)
        (by show 512 + (o.val - 512) = o.val; omega)
    · rw [dif_neg h1]
      exact concatenate_apply_piece (t := S8x512x8x1536) 3 ([⟨S8x512x8x512, x0⟩, ⟨S8x512x8x512, x1⟩, ⟨S8x512x8x512, x2⟩] : List ((s : Shape) × (s.Idx → EReal))) h (ix4 b s p o) 2 (by show (2 : Nat) < 3; omega) S8x512x8x512 x2 rfl rfl 1024 rfl (ix4 b s p ⟨o.val - 1024, by omega⟩)
        (fun a ha => by
          match a with
          | ⟨0, _⟩ => rfl
          | ⟨1, _⟩ => rfl
          | ⟨2, _⟩ => rfl
          | ⟨3, _⟩ => exact absurd rfl ha)
        (by show 1024 + (o.val - 1024) = o.val; omega)

/-! ## The stated pre-activation at a row and a column -/

section Hpre
variable (Ux Un Ur : Spec.S2r.Idx → EReal) (Wx Wn Wr : Spec.S2w.Idx → EReal) (bx bn br : Spec.S1b.Idx → EReal)

theorem hpre_lo (n : Fin 32768) (o : Fin 1536) (h : o.val < 512) :
    Spec.hpre Ux Un Ur Wx Wn Wr bx bn br (ix2 n o) = Spec.lin Ux Wx bx n ⟨o.val, h⟩ := by
  unfold Spec.hpre; exact dif_pos h

theorem hpre_mid (n : Fin 32768) (o : Fin 1536) (h0 : ¬ o.val < 512) (h1 : o.val < 1024) :
    Spec.hpre Ux Un Ur Wx Wn Wr bx bn br (ix2 n o) = Spec.lin Un Wn bn n ⟨o.val - 512, by omega⟩ := by
  unfold Spec.hpre; exact (dif_neg h0).trans (dif_pos h1)

theorem hpre_hi (n : Fin 32768) (o : Fin 1536) (h0 : ¬ o.val < 512) (h1 : ¬ o.val < 1024) :
    Spec.hpre Ux Un Ur Wx Wn Wr bx bn br (ix2 n o) = Spec.lin Ur Wr br n ⟨o.val - 1024, by have := o.isLt; omega⟩ := by
  unfold Spec.hpre; exact (dif_neg h0).trans (dif_neg h1)

end Hpre

/-- A row of the 4-D array against a row of the weights, plus the bias: the stated linear map at row
    (b · 512 + s) · 8 + p. -/
theorem lin_rows4 (A : Spec.S4x.Idx → EReal) (W : Spec.S2w.Idx → EReal) (bias : Spec.S1b.Idx → EReal)
    (b : Fin 8) (s : Fin 512) (p : Fin 8) (o : Fin 512) (hn : (b.val * 512 + s.val) * 8 + p.val < 32768) :
    Spec.lin (Spec.rows4 A) W bias ⟨(b.val * 512 + s.val) * 8 + p.val, hn⟩ o
      = (∑ k : Fin 512, A (ix4 b s p k) * W (ix2 o k)) + bias (ix1 o) := by
  have hb : b.val < 8 := b.isLt
  have hs : s.val < 512 := s.isLt
  have hp : p.val < 8 := p.isLt
  unfold Spec.lin Spec.rows4
  refine congrArg (· + bias (ix1 o)) (Finset.sum_congr rfl fun k _ => ?_)
  refine congrArg (· * W (ix2 o k)) (congrArg A ?_)
  funext a
  apply Fin.ext
  match a with
  | ⟨0, _⟩ => show ((b.val * 512 + s.val) * 8 + p.val) / 4096 = b.val; omega
  | ⟨1, _⟩ => show ((b.val * 512 + s.val) * 8 + p.val) / 8 % 512 = s.val; omega
  | ⟨2, _⟩ => show ((b.val * 512 + s.val) * 8 + p.val) % 8 = p.val; omega
  | ⟨3, _⟩ => rfl

/-! ## The three linear maps side by side are the stated pre-activation, read back 4-D -/

theorem hcat_eq (w : DotDims.WF S8x512x8x512 S512x512 S8x512x8x512 [3] [1] [0, 1, 2] [0] [] [])
    (h1 : S512.BroadcastsInDim S1x1x1x512 ![3]) (h2 : S1x1x1x512.BroadcastsInDim S8x512x8x512 ![0, 1, 2, 3])
    (hc : Shape.Concatenates [S8x512x8x512, S8x512x8x512, S8x512x8x512] S8x512x8x1536 3)
    (A1 A2 A3 : FVec Ideal S8x512x8x512 .f32) (Wx Wn Wr : FVec Ideal S512x512 .f32) (bx bn br : FVec Ideal S512 .f32) :
    concatenate S8x512x8x1536 3
      [⟨S8x512x8x512, addf (Host.dotGeneral (⟨[3], [1], [0, 1, 2], [0], [], [], w⟩ : DotDims S8x512x8x512 S512x512 S8x512x8x512) none A1 Wx)
          (broadcastInDim S8x512x8x512 ![0, 1, 2, 3] h2 (broadcastInDim S1x1x1x512 ![3] h1 bx))⟩,
       ⟨S8x512x8x512, addf (Host.dotGeneral (⟨[3], [1], [0, 1, 2], [0], [], [], w⟩ : DotDims S8x512x8x512 S512x512 S8x512x8x512) none A2 Wn)
          (broadcastInDim S8x512x8x512 ![0, 1, 2, 3] h2 (broadcastInDim S1x1x1x512 ![3] h1 bn))⟩,
       ⟨S8x512x8x512, addf (Host.dotGeneral (⟨[3], [1], [0, 1, 2], [0], [], [], w⟩ : DotDims S8x512x8x512 S512x512 S8x512x8x512) none A3 Wr)
          (broadcastInDim S8x512x8x512 ![0, 1, 2, 3] h2 (broadcastInDim S1x1x1x512 ![3] h1 br))⟩] hc
      = Spec.unrows (Spec.hpre (Spec.rows4 A1) (Spec.rows4 A2) (Spec.rows4 A3) Wx Wn Wr bx bn br) := by
  funext y
  obtain ⟨b, s, p, o, rfl⟩ : ∃ (b : Fin 8) (s : Fin 512) (p : Fin 8) (o : Fin 1536), y = ix4 b s p o := ⟨y 0, y 1, y 2, y 3, eq_ix4 y⟩
  have hb : b.val < 8 := b.isLt
  have hs : s.val < 512 := s.isLt
  have hp : p.val < 8 := p.isLt
  have hn : (b.val * 512 + s.val) * 8 + p.val < 32768 := by omega
  rw [cat3_apply]
  show _ = Spec.hpre _ _ _ _ _ _ _ _ _ (ix2 ⟨(b.val * 512 + s.val) * 8 + p.val, hn⟩ o)
  by_cases h0 : o.val < 512
  · rw [dif_pos h0, hpre_lo _ _ _ _ _ _ _ _ _ _ _ h0, lin_rows4, addf_apply, dot4_apply, bias4_apply]
  · rw [dif_neg h0]
    by_cases h1' : o.val < 1024
    · rw [dif_pos h1', hpre_mid _ _ _ _ _ _ _ _ _ _ _ h0 h1', lin_rows4, addf_apply, dot4_apply, bias4_apply]
    · rw [dif_neg h1', hpre_hi _ _ _ _ _ _ _ _ _ _ _ h0 h1', lin_rows4, addf_apply, dot4_apply, bias4_apply]

/-- A 3-D array [b, s, d] read 4-D at (b, s, p, f) with d = p · 512 + f. -/
def read4 (u : Spec.S3x.Idx → EReal) : Spec.S4x.Idx → EReal := fun y =>
  u (ix3 (y 0) (y 1) ⟨(y 2).val * 512 + (y 3).val, by
    have h2 : (y 2).val < 8 := (y 2).isLt; have h3 : (y 3).val < 512 := (y 3).isLt; omega⟩)

/-- Its rows are the 3-D array's rows. -/
theorem rows4_read4 (u : Spec.S3x.Idx → EReal) : Spec.rows4 (read4 u) = Spec.rows3 u := by
  funext y
  unfold Spec.rows4 Spec.rows3 read4
  rfl

/-! ## The row normalisation and the clip at zero -/

theorem lift_eq (hR : S8x512x8x1536.Reduces [3] S8x512x8) (b : Fin 8) (s : Fin 512) (p : Fin 8) (k : Fin 1536) :
    hR.lift (ix3 b s p) k = ix4 b s p k := by
  funext a
  apply Fin.ext
  match a with
  | ⟨0, _⟩ => rfl
  | ⟨1, _⟩ => rfl
  | ⟨2, _⟩ => rfl
  | ⟨3, _⟩ => rfl

/-- The clipped row norm, broadcast back along the row, at (b, s, p, o): the larger of the square root of the
    row's sum of squares and the clip constant. -/
theorem rownorm_apply (hr : S8x512x8x1536.ReducesTo [3] S8x512x8) (hs : 0 < S_.numel)
    (hb1 : S8x512x8.BroadcastsInDim S8x512x8x1 ![0, 1, 2]) (hb0 : S_.BroadcastsInDim S8x512x8x1 ![])
    (hb2 : S8x512x8x1.BroadcastsInDim S8x512x8x1536 ![0, 1, 2, 3])
    (X : FVec Ideal S8x512x8x1536 .f32) (b : Fin 8) (s : Fin 512) (p : Fin 8) (o : Fin 1536) :
    broadcastInDim S8x512x8x1536 ![0, 1, 2, 3] hb2
        (maximumf
          (Host.sqrt (broadcastInDim S8x512x8x1 ![0, 1, 2] hb1
            (Host.reduceAdd (mulf X X) (constant S_ .f32 0x00000000#32) hr hs)))
          (broadcastInDim S8x512x8x1 ![] hb0 (constant S_ .f32 0x2B8CBCCC#32))) (ix4 b s p o)
      = max (Ideal.sqrt (∑ k : Fin 1536, X (ix4 b s p k) * X (ix4 b s p k))) (Ideal.ofBits .f32 0x2B8CBCCC#32) := by
  have hR : S8x512x8x1536.Reduces [3] S8x512x8 := by decide
  refine (broadcastInDim_apply _ hb2 _ (ix4 b s p o) (ix4 b s p (0 : Fin 1)) (fun a => by
    match a with
    | ⟨0, _⟩ => rfl
    | ⟨1, _⟩ => rfl
    | ⟨2, _⟩ => rfl
    | ⟨3, _⟩ => rfl)).trans ?_
  show max (Ideal.sqrt (broadcastInDim S8x512x8x1 ![0, 1, 2] hb1
        (Host.reduceAdd (mulf X X) (constant S_ .f32 0x00000000#32) hr hs) (ix4 b s p (0 : Fin 1))))
      (broadcastInDim S8x512x8x1 ![] hb0 (constant (F := Ideal) S_ .f32 0x2B8CBCCC#32) (ix4 b s p (0 : Fin 1))) = _
  refine congrArg₂ max (congrArg Ideal.sqrt ?_) (broadcastInDim_scalar_apply hb0 _ _)
  refine (broadcastInDim_apply _ hb1 _ (ix4 b s p (0 : Fin 1)) (ix3 b s p) (fun a => by
    match a with
    | ⟨0, _⟩ => rfl
    | ⟨1, _⟩ => rfl
    | ⟨2, _⟩ => rfl)).trans ?_
  refine (hostReduceAdd_apply _ _ hr hs _).trans ?_
  refine (Ideal.hostReduceAdd_single hr hR _ _ _).trans ?_
  refine (congrArg (· + _) (Ideal.ofBits_zero_f32)).trans ?_
  refine (zero_add _).trans ?_
  refine Finset.sum_congr rfl fun k _ => ?_
  exact congrArg (fun z => X z * X z) (lift_eq hR b s p k)

theorem norm_eq (hr : S8x512x8x1536.ReducesTo [3] S8x512x8) (hs : 0 < S_.numel)
    (hb1 : S8x512x8.BroadcastsInDim S8x512x8x1 ![0, 1, 2]) (hb0 : S_.BroadcastsInDim S8x512x8x1 ![])
    (hb2 : S8x512x8x1.BroadcastsInDim S8x512x8x1536 ![0, 1, 2, 3]) (hb3 : S_.BroadcastsInDim S8x512x8x1536 ![])
    (H : Spec.S2h.Idx → EReal) :
    (maximumf
      (Host.divf (Spec.unrows H : FVec Ideal S8x512x8x1536 .f32)
        (broadcastInDim S8x512x8x1536 ![0, 1, 2, 3] hb2
          (maximumf
            (Host.sqrt (broadcastInDim S8x512x8x1 ![0, 1, 2] hb1
              (Host.reduceAdd (mulf (Spec.unrows H : FVec Ideal S8x512x8x1536 .f32) (Spec.unrows H)) (constant S_ .f32 0x00000000#32) hr hs)))
            (broadcastInDim S8x512x8x1 ![] hb0 (constant S_ .f32 0x2B8CBCCC#32)))))
      (broadcastInDim S8x512x8x1536 ![] hb3 (constant S_ .f32 0x00000000#32)) : FVec Ideal S8x512x8x1536 .f32)
      = Spec.unrows (Spec.gA H) := by
  funext y
  obtain ⟨b, s, p, o, rfl⟩ : ∃ (b : Fin 8) (s : Fin 512) (p : Fin 8) (o : Fin 1536), y = ix4 b s p o := ⟨y 0, y 1, y 2, y 3, eq_ix4 y⟩
  have hb : b.val < 8 := b.isLt
  have hs' : s.val < 512 := s.isLt
  have hp : p.val < 8 := p.isLt
  have hn : (b.val * 512 + s.val) * 8 + p.val < 32768 := by omega
  show max (Ideal.div (Spec.unrows H (ix4 b s p o))
        (broadcastInDim S8x512x8x1536 ![0, 1, 2, 3] hb2
          (maximumf (F := Ideal)
            (Host.sqrt (broadcastInDim S8x512x8x1 ![0, 1, 2] hb1
              (Host.reduceAdd (mulf (Spec.unrows H : FVec Ideal S8x512x8x1536 .f32) (Spec.unrows H)) (constant S_ .f32 0x00000000#32) hr hs)))
            (broadcastInDim S8x512x8x1 ![] hb0 (constant S_ .f32 0x2B8CBCCC#32))) (ix4 b s p o)))
      (broadcastInDim S8x512x8x1536 ![] hb3 (constant (F := Ideal) S_ .f32 0x00000000#32) (ix4 b s p o))
    = max (Ideal.div (H (ix2 ⟨(b.val * 512 + s.val) * 8 + p.val, hn⟩ o)) (Spec.hnorm H ⟨(b.val * 512 + s.val) * 8 + p.val, hn⟩)) 0
  refine congrArg₂ max (congrArg₂ Ideal.div rfl ?_) ((broadcastInDim_scalar_apply hb3 _ _).trans Ideal.ofBits_zero_f32)
  refine (rownorm_apply hr hs hb1 hb0 hb2 _ b s p o).trans ?_
  unfold Spec.hnorm Spec.eps12
  exact congrArg₂ max (congrArg Ideal.sqrt (Finset.sum_congr rfl fun k _ => rfl)) rfl

end Cert.ReferenceIdeal.RefLin

end
-- ==== Proof.RefLin.lean ====
/-
  The reference's linear stretch as a straight line of operations: for each branch the three products of a 4-D
  array with a weight matrix (contracting the last axis of the array with the input axis of the weights), the
  bias broadcast and added, the three results laid side by side along the last axis; then, per branch, the row
  normalisation (the square root of the sum of squares along the last axis, clipped below at 1e-12, broadcast
  along the row and divided) and the clip below at zero. Each stretch touches only device buffers, and a buffer
  it does not write keeps its contents.
-/
import proofs.«404490_j9337258902039_3_alg».proof.Proof.RefLinMath

noncomputable section

namespace Cert.ReferenceIdeal.RefLin

open Idealize.ShloMosaic Idealize.ShloMosaic.StableHlo Idealize.ShloMosaic.ValueIdx Idealize.SL.Sem
open Cert.ReferenceIdeal Cert.ReferenceIdeal.Facts₀ Cert.ReferenceIdeal.Facts
open scoped BigOperators

variable {F : FTy → Type} [FloatOps F]

/-! ## The operations, in the program's order -/

/-- Both branches' three linear maps and their concatenations: the values %75 … %100, twenty-six operations. -/
abbrev opsLin : List (HloOp τ sig (Elt F)) :=
  [ StableHlo.binary main_arg0 main_arg4 main_v75 ((fun l r => Host.dotGeneral dot_S8x512x8x512_S512x512_S8x512x8x512_3_1_012_0_n_n none l r) : (⟨S8x512x8x512, .f32⟩ : BufTy).Contents (Elt F) → (⟨S512x512, .f32⟩ : BufTy).Contents (Elt F) → (⟨S8x512x8x512, .f32⟩ : BufTy).Contents (Elt F)),
    StableHlo.unary main_arg5 main_v76 (broadcastInDim S1x1x1x512 ![3] bcast_S512_S1x1x1x512_3 : (⟨S512, .f32⟩ : BufTy).Contents (Elt F) → (⟨S1x1x1x512, .f32⟩ : BufTy).Contents (Elt F)),
    StableHlo.unary main_v76 main_v77 (broadcastInDim S8x512x8x512 ![0, 1, 2, 3] bcast_S1x1x1x512_S8x512x8x512_0_1_2_3 : (⟨S1x1x1x512, .f32⟩ : BufTy).Contents (Elt F) → (⟨S8x512x8x512, .f32⟩ : BufTy).Contents (Elt F)),
    StableHlo.binary main_v75 main_v77 main_v78 (addf : (⟨S8x512x8x512, .f32⟩ : BufTy).Contents (Elt F) → (⟨S8x512x8x512, .f32⟩ : BufTy).Contents (Elt F) → (⟨S8x512x8x512, .f32⟩ : BufTy).Contents (Elt F)),
    StableHlo.binary main_v18 main_arg6 main_v79 ((fun l r => Host.dotGeneral dot_S8x512x8x512_S512x512_S8x512x8x512_3_1_012_0_n_n none l r) : (⟨S8x512x8x512, .f32⟩ : BufTy).Contents (Elt F) → (⟨S512x512, .f32⟩ : BufTy).Contents (Elt F) → (⟨S8x512x8x512, .f32⟩ : BufTy).Contents (Elt F)),
    StableHlo.unary main_arg7 main_v80 (broadcastInDim S1x1x1x512 ![3] bcast_S512_S1x1x1x512_3 : (⟨S512, .f32⟩ : BufTy).Contents (Elt F) → (⟨S1x1x1x512, .f32⟩ : BufTy).Contents (Elt F)),
    StableHlo.unary main_v80 main_v81 (broadcastInDim S8x512x8x512 ![0, 1, 2, 3] bcast_S1x1x1x512_S8x512x8x512_0_1_2_3 : (⟨S1x1x1x512, .f32⟩ : BufTy).Contents (Elt F) → (⟨S8x512x8x512, .f32⟩ : BufTy).Contents (Elt F)),
    StableHlo.binary main_v79 main_v81 main_v82 (addf : (⟨S8x512x8x512, .f32⟩ : BufTy).Contents (Elt F) → (⟨S8x512x8x512, .f32⟩ : BufTy).Contents (Elt F) → (⟨S8x512x8x512, .f32⟩ : BufTy).Contents (Elt F)),
    StableHlo.binary main_v71 main_arg8 main_v83 ((fun l r => Host.dotGeneral dot_S8x512x8x512_S512x512_S8x512x8x512_3_1_012_0_n_n none l r) : (⟨S8x512x8x512, .f32⟩ : BufTy).Contents (Elt F) → (⟨S512x512, .f32⟩ : BufTy).Contents (Elt F) → (⟨S8x512x8x512, .f32⟩ : BufTy).Contents (Elt F)),
    StableHlo.unary main_arg9 main_v84 (broadcastInDim S1x1x1x512 ![3] bcast_S512_S1x1x1x512_3 : (⟨S512, .f32⟩ : BufTy).Contents (Elt F) → (⟨S1x1x1x512, .f32⟩ : BufTy).Contents (Elt F)),
    StableHlo.unary main_v84 main_v85 (broadcastInDim S8x512x8x512 ![0, 1, 2, 3] bcast_S1x1x1x512_S8x512x8x512_0_1_2_3 : (⟨S1x1x1x512, .f32⟩ : BufTy).Contents (Elt F) → (⟨S8x512x8x512, .f32⟩ : BufTy).Contents (Elt F)),
    StableHlo.binary main_v83 main_v85 main_v86 (addf : (⟨S8x512x8x512, .f32⟩ : BufTy).Contents (Elt F) → (⟨S8x512x8x512, .f32⟩ : BufTy).Contents (Elt F) → (⟨S8x512x8x512, .f32⟩ : BufTy).Contents (Elt F)),
    StableHlo.nary ![main_v78, main_v82, main_v86] main_v87 (fun u => concatenate S8x512x8x1536 3 [⟨S8x512x8x512, u 0⟩, ⟨S8x512x8x512, u 1⟩, ⟨S8x512x8x512, u 2⟩] concatenates_S8x512x8x512_S8x512x8x512_S8x512x8x512_S8x512x8x1536_d3),
    StableHlo.binary main_arg1 main_arg4 main_v88 ((fun l r => Host.dotGeneral dot_S8x512x8x512_S512x512_S8x512x8x512_3_1_012_0_n_n none l r) : (⟨S8x512x8x512, .f32⟩ : BufTy).Contents (Elt F) → (⟨S512x512, .f32⟩ : BufTy).Contents (Elt F) → (⟨S8x512x8x512, .f32⟩ : BufTy).Contents (Elt F)),
    StableHlo.unary main_arg5 main_v89 (broadcastInDim S1x1x1x512 ![3] bcast_S512_S1x1x1x512_3 : (⟨S512, .f32⟩ : BufTy).Contents (Elt F) → (⟨S1x1x1x512, .f32⟩ : BufTy).Contents (Elt F)),
    StableHlo.unary main_v89 main_v90 (broadcastInDim S8x512x8x512 ![0, 1, 2, 3] bcast_S1x1x1x512_S8x512x8x512_0_1_2_3 : (⟨S1x1x1x512, .f32⟩ : BufTy).Contents (Elt F) → (⟨S8x512x8x512, .f32⟩ : BufTy).Contents (Elt F)),
    StableHlo.binary main_v88 main_v90 main_v91 (addf : (⟨S8x512x8x512, .f32⟩ : BufTy).Contents (Elt F) → (⟨S8x512x8x512, .f32⟩ : BufTy).Contents (Elt F) → (⟨S8x512x8x512, .f32⟩ : BufTy).Contents (Elt F)),
    StableHlo.binary main_v32 main_arg6 main_v92 ((fun l r => Host.dotGeneral dot_S8x512x8x512_S512x512_S8x512x8x512_3_1_012_0_n_n none l r) : (⟨S8x512x8x512, .f32⟩ : BufTy).Contents (Elt F) → (⟨S512x512, .f32⟩ : BufTy).Contents (Elt F) → (⟨S8x512x8x512, .f32⟩ : BufTy).Contents (Elt F)),
    StableHlo.unary main_arg7 main_v93 (broadcastInDim S1x1x1x512 ![3] bcast_S512_S1x1x1x512_3 : (⟨S512, .f32⟩ : BufTy).Contents (Elt F) → (⟨S1x1x1x512, .f32⟩ : BufTy).Contents (Elt F)),
    StableHlo.unary main_v93 main_v94 (broadcastInDim S8x512x8x512 ![0, 1, 2, 3] bcast_S1x1x1x512_S8x512x8x512_0_1_2_3 : (⟨S1x1x1x512, .f32⟩ : BufTy).Contents (Elt F) → (⟨S8x512x8x512, .f32⟩ : BufTy).Contents (Elt F)),
    StableHlo.binary main_v92 main_v94 main_v95 (addf : (⟨S8x512x8x512, .f32⟩ : BufTy).Contents (Elt F) → (⟨S8x512x8x512, .f32⟩ : BufTy).Contents (Elt F) → (⟨S8x512x8x512, .f32⟩ : BufTy).Contents (Elt F)),
    StableHlo.binary main_v74 main_arg8 main_v96 ((fun l r => Host.dotGeneral dot_S8x512x8x512_S512x512_S8x512x8x512_3_1_012_0_n_n none l r) : (⟨S8x512x8x512, .f32⟩ : BufTy).Contents (Elt F) → (⟨S512x512, .f32⟩ : BufTy).Contents (Elt F) → (⟨S8x512x8x512, .f32⟩ : BufTy).Contents (Elt F)),
    StableHlo.unary main_arg9 main_v97 (broadcastInDim S1x1x1x512 ![3] bcast_S512_S1x1x1x512_3 : (⟨S512, .f32⟩ : BufTy).Contents (Elt F) → (⟨S1x1x1x512, .f32⟩ : BufTy).Contents (Elt F)),
    StableHlo.unary main_v97 main_v98 (broadcastInDim S8x512x8x512 ![0, 1, 2, 3] bcast_S1x1x1x512_S8x512x8x512_0_1_2_3 : (⟨S1x1x1x512, .f32⟩ : BufTy).Contents (Elt F) → (⟨S8x512x8x512, .f32⟩ : BufTy).Contents (Elt F)),
    StableHlo.binary main_v96 main_v98 main_v99 (addf : (⟨S8x512x8x512, .f32⟩ : BufTy).Contents (Elt F) → (⟨S8x512x8x512, .f32⟩ : BufTy).Contents (Elt F) → (⟨S8x512x8x512, .f32⟩ : BufTy).Contents (Elt F)),
    StableHlo.nary ![main_v91, main_v95, main_v99] main_v100 (fun u => concatenate S8x512x8x1536 3 [⟨S8x512x8x512, u 0⟩, ⟨S8x512x8x512, u 1⟩, ⟨S8x512x8x512, u 2⟩] concatenates_S8x512x8x512_S8x512x8x512_S8x512x8x512_S8x512x8x1536_d3) ]

/-- Branch 1's normalisation and clip: the norm function's five operations, the clip constant, its broadcast, the maximum, the broadcast along the row, the quotient, and the relu function's three. -/
abbrev opsNr1 : List (HloOp τ sig (Elt F)) :=
  [ StableHlo.TRef.binary (.of main_v87) (.of main_v87) main_call2.v0 mulf,
    StableHlo.TRef.nullary main_call2.cst (constant S_ .f32 0x00000000#32),
    StableHlo.TRef.binary main_call2.v0 main_call2.cst main_call2.v1 (fun x v => Host.reduceAdd x v reducesTo_S8x512x8x1536_S8x512x8_d3 h_S_),
    StableHlo.TRef.unary main_call2.v1 main_call2.v2 (broadcastInDim S8x512x8x1 ![0, 1, 2] bcast_S8x512x8_S8x512x8x1_0_1_2),
    StableHlo.TRef.unary main_call2.v2 main_call2.v3 Host.sqrt,
    StableHlo.nullary main_cst_10 (constant S_ .f32 0x2B8CBCCC#32),
    StableHlo.unary main_cst_10 main_v102 (broadcastInDim S8x512x8x1 ![] bcast_S_S8x512x8x1 : (⟨S_, .f32⟩ : BufTy).Contents (Elt F) → (⟨S8x512x8x1, .f32⟩ : BufTy).Contents (Elt F)),
    StableHlo.binary main_v101 main_v102 main_v103 (maximumf : (⟨S8x512x8x1, .f32⟩ : BufTy).Contents (Elt F) → (⟨S8x512x8x1, .f32⟩ : BufTy).Contents (Elt F) → (⟨S8x512x8x1, .f32⟩ : BufTy).Contents (Elt F)),
    StableHlo.unary main_v103 main_v104 (broadcastInDim S8x512x8x1536 ![0, 1, 2, 3] bcast_S8x512x8x1_S8x512x8x1536_0_1_2_3 : (⟨S8x512x8x1, .f32⟩ : BufTy).Contents (Elt F) → (⟨S8x512x8x1536, .f32⟩ : BufTy).Contents (Elt F)),
    StableHlo.binary main_v87 main_v104 main_v105 (Host.divf : (⟨S8x512x8x1536, .f32⟩ : BufTy).Contents (Elt F) → (⟨S8x512x8x1536, .f32⟩ : BufTy).Contents (Elt F) → (⟨S8x512x8x1536, .f32⟩ : BufTy).Contents (Elt F)),
    StableHlo.TRef.nullary main_call3.cst (constant S_ .f32 0x00000000#32),
    StableHlo.TRef.unary main_call3.cst main_call3.v0 (broadcastInDim S8x512x8x1536 ![] bcast_S_S8x512x8x1536),
    StableHlo.TRef.binary (.of main_v105) main_call3.v0 main_call3.v1 maximumf ]

/-- Branch 2's normalisation and clip, the same thirteen operations over its own buffers. -/
abbrev opsNr2 : List (HloOp τ sig (Elt F)) :=
  [ StableHlo.TRef.binary (.of main_v100) (.of main_v100) main_call5.v0 mulf,
    StableHlo.TRef.nullary main_call5.cst (constant S_ .f32 0x00000000#32),
    StableHlo.TRef.binary main_call5.v0 main_call5.cst main_call5.v1 (fun x v => Host.reduceAdd x v reducesTo_S8x512x8x1536_S8x512x8_d3 h_S_),
    StableHlo.TRef.unary main_call5.v1 main_call5.v2 (broadcastInDim S8x512x8x1 ![0, 1, 2] bcast_S8x512x8_S8x512x8x1_0_1_2),
    StableHlo.TRef.unary main_call5.v2 main_call5.v3 Host.sqrt,
    StableHlo.nullary main_cst_15 (constant S_ .f32 0x2B8CBCCC#32),
    StableHlo.unary main_cst_15 main_v127 (broadcastInDim S8x512x8x1 ![] bcast_S_S8x512x8x1 : (⟨S_, .f32⟩ : BufTy).Contents (Elt F) → (⟨S8x512x8x1, .f32⟩ : BufTy).Contents (Elt F)),
    StableHlo.binary main_v126 main_v127 main_v128 (maximumf : (⟨S8x512x8x1, .f32⟩ : BufTy).Contents (Elt F) → (⟨S8x512x8x1, .f32⟩ : BufTy).Contents (Elt F) → (⟨S8x512x8x1, .f32⟩ : BufTy).Contents (Elt F)),
    StableHlo.unary main_v128 main_v129 (broadcastInDim S8x512x8x1536 ![0, 1, 2, 3] bcast_S8x512x8x1_S8x512x8x1536_0_1_2_3 : (⟨S8x512x8x1, .f32⟩ : BufTy).Contents (Elt F) → (⟨S8x512x8x1536, .f32⟩ : BufTy).Contents (Elt F)),
    StableHlo.binary main_v100 main_v129 main_v130 (Host.divf : (⟨S8x512x8x1536, .f32⟩ : BufTy).Contents (Elt F) → (⟨S8x512x8x1536, .f32⟩ : BufTy).Contents (Elt F) → (⟨S8x512x8x1536, .f32⟩ : BufTy).Contents (Elt F)),
    StableHlo.TRef.nullary main_call6.cst (constant S_ .f32 0x00000000#32),
    StableHlo.TRef.unary main_call6.cst main_call6.v0 (broadcastInDim S8x512x8x1536 ![] bcast_S_S8x512x8x1536),
    StableHlo.TRef.binary (.of main_v130) main_call6.v0 main_call6.v1 maximumf ]

/-! ## The buffers each stretch touches and writes -/

theorem opsLin_sub : (opsLin : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nary_bufs_sub ..⟩

theorem opsNr1_sub : (opsNr1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub ..⟩

theorem opsNr2_sub : (opsNr2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub ..⟩

theorem writes_sub_of_mem {W : List (Ref sig .tc)} {op : HloOp τ sig (Elt F)} (y : Ref sig .tc)
    (hw : op.writes = {Proc.devRef .tc y}) (hy : y ∈ W) : op.writes ⊆ (W.map (Proc.devRef (τ := τ) .tc)).toFinset := by
  rw [hw, Finset.singleton_subset_iff, List.mem_toFinset]
  exact List.mem_map.mpr ⟨y, hy, rfl⟩

/-- The buffers the stretch writes, in order. -/
def linW : List (Ref sig .tc) := [main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100]

theorem opsLin_writes : (opsLin : List (HloOp τ sig (Elt F))).Forall fun op => op.writes ⊆ (linW.map (Proc.devRef (τ := τ) .tc)).toFinset :=
  ⟨writes_sub_of_mem main_v75 rfl (List.mem_cons_self),
    writes_sub_of_mem main_v76 rfl (List.mem_cons_of_mem _ (List.mem_cons_self)),
    writes_sub_of_mem main_v77 rfl (List.mem_cons_of_mem _ (List.mem_cons_of_mem _ (List.mem_cons_self))),
    writes_sub_of_mem main_v78 rfl (List.mem_cons_of_mem _ (List.mem_cons_of_mem _ (List.mem_cons_of_mem _ (List.mem_cons_self)))),
    writes_sub_of_mem main_v79 rfl (List.mem_cons_of_mem _ (List.mem_cons_of_mem _ (List.mem_cons_of_mem _ (List.mem_cons_of_mem _ (List.mem_cons_self))))),
    writes_sub_of_mem main_v80 rfl (List.mem_cons_of_mem _ (List.mem_cons_of_mem _ (List.mem_cons_of_mem _ (List.mem_cons_of_mem _ (List.mem_cons_of_mem _ (List.mem_cons_self)))))),
    writes_sub_of_mem main_v81 rfl (List.mem_cons_of_mem _ (List.mem_cons_of_mem _ (List.mem_cons_of_mem _ (List.mem_cons_of_mem _ (List.mem_cons_of_mem _ (List.mem_cons_of_mem _ (List.mem_cons_self))))))),
    writes_sub_of_mem main_v82 rfl (List.mem_cons_of_mem _ (List.mem_cons_of_mem _ (List.mem_cons_of_mem _ (List.mem_cons_of_mem _ (List.mem_cons_of_mem _ (List.mem_cons_of_mem _ (List.mem_cons_of_mem _ (List.mem_cons_self)))))))),
    writes_sub_of_mem main_v83 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))),
    writes_sub_of_mem main_v84 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))),
    writes_sub_of_mem main_v85 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))),
    writes_sub_of_mem main_v86 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))),
    writes_sub_of_mem main_v87 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))),
    writes_sub_of_mem main_v88 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))),
    writes_sub_of_mem main_v89 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))),
    writes_sub_of_mem main_v90 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))),
    writes_sub_of_mem main_v91 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))),
    writes_sub_of_mem main_v92 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))),
    writes_sub_of_mem main_v93 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))),
    writes_sub_of_mem main_v94 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))),
    writes_sub_of_mem main_v95 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))),
    writes_sub_of_mem main_v96 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))),
    writes_sub_of_mem main_v97 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))),
    writes_sub_of_mem main_v98 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))),
    writes_sub_of_mem main_v99 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))),
    writes_sub_of_mem main_v100 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))⟩

/-- A buffer the stretch does not write keeps its contents. -/
theorem opsLin_keeps (V : Valuation τ sig (Elt F)) (r : Ref sig .tc) (hr : r ∉ linW) :
    after (opsLin : List (HloOp τ sig (Elt F))) V (Proc.devRef .tc r) = V (Proc.devRef .tc r) :=
  after_of_writes_sub _ V opsLin_writes hr

/-- The buffers the stretch writes, in order. -/
def nr1W : List (Ref sig .tc) := [main_call2_v0, main_call2_cst, main_call2_v1, main_call2_v2, main_v101, main_cst_10, main_v102, main_v103, main_v104, main_v105, main_call3_cst, main_call3_v0, main_v106]

theorem opsNr1_writes : (opsNr1 : List (HloOp τ sig (Elt F))).Forall fun op => op.writes ⊆ (nr1W.map (Proc.devRef (τ := τ) .tc)).toFinset :=
  ⟨writes_sub_of_mem main_call2_v0 rfl (List.mem_cons_self),
    writes_sub_of_mem main_call2_cst rfl (List.mem_cons_of_mem _ (List.mem_cons_self)),
    writes_sub_of_mem main_call2_v1 rfl (List.mem_cons_of_mem _ (List.mem_cons_of_mem _ (List.mem_cons_self))),
    writes_sub_of_mem main_call2_v2 rfl (List.mem_cons_of_mem _ (List.mem_cons_of_mem _ (List.mem_cons_of_mem _ (List.mem_cons_self)))),
    writes_sub_of_mem main_v101 rfl (List.mem_cons_of_mem _ (List.mem_cons_of_mem _ (List.mem_cons_of_mem _ (List.mem_cons_of_mem _ (List.mem_cons_self))))),
    writes_sub_of_mem main_cst_10 rfl (List.mem_cons_of_mem _ (List.mem_cons_of_mem _ (List.mem_cons_of_mem _ (List.mem_cons_of_mem _ (List.mem_cons_of_mem _ (List.mem_cons_self)))))),
    writes_sub_of_mem main_v102 rfl (List.mem_cons_of_mem _ (List.mem_cons_of_mem _ (List.mem_cons_of_mem _ (List.mem_cons_of_mem _ (List.mem_cons_of_mem _ (List.mem_cons_of_mem _ (List.mem_cons_self))))))),
    writes_sub_of_mem main_v103 rfl (List.mem_cons_of_mem _ (List.mem_cons_of_mem _ (List.mem_cons_of_mem _ (List.mem_cons_of_mem _ (List.mem_cons_of_mem _ (List.mem_cons_of_mem _ (List.mem_cons_of_mem _ (List.mem_cons_self)))))))),
    writes_sub_of_mem main_v104 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))),
    writes_sub_of_mem main_v105 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))),
    writes_sub_of_mem main_call3_cst rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))),
    writes_sub_of_mem main_call3_v0 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))),
    writes_sub_of_mem main_v106 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))⟩

/-- A buffer the stretch does not write keeps its contents. -/
theorem opsNr1_keeps (V : Valuation τ sig (Elt F)) (r : Ref sig .tc) (hr : r ∉ nr1W) :
    after (opsNr1 : List (HloOp τ sig (Elt F))) V (Proc.devRef .tc r) = V (Proc.devRef .tc r) :=
  after_of_writes_sub _ V opsNr1_writes hr

/-- The buffers the stretch writes, in order. -/
def nr2W : List (Ref sig .tc) := [main_call5_v0, main_call5_cst, main_call5_v1, main_call5_v2, main_v126, main_cst_15, main_v127, main_v128, main_v129, main_v130, main_call6_cst, main_call6_v0, main_v131]

theorem opsNr2_writes : (opsNr2 : List (HloOp τ sig (Elt F))).Forall fun op => op.writes ⊆ (nr2W.map (Proc.devRef (τ := τ) .tc)).toFinset :=
  ⟨writes_sub_of_mem main_call5_v0 rfl (List.mem_cons_self),
    writes_sub_of_mem main_call5_cst rfl (List.mem_cons_of_mem _ (List.mem_cons_self)),
    writes_sub_of_mem main_call5_v1 rfl (List.mem_cons_of_mem _ (List.mem_cons_of_mem _ (List.mem_cons_self))),
    writes_sub_of_mem main_call5_v2 rfl (List.mem_cons_of_mem _ (List.mem_cons_of_mem _ (List.mem_cons_of_mem _ (List.mem_cons_self)))),
    writes_sub_of_mem main_v126 rfl (List.mem_cons_of_mem _ (List.mem_cons_of_mem _ (List.mem_cons_of_mem _ (List.mem_cons_of_mem _ (List.mem_cons_self))))),
    writes_sub_of_mem main_cst_15 rfl (List.mem_cons_of_mem _ (List.mem_cons_of_mem _ (List.mem_cons_of_mem _ (List.mem_cons_of_mem _ (List.mem_cons_of_mem _ (List.mem_cons_self)))))),
    writes_sub_of_mem main_v127 rfl (List.mem_cons_of_mem _ (List.mem_cons_of_mem _ (List.mem_cons_of_mem _ (List.mem_cons_of_mem _ (List.mem_cons_of_mem _ (List.mem_cons_of_mem _ (List.mem_cons_self))))))),
    writes_sub_of_mem main_v128 rfl (List.mem_cons_of_mem _ (List.mem_cons_of_mem _ (List.mem_cons_of_mem _ (List.mem_cons_of_mem _ (List.mem_cons_of_mem _ (List.mem_cons_of_mem _ (List.mem_cons_of_mem _ (List.mem_cons_self)))))))),
    writes_sub_of_mem main_v129 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))),
    writes_sub_of_mem main_v130 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))),
    writes_sub_of_mem main_call6_cst rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))),
    writes_sub_of_mem main_call6_v0 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))),
    writes_sub_of_mem main_v131 rfl (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))⟩

/-- A buffer the stretch does not write keeps its contents. -/
theorem opsNr2_keeps (V : Valuation τ sig (Elt F)) (r : Ref sig .tc) (hr : r ∉ nr2W) :
    after (opsNr2 : List (HloOp τ sig (Elt F))) V (Proc.devRef .tc r) = V (Proc.devRef .tc r) :=
  after_of_writes_sub _ V opsNr2_writes hr

end Cert.ReferenceIdeal.RefLin

end
-- ==== Proof.RefBn.lean ====
/-
  The two batch-norm stretches of the reference: for one branch's normalised activations G (held as the
  four-axis array unrows G), the column sum over the 32768 rows and its quotient by 32768 (the mean); the
  variance as the quotient by 32768 − 0 of the column sum of squared deviations from the mean, selected
  because 32768 − 0 > 0; then (g − mean) · rsqrt(var + 1e-5) · gamma + beta, entry by entry.
-/
import proofs.«404490_j9337258902039_3_alg».proof.ReferenceIdeal
import proofs.«404490_j9337258902039_3_alg».proof.Proof.Gen.ReferenceIdeal
import proofs.«404490_j9337258902039_3_alg».proof.Proof.Spec
import Idealize.ShloMosaic.Lib.StableHlo.Run

noncomputable section

namespace Cert.ReferenceIdeal.RefBn

open Idealize.ShloMosaic Idealize.ShloMosaic.ValueIdx Idealize.ShloMosaic.TcCoe Idealize.ShloMosaic.StableHlo Idealize.SL.Sem
open Cert.ReferenceIdeal Cert.ReferenceIdeal.Gen

variable {F : FTy → Type} [FloatOps F]

/-- Branch 1's batch-norm stretch in the program's order: the column sum and the mean; the variance function's
    operations (its own sum and mean, the deviations squared, their sum, the divisor 32768 − 0, the quotient, the
    comparison, the selection with its three operations); the deviations from the mean, the reciprocal square
    root of variance + 1e-5, and the scale and shift. -/
abbrev opsBn1 : List (HloOp τ sig (Elt F)) :=
  [ nullary main_cst_11 (constant S_ .f32 0x00000000#32),
    binary main_v106 main_cst_11 main_v107 (fun x v => Host.reduceAdd x v reducesTo_S8x512x8x1536_S1536_d0_1_2 h_S_),
    nullary main_cst_12 (constant S_ .f32 0x47000000#32),
    unary main_cst_12 main_v108 (broadcastInDim S1536 ![] bcast_S_S1536),
    binary main_v107 main_v108 main_v109 Host.divf,
    nullary main_c_13 (constantI S_ 32 0#32),
    TRef.nullary main_call4.cst (constant S_ .f32 0x00000000#32),
    TRef.binary (.of main_v106) main_call4.cst main_call4.v0 (fun x v => Host.reduceAdd x v reducesTo_S8x512x8x1536_S1536_d0_1_2 h_S_),
    TRef.unary main_call4.v0 main_call4.v1 (broadcastInDim S1x1x1x1536 ![3] bcast_S1536_S1x1x1x1536_3),
    TRef.nullary main_call4.cst_0 (constant S_ .f32 0x47000000#32),
    TRef.unary main_call4.cst_0 main_call4.v2 (broadcastInDim S1x1x1x1536 ![] bcast_S_S1x1x1x1536),
    TRef.binary main_call4.v1 main_call4.v2 main_call4.v3 Host.divf,
    TRef.unary main_call4.v3 main_call4.v4 (broadcastInDim S8x512x8x1536 ![0, 1, 2, 3] bcast_S1x1x1x1536_S8x512x8x1536_0_1_2_3),
    TRef.binary (.of main_v106) main_call4.v4 main_call4.v5 subf,
    TRef.binary main_call4.v5 main_call4.v5 main_call4.v6 mulf,
    TRef.unary (.of main_c_13) main_call4.v7 (sitofp .f32),
    TRef.nullary main_call4.cst_1 (constant S_ .f32 0x47000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S8x512x8x1536_S1536_d0_1_2 h_S_),
    TRef.unary main_call4.v8 main_call4.v10 (broadcastInDim S1536 ![] bcast_S_S1536),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S1536 ![] bcast_S_S1536),
    TRef.ternary main_call4.v12 main_call4.v11 main_call4.call0.v1 main_call4.call0.v2 (fun p a b => select (broadcastInDim S1536 ![] bcast_S_S1536 p) a b),
    unary main_v109 main_v111 (broadcastInDim S1x1x1x1536 ![3] bcast_S1536_S1x1x1x1536_3),
    unary main_v111 main_v112 (broadcastInDim S8x512x8x1536 ![0, 1, 2, 3] bcast_S1x1x1x1536_S8x512x8x1536_0_1_2_3),
    binary main_v106 main_v112 main_v113 subf,
    nullary main_cst_14 (constant S_ .f32 0x3727C5AC#32),
    unary main_cst_14 main_v114 (broadcastInDim S1536 ![] bcast_S_S1536),
    binary main_v110 main_v114 main_v115 addf,
    unary main_v115 main_v116 Host.rsqrt,
    unary main_v116 main_v117 (broadcastInDim S1x1x1x1536 ![3] bcast_S1536_S1x1x1x1536_3),
    unary main_v117 main_v118 (broadcastInDim S8x512x8x1536 ![0, 1, 2, 3] bcast_S1x1x1x1536_S8x512x8x1536_0_1_2_3),
    binary main_v113 main_v118 main_v119 mulf,
    unary main_arg10 main_v120 (broadcastInDim S1x1x1x1536 ![3] bcast_S1536_S1x1x1x1536_3),
    unary main_v120 main_v121 (broadcastInDim S8x512x8x1536 ![0, 1, 2, 3] bcast_S1x1x1x1536_S8x512x8x1536_0_1_2_3),
    binary main_v119 main_v121 main_v122 mulf,
    unary main_arg11 main_v123 (broadcastInDim S1x1x1x1536 ![3] bcast_S1536_S1x1x1x1536_3),
    unary main_v123 main_v124 (broadcastInDim S8x512x8x1536 ![0, 1, 2, 3] bcast_S1x1x1x1536_S8x512x8x1536_0_1_2_3),
    binary main_v122 main_v124 main_v125 addf ]

/-- Branch 2's batch-norm stretch, the same operations over its own buffers. -/
abbrev opsBn2 : List (HloOp τ sig (Elt F)) :=
  [ nullary main_cst_16 (constant S_ .f32 0x00000000#32),
    binary main_v131 main_cst_16 main_v132 (fun x v => Host.reduceAdd x v reducesTo_S8x512x8x1536_S1536_d0_1_2 h_S_),
    nullary main_cst_17 (constant S_ .f32 0x47000000#32),
    unary main_cst_17 main_v133 (broadcastInDim S1536 ![] bcast_S_S1536),
    binary main_v132 main_v133 main_v134 Host.divf,
    nullary main_c_18 (constantI S_ 32 0#32),
    TRef.nullary main_call7.cst (constant S_ .f32 0x00000000#32),
    TRef.binary (.of main_v131) main_call7.cst main_call7.v0 (fun x v => Host.reduceAdd x v reducesTo_S8x512x8x1536_S1536_d0_1_2 h_S_),
    TRef.unary main_call7.v0 main_call7.v1 (broadcastInDim S1x1x1x1536 ![3] bcast_S1536_S1x1x1x1536_3),
    TRef.nullary main_call7.cst_0 (constant S_ .f32 0x47000000#32),
    TRef.unary main_call7.cst_0 main_call7.v2 (broadcastInDim S1x1x1x1536 ![] bcast_S_S1x1x1x1536),
    TRef.binary main_call7.v1 main_call7.v2 main_call7.v3 Host.divf,
    TRef.unary main_call7.v3 main_call7.v4 (broadcastInDim S8x512x8x1536 ![0, 1, 2, 3] bcast_S1x1x1x1536_S8x512x8x1536_0_1_2_3),
    TRef.binary (.of main_v131) main_call7.v4 main_call7.v5 subf,
    TRef.binary main_call7.v5 main_call7.v5 main_call7.v6 mulf,
    TRef.unary (.of main_c_18) main_call7.v7 (sitofp .f32),
    TRef.nullary main_call7.cst_1 (constant S_ .f32 0x47000000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S8x512x8x1536_S1536_d0_1_2 h_S_),
    TRef.unary main_call7.v8 main_call7.v10 (broadcastInDim S1536 ![] bcast_S_S1536),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S1536 ![] bcast_S_S1536),
    TRef.ternary main_call7.v12 main_call7.v11 main_call7.call0.v1 main_call7.call0.v2 (fun p a b => select (broadcastInDim S1536 ![] bcast_S_S1536 p) a b),
    unary main_v134 main_v136 (broadcastInDim S1x1x1x1536 ![3] bcast_S1536_S1x1x1x1536_3),
    unary main_v136 main_v137 (broadcastInDim S8x512x8x1536 ![0, 1, 2, 3] bcast_S1x1x1x1536_S8x512x8x1536_0_1_2_3),
    binary main_v131 main_v137 main_v138 subf,
    nullary main_cst_19 (constant S_ .f32 0x3727C5AC#32),
    unary main_cst_19 main_v139 (broadcastInDim S1536 ![] bcast_S_S1536),
    binary main_v135 main_v139 main_v140 addf,
    unary main_v140 main_v141 Host.rsqrt,
    unary main_v141 main_v142 (broadcastInDim S1x1x1x1536 ![3] bcast_S1536_S1x1x1x1536_3),
    unary main_v142 main_v143 (broadcastInDim S8x512x8x1536 ![0, 1, 2, 3] bcast_S1x1x1x1536_S8x512x8x1536_0_1_2_3),
    binary main_v138 main_v143 main_v144 mulf,
    unary main_arg10 main_v145 (broadcastInDim S1x1x1x1536 ![3] bcast_S1536_S1x1x1x1536_3),
    unary main_v145 main_v146 (broadcastInDim S8x512x8x1536 ![0, 1, 2, 3] bcast_S1x1x1x1536_S8x512x8x1536_0_1_2_3),
    binary main_v144 main_v146 main_v147 mulf,
    unary main_arg11 main_v148 (broadcastInDim S1x1x1x1536 ![3] bcast_S1536_S1x1x1x1536_3),
    unary main_v148 main_v149 (broadcastInDim S8x512x8x1536 ![0, 1, 2, 3] bcast_S1x1x1x1536_S8x512x8x1536_0_1_2_3),
    binary main_v147 main_v149 main_v150 addf ]

/-! ## Every buffer the stretches name is one of the TensorCore's -/

/-- Branch 1's operations touch TensorCore buffers only. -/
theorem opsBn1_sub : (opsBn1 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub ..⟩

/-- Branch 2's operations touch TensorCore buffers only. -/
theorem opsBn2_sub : (opsBn2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub ..⟩

/-! ## The stretch as one term of the activations, the scale and the shift -/

/-- The column sums: the sum over the three leading axes, from zero. -/
def csum (g : FVec F S8x512x8x1536 .f32) : FVec F S1536 .f32 :=
  Host.reduceAdd g (constant S_ .f32 0x00000000#32) reducesTo_S8x512x8x1536_S1536_d0_1_2 h_S_

/-- The row count 32768 as a scalar. -/
def c32768 : FVec F S_ .f32 := constant S_ .f32 0x47000000#32

/-- The column means: the column sums over 32768. -/
def meanT (g : FVec F S8x512x8x1536 .f32) : FVec F S1536 .f32 :=
  Host.divf (csum g) (broadcastInDim S1536 ![] bcast_S_S1536 c32768)

/-- A per-column vector placed on the last of four axes, the others of extent one. -/
def up1 (v : FVec F S1536 .f32) : FVec F S1x1x1x1536 .f32 :=
  broadcastInDim S1x1x1x1536 ![3] bcast_S1536_S1x1x1x1536_3 v

/-- That array repeated over the three leading axes. -/
def up4 (v : FVec F S1x1x1x1536 .f32) : FVec F S8x512x8x1536 .f32 :=
  broadcastInDim S8x512x8x1536 ![0, 1, 2, 3] bcast_S1x1x1x1536_S8x512x8x1536_0_1_2_3 v

/-- The deviations from the column mean, as the variance function forms them (its own quotient, on four axes). -/
def devT (g : FVec F S8x512x8x1536 .f32) : FVec F S8x512x8x1536 .f32 :=
  subf g (up4 (Host.divf (up1 (csum g)) (broadcastInDim S1x1x1x1536 ![] bcast_S_S1x1x1x1536 c32768)))

/-- The variance's divisor: 32768 minus the converted integer zero. -/
def cntT : FVec F S_ .f32 := subf c32768 (sitofp .f32 (constantI S_ 32 0#32) : FVec F S_ .f32)

/-- The variance: the column sums of the squared deviations over the divisor, selected where the divisor is
    positive, else the fill value. -/
def varT (g : FVec F S8x512x8x1536 .f32) : FVec F S1536 .f32 :=
  select (broadcastInDim S1536 ![] bcast_S_S1536 (cmpf .ogt (cntT : FVec F S_ .f32) (constant S_ .f32 0x00000000#32)))
    (Host.divf (csum (mulf (devT g) (devT g))) (broadcastInDim S1536 ![] bcast_S_S1536 cntT))
    (broadcastInDim S1536 ![] bcast_S_S1536 (id (constant S_ .f32 0x7FC00000#32)))

/-- The stretch's result: (g − mean) · rsqrt(var + 1e-5) · gamma + beta. -/
def bnT (g : FVec F S8x512x8x1536 .f32) (γ β : FVec F S1536 .f32) : FVec F S8x512x8x1536 .f32 :=
  addf
    (mulf
      (mulf (subf g (up4 (up1 (meanT g))))
        (up4 (up1 (Host.rsqrt (addf (varT g) (broadcastInDim S1536 ![] bcast_S_S1536 (constant S_ .f32 0x3727C5AC#32)))))))
      (up4 (up1 γ)))
    (up4 (up1 β))

attribute [local irreducible] Host.reduceAdd in
set_option maxRecDepth 8192 in
/-- Branch 1's stretch leaves that term of its three inputs in its result buffer: the fold unrolled, each operation
    deciding whether the buffer read is the one it writes. -/
theorem bn1_term (V : Valuation τ sig (Elt F)) :
    after opsBn1 V (main_v125 : DevRef τ sig)
      = bnT (V (main_v106 : DevRef τ sig)) (V (main_arg10 : DevRef τ sig)) (V (main_arg11 : DevRef τ sig)) := by
  simp only [after_cons, after_nil]
  rfl

attribute [local irreducible] Host.reduceAdd in
set_option maxRecDepth 8192 in
/-- Branch 2's stretch likewise. -/
theorem bn2_term (V : Valuation τ sig (Elt F)) :
    after opsBn2 V (main_v150 : DevRef τ sig)
      = bnT (V (main_v131 : DevRef τ sig)) (V (main_arg10 : DevRef τ sig)) (V (main_arg11 : DevRef τ sig)) := by
  simp only [after_cons, after_nil]
  rfl

end Cert.ReferenceIdeal.RefBn

end
-- ==== Proof.RefRun.lean ====
/-
  The reference's run, glued. The program is a straight line of 233 host operations once its calls are
  unfolded; it is cut into seven stretches in the program's order (neighbour means, attention, the linear
  maps, branch 1's normalisation and clip, branch 1's batch norm, branch 2's normalisation and clip,
  branch 2's batch norm). This module states that the program IS the line of the seven lists one after
  the other, that every operation touches only buffers of the device and determines what it writes, that
  every run ends with each buffer at the fold of the operations over the launch contents, that the fold
  over the whole line is the folds of the stretches composed, and that a buffer a stretch does not write
  keeps its contents across the stretch.
-/
import proofs.«404490_j9337258902039_3_alg».proof.ReferenceIdeal
import proofs.«404490_j9337258902039_3_alg».proof.Proof.Gen.ReferenceIdeal
import proofs.«404490_j9337258902039_3_alg».proof.Proof.RefNb
import proofs.«404490_j9337258902039_3_alg».proof.Proof.RefAtt
import proofs.«404490_j9337258902039_3_alg».proof.Proof.RefLin
import proofs.«404490_j9337258902039_3_alg».proof.Proof.RefBn
import Idealize.ShloMosaic.Lib.StableHlo.Run
import Idealize.ShloMosaic.Lib.Pipeline.Frame
import Idealize.ShloMosaic.Lib.Pipeline.Regions

noncomputable section

namespace Cert.ReferenceIdeal.RefRun

open Idealize.ShloMosaic Idealize.ShloMosaic.StableHlo Idealize.SL.Sem
open Cert.ReferenceIdeal Cert.ReferenceIdeal.Facts₀ Cert.ReferenceIdeal.Facts
open Cert.ReferenceIdeal.RefNb Cert.ReferenceIdeal.RefAtt Cert.ReferenceIdeal.RefLin
open Cert.ReferenceIdeal.RefBn

variable {F : FTy → Type} [FloatOps F]

/-! ## The whole line -/

/-- The seven stretches one after the other, in the program's order. -/
abbrev opsAll : List (HloOp τ sig (Elt F)) :=
  opsNb ++ opsAtt ++ opsLin ++ opsNr1 ++ opsBn1 ++ opsNr2 ++ opsBn2

/-! ## The program is the line

The program is printed in three windows of sixty statements. The first window ends inside the attention
stretch, after its twenty-eighth operation; the second ends with branch 1's clip; the third is the rest.
Each window is the line of its operations by unfolding; the three lines joined are the whole line because
a list is its first twenty-eight elements followed by the others. -/

/-- The first window's operations: the neighbour means and the head of the attention stretch. -/
def opsW0 : List (HloOp τ sig (Elt F)) := opsNb ++ opsAtt.take 28
/-- The second window's operations: the rest of the attention stretch, the linear maps, branch 1's normalisation and clip. -/
def opsW1 : List (HloOp τ sig (Elt F)) := opsAtt.drop 28 ++ opsLin ++ opsNr1
/-- The third window's operations: branch 1's batch norm, branch 2's normalisation, clip and batch norm. -/
def opsW2 : List (HloOp τ sig (Elt F)) := opsBn1 ++ opsNr2 ++ opsBn2

theorem main_part0_eq (c : Dev nD) : main_part0 (F := F) c = seq opsW0 := by chain_rfl
theorem main_part1_eq (c : Dev nD) : main_part1 (F := F) c = seq opsW1 := by chain_rfl
theorem main_part2_eq (c : Dev nD) : main_part2 (F := F) c = seq opsW2 := by chain_rfl

/-- The three windows' lists joined are the seven stretches joined. -/
theorem windows_join : (opsW0 ++ (opsW1 ++ opsW2) : List (HloOp τ sig (Elt F))) = opsAll := by
  simp only [opsW0, opsW1, opsW2, opsAll, List.append_assoc]
  rw [← List.append_assoc (opsAtt.take 28) (opsAtt.drop 28), List.take_append_drop]

/-- The program is the line of the seven stretches. -/
theorem main_eq (c : Dev nD) : main (F := F) c = seq opsAll := by
  rw [← windows_join, seq_append, seq_append, ← main_part0_eq c, ← main_part1_eq c, ← main_part2_eq c]
  rfl

/-! ## Every operation touches the device's buffers only, and determines what it writes

Per stretch, one fact per operation in the stretch's order: the operation's buffers are device buffers (the
builder's own lemma), it leaves nothing undetermined (by its definition), and the one buffer it writes is in the
stretch's list of written buffers. -/

/-- A singleton of a listed buffer lies inside the listed buffers. -/
theorem writes_ok {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- The buffers written by the neighbour means, in the order they are written. -/
abbrev writesNb : List (Ref sig .tc) :=
  [ main_v0, main_v1, main_c, main_v2, main_v3, main_v4,
    main_c_0, main_v5, main_v6, main_v7, main_v8, main_v9,
    main_v10, main_v11, main_cst, main_v12, main_v13, main_v14,
    main_v15, main_v16, main_v17, main_v18, main_c_1, main_v19,
    main_v20, main_v21, main_v22, main_v23, main_v24, main_v25,
    main_cst_2, main_v26, main_v27, main_v28, main_v29, main_v30,
    main_v31, main_v32 ]

theorem opsNb_sub' : (opsNb : List (HloOp τ sig (Elt F))).Forall fun op => op.bufs ⊆ tcRefs τ sig :=
  ⟨nullary_bufs_sub .., nullary_bufs_sub .., nullary_bufs_sub .., unary_bufs_sub .., binary_bufs_sub ..,
    binary_bufs_sub .., nullary_bufs_sub .., unary_bufs_sub .., binary_bufs_sub .., unary_bufs_sub ..,
    unary_bufs_sub .., unary_bufs_sub .., binary_bufs_sub .., unary_bufs_sub .., nullary_bufs_sub ..,
    binary_bufs_sub .., reshape_bufs_sub .., binary_bufs_sub .., unary_bufs_sub .., unary_bufs_sub ..,
    binary_bufs_sub .., reshape_bufs_sub .., nullary_bufs_sub .., unary_bufs_sub .., binary_bufs_sub ..,
    unary_bufs_sub .., unary_bufs_sub .., unary_bufs_sub .., binary_bufs_sub .., unary_bufs_sub ..,
    nullary_bufs_sub .., binary_bufs_sub .., reshape_bufs_sub .., binary_bufs_sub .., unary_bufs_sub ..,
    unary_bufs_sub .., binary_bufs_sub .., reshape_bufs_sub ..⟩

theorem opsNb_fresh : (opsNb : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem opsNb_writes : (opsNb : List (HloOp τ sig (Elt F))).Forall fun op =>
    op.writes ⊆ (writesNb.map (Proc.devRef (τ := τ) .tc)).toFinset :=
  ⟨writes_ok main_v0 (by decide), writes_ok main_v1 (by decide), writes_ok main_c (by decide),
    writes_ok main_v2 (by decide), writes_ok main_v3 (by decide), writes_ok main_v4 (by decide),
    writes_ok main_c_0 (by decide), writes_ok main_v5 (by decide), writes_ok main_v6 (by decide),
    writes_ok main_v7 (by decide), writes_ok main_v8 (by decide), writes_ok main_v9 (by decide),
    writes_ok main_v10 (by decide), writes_ok main_v11 (by decide), writes_ok main_cst (by decide),
    writes_ok main_v12 (by decide), writes_ok main_v13 (by decide), writes_ok main_v14 (by decide),
    writes_ok main_v15 (by decide), writes_ok main_v16 (by decide), writes_ok main_v17 (by decide),
    writes_ok main_v18 (by decide), writes_ok main_c_1 (by decide), writes_ok main_v19 (by decide),
    writes_ok main_v20 (by decide), writes_ok main_v21 (by decide), writes_ok main_v22 (by decide),
    writes_ok main_v23 (by decide), writes_ok main_v24 (by decide), writes_ok main_v25 (by decide),
    writes_ok main_cst_2 (by decide), writes_ok main_v26 (by decide), writes_ok main_v27 (by decide),
    writes_ok main_v28 (by decide), writes_ok main_v29 (by decide), writes_ok main_v30 (by decide),
    writes_ok main_v31 (by decide), writes_ok main_v32 (by decide)⟩

/-- The buffers written by the attention stretch, in the order they are written. -/
abbrev writesAtt : List (Ref sig .tc) :=
  [ main_v33, main_v34, main_call0.v0.ref, main_call0.cst.ref, main_call0.v1.ref, main_call0.v2.ref,
    main_call1.v0.ref, main_call1.cst.ref, main_call1.v1.ref, main_call1.v2.ref, main_v37, main_v38,
    main_v39, main_v40, main_v41, main_v42, main_cst_3, main_v43,
    main_v44, main_v45, main_cst_4, main_v46, main_cst_5, main_v47,
    main_v48, main_v49, main_v50, main_v51, main_v52, main_cst_6,
    main_v53, main_v54, main_v55, main_v56, main_v57, main_cst_7,
    main_v58, main_cst_8, main_v59, main_v60, main_v61, main_v62,
    main_v63, main_v64, main_cst_9, main_v65, main_v66, main_v67,
    main_v68, main_v69, main_v70, main_v71, main_v72, main_v73,
    main_v74 ]

theorem opsAtt_sub' : (opsAtt : List (HloOp τ sig (Elt F))).Forall fun op => op.bufs ⊆ tcRefs τ sig :=
  ⟨reshape_bufs_sub .., reshape_bufs_sub .., binary_bufs_sub .., nullary_bufs_sub .., binary_bufs_sub ..,
    unary_bufs_sub .., binary_bufs_sub .., nullary_bufs_sub .., binary_bufs_sub .., unary_bufs_sub ..,
    binary_bufs_sub .., unary_bufs_sub .., unary_bufs_sub .., unary_bufs_sub .., unary_bufs_sub ..,
    binary_bufs_sub .., nullary_bufs_sub .., unary_bufs_sub .., binary_bufs_sub .., binary_bufs_sub ..,
    nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., binary_bufs_sub .., unary_bufs_sub ..,
    nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., binary_bufs_sub .., binary_bufs_sub ..,
    binary_bufs_sub .., reshape_bufs_sub .., binary_bufs_sub .., binary_bufs_sub .., reshape_bufs_sub ..⟩

theorem opsAtt_fresh : (opsAtt : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem opsAtt_writes : (opsAtt : List (HloOp τ sig (Elt F))).Forall fun op =>
    op.writes ⊆ (writesAtt.map (Proc.devRef (τ := τ) .tc)).toFinset :=
  ⟨writes_ok main_v33 (by decide), writes_ok main_v34 (by decide), writes_ok (main_call0.v0.ref) (by decide),
    writes_ok (main_call0.cst.ref) (by decide), writes_ok (main_call0.v1.ref) (by decide), writes_ok (main_call0.v2.ref) (by decide),
    writes_ok (main_call1.v0.ref) (by decide), writes_ok (main_call1.cst.ref) (by decide), writes_ok (main_call1.v1.ref) (by decide),
    writes_ok (main_call1.v2.ref) (by decide), writes_ok main_v37 (by decide), writes_ok main_v38 (by decide),
    writes_ok main_v39 (by decide), writes_ok main_v40 (by decide), writes_ok main_v41 (by decide),
    writes_ok main_v42 (by decide), writes_ok main_cst_3 (by decide), writes_ok main_v43 (by decide),
    writes_ok main_v44 (by decide), writes_ok main_v45 (by decide), writes_ok main_cst_4 (by decide),
    writes_ok main_v46 (by decide), writes_ok main_cst_5 (by decide), writes_ok main_v47 (by decide),
    writes_ok main_v48 (by decide), writes_ok main_v49 (by decide), writes_ok main_v50 (by decide),
    writes_ok main_v51 (by decide), writes_ok main_v52 (by decide), writes_ok main_cst_6 (by decide),
    writes_ok main_v53 (by decide), writes_ok main_v54 (by decide), writes_ok main_v55 (by decide),
    writes_ok main_v56 (by decide), writes_ok main_v57 (by decide), writes_ok main_cst_7 (by decide),
    writes_ok main_v58 (by decide), writes_ok main_cst_8 (by decide), writes_ok main_v59 (by decide),
    writes_ok main_v60 (by decide), writes_ok main_v61 (by decide), writes_ok main_v62 (by decide),
    writes_ok main_v63 (by decide), writes_ok main_v64 (by decide), writes_ok main_cst_9 (by decide),
    writes_ok main_v65 (by decide), writes_ok main_v66 (by decide), writes_ok main_v67 (by decide),
    writes_ok main_v68 (by decide), writes_ok main_v69 (by decide), writes_ok main_v70 (by decide),
    writes_ok main_v71 (by decide), writes_ok main_v72 (by decide), writes_ok main_v73 (by decide),
    writes_ok main_v74 (by decide)⟩

/-- The buffers written by the linear maps, in the order they are written. -/
abbrev writesLin : List (Ref sig .tc) :=
  [ main_v75, main_v76, main_v77, main_v78, main_v79, main_v80,
    main_v81, main_v82, main_v83, main_v84, main_v85, main_v86,
    main_v87, main_v88, main_v89, main_v90, main_v91, main_v92,
    main_v93, main_v94, main_v95, main_v96, main_v97, main_v98,
    main_v99, main_v100 ]

theorem opsLin_sub' : (opsLin : List (HloOp τ sig (Elt F))).Forall fun op => op.bufs ⊆ tcRefs τ sig :=
  ⟨binary_bufs_sub .., unary_bufs_sub .., unary_bufs_sub .., binary_bufs_sub .., binary_bufs_sub ..,
    unary_bufs_sub .., unary_bufs_sub .., binary_bufs_sub .., binary_bufs_sub .., unary_bufs_sub ..,
    unary_bufs_sub .., binary_bufs_sub .., nary_bufs_sub .., binary_bufs_sub .., unary_bufs_sub ..,
    unary_bufs_sub .., binary_bufs_sub .., binary_bufs_sub .., unary_bufs_sub .., unary_bufs_sub ..,
    binary_bufs_sub .., binary_bufs_sub .., unary_bufs_sub .., unary_bufs_sub .., binary_bufs_sub ..,
    nary_bufs_sub ..⟩

theorem opsLin_fresh : (opsLin : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl⟩

theorem opsLin_writes : (opsLin : List (HloOp τ sig (Elt F))).Forall fun op =>
    op.writes ⊆ (writesLin.map (Proc.devRef (τ := τ) .tc)).toFinset :=
  ⟨writes_ok main_v75 (by decide), writes_ok main_v76 (by decide), writes_ok main_v77 (by decide),
    writes_ok main_v78 (by decide), writes_ok main_v79 (by decide), writes_ok main_v80 (by decide),
    writes_ok main_v81 (by decide), writes_ok main_v82 (by decide), writes_ok main_v83 (by decide),
    writes_ok main_v84 (by decide), writes_ok main_v85 (by decide), writes_ok main_v86 (by decide),
    writes_ok main_v87 (by decide), writes_ok main_v88 (by decide), writes_ok main_v89 (by decide),
    writes_ok main_v90 (by decide), writes_ok main_v91 (by decide), writes_ok main_v92 (by decide),
    writes_ok main_v93 (by decide), writes_ok main_v94 (by decide), writes_ok main_v95 (by decide),
    writes_ok main_v96 (by decide), writes_ok main_v97 (by decide), writes_ok main_v98 (by decide),
    writes_ok main_v99 (by decide), writes_ok main_v100 (by decide)⟩

/-- The buffers written by branch 1's normalisation and clip, in the order they are written. -/
abbrev writesNr1 : List (Ref sig .tc) :=
  [ main_call2.v0.ref, main_call2.cst.ref, main_call2.v1.ref, main_call2.v2.ref, main_call2.v3.ref, main_cst_10,
    main_v102, main_v103, main_v104, main_v105, main_call3.cst.ref, main_call3.v0.ref,
    main_call3.v1.ref ]

theorem opsNr1_sub' : (opsNr1 : List (HloOp τ sig (Elt F))).Forall fun op => op.bufs ⊆ tcRefs τ sig :=
  ⟨binary_bufs_sub .., nullary_bufs_sub .., binary_bufs_sub .., unary_bufs_sub .., unary_bufs_sub ..,
    nullary_bufs_sub .., unary_bufs_sub .., binary_bufs_sub .., unary_bufs_sub .., binary_bufs_sub ..,
    nullary_bufs_sub .., unary_bufs_sub .., binary_bufs_sub ..⟩

theorem opsNr1_fresh : (opsNr1 : List (HloOp τ sig (Elt F))).Forall fun op => op.fresh = ∅ :=
  ⟨rfl, rfl, rfl, rfl, rfl, rfl, rfl, rfl, rfl, rfl, rfl, rfl, rfl⟩

theorem opsNr1_writes : (opsNr1 : List (HloOp τ sig (Elt F))).Forall fun op =>
    op.writes ⊆ (writesNr1.map (Proc.devRef (τ := τ) .tc)).toFinset :=
  ⟨writes_ok (main_call2.v0.ref) (by decide), writes_ok (main_call2.cst.ref) (by decide), writes_ok (main_call2.v1.ref) (by decide),
    writes_ok (main_call2.v2.ref) (by decide), writes_ok (main_call2.v3.ref) (by decide), writes_ok main_cst_10 (by decide),
    writes_ok main_v102 (by decide), writes_ok main_v103 (by decide), writes_ok main_v104 (by decide),
    writes_ok main_v105 (by decide), writes_ok (main_call3.cst.ref) (by decide), writes_ok (main_call3.v0.ref) (by decide),
    writes_ok (main_call3.v1.ref) (by decide)⟩

/-- The buffers written by branch 1's batch norm, in the order they are written. -/
abbrev writesBn1 : List (Ref sig .tc) :=
  [ main_cst_11, main_v107, main_cst_12, main_v108, main_v109, main_c_13,
    main_call4.cst.ref, main_call4.v0.ref, main_call4.v1.ref, main_call4.cst_0.ref, main_call4.v2.ref, main_call4.v3.ref,
    main_call4.v4.ref, main_call4.v5.ref, main_call4.v6.ref, main_call4.v7.ref, main_call4.cst_1.ref, main_call4.v8.ref,
    main_call4.cst_2.ref, main_call4.v9.ref, main_call4.v10.ref, main_call4.v11.ref, main_call4.cst_3.ref, main_call4.v12.ref,
    main_call4.cst_4.ref, main_call4.call0.v0.ref, main_call4.call0.v1.ref, main_call4.call0.v2.ref, main_v111, main_v112,
    main_v113, main_cst_14, main_v114, main_v115, main_v116, main_v117,
    main_v118, main_v119, main_v120, main_v121, main_v122, main_v123,
    main_v124, main_v125 ]

theorem opsBn1_sub' : (opsBn1 : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., unary_bufs_sub .., unary_bufs_sub .., binary_bufs_sub ..⟩

theorem opsBn1_fresh : (opsBn1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem opsBn1_writes : (opsBn1 : List (HloOp τ sig (Elt F))).Forall fun op =>
    op.writes ⊆ (writesBn1.map (Proc.devRef (τ := τ) .tc)).toFinset :=
  ⟨writes_ok main_cst_11 (by decide), writes_ok main_v107 (by decide), writes_ok main_cst_12 (by decide),
    writes_ok main_v108 (by decide), writes_ok main_v109 (by decide), writes_ok main_c_13 (by decide),
    writes_ok (main_call4.cst.ref) (by decide), writes_ok (main_call4.v0.ref) (by decide), writes_ok (main_call4.v1.ref) (by decide),
    writes_ok (main_call4.cst_0.ref) (by decide), writes_ok (main_call4.v2.ref) (by decide), writes_ok (main_call4.v3.ref) (by decide),
    writes_ok (main_call4.v4.ref) (by decide), writes_ok (main_call4.v5.ref) (by decide), writes_ok (main_call4.v6.ref) (by decide),
    writes_ok (main_call4.v7.ref) (by decide), writes_ok (main_call4.cst_1.ref) (by decide), writes_ok (main_call4.v8.ref) (by decide),
    writes_ok (main_call4.cst_2.ref) (by decide), writes_ok (main_call4.v9.ref) (by decide), writes_ok (main_call4.v10.ref) (by decide),
    writes_ok (main_call4.v11.ref) (by decide), writes_ok (main_call4.cst_3.ref) (by decide), writes_ok (main_call4.v12.ref) (by decide),
    writes_ok (main_call4.cst_4.ref) (by decide), writes_ok (main_call4.call0.v0.ref) (by decide), writes_ok (main_call4.call0.v1.ref) (by decide),
    writes_ok (main_call4.call0.v2.ref) (by decide), writes_ok main_v111 (by decide), writes_ok main_v112 (by decide),
    writes_ok main_v113 (by decide), writes_ok main_cst_14 (by decide), writes_ok main_v114 (by decide),
    writes_ok main_v115 (by decide), writes_ok main_v116 (by decide), writes_ok main_v117 (by decide),
    writes_ok main_v118 (by decide), writes_ok main_v119 (by decide), writes_ok main_v120 (by decide),
    writes_ok main_v121 (by decide), writes_ok main_v122 (by decide), writes_ok main_v123 (by decide),
    writes_ok main_v124 (by decide), writes_ok main_v125 (by decide)⟩

/-- The buffers written by branch 2's normalisation and clip, in the order they are written. -/
abbrev writesNr2 : List (Ref sig .tc) :=
  [ main_call5.v0.ref, main_call5.cst.ref, main_call5.v1.ref, main_call5.v2.ref, main_call5.v3.ref, main_cst_15,
    main_v127, main_v128, main_v129, main_v130, main_call6.cst.ref, main_call6.v0.ref,
    main_call6.v1.ref ]

theorem opsNr2_sub' : (opsNr2 : List (HloOp τ sig (Elt F))).Forall fun op => op.bufs ⊆ tcRefs τ sig :=
  ⟨binary_bufs_sub .., nullary_bufs_sub .., binary_bufs_sub .., unary_bufs_sub .., unary_bufs_sub ..,
    nullary_bufs_sub .., unary_bufs_sub .., binary_bufs_sub .., unary_bufs_sub .., binary_bufs_sub ..,
    nullary_bufs_sub .., unary_bufs_sub .., binary_bufs_sub ..⟩

theorem opsNr2_fresh : (opsNr2 : List (HloOp τ sig (Elt F))).Forall fun op => op.fresh = ∅ :=
  ⟨rfl, rfl, rfl, rfl, rfl, rfl, rfl, rfl, rfl, rfl, rfl, rfl, rfl⟩

theorem opsNr2_writes : (opsNr2 : List (HloOp τ sig (Elt F))).Forall fun op =>
    op.writes ⊆ (writesNr2.map (Proc.devRef (τ := τ) .tc)).toFinset :=
  ⟨writes_ok (main_call5.v0.ref) (by decide), writes_ok (main_call5.cst.ref) (by decide), writes_ok (main_call5.v1.ref) (by decide),
    writes_ok (main_call5.v2.ref) (by decide), writes_ok (main_call5.v3.ref) (by decide), writes_ok main_cst_15 (by decide),
    writes_ok main_v127 (by decide), writes_ok main_v128 (by decide), writes_ok main_v129 (by decide),
    writes_ok main_v130 (by decide), writes_ok (main_call6.cst.ref) (by decide), writes_ok (main_call6.v0.ref) (by decide),
    writes_ok (main_call6.v1.ref) (by decide)⟩

/-- The buffers written by branch 2's batch norm, in the order they are written. -/
abbrev writesBn2 : List (Ref sig .tc) :=
  [ main_cst_16, main_v132, main_cst_17, main_v133, main_v134, main_c_18,
    main_call7.cst.ref, main_call7.v0.ref, main_call7.v1.ref, main_call7.cst_0.ref, main_call7.v2.ref, main_call7.v3.ref,
    main_call7.v4.ref, main_call7.v5.ref, main_call7.v6.ref, main_call7.v7.ref, main_call7.cst_1.ref, main_call7.v8.ref,
    main_call7.cst_2.ref, main_call7.v9.ref, main_call7.v10.ref, main_call7.v11.ref, main_call7.cst_3.ref, main_call7.v12.ref,
    main_call7.cst_4.ref, main_call7.call0.v0.ref, main_call7.call0.v1.ref, main_call7.call0.v2.ref, main_v136, main_v137,
    main_v138, main_cst_19, main_v139, main_v140, main_v141, main_v142,
    main_v143, main_v144, main_v145, main_v146, main_v147, main_v148,
    main_v149, main_v150 ]

theorem opsBn2_sub' : (opsBn2 : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., unary_bufs_sub .., unary_bufs_sub .., binary_bufs_sub ..⟩

theorem opsBn2_fresh : (opsBn2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem opsBn2_writes : (opsBn2 : List (HloOp τ sig (Elt F))).Forall fun op =>
    op.writes ⊆ (writesBn2.map (Proc.devRef (τ := τ) .tc)).toFinset :=
  ⟨writes_ok main_cst_16 (by decide), writes_ok main_v132 (by decide), writes_ok main_cst_17 (by decide),
    writes_ok main_v133 (by decide), writes_ok main_v134 (by decide), writes_ok main_c_18 (by decide),
    writes_ok (main_call7.cst.ref) (by decide), writes_ok (main_call7.v0.ref) (by decide), writes_ok (main_call7.v1.ref) (by decide),
    writes_ok (main_call7.cst_0.ref) (by decide), writes_ok (main_call7.v2.ref) (by decide), writes_ok (main_call7.v3.ref) (by decide),
    writes_ok (main_call7.v4.ref) (by decide), writes_ok (main_call7.v5.ref) (by decide), writes_ok (main_call7.v6.ref) (by decide),
    writes_ok (main_call7.v7.ref) (by decide), writes_ok (main_call7.cst_1.ref) (by decide), writes_ok (main_call7.v8.ref) (by decide),
    writes_ok (main_call7.cst_2.ref) (by decide), writes_ok (main_call7.v9.ref) (by decide), writes_ok (main_call7.v10.ref) (by decide),
    writes_ok (main_call7.v11.ref) (by decide), writes_ok (main_call7.cst_3.ref) (by decide), writes_ok (main_call7.v12.ref) (by decide),
    writes_ok (main_call7.cst_4.ref) (by decide), writes_ok (main_call7.call0.v0.ref) (by decide), writes_ok (main_call7.call0.v1.ref) (by decide),
    writes_ok (main_call7.call0.v2.ref) (by decide), writes_ok main_v136 (by decide), writes_ok main_v137 (by decide),
    writes_ok main_v138 (by decide), writes_ok main_cst_19 (by decide), writes_ok main_v139 (by decide),
    writes_ok main_v140 (by decide), writes_ok main_v141 (by decide), writes_ok main_v142 (by decide),
    writes_ok main_v143 (by decide), writes_ok main_v144 (by decide), writes_ok main_v145 (by decide),
    writes_ok main_v146 (by decide), writes_ok main_v147 (by decide), writes_ok main_v148 (by decide),
    writes_ok main_v149 (by decide), writes_ok main_v150 (by decide)⟩

/-- Every operation of the whole line stays inside the device's buffers. -/
theorem opsAll_sub : (opsAll : List (HloOp τ sig (Elt F))).Forall fun op => op.bufs ⊆ tcRefs τ sig :=
  List.forall_append.mpr ⟨List.forall_append.mpr ⟨List.forall_append.mpr ⟨List.forall_append.mpr ⟨List.forall_append.mpr
    ⟨List.forall_append.mpr ⟨opsNb_sub', opsAtt_sub'⟩, opsLin_sub'⟩, opsNr1_sub'⟩, opsBn1_sub'⟩, opsNr2_sub'⟩, opsBn2_sub'⟩

/-- No operation of the whole line leaves a result undetermined. -/
theorem opsAll_fresh : ∀ op ∈ (opsAll : List (HloOp τ sig (Elt F))), op.fresh = ∅ :=
  List.forall_iff_forall_mem.mp (List.forall_append.mpr ⟨List.forall_append.mpr ⟨List.forall_append.mpr
    ⟨List.forall_append.mpr ⟨List.forall_append.mpr ⟨List.forall_append.mpr ⟨opsNb_fresh, opsAtt_fresh⟩, opsLin_fresh⟩,
      opsNr1_fresh⟩, opsBn1_fresh⟩, opsNr2_fresh⟩, opsBn2_fresh⟩)

/-! ## The run -/

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution
    of the program terminates, and every final state has each buffer at the fold of the whole line over the
    launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after opsAll (launchContents m c) (Proc.devRef .tc b) :=
  run_seq scopedRefs_eq scopedSems_eq defs main (fun _ => opsAll) main_eq (fun _ => opsAll_sub) m ρ
    (fun _ => opsAll_fresh)

/-! ## The fold over the whole line, stretch by stretch -/

/-- The fold over the whole line is the folds over the seven stretches, composed in order. -/
theorem after_all (V : Valuation τ sig (Elt F)) :
    after opsAll V
      = after opsBn2 (after opsNr2 (after opsBn1 (after opsNr1 (after opsLin (after opsAtt (after opsNb V)))))) := by
  simp only [opsAll, after_append]

/-! ## A buffer a stretch does not write keeps its contents across the stretch -/

theorem keepsNb (V : Valuation τ sig (Elt F)) {r : Ref sig .tc} (hr : r ∉ writesNb) :
    after opsNb V (Proc.devRef .tc r) = V (Proc.devRef .tc r) :=
  after_of_writes_sub opsNb V opsNb_writes hr

theorem keepsAtt (V : Valuation τ sig (Elt F)) {r : Ref sig .tc} (hr : r ∉ writesAtt) :
    after opsAtt V (Proc.devRef .tc r) = V (Proc.devRef .tc r) :=
  after_of_writes_sub opsAtt V opsAtt_writes hr

theorem keepsLin (V : Valuation τ sig (Elt F)) {r : Ref sig .tc} (hr : r ∉ writesLin) :
    after opsLin V (Proc.devRef .tc r) = V (Proc.devRef .tc r) :=
  after_of_writes_sub opsLin V opsLin_writes hr

theorem keepsNr1 (V : Valuation τ sig (Elt F)) {r : Ref sig .tc} (hr : r ∉ writesNr1) :
    after opsNr1 V (Proc.devRef .tc r) = V (Proc.devRef .tc r) :=
  after_of_writes_sub opsNr1 V opsNr1_writes hr

theorem keepsBn1 (V : Valuation τ sig (Elt F)) {r : Ref sig .tc} (hr : r ∉ writesBn1) :
    after opsBn1 V (Proc.devRef .tc r) = V (Proc.devRef .tc r) :=
  after_of_writes_sub opsBn1 V opsBn1_writes hr

theorem keepsNr2 (V : Valuation τ sig (Elt F)) {r : Ref sig .tc} (hr : r ∉ writesNr2) :
    after opsNr2 V (Proc.devRef .tc r) = V (Proc.devRef .tc r) :=
  after_of_writes_sub opsNr2 V opsNr2_writes hr

theorem keepsBn2 (V : Valuation τ sig (Elt F)) {r : Ref sig .tc} (hr : r ∉ writesBn2) :
    after opsBn2 V (Proc.devRef .tc r) = V (Proc.devRef .tc r) :=
  after_of_writes_sub opsBn2 V opsBn2_writes hr

/-- The buffers the whole line writes. -/
abbrev writesAll : List (Ref sig .tc) :=
  writesNb ++ writesAtt ++ writesLin ++ writesNr1 ++ writesBn1 ++ writesNr2 ++ writesBn2

/-- A buffer no stretch writes (an argument of the program) keeps its launch contents across the whole line. -/
theorem keepsAll (V : Valuation τ sig (Elt F)) {r : Ref sig .tc} (hr : r ∉ writesAll) :
    after opsAll V (Proc.devRef .tc r) = V (Proc.devRef .tc r) := by
  simp only [writesAll, List.mem_append, not_or] at hr
  obtain ⟨⟨⟨⟨⟨⟨h1, h2⟩, h3⟩, h4⟩, h5⟩, h6⟩, h7⟩ := hr
  rw [after_all, keepsBn2 _ h7, keepsNr2 _ h6, keepsBn1 _ h5, keepsNr1 _ h4, keepsLin _ h3, keepsAtt _ h2, keepsNb _ h1]

/-- The twelve arguments after the whole line. -/
theorem arg_keeps (V : Valuation τ sig (Elt F)) :
    after opsAll V (Proc.devRef .tc main_arg0) = V (Proc.devRef .tc main_arg0)
    ∧ after opsAll V (Proc.devRef .tc main_arg1) = V (Proc.devRef .tc main_arg1)
    ∧ after opsAll V (Proc.devRef .tc main_arg2) = V (Proc.devRef .tc main_arg2)
    ∧ after opsAll V (Proc.devRef .tc main_arg3) = V (Proc.devRef .tc main_arg3)
    ∧ after opsAll V (Proc.devRef .tc main_arg4) = V (Proc.devRef .tc main_arg4)
    ∧ after opsAll V (Proc.devRef .tc main_arg5) = V (Proc.devRef .tc main_arg5)
    ∧ after opsAll V (Proc.devRef .tc main_arg6) = V (Proc.devRef .tc main_arg6)
    ∧ after opsAll V (Proc.devRef .tc main_arg7) = V (Proc.devRef .tc main_arg7)
    ∧ after opsAll V (Proc.devRef .tc main_arg8) = V (Proc.devRef .tc main_arg8)
    ∧ after opsAll V (Proc.devRef .tc main_arg9) = V (Proc.devRef .tc main_arg9)
    ∧ after opsAll V (Proc.devRef .tc main_arg10) = V (Proc.devRef .tc main_arg10)
    ∧ after opsAll V (Proc.devRef .tc main_arg11) = V (Proc.devRef .tc main_arg11) :=
  ⟨keepsAll V (by decide), keepsAll V (by decide), keepsAll V (by decide), keepsAll V (by decide),
    keepsAll V (by decide), keepsAll V (by decide), keepsAll V (by decide), keepsAll V (by decide),
    keepsAll V (by decide), keepsAll V (by decide), keepsAll V (by decide), keepsAll V (by decide)⟩

end Cert.ReferenceIdeal.RefRun

end
-- ==== Proof.RefLinV.lean ====
/-
  What the linear stretch leaves at each branch's concatenated buffer, from any contents: the three products plus
  biases side by side are the stated pre-activation of the branch's features, neighbour means and attention
  residual, read back 4-D.
-/
import proofs.«404490_j9337258902039_3_alg».proof.Proof.RefLin

noncomputable section

namespace Cert.ReferenceIdeal.RefLin

open Idealize.ShloMosaic Idealize.ShloMosaic.StableHlo Idealize.ShloMosaic.ValueIdx Idealize.SL.Sem
open Cert.ReferenceIdeal Cert.ReferenceIdeal.Facts₀ Cert.ReferenceIdeal.Facts
open scoped BigOperators

/-! ## What the linear stretch computes, at the extended reals -/

section Values
variable (V : Valuation τ sig (Elt Ideal))

set_option maxRecDepth 8192 in
set_option maxHeartbeats 1000000 in
/-- Branch 1's three linear maps side by side: the stated pre-activation of the features, the neighbour means
    and the attention residual, read back 4-D. -/
theorem lin_v87 (NB MU : Spec.S3x.Idx → EReal)
    (h18 : V (Proc.devRef .tc main_v18) = read4 NB) (h71 : V (Proc.devRef .tc main_v71) = read4 MU) :
    after (opsLin (F := Ideal)) V (Proc.devRef .tc main_v87)
      = Spec.unrows (Spec.hpre (Spec.rows4 (V (Proc.devRef .tc main_arg0))) (Spec.rows3 NB) (Spec.rows3 MU)
          (V (Proc.devRef .tc main_arg4)) (V (Proc.devRef .tc main_arg6)) (V (Proc.devRef .tc main_arg8))
          (V (Proc.devRef .tc main_arg5)) (V (Proc.devRef .tc main_arg7)) (V (Proc.devRef .tc main_arg9))) := by
  rw [← rows4_read4 NB, ← rows4_read4 MU, ← h18, ← h71]
  refine Eq.trans ?_ (hcat_eq dot_S8x512x8x512_S512x512_S8x512x8x512_3_1_012_0_n_n_wf bcast_S512_S1x1x1x512_3 bcast_S1x1x1x512_S8x512x8x512_0_1_2_3 concatenates_S8x512x8x512_S8x512x8x512_S8x512x8x512_S8x512x8x1536_d3 _ _ _ _ _ _ _ _ _)
  simp only [after_cons, after_nil]
  rfl

set_option maxRecDepth 8192 in
set_option maxHeartbeats 1000000 in
/-- Branch 2's, the same over its own features, neighbour means and residual. -/
theorem lin_v100 (NB MU : Spec.S3x.Idx → EReal)
    (h32 : V (Proc.devRef .tc main_v32) = read4 NB) (h74 : V (Proc.devRef .tc main_v74) = read4 MU) :
    after (opsLin (F := Ideal)) V (Proc.devRef .tc main_v100)
      = Spec.unrows (Spec.hpre (Spec.rows4 (V (Proc.devRef .tc main_arg1))) (Spec.rows3 NB) (Spec.rows3 MU)
          (V (Proc.devRef .tc main_arg4)) (V (Proc.devRef .tc main_arg6)) (V (Proc.devRef .tc main_arg8))
          (V (Proc.devRef .tc main_arg5)) (V (Proc.devRef .tc main_arg7)) (V (Proc.devRef .tc main_arg9))) := by
  rw [← rows4_read4 NB, ← rows4_read4 MU, ← h32, ← h74]
  refine Eq.trans ?_ (hcat_eq dot_S8x512x8x512_S512x512_S8x512x8x512_3_1_012_0_n_n_wf bcast_S512_S1x1x1x512_3 bcast_S1x1x1x512_S8x512x8x512_0_1_2_3 concatenates_S8x512x8x512_S8x512x8x512_S8x512x8x512_S8x512x8x1536_d3 _ _ _ _ _ _ _ _ _)
  simp only [after_cons, after_nil]
  rfl

end Values

end Cert.ReferenceIdeal.RefLin

end
-- ==== Proof.RefLinN.lean ====
/-
  What each branch's normalisation stretch leaves at its result buffer, from any contents whose concatenated
  buffer holds a pre-activation read back 4-D: every row divided by the larger of its norm and 1e-12, then
  clipped below at zero — the stated activation, read back 4-D.
-/
import proofs.«404490_j9337258902039_3_alg».proof.Proof.RefLin

noncomputable section

namespace Cert.ReferenceIdeal.RefLin

open Idealize.ShloMosaic Idealize.ShloMosaic.StableHlo Idealize.ShloMosaic.ValueIdx Idealize.SL.Sem
open Cert.ReferenceIdeal Cert.ReferenceIdeal.Facts₀ Cert.ReferenceIdeal.Facts
open scoped BigOperators

/-! ## What the normalisation stretches compute, at the extended reals -/

section Values
variable (V : Valuation τ sig (Elt Ideal))

set_option maxRecDepth 8192 in
set_option maxHeartbeats 1000000 in
/-- Branch 1's normalisation and clip: each row divided by its clipped norm, then clipped below at zero. -/
theorem nr1_v106 (H : Spec.S2h.Idx → EReal) (h87 : V (Proc.devRef .tc main_v87) = Spec.unrows H) :
    after (opsNr1 (F := Ideal)) V (Proc.devRef .tc main_v106) = Spec.unrows (Spec.gA H) := by
  refine Eq.trans ?_ (norm_eq reducesTo_S8x512x8x1536_S8x512x8_d3 h_S_ bcast_S8x512x8_S8x512x8x1_0_1_2 bcast_S_S8x512x8x1 bcast_S8x512x8x1_S8x512x8x1536_0_1_2_3 bcast_S_S8x512x8x1536 H)
  rw [← h87]
  simp only [after_cons, after_nil]
  rfl

set_option maxRecDepth 8192 in
set_option maxHeartbeats 1000000 in
/-- Branch 2's normalisation and clip. -/
theorem nr2_v131 (H : Spec.S2h.Idx → EReal) (h100 : V (Proc.devRef .tc main_v100) = Spec.unrows H) :
    after (opsNr2 (F := Ideal)) V (Proc.devRef .tc main_v131) = Spec.unrows (Spec.gA H) := by
  refine Eq.trans ?_ (norm_eq reducesTo_S8x512x8x1536_S8x512x8_d3 h_S_ bcast_S8x512x8_S8x512x8x1_0_1_2 bcast_S_S8x512x8x1 bcast_S8x512x8x1_S8x512x8x1536_0_1_2_3 bcast_S_S8x512x8x1536 H)
  rw [← h100]
  simp only [after_cons, after_nil]
  rfl

end Values

end Cert.ReferenceIdeal.RefLin

end
-- ==== Proof.RefBnVal.lean ====
/-
  The two batch-norm stretches of the reference read at the extended reals: on activations held as unrows G the
  stretch's term is, entry by entry, (g − mean) · rsqrt(var + 1e-5) · gamma + beta with the column mean over the
  32768 rows and the variance the mean of the squared deviations.
-/
import proofs.«404490_j9337258902039_3_alg».proof.Proof.RefBn
import proofs.«404490_j9337258902039_3_alg».proof.Proof.Math
import Idealize.ShloMosaic.Lib.IdealHost
import Idealize.ShloMosaic.Lib.Pipeline.Value
import Idealize.ShloMosaic.PureOps.Ideal.Laws

noncomputable section

namespace Cert.ReferenceIdeal.RefBn

open Idealize.ShloMosaic Idealize.ShloMosaic.ValueIdx Idealize.ShloMosaic.TcCoe Idealize.ShloMosaic.StableHlo Idealize.SL.Sem
open Cert.ReferenceIdeal Cert.ReferenceIdeal.Gen

/-! ## The term at the extended reals, index by index -/

section AtIdeal

open scoped BigOperators

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun q := ix4 q.1 q.2.1 q.2.2.1 q.2.2.2
  left_inv i := (eq_ix4 i).symm
  right_inv _ := rfl

/-- The sum over the rank-4 indices whose last coordinate is o is the triple sum over the other three. -/
theorem sum_filter_last {M : Type*} [AddCommMonoid M] {n0 n1 n2 n3 : Nat} (f : (⟨4, ![n0, n1, n2, n3]⟩ : Shape).Idx → M) (o : Fin n3) :
    ∑ i ∈ Finset.univ.filter (fun i : (⟨4, ![n0, n1, n2, n3]⟩ : Shape).Idx => ((i 3 : Fin n3) : ℕ) = o.val), f i
      = ∑ b : Fin n0, ∑ s : Fin n1, ∑ p : Fin n2, f (ix4 b s p o) := by
  rw [Finset.sum_filter, ← Equiv.sum_comp (idxEquiv4 (n0 := n0) (n1 := n1) (n2 := n2) (n3 := n3)).symm]
  simp only [Fintype.sum_prod_type]
  refine Finset.sum_congr rfl fun b _ => Finset.sum_congr rfl fun s _ => Finset.sum_congr rfl fun p _ => ?_
  rw [Finset.sum_eq_single o]
  · exact if_pos rfl
  · intro d _ hd
    exact if_neg fun h => hd (Fin.ext h)
  · intro h
    exact absurd (Finset.mem_univ o) h

/-- A source index drops to the column o exactly when its last coordinate is o's. -/
theorem drop_iff (i : S8x512x8x1536.Idx) (o : S1536.Idx) :
    (reducesTo_S8x512x8x1536_S1536_d0_1_2).drop i = o ↔ ((i 3 : Fin 1536) : ℕ) = (o 0 : Fin 1536).val := by
  simp [funext_iff, Fin.ext_iff, Fin.forall_fin_one, (reducesTo_S8x512x8x1536_S1536_d0_1_2).drop_apply_val_of_eq i 0 3]

/-- The column sums at a column: the triple sum over the three leading coordinates. -/
theorem csum_apply (g : FVec Ideal S8x512x8x1536 .f32) (o : S1536.Idx) :
    csum (F := Ideal) g o = ∑ b : Fin 8, ∑ s : Fin 512, ∑ p : Fin 8, g (ix4 b s p (o 0)) := by
  unfold csum
  rw [hostReduceAdd_apply]
  unfold Ideal.hostReduceAdd
  rw [constant_apply, Ideal.ofBits_zero_f32, zero_add, Finset.filter_congr fun i _ => drop_iff i o]
  exact sum_filter_last g (o 0)

end AtIdeal

section AtIdeal2

open scoped BigOperators

/-- On activations held as unrows G the column sums are G's column sums over its 32768 rows. -/
theorem csum_unrows (G : Spec.S2h.Idx → EReal) (o : S1536.Idx) :
    csum (F := Ideal) (Spec.unrows G) o = Spec.colsum G (o 0) := by
  rw [csum_apply]
  unfold Spec.colsum
  rw [Cert.Math.sum_rows]
  rfl

/-- The scalar 32768 read at its one index. -/
theorem c32768_apply : c32768 (F := Ideal) ix0 = Spec.nN := rfl

/-- … and the column means are G's. -/
theorem meanT_unrows (G : Spec.S2h.Idx → EReal) (o : S1536.Idx) :
    meanT (F := Ideal) (Spec.unrows G) o = Spec.meanA G o := by
  unfold meanT Spec.meanA
  rw [hostDivf_apply, broadcastInDim_scalar_apply, csum_unrows, c32768_apply]

/-- An array with three leading unit axes repeated over the leading axes reads its entry at the last coordinate. -/
theorem up4_apply {F : FTy → Type} [FloatOps F] (w : FVec F S1x1x1x1536 .f32) (y : S8x512x8x1536.Idx) :
    up4 w y = w (ix4 (0 : Fin 1) (0 : Fin 1) (0 : Fin 1) (y 3 : Fin 1536)) := by
  unfold up4
  refine broadcastInDim_apply _ _ _ y _ ?_
  intro a
  match a with
  | ⟨0, _⟩ => rfl
  | ⟨1, _⟩ => rfl
  | ⟨2, _⟩ => rfl
  | ⟨3, _⟩ => rfl

/-- A per-column vector placed on the last of four axes reads its entry at that coordinate. -/
theorem up1_apply {F : FTy → Type} [FloatOps F] (v : FVec F S1536 .f32) (k : S1x1x1x1536.Idx) :
    up1 v k = v (ix1 (k 3 : Fin 1536)) := by
  unfold up1
  exact broadcastInDim_apply _ _ _ k _ fun a => match a with | ⟨0, _⟩ => rfl

/-- The two together: a per-column vector raised to four axes reads its entry at the last coordinate. -/
theorem up41_apply {F : FTy → Type} [FloatOps F] (v : FVec F S1536 .f32) (y : S8x512x8x1536.Idx) :
    up4 (up1 v) y = v (ix1 (y 3 : Fin 1536)) := by
  rw [up4_apply, up1_apply]

end AtIdeal2

section AtIdeal3

open scoped BigOperators

/-- The row count's pattern is the real 32768. -/
theorem nN_eq : Spec.nN = ((32768 : ℝ) : EReal) := by
  unfold Spec.nN
  simp [Ideal.ofBits, Ideal.ieee, -EReal.coe_mul]
  norm_num

/-- … which is positive. -/
theorem nN_pos : (0 : EReal) < Spec.nN := by
  rw [nN_eq]
  exact EReal.coe_pos.mpr (by norm_num)

/-- The variance's divisor 32768 − 0 is 32768. -/
theorem cntT_apply : cntT (F := Ideal) ix0 = Spec.nN := by
  show Spec.nN - ((((0#32 : BitVec 32).toInt : ℤ) : ℝ) : EReal) = Spec.nN
  simp

/-- The deviations at an entry: the entry minus its column's mean. -/
theorem devT_unrows (G : Spec.S2h.Idx → EReal) (y : S8x512x8x1536.Idx) :
    devT (F := Ideal) (Spec.unrows G) y = Spec.unrows G y - Spec.meanA G (ix1 (y 3 : Fin 1536)) := by
  unfold devT
  rw [subf_apply, up4_apply, hostDivf_apply, broadcastInDim_scalar_apply, c32768_apply, up1_apply, csum_unrows]
  rfl

/-- The selection's condition holds at every column: 32768 − 0 is above zero. -/
theorem cond_apply (o : S1536.Idx) :
    broadcastInDim S1536 ![] bcast_S_S1536
      (cmpf .ogt (cntT : FVec Ideal S_ .f32) (constant S_ .f32 0x00000000#32)) o = 1#1 := by
  rw [broadcastInDim_scalar_apply, cmpf_apply]
  show BitVec.ofBool (decide (Ideal.ofBits .f32 0x00000000#32 < cntT (F := Ideal) ix0)) = 1#1
  rw [cntT_apply, Ideal.ofBits_zero_f32, decide_eq_true nN_pos]
  rfl

/-- The variance at a column is the mean of the squared deviations. -/
theorem varT_unrows (G : Spec.S2h.Idx → EReal) (o : S1536.Idx) :
    varT (F := Ideal) (Spec.unrows G) o = Spec.varR G o := by
  unfold varT
  rw [select_apply, cond_apply, select_one, hostDivf_apply, broadcastInDim_scalar_apply, cntT_apply, csum_apply]
  unfold Spec.varR
  rw [Cert.Math.sum_rows]
  refine congrArg (fun z => Ideal.div z Spec.nN) ?_
  refine Finset.sum_congr rfl fun b _ => Finset.sum_congr rfl fun s _ => Finset.sum_congr rfl fun p _ => ?_
  rw [mulf_apply, devT_unrows]
  rfl

end AtIdeal3

section AtIdeal4

/-- The reciprocal square root of variance + 1e-5 at a column. -/
theorem rs_unrows (G : Spec.S2h.Idx → EReal) (o : S1536.Idx) :
    Host.rsqrt (addf (varT (F := Ideal) (Spec.unrows G))
        (broadcastInDim S1536 ![] bcast_S_S1536 (constant S_ .f32 0x3727C5AC#32))) o
      = Ideal.rsqrt (Spec.varR G o + Spec.eps5) := by
  show Ideal.rsqrt (addf (varT (F := Ideal) (Spec.unrows G))
        (broadcastInDim S1536 ![] bcast_S_S1536 (constant S_ .f32 0x3727C5AC#32)) o) = _
  rw [addf_apply, varT_unrows, broadcastInDim_scalar_apply, constant_apply]
  rfl

/-- On activations held as unrows G the stretch's term is the batch-normalised array with the variance taken as
    the mean of the squared deviations. -/
theorem bnT_unrows (G : Spec.S2h.Idx → EReal) (γ β : FVec Ideal S1536 .f32) :
    bnT (F := Ideal) (Spec.unrows G) γ β = Spec.outOf Spec.varR G γ β := by
  funext y
  unfold bnT
  rw [addf_apply, mulf_apply, mulf_apply, subf_apply, up41_apply, up41_apply, up41_apply, up41_apply, meanT_unrows,
    rs_unrows]
  rfl

/-- Branch 1: from activations held as unrows G, the stretch leaves the batch-normalised result. -/
theorem bn1_value (V : Valuation τ sig (Elt Ideal)) (G : Spec.S2h.Idx → EReal)
    (hG : V (main_v106 : DevRef τ sig) = Spec.unrows G) :
    after opsBn1 V (main_v125 : DevRef τ sig)
      = Spec.outOf Spec.varR G (V (main_arg10 : DevRef τ sig)) (V (main_arg11 : DevRef τ sig)) := by
  rw [bn1_term, hG]
  exact bnT_unrows G _ _

/-- Branch 2 likewise. -/
theorem bn2_value (V : Valuation τ sig (Elt Ideal)) (G : Spec.S2h.Idx → EReal)
    (hG : V (main_v131 : DevRef τ sig) = Spec.unrows G) :
    after opsBn2 V (main_v150 : DevRef τ sig)
      = Spec.outOf Spec.varR G (V (main_arg10 : DevRef τ sig)) (V (main_arg11 : DevRef τ sig)) := by
  rw [bn2_term, hG]
  exact bnT_unrows G _ _

end AtIdeal4

end Cert.ReferenceIdeal.RefBn

end
-- ==== Proof.RefOut.lean ====
/-
  The reference's value chain. The reference runs seven stretches in order — the neighbour means, the cosine
  attention, the linear maps, branch 1's row normalisation, branch 1's batch norm, branch 2's row normalisation,
  branch 2's batch norm — and each stretch's result is a stated function of what it reads. Composing them, and
  carrying every buffer a stretch does not write across it unchanged, gives the two results as functions of the
  twelve arguments alone.
-/
import proofs.«404490_j9337258902039_3_alg».proof.Proof.Gen.ReferenceIdeal
import proofs.«404490_j9337258902039_3_alg».proof.Proof.Spec
import proofs.«404490_j9337258902039_3_alg».proof.Proof.RefNb
import proofs.«404490_j9337258902039_3_alg».proof.Proof.RefAtt
import proofs.«404490_j9337258902039_3_alg».proof.Proof.RefLin
import proofs.«404490_j9337258902039_3_alg».proof.Proof.RefLinMath
import proofs.«404490_j9337258902039_3_alg».proof.Proof.RefBn
import proofs.«404490_j9337258902039_3_alg».proof.Proof.RefLinV
import proofs.«404490_j9337258902039_3_alg».proof.Proof.RefLinN
import proofs.«404490_j9337258902039_3_alg».proof.Proof.RefBnVal
import proofs.«404490_j9337258902039_3_alg».proof.Proof.RefRun
import Idealize.ShloMosaic.Lib.StableHlo.Run
import Idealize.ShloMosaic.Lib.ValueIdx

noncomputable section

namespace Cert.ReferenceIdeal.RefOut

open Idealize.ShloMosaic Idealize.ShloMosaic.ValueIdx Idealize.ShloMosaic.TcCoe Idealize.ShloMosaic.StableHlo Idealize.SL.Sem
open Cert.ReferenceIdeal Cert.ReferenceIdeal.Facts₀ Cert.ReferenceIdeal.Facts Cert.ReferenceIdeal.Gen
open Cert.ReferenceIdeal.RefNb (opsNb nb_v18 nb_v32)
open Cert.ReferenceIdeal.RefAtt Cert.ReferenceIdeal.RefLin Cert.ReferenceIdeal.RefBn
open Cert.ReferenceIdeal.RefRun

/-! ## Buffers carried across the stretches -/

section Chain

variable (V : Valuation τ sig (Elt Ideal))

/-- Across the first stretch. -/
theorem keep1 {r : Ref sig .tc} (h1 : r ∉ writesNb) :
    after (opsNb (F := Ideal)) V (Proc.devRef .tc r) = V (Proc.devRef .tc r) := keepsNb V h1

/-- Across the first two stretches. -/
theorem keep2 {r : Ref sig .tc} (h1 : r ∉ writesNb) (h2 : r ∉ writesAtt) :
    after (opsAtt (F := Ideal)) (after (opsNb (F := Ideal)) V) (Proc.devRef .tc r) = V (Proc.devRef .tc r) := by
  rw [keepsAtt _ h2, keepsNb _ h1]

/-- Across the first four stretches. -/
theorem keep4 {r : Ref sig .tc} (h1 : r ∉ writesNb) (h2 : r ∉ writesAtt) (h3 : r ∉ writesLin) (h4 : r ∉ writesNr1) :
    after (opsNr1 (F := Ideal)) (after (opsLin (F := Ideal)) (after (opsAtt (F := Ideal)) (after (opsNb (F := Ideal)) V)))
      (Proc.devRef .tc r) = V (Proc.devRef .tc r) := by
  rw [keepsNr1 _ h4, keepsLin _ h3, keep2 V h1 h2]

/-- Across the first six stretches. -/
theorem keep6 {r : Ref sig .tc} (h1 : r ∉ writesNb) (h2 : r ∉ writesAtt) (h3 : r ∉ writesLin) (h4 : r ∉ writesNr1)
    (h5 : r ∉ writesBn1) (h6 : r ∉ writesNr2) :
    after (opsNr2 (F := Ideal)) (after (opsBn1 (F := Ideal)) (after (opsNr1 (F := Ideal)) (after (opsLin (F := Ideal))
      (after (opsAtt (F := Ideal)) (after (opsNb (F := Ideal)) V))))) (Proc.devRef .tc r) = V (Proc.devRef .tc r) := by
  rw [keepsNr2 _ h6, keepsBn1 _ h5, keep4 V h1 h2 h3 h4]

/-- Across the whole run. -/
theorem keep7 {r : Ref sig .tc} (h1 : r ∉ writesNb) (h2 : r ∉ writesAtt) (h3 : r ∉ writesLin) (h4 : r ∉ writesNr1)
    (h5 : r ∉ writesBn1) (h6 : r ∉ writesNr2) (h7 : r ∉ writesBn2) :
    after opsAll V (Proc.devRef .tc r) = V (Proc.devRef .tc r) := by
  rw [after_all, keepsBn2 _ h7, keep6 V h1 h2 h3 h4 h5 h6]

/-! ## The arguments are never written -/

theorem ref_arg0 :
    after opsAll V (Proc.devRef .tc main_arg0) = V (Proc.devRef .tc main_arg0) :=
  keep7 V (by decide) (by decide) (by decide) (by decide) (by decide) (by decide) (by decide)

theorem ref_arg1 :
    after opsAll V (Proc.devRef .tc main_arg1) = V (Proc.devRef .tc main_arg1) :=
  keep7 V (by decide) (by decide) (by decide) (by decide) (by decide) (by decide) (by decide)

theorem ref_arg2 :
    after opsAll V (Proc.devRef .tc main_arg2) = V (Proc.devRef .tc main_arg2) :=
  keep7 V (by decide) (by decide) (by decide) (by decide) (by decide) (by decide) (by decide)

theorem ref_arg3 :
    after opsAll V (Proc.devRef .tc main_arg3) = V (Proc.devRef .tc main_arg3) :=
  keep7 V (by decide) (by decide) (by decide) (by decide) (by decide) (by decide) (by decide)

theorem ref_arg4 :
    after opsAll V (Proc.devRef .tc main_arg4) = V (Proc.devRef .tc main_arg4) :=
  keep7 V (by decide) (by decide) (by decide) (by decide) (by decide) (by decide) (by decide)

theorem ref_arg5 :
    after opsAll V (Proc.devRef .tc main_arg5) = V (Proc.devRef .tc main_arg5) :=
  keep7 V (by decide) (by decide) (by decide) (by decide) (by decide) (by decide) (by decide)

theorem ref_arg6 :
    after opsAll V (Proc.devRef .tc main_arg6) = V (Proc.devRef .tc main_arg6) :=
  keep7 V (by decide) (by decide) (by decide) (by decide) (by decide) (by decide) (by decide)

theorem ref_arg7 :
    after opsAll V (Proc.devRef .tc main_arg7) = V (Proc.devRef .tc main_arg7) :=
  keep7 V (by decide) (by decide) (by decide) (by decide) (by decide) (by decide) (by decide)

theorem ref_arg8 :
    after opsAll V (Proc.devRef .tc main_arg8) = V (Proc.devRef .tc main_arg8) :=
  keep7 V (by decide) (by decide) (by decide) (by decide) (by decide) (by decide) (by decide)

theorem ref_arg9 :
    after opsAll V (Proc.devRef .tc main_arg9) = V (Proc.devRef .tc main_arg9) :=
  keep7 V (by decide) (by decide) (by decide) (by decide) (by decide) (by decide) (by decide)

theorem ref_arg10 :
    after opsAll V (Proc.devRef .tc main_arg10) = V (Proc.devRef .tc main_arg10) :=
  keep7 V (by decide) (by decide) (by decide) (by decide) (by decide) (by decide) (by decide)

theorem ref_arg11 :
    after opsAll V (Proc.devRef .tc main_arg11) = V (Proc.devRef .tc main_arg11) :=
  keep7 V (by decide) (by decide) (by decide) (by decide) (by decide) (by decide) (by decide)

/-! ## The two branches' normalised activations -/

/-- After the attention stretch the first branch's attention residual, read 4-D, is in place. -/
theorem att2_v71 :
    after (opsAtt (F := Ideal)) (after (opsNb (F := Ideal)) V) (main_v71 : DevRef τ sig)
      = read4 (Spec.mu1A (Spec.flat (V (main_arg0 : DevRef τ sig))) (Spec.flat (V (main_arg1 : DevRef τ sig)))) := by
  have h := att_v71 (after (opsNb (F := Ideal)) V)
  rw [keep1 V (r := main_arg0) (by decide), keep1 V (r := main_arg1) (by decide)] at h
  exact h

/-- The second branch's likewise. -/
theorem att2_v74 :
    after (opsAtt (F := Ideal)) (after (opsNb (F := Ideal)) V) (main_v74 : DevRef τ sig)
      = read4 (Spec.mu2A (Spec.flat (V (main_arg0 : DevRef τ sig))) (Spec.flat (V (main_arg1 : DevRef τ sig)))) := by
  have h := att_v74 (after (opsNb (F := Ideal)) V)
  rw [keep1 V (r := main_arg0) (by decide), keep1 V (r := main_arg1) (by decide)] at h
  exact h

/-- The neighbour means, read 4-D, survive the attention stretch. -/
theorem att2_v18 :
    after (opsAtt (F := Ideal)) (after (opsNb (F := Ideal)) V) (main_v18 : DevRef τ sig)
      = read4 (Spec.nbA (Spec.flat (V (main_arg0 : DevRef τ sig))) (V (main_arg2 : DevRef τ sig))) := by
  rw [keepsAtt _ (r := main_v18) (by decide)]
  exact nb_v18 V

theorem att2_v32 :
    after (opsAtt (F := Ideal)) (after (opsNb (F := Ideal)) V) (main_v32 : DevRef τ sig)
      = read4 (Spec.nbA (Spec.flat (V (main_arg1 : DevRef τ sig))) (V (main_arg3 : DevRef τ sig))) := by
  rw [keepsAtt _ (r := main_v32) (by decide)]
  exact nb_v32 V

/-- Branch 1's activations after its normalisation stretch. -/
theorem nr_v106 :
    after (opsNr1 (F := Ideal)) (after (opsLin (F := Ideal)) (after (opsAtt (F := Ideal)) (after (opsNb (F := Ideal)) V)))
        (main_v106 : DevRef τ sig)
      = Spec.unrows (Spec.act (V (main_arg0 : DevRef τ sig))
          (Spec.nbA (Spec.flat (V (main_arg0 : DevRef τ sig))) (V (main_arg2 : DevRef τ sig)))
          (Spec.mu1A (Spec.flat (V (main_arg0 : DevRef τ sig))) (Spec.flat (V (main_arg1 : DevRef τ sig))))
          (V (main_arg4 : DevRef τ sig)) (V (main_arg5 : DevRef τ sig)) (V (main_arg6 : DevRef τ sig))
          (V (main_arg7 : DevRef τ sig)) (V (main_arg8 : DevRef τ sig)) (V (main_arg9 : DevRef τ sig))) := by
  refine nr1_v106 _ _ ?_
  refine (lin_v87 _ _ _ (att2_v18 V) (att2_v71 V)).trans ?_
  rw [keep2 V (r := main_arg0) (by decide) (by decide),
    keep2 V (r := main_arg4) (by decide) (by decide),
    keep2 V (r := main_arg5) (by decide) (by decide),
    keep2 V (r := main_arg6) (by decide) (by decide),
    keep2 V (r := main_arg7) (by decide) (by decide),
    keep2 V (r := main_arg8) (by decide) (by decide),
    keep2 V (r := main_arg9) (by decide) (by decide)]

/-- Branch 2's activations after its normalisation stretch, which runs after branch 1's batch norm. -/
theorem nr_v131 :
    after (opsNr2 (F := Ideal)) (after (opsBn1 (F := Ideal)) (after (opsNr1 (F := Ideal)) (after (opsLin (F := Ideal))
        (after (opsAtt (F := Ideal)) (after (opsNb (F := Ideal)) V))))) (main_v131 : DevRef τ sig)
      = Spec.unrows (Spec.act (V (main_arg1 : DevRef τ sig))
          (Spec.nbA (Spec.flat (V (main_arg1 : DevRef τ sig))) (V (main_arg3 : DevRef τ sig)))
          (Spec.mu2A (Spec.flat (V (main_arg0 : DevRef τ sig))) (Spec.flat (V (main_arg1 : DevRef τ sig))))
          (V (main_arg4 : DevRef τ sig)) (V (main_arg5 : DevRef τ sig)) (V (main_arg6 : DevRef τ sig))
          (V (main_arg7 : DevRef τ sig)) (V (main_arg8 : DevRef τ sig)) (V (main_arg9 : DevRef τ sig))) := by
  refine nr2_v131 _ _ ?_
  rw [keepsBn1 _ (r := main_v100) (by decide), keepsNr1 _ (r := main_v100) (by decide)]
  refine (lin_v100 _ _ _ (att2_v32 V) (att2_v74 V)).trans ?_
  rw [keep2 V (r := main_arg1) (by decide) (by decide),
    keep2 V (r := main_arg4) (by decide) (by decide),
    keep2 V (r := main_arg5) (by decide) (by decide),
    keep2 V (r := main_arg6) (by decide) (by decide),
    keep2 V (r := main_arg7) (by decide) (by decide),
    keep2 V (r := main_arg8) (by decide) (by decide),
    keep2 V (r := main_arg9) (by decide) (by decide)]

/-! ## The two results -/

theorem ref_out1 :
    after opsAll V (main_v125 : DevRef τ sig)
      = Spec.outOf Spec.varR (Spec.act (V (main_arg0 : DevRef τ sig))
          (Spec.nbA (Spec.flat (V (main_arg0 : DevRef τ sig))) (V (main_arg2 : DevRef τ sig)))
          (Spec.mu1A (Spec.flat (V (main_arg0 : DevRef τ sig))) (Spec.flat (V (main_arg1 : DevRef τ sig))))
          (V (main_arg4 : DevRef τ sig)) (V (main_arg5 : DevRef τ sig)) (V (main_arg6 : DevRef τ sig))
          (V (main_arg7 : DevRef τ sig)) (V (main_arg8 : DevRef τ sig)) (V (main_arg9 : DevRef τ sig)))
        (V (main_arg10 : DevRef τ sig)) (V (main_arg11 : DevRef τ sig)) := by
  rw [after_all, keepsBn2 _ (r := main_v125) (by decide), keepsNr2 _ (r := main_v125) (by decide),
    bn1_value _ _ (nr_v106 V),
    keep4 V (r := main_arg10) (by decide) (by decide) (by decide) (by decide),
    keep4 V (r := main_arg11) (by decide) (by decide) (by decide) (by decide)]

theorem ref_out2 :
    after opsAll V (main_v150 : DevRef τ sig)
      = Spec.outOf Spec.varR (Spec.act (V (main_arg1 : DevRef τ sig))
          (Spec.nbA (Spec.flat (V (main_arg1 : DevRef τ sig))) (V (main_arg3 : DevRef τ sig)))
          (Spec.mu2A (Spec.flat (V (main_arg0 : DevRef τ sig))) (Spec.flat (V (main_arg1 : DevRef τ sig))))
          (V (main_arg4 : DevRef τ sig)) (V (main_arg5 : DevRef τ sig)) (V (main_arg6 : DevRef τ sig))
          (V (main_arg7 : DevRef τ sig)) (V (main_arg8 : DevRef τ sig)) (V (main_arg9 : DevRef τ sig)))
        (V (main_arg10 : DevRef τ sig)) (V (main_arg11 : DevRef τ sig)) := by
  rw [after_all, bn2_value _ _ (nr_v131 V),
    keep6 V (r := main_arg10) (by decide) (by decide) (by decide) (by decide) (by decide) (by decide),
    keep6 V (r := main_arg11) (by decide) (by decide) (by decide) (by decide) (by decide) (by decide)]

end Chain

end Cert.ReferenceIdeal.RefOut

end
-- ==== Proof.lean ====
/-
  The certificate's five conjuncts.

  The kernel is four tiled stages — a masked neighbour mean, a cosine-similarity attention taken along both axes, three
  linear maps laid side by side with a row normalisation and a clip at zero, and a batch normalisation whose column
  statistics are partial sums per tile added up between the stages — and the reference computes the same stages on
  whole arrays. Both are read, stage by stage and index by index, as the functions of Proof/Spec.lean. They differ in
  one place: the kernel takes the variance as the mean of squares minus the squared mean (clipped at zero), the
  reference as the mean squared deviation. On the normalised activations these agree: a row with an infinite entry has
  infinite norm and is sent to zero, a finite row has a positive finite norm, so every activation is a real number and
  the identity E[g²] − (E g)² = E[(g − E g)²] ≥ 0 of the reals applies (Proof/Math.lean). No hypothesis on the inputs
  is used.
-/
import proofs.«404490_j9337258902039_3_alg».proof.Defs
import proofs.«404490_j9337258902039_3_alg».proof.Proof.Gen.Kernel
import proofs.«404490_j9337258902039_3_alg».proof.Proof.Gen.KernelIdeal
import proofs.«404490_j9337258902039_3_alg».proof.Proof.Gen.ReferenceIdeal
import proofs.«404490_j9337258902039_3_alg».proof.Proof.Gen.Pre_finite_inputs
import proofs.«404490_j9337258902039_3_alg».proof.Proof.FrameK
import proofs.«404490_j9337258902039_3_alg».proof.Proof.KOut
import proofs.«404490_j9337258902039_3_alg».proof.Proof.RefRun
import proofs.«404490_j9337258902039_3_alg».proof.Proof.RefOut
import Idealize.ShloMosaic.Lib.StableHlo.Run
import Idealize.ShloMosaic.Adequacy
import Idealize.ShloMosaic.Init

noncomputable section

open Idealize.ShloMosaic Idealize.ShloMosaic.TcCoe Idealize.SL.Sem

namespace Cert.Proof

open Cert.KernelIdeal.KOut

/-- The word-level kernel's frame: the launch theorem over its four regions and the host stretches between them. -/
theorem frame_k : @Cert.frame_Kernel Cert.Kernel.Gen.facts Cert.Pre_finite_inputs.Gen.facts := fun m ρ _ => Cert.Kernel.GenP.frame m ρ
/-- The idealized kernel's frame, likewise. -/
theorem frame_ki : @Cert.frame_KernelIdeal Cert.KernelIdeal.Gen.facts Cert.Pre_finite_inputs.Gen.facts := fun m ρ _ => Cert.KernelIdeal.GenP.frame m ρ

/-- The reference's frame: its run, with the results dropped. -/
theorem frame_ri : @Cert.frame_ReferenceIdeal Cert.ReferenceIdeal.Gen.facts Cert.Pre_finite_inputs.Gen.facts := fun m ρ _ => by
  open Cert.ReferenceIdeal in
  refine (θ_run Cert.ReferenceIdeal.defs _ _).mono (fun r h c => ?_) (Cert.ReferenceIdeal.RefRun.run_raw (F := Ideal) m ρ)
  refine ⟨?_, ?_, ?_, ?_, ?_, ?_, ?_, ?_, ?_, ?_, ?_, ?_⟩
  · exact (h c main_arg0).trans (Cert.ReferenceIdeal.RefOut.ref_arg0 _)
  · exact (h c main_arg1).trans (Cert.ReferenceIdeal.RefOut.ref_arg1 _)
  · exact (h c main_arg2).trans (Cert.ReferenceIdeal.RefOut.ref_arg2 _)
  · exact (h c main_arg3).trans (Cert.ReferenceIdeal.RefOut.ref_arg3 _)
  · exact (h c main_arg4).trans (Cert.ReferenceIdeal.RefOut.ref_arg4 _)
  · exact (h c main_arg5).trans (Cert.ReferenceIdeal.RefOut.ref_arg5 _)
  · exact (h c main_arg6).trans (Cert.ReferenceIdeal.RefOut.ref_arg6 _)
  · exact (h c main_arg7).trans (Cert.ReferenceIdeal.RefOut.ref_arg7 _)
  · exact (h c main_arg8).trans (Cert.ReferenceIdeal.RefOut.ref_arg8 _)
  · exact (h c main_arg9).trans (Cert.ReferenceIdeal.RefOut.ref_arg9 _)
  · exact (h c main_arg10).trans (Cert.ReferenceIdeal.RefOut.ref_arg10 _)
  · exact (h c main_arg11).trans (Cert.ReferenceIdeal.RefOut.ref_arg11 _)

/-- The variance taken as mean of squares minus squared mean, clipped at zero, is the mean squared deviation on the
    normalised activations, which are real numbers whatever the inputs: so the two programs' results are one function. -/
theorem out_eq (H : Spec.S2h.Idx → EReal) (γ β : Spec.S1g.Idx → EReal) :
    Spec.outOf Spec.varR (Spec.gA H) γ β = Spec.outOf Spec.varK (Spec.gA H) γ β := by
  unfold Spec.outOf; rw [Cert.Math.varK_gA]

/-- The reference's first result, from a launch memory whose arguments are named. -/
theorem ref_side1 (m' : (ℓ : Loc Cert.ReferenceIdeal.nD Cert.ReferenceIdeal.τ Cert.ReferenceIdeal.sig) → Buf (Elt Ideal) ℓ) (c : Dev Cert.ReferenceIdeal.nD)
    (X1 X2 : Spec.S4x.Idx → EReal) (A1 : Spec.S3a.Idx → BitVec 32) (Wx : Spec.S2w.Idx → EReal) (bx : Spec.S1b.Idx → EReal)
    (Wn : Spec.S2w.Idx → EReal) (bn : Spec.S1b.Idx → EReal) (Wr : Spec.S2w.Idx → EReal) (br : Spec.S1b.Idx → EReal) (γ β : Spec.S1g.Idx → EReal)
    (h0 : m' ((c.tc : Thread Cert.ReferenceIdeal.nD Cert.ReferenceIdeal.τ).loc Cert.ReferenceIdeal.main_arg0) = X1)
    (h1 : m' ((c.tc : Thread Cert.ReferenceIdeal.nD Cert.ReferenceIdeal.τ).loc Cert.ReferenceIdeal.main_arg1) = X2)
    (h2 : m' ((c.tc : Thread Cert.ReferenceIdeal.nD Cert.ReferenceIdeal.τ).loc Cert.ReferenceIdeal.main_arg2) = A1)
    (h4 : m' ((c.tc : Thread Cert.ReferenceIdeal.nD Cert.ReferenceIdeal.τ).loc Cert.ReferenceIdeal.main_arg4) = Wx)
    (h5 : m' ((c.tc : Thread Cert.ReferenceIdeal.nD Cert.ReferenceIdeal.τ).loc Cert.ReferenceIdeal.main_arg5) = bx)
    (h6 : m' ((c.tc : Thread Cert.ReferenceIdeal.nD Cert.ReferenceIdeal.τ).loc Cert.ReferenceIdeal.main_arg6) = Wn)
    (h7 : m' ((c.tc : Thread Cert.ReferenceIdeal.nD Cert.ReferenceIdeal.τ).loc Cert.ReferenceIdeal.main_arg7) = bn)
    (h8 : m' ((c.tc : Thread Cert.ReferenceIdeal.nD Cert.ReferenceIdeal.τ).loc Cert.ReferenceIdeal.main_arg8) = Wr)
    (h9 : m' ((c.tc : Thread Cert.ReferenceIdeal.nD Cert.ReferenceIdeal.τ).loc Cert.ReferenceIdeal.main_arg9) = br)
    (h10 : m' ((c.tc : Thread Cert.ReferenceIdeal.nD Cert.ReferenceIdeal.τ).loc Cert.ReferenceIdeal.main_arg10) = γ)
    (h11 : m' ((c.tc : Thread Cert.ReferenceIdeal.nD Cert.ReferenceIdeal.τ).loc Cert.ReferenceIdeal.main_arg11) = β) :
    StableHlo.after Cert.ReferenceIdeal.RefRun.opsAll (StableHlo.launchContents m' c) (Proc.devRef .tc Cert.ReferenceIdeal.main_v125)
      = Spec.outOf Spec.varK (Spec.act X1 (Spec.nbA (Spec.flat X1) A1) (Spec.mu1A (Spec.flat X1) (Spec.flat X2)) Wx bx Wn bn Wr br) γ β := by
  subst h0 h1 h2 h4 h5 h6 h7 h8 h9 h10 h11
  exact (Cert.ReferenceIdeal.RefOut.ref_out1 _).trans (out_eq _ _ _)

/-- The reference's second result likewise. -/
theorem ref_side2 (m' : (ℓ : Loc Cert.ReferenceIdeal.nD Cert.ReferenceIdeal.τ Cert.ReferenceIdeal.sig) → Buf (Elt Ideal) ℓ) (c : Dev Cert.ReferenceIdeal.nD)
    (X1 X2 : Spec.S4x.Idx → EReal) (A2 : Spec.S3a.Idx → BitVec 32) (Wx : Spec.S2w.Idx → EReal) (bx : Spec.S1b.Idx → EReal)
    (Wn : Spec.S2w.Idx → EReal) (bn : Spec.S1b.Idx → EReal) (Wr : Spec.S2w.Idx → EReal) (br : Spec.S1b.Idx → EReal) (γ β : Spec.S1g.Idx → EReal)
    (h0 : m' ((c.tc : Thread Cert.ReferenceIdeal.nD Cert.ReferenceIdeal.τ).loc Cert.ReferenceIdeal.main_arg0) = X1)
    (h1 : m' ((c.tc : Thread Cert.ReferenceIdeal.nD Cert.ReferenceIdeal.τ).loc Cert.ReferenceIdeal.main_arg1) = X2)
    (h3 : m' ((c.tc : Thread Cert.ReferenceIdeal.nD Cert.ReferenceIdeal.τ).loc Cert.ReferenceIdeal.main_arg3) = A2)
    (h4 : m' ((c.tc : Thread Cert.ReferenceIdeal.nD Cert.ReferenceIdeal.τ).loc Cert.ReferenceIdeal.main_arg4) = Wx)
    (h5 : m' ((c.tc : Thread Cert.ReferenceIdeal.nD Cert.ReferenceIdeal.τ).loc Cert.ReferenceIdeal.main_arg5) = bx)
    (h6 : m' ((c.tc : Thread Cert.ReferenceIdeal.nD Cert.ReferenceIdeal.τ).loc Cert.ReferenceIdeal.main_arg6) = Wn)
    (h7 : m' ((c.tc : Thread Cert.ReferenceIdeal.nD Cert.ReferenceIdeal.τ).loc Cert.ReferenceIdeal.main_arg7) = bn)
    (h8 : m' ((c.tc : Thread Cert.ReferenceIdeal.nD Cert.ReferenceIdeal.τ).loc Cert.ReferenceIdeal.main_arg8) = Wr)
    (h9 : m' ((c.tc : Thread Cert.ReferenceIdeal.nD Cert.ReferenceIdeal.τ).loc Cert.ReferenceIdeal.main_arg9) = br)
    (h10 : m' ((c.tc : Thread Cert.ReferenceIdeal.nD Cert.ReferenceIdeal.τ).loc Cert.ReferenceIdeal.main_arg10) = γ)
    (h11 : m' ((c.tc : Thread Cert.ReferenceIdeal.nD Cert.ReferenceIdeal.τ).loc Cert.ReferenceIdeal.main_arg11) = β) :
    StableHlo.after Cert.ReferenceIdeal.RefRun.opsAll (StableHlo.launchContents m' c) (Proc.devRef .tc Cert.ReferenceIdeal.main_v150)
      = Spec.outOf Spec.varK (Spec.act X2 (Spec.nbA (Spec.flat X2) A2) (Spec.mu2A (Spec.flat X1) (Spec.flat X2)) Wx bx Wn bn Wr br) γ β := by
  subst h0 h1 h3 h4 h5 h6 h7 h8 h9 h10 h11
  exact (Cert.ReferenceIdeal.RefOut.ref_out2 _).trans (out_eq _ _ _)

set_option maxHeartbeats 1000000 in
/-- From memories agreeing on the arguments both programs run to the end with each result the same function of the
    arguments: the kernel's last boundary read at its two result arrays, the reference's fold at its two, joined by
    the variance identity. -/
theorem algebraic : @Cert.algebraic_KernelIdeal_ReferenceIdeal Cert.KernelIdeal.Gen.facts Cert.ReferenceIdeal.Gen.facts Cert.Pre_finite_inputs.Gen.facts := by
  intro m ρ m' ρ' _ hag
  refine ⟨fun c => Spec.outOf Spec.varK (G1 m c) (γ m c) (β m c), fun c => Spec.outOf Spec.varK (G2 m c) (γ m c) (β m c), ?_, ?_⟩
  · open Cert.KernelIdeal Cert.KernelIdeal.Gen Cert.KernelIdeal.GenP in
    refine (θ_run Cert.KernelIdeal.defs _ _).mono (fun r h c => ?_) (Cert.KernelIdeal.GenP.run_W9 (F := Ideal) m ρ)
    refine ⟨?_, ?_, ?_, ?_, ?_, ?_, ?_, ?_, ?_, ?_, ?_, ?_, ?_, ?_⟩
    · exact (h c _ (mem_uc main_v54 (by decide))).trans (kernel_out1 m ρ c)
    · exact (h c _ (mem_uc main_v55 (by decide))).trans (kernel_out2 m ρ c)
    · exact (h c _ (mem_uc main_arg0 (by decide))).trans (W9_main_arg0 m ρ c)
    · exact (h c _ (mem_uc main_arg1 (by decide))).trans (W9_main_arg1 m ρ c)
    · exact (h c _ (mem_uc main_arg2 (by decide))).trans (W9_main_arg2 m ρ c)
    · exact (h c _ (mem_uc main_arg3 (by decide))).trans (W9_main_arg3 m ρ c)
    · exact (h c _ (mem_uc main_arg4 (by decide))).trans (W9_main_arg4 m ρ c)
    · exact (h c _ (mem_uc main_arg5 (by decide))).trans (W9_main_arg5 m ρ c)
    · exact (h c _ (mem_uc main_arg6 (by decide))).trans (W9_main_arg6 m ρ c)
    · exact (h c _ (mem_uc main_arg7 (by decide))).trans (W9_main_arg7 m ρ c)
    · exact (h c _ (mem_uc main_arg8 (by decide))).trans (W9_main_arg8 m ρ c)
    · exact (h c _ (mem_uc main_arg9 (by decide))).trans (W9_main_arg9 m ρ c)
    · exact (h c _ (mem_uc main_arg10 (by decide))).trans (W9_main_arg10 m ρ c)
    · exact (h c _ (mem_uc main_arg11 (by decide))).trans (W9_main_arg11 m ρ c)
  · open Cert.ReferenceIdeal in
    refine (θ_run Cert.ReferenceIdeal.defs _ _).mono (fun r h c => ?_) (Cert.ReferenceIdeal.RefRun.run_raw (F := Ideal) m' ρ')
    obtain ⟨a0, a1, a2, a3, a4, a5, a6, a7, a8, a9, a10, a11⟩ := hag c
    refine ⟨?_, ?_, ?_, ?_, ?_, ?_, ?_, ?_, ?_, ?_, ?_, ?_, ?_, ?_⟩
    · exact (h c main_v125).trans (ref_side1 m' c _ _ _ _ _ _ _ _ _ _ _ a0 a1 a2 a4 a5 a6 a7 a8 a9 a10 a11)
    · exact (h c main_v150).trans (ref_side2 m' c _ _ _ _ _ _ _ _ _ _ _ a0 a1 a3 a4 a5 a6 a7 a8 a9 a10 a11)
    · exact (h c main_arg0).trans (Cert.ReferenceIdeal.RefOut.ref_arg0 _)
    · exact (h c main_arg1).trans (Cert.ReferenceIdeal.RefOut.ref_arg1 _)
    · exact (h c main_arg2).trans (Cert.ReferenceIdeal.RefOut.ref_arg2 _)
    · exact (h c main_arg3).trans (Cert.ReferenceIdeal.RefOut.ref_arg3 _)
    · exact (h c main_arg4).trans (Cert.ReferenceIdeal.RefOut.ref_arg4 _)
    · exact (h c main_arg5).trans (Cert.ReferenceIdeal.RefOut.ref_arg5 _)
    · exact (h c main_arg6).trans (Cert.ReferenceIdeal.RefOut.ref_arg6 _)
    · exact (h c main_arg7).trans (Cert.ReferenceIdeal.RefOut.ref_arg7 _)
    · exact (h c main_arg8).trans (Cert.ReferenceIdeal.RefOut.ref_arg8 _)
    · exact (h c main_arg9).trans (Cert.ReferenceIdeal.RefOut.ref_arg9 _)
    · exact (h c main_arg10).trans (Cert.ReferenceIdeal.RefOut.ref_arg10 _)
    · exact (h c main_arg11).trans (Cert.ReferenceIdeal.RefOut.ref_arg11 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
